-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x1024 : Shape := ⟨3, ![1, 1024, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel

variable [Facts]

def fn {F : FTy → Type} [FloatOps F] (main_arg0 : FVec F S1x1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  main_v3
-- ==== Pre_finite_inputs_ReferenceIdeal.lean ====
abbrev S2x1024x1024 : Shape := ⟨3, ![2, 1024, 1024]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel

variable [Facts]

def fn {F : FTy → Type} [FloatOps F] (main_arg0 : FVec F S2x1024x1024 .f32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  main_v3
-- ==== Kernel.lean ====
abbrev S1x1024x1024 : Shape := ⟨3, ![1, 1024, 1024]⟩
abbrev S1024x512 : Shape := ⟨2, ![1024, 512]⟩
abbrev S8x64x1024 : Shape := ⟨3, ![8, 64, 1024]⟩
abbrev S512x512 : Shape := ⟨2, ![512, 512]⟩
abbrev S8x64x512 : Shape := ⟨3, ![8, 64, 512]⟩
abbrev S8 : Shape := ⟨1, ![8]⟩
abbrev S_ : Shape := ⟨0, ![]⟩
abbrev S1 : Shape := ⟨1, ![1]⟩
abbrev S1x64x1024 : Shape := ⟨3, ![1, 64, 1024]⟩
abbrev S64x1024 : Shape := ⟨2, ![64, 1024]⟩
abbrev S1x512x512 : Shape := ⟨3, ![1, 512, 512]⟩
abbrev S1x64x512 : Shape := ⟨3, ![1, 64, 512]⟩
abbrev S64x512 : Shape := ⟨2, ![64, 512]⟩

abbrev nBuf : Space → Nat
  | .hbm => 2
  | .vmem => 6
  | .smem => 0
  | _ => 0

abbrev bufTy : (tb : Table) → Fin (tcTables nBuf tb) → BufTy
  | .hbm, ⟨0, _⟩ => ⟨S1x1024x1024, .f32⟩
  | .hbm, ⟨1, _⟩ => ⟨S1024x512, .bf16⟩
  | .local _ .vmem, ⟨0, _⟩ => ⟨S1024x512, .bf16⟩
  | .local _ .vmem, ⟨1, _⟩ => ⟨S8x64x1024, .f32⟩
  | .local _ .vmem, ⟨2, _⟩ => ⟨S512x512, .f32⟩
  | .local _ .vmem, ⟨3, _⟩ => ⟨S8x64x512, .bf16⟩
  | .local _ .vmem, ⟨4, _⟩ => ⟨S8x64x512, .bf16⟩
  | .local _ .vmem, ⟨5, _⟩ => ⟨S8x64x512, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_11 : BitVec 32 := 4#32
  let v18 : BitVec 32 := Scalar.muli v9 c4_i32_11
  let v19 : BitVec 32 := Scalar.addi c0_i32 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
def k0_dev2 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v24 : BitVec 32 := Scalar.muli v2 c4_i32_15
  let v25 : BitVec 32 := Scalar.addi c0_i32_16 v24
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_17 : BitVec 32 := 2#32
  let v26 : BitVec 32 := Scalar.muli v10 c2_i32_17
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v28 : BitVec 32 := Scalar.muli v8 c1_i32_18
  let v29 : BitVec 32 := Scalar.addi v27 v28
  v29.toNat
def k0_off1 (d0 : Dev nD) (c0_i32_19 : BitVec 32) : Fin 3 → Nat :=
  let c0_i32_20 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32 : BitVec 32 := 512#32
  let v11 : BitVec 32 := Scalar.muli v5 c512_i32
  let v30 : BitVec 32 := Scalar.addi v11 c0_i32_19
  let c0_i32_25 : BitVec 32 := 0#32
  ![0, v30.toNat, 0]
def k0_off2 (d0 : Dev nD) : Fin 3 → Nat :=
  let c0_i32_64 : BitVec 32 := 0#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c512_i32_6 : BitVec 32 := 512#32
  let v13 : BitVec 32 := Scalar.muli v12 c512_i32_6
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_7 : BitVec 32 := 512#32
  let v14 : BitVec 32 := Scalar.muli v2 c512_i32_7
  ![0, v13.toNat, v14.toNat]
def k0_off3 (d0 : Dev nD) : Fin 3 → Nat :=
  let c0 : Index := 0#32
  let c0_72 : Index := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let c512_i32_9 : BitVec 32 := 512#32
  let v16 : BitVec 32 := Scalar.muli v15 c512_i32_9
  let v94 : Index := Scalar.indexCast v16
  ![0, 0, v94.toNat]
def k0_dev3 (d0 : Dev nD) : Nat :=
  let c0_i32_81 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_80 : BitVec 32 := 4#32
  let v101 : BitVec 32 := Scalar.muli v9 c4_i32_80
  let v102 : BitVec 32 := Scalar.addi c0_i32_81 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v103 : BitVec 32 := Scalar.muli v5 c2_i32_82
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v105 : BitVec 32 := Scalar.muli v8 c1_i32_83
  let v106 : BitVec 32 := Scalar.addi v104 v105
  v106.toNat
def k0_off4 (d0 : Dev nD) : Fin 3 → Nat :=
  let c1 : Index := 1#32
  let c0_94 : Index := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let c512_i32_9 : BitVec 32 := 512#32
  let v16 : BitVec 32 := Scalar.muli v15 c512_i32_9
  let v121 : Index := Scalar.indexCast v16
  ![1, 0, v121.toNat]
def k0_dev4 (d0 : Dev nD) : Nat :=
  let c0_i32_103 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_102 : BitVec 32 := 4#32
  let v128 : BitVec 32 := Scalar.muli v9 c4_i32_102
  let v129 : BitVec 32 := Scalar.addi c0_i32_103 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v130 : BitVec 32 := Scalar.muli v5 c2_i32_104
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v132 : BitVec 32 := Scalar.muli v8 c1_i32_105
  let v133 : BitVec 32 := Scalar.addi v131 v132
  v133.toNat
def k0_off5 (d0 : Dev nD) : Fin 3 → Nat :=
  let c2 : Index := 2#32
  let c0_116 : Index := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let c512_i32_9 : BitVec 32 := 512#32
  let v16 : BitVec 32 := Scalar.muli v15 c512_i32_9
  let v148 : Index := Scalar.indexCast v16
  ![2, 0, v148.toNat]
def k0_dev5 (d0 : Dev nD) : Nat :=
  let c0_i32_125 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_124 : BitVec 32 := 4#32
  let v155 : BitVec 32 := Scalar.muli v9 c4_i32_124
  let v156 : BitVec 32 := Scalar.addi c0_i32_125 v155
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v157 : BitVec 32 := Scalar.muli v5 c2_i32_126
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_127 : BitVec 32 := 1#32
  let v159 : BitVec 32 := Scalar.muli v8 c1_i32_127
  let v160 : BitVec 32 := Scalar.addi v158 v159
  v160.toNat
def k0_off6 (d0 : Dev nD) : Fin 3 → Nat :=
  let c3 : Index := 3#32
  let c0_138 : Index := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let c512_i32_9 : BitVec 32 := 512#32
  let v16 : BitVec 32 := Scalar.muli v15 c512_i32_9
  let v175 : Index := Scalar.indexCast v16
  ![3, 0, v175.toNat]
def k0_dev6 (d0 : Dev nD) : Nat :=
  let c0_i32_147 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_146 : BitVec 32 := 4#32
  let v182 : BitVec 32 := Scalar.muli v9 c4_i32_146
  let v183 : BitVec 32 := Scalar.addi c0_i32_147 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v184 : BitVec 32 := Scalar.muli v5 c2_i32_148
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v186 : BitVec 32 := Scalar.muli v8 c1_i32_149
  let v187 : BitVec 32 := Scalar.addi v185 v186
  v187.toNat
def k0_off7 (d0 : Dev nD) : Fin 3 → Nat :=
  let c4 : Index := 4#32
  let c0_160 : Index := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let c512_i32_9 : BitVec 32 := 512#32
  let v16 : BitVec 32 := Scalar.muli v15 c512_i32_9
  let v202 : Index := Scalar.indexCast v16
  ![4, 0, v202.toNat]
def k0_dev7 (d0 : Dev nD) : Nat :=
  let c0_i32_169 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_168 : BitVec 32 := 4#32
  let v209 : BitVec 32 := Scalar.muli v9 c4_i32_168
  let v210 : BitVec 32 := Scalar.addi c0_i32_169 v209
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_170 : BitVec 32 := 2#32
  let v211 : BitVec 32 := Scalar.muli v5 c2_i32_170
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_171 : BitVec 32 := 1#32
  let v213 : BitVec 32 := Scalar.muli v8 c1_i32_171
  let v214 : BitVec 32 := Scalar.addi v212 v213
  v214.toNat
def k0_off8 (d0 : Dev nD) : Fin 3 → Nat :=
  let c5 : Index := 5#32
  let c0_182 : Index := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let c512_i32_9 : BitVec 32 := 512#32
  let v16 : BitVec 32 := Scalar.muli v15 c512_i32_9
  let v229 : Index := Scalar.indexCast v16
  ![5, 0, v229.toNat]
def k0_dev8 (d0 : Dev nD) : Nat :=
  let c0_i32_191 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_190 : BitVec 32 := 4#32
  let v236 : BitVec 32 := Scalar.muli v9 c4_i32_190
  let v237 : BitVec 32 := Scalar.addi c0_i32_191 v236
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_192 : BitVec 32 := 2#32
  let v238 : BitVec 32 := Scalar.muli v5 c2_i32_192
  let v239 : BitVec 32 := Scalar.addi v237 v238
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_193 : BitVec 32 := 1#32
  let v240 : BitVec 32 := Scalar.muli v8 c1_i32_193
  let v241 : BitVec 32 := Scalar.addi v239 v240
  v241.toNat
def k0_off9 (d0 : Dev nD) : Fin 3 → Nat :=
  let c6 : Index := 6#32
  let c0_204 : Index := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let c512_i32_9 : BitVec 32 := 512#32
  let v16 : BitVec 32 := Scalar.muli v15 c512_i32_9
  let v256 : Index := Scalar.indexCast v16
  ![6, 0, v256.toNat]
def k0_dev9 (d0 : Dev nD) : Nat :=
  let c0_i32_213 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_212 : BitVec 32 := 4#32
  let v263 : BitVec 32 := Scalar.muli v9 c4_i32_212
  let v264 : BitVec 32 := Scalar.addi c0_i32_213 v263
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_214 : BitVec 32 := 2#32
  let v265 : BitVec 32 := Scalar.muli v5 c2_i32_214
  let v266 : BitVec 32 := Scalar.addi v264 v265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_215 : BitVec 32 := 1#32
  let v267 : BitVec 32 := Scalar.muli v8 c1_i32_215
  let v268 : BitVec 32 := Scalar.addi v266 v267
  v268.toNat
def k0_off10 (d0 : Dev nD) : Fin 3 → Nat :=
  let c7 : Index := 7#32
  let c0_226 : Index := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let c512_i32_9 : BitVec 32 := 512#32
  let v16 : BitVec 32 := Scalar.muli v15 c512_i32_9
  let v283 : Index := Scalar.indexCast v16
  ![7, 0, v283.toNat]
def k0_dev10 (d0 : Dev nD) : Nat :=
  let c0_i32_235 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_234 : BitVec 32 := 4#32
  let v290 : BitVec 32 := Scalar.muli v9 c4_i32_234
  let v291 : BitVec 32 := Scalar.addi c0_i32_235 v290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_236 : BitVec 32 := 2#32
  let v292 : BitVec 32 := Scalar.muli v5 c2_i32_236
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_237 : BitVec 32 := 1#32
  let v294 : BitVec 32 := Scalar.muli v8 c1_i32_237
  let v295 : BitVec 32 := Scalar.addi v293 v294
  v295.toNat
def k0_dev11 (d0 : Dev nD) : Nat :=
  let c0_i32_259 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_258 : BitVec 32 := 4#32
  let v316 : BitVec 32 := Scalar.muli v2 c4_i32_258
  let v317 : BitVec 32 := Scalar.addi c0_i32_259 v316
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_260 : BitVec 32 := 2#32
  let v318 : BitVec 32 := Scalar.muli v10 c2_i32_260
  let v319 : BitVec 32 := Scalar.addi v317 v318
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_261 : BitVec 32 := 1#32
  let v320 : BitVec 32 := Scalar.muli v8 c1_i32_261
  let v321 : BitVec 32 := Scalar.addi v319 v320
  v321.toNat
def k0_off11 (d0 : Dev nD) : Fin 3 → Nat :=
  let c0_267 : Index := 0#32
  let c0_268 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_7 : BitVec 32 := 512#32
  let v14 : BitVec 32 := Scalar.muli v2 c512_i32_7
  let v331 : Index := Scalar.indexCast v14
  ![0, 0, v331.toNat]
def k0_off12 (d0 : Dev nD) (c0_i32_266 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32 : BitVec 32 := 512#32
  let v11 : BitVec 32 := Scalar.muli v5 c512_i32
  let v330 : BitVec 32 := Scalar.addi v11 c0_i32_266
  let v339 : Index := Scalar.indexCast v330
  let c0_272 : Index := 0#32
  ![v339.toNat, 0]
def k0_dev12 (d0 : Dev nD) : Nat :=
  let c0_i32_290 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_289 : BitVec 32 := 4#32
  let v353 : BitVec 32 := Scalar.muli v2 c4_i32_289
  let v354 : BitVec 32 := Scalar.addi c0_i32_290 v353
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_291 : BitVec 32 := 2#32
  let v355 : BitVec 32 := Scalar.muli v10 c2_i32_291
  let v356 : BitVec 32 := Scalar.addi v354 v355
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v357 : BitVec 32 := Scalar.muli v8 c1_i32_292
  let v358 : BitVec 32 := Scalar.addi v356 v357
  v358.toNat
def k0_off13 (d0 : Dev nD) : Fin 3 → Nat :=
  let c1_298 : Index := 1#32
  let c0_299 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_7 : BitVec 32 := 512#32
  let v14 : BitVec 32 := Scalar.muli v2 c512_i32_7
  let v368 : Index := Scalar.indexCast v14
  ![1, 0, v368.toNat]
def k0_dev13 (d0 : Dev nD) : Nat :=
  let c0_i32_321 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_320 : BitVec 32 := 4#32
  let v390 : BitVec 32 := Scalar.muli v2 c4_i32_320
  let v391 : BitVec 32 := Scalar.addi c0_i32_321 v390
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_322 : BitVec 32 := 2#32
  let v392 : BitVec 32 := Scalar.muli v10 c2_i32_322
  let v393 : BitVec 32 := Scalar.addi v391 v392
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_323 : BitVec 32 := 1#32
  let v394 : BitVec 32 := Scalar.muli v8 c1_i32_323
  let v395 : BitVec 32 := Scalar.addi v393 v394
  v395.toNat
def k0_off14 (d0 : Dev nD) : Fin 3 → Nat :=
  let c2_329 : Index := 2#32
  let c0_330 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_7 : BitVec 32 := 512#32
  let v14 : BitVec 32 := Scalar.muli v2 c512_i32_7
  let v405 : Index := Scalar.indexCast v14
  ![2, 0, v405.toNat]
def k0_dev14 (d0 : Dev nD) : Nat :=
  let c0_i32_352 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_351 : BitVec 32 := 4#32
  let v427 : BitVec 32 := Scalar.muli v2 c4_i32_351
  let v428 : BitVec 32 := Scalar.addi c0_i32_352 v427
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_353 : BitVec 32 := 2#32
  let v429 : BitVec 32 := Scalar.muli v10 c2_i32_353
  let v430 : BitVec 32 := Scalar.addi v428 v429
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_354 : BitVec 32 := 1#32
  let v431 : BitVec 32 := Scalar.muli v8 c1_i32_354
  let v432 : BitVec 32 := Scalar.addi v430 v431
  v432.toNat
def k0_off15 (d0 : Dev nD) : Fin 3 → Nat :=
  let c3_360 : Index := 3#32
  let c0_361 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_7 : BitVec 32 := 512#32
  let v14 : BitVec 32 := Scalar.muli v2 c512_i32_7
  let v442 : Index := Scalar.indexCast v14
  ![3, 0, v442.toNat]
def k0_dev15 (d0 : Dev nD) : Nat :=
  let c0_i32_383 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_382 : BitVec 32 := 4#32
  let v464 : BitVec 32 := Scalar.muli v2 c4_i32_382
  let v465 : BitVec 32 := Scalar.addi c0_i32_383 v464
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_384 : BitVec 32 := 2#32
  let v466 : BitVec 32 := Scalar.muli v10 c2_i32_384
  let v467 : BitVec 32 := Scalar.addi v465 v466
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_385 : BitVec 32 := 1#32
  let v468 : BitVec 32 := Scalar.muli v8 c1_i32_385
  let v469 : BitVec 32 := Scalar.addi v467 v468
  v469.toNat
def k0_off16 (d0 : Dev nD) : Fin 3 → Nat :=
  let c4_391 : Index := 4#32
  let c0_392 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_7 : BitVec 32 := 512#32
  let v14 : BitVec 32 := Scalar.muli v2 c512_i32_7
  let v479 : Index := Scalar.indexCast v14
  ![4, 0, v479.toNat]
def k0_dev16 (d0 : Dev nD) : Nat :=
  let c0_i32_414 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_413 : BitVec 32 := 4#32
  let v501 : BitVec 32 := Scalar.muli v2 c4_i32_413
  let v502 : BitVec 32 := Scalar.addi c0_i32_414 v501
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_415 : BitVec 32 := 2#32
  let v503 : BitVec 32 := Scalar.muli v10 c2_i32_415
  let v504 : BitVec 32 := Scalar.addi v502 v503
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_416 : BitVec 32 := 1#32
  let v505 : BitVec 32 := Scalar.muli v8 c1_i32_416
  let v506 : BitVec 32 := Scalar.addi v504 v505
  v506.toNat
def k0_off17 (d0 : Dev nD) : Fin 3 → Nat :=
  let c5_422 : Index := 5#32
  let c0_423 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_7 : BitVec 32 := 512#32
  let v14 : BitVec 32 := Scalar.muli v2 c512_i32_7
  let v516 : Index := Scalar.indexCast v14
  ![5, 0, v516.toNat]
def k0_dev17 (d0 : Dev nD) : Nat :=
  let c0_i32_445 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_444 : BitVec 32 := 4#32
  let v538 : BitVec 32 := Scalar.muli v2 c4_i32_444
  let v539 : BitVec 32 := Scalar.addi c0_i32_445 v538
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_446 : BitVec 32 := 2#32
  let v540 : BitVec 32 := Scalar.muli v10 c2_i32_446
  let v541 : BitVec 32 := Scalar.addi v539 v540
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_447 : BitVec 32 := 1#32
  let v542 : BitVec 32 := Scalar.muli v8 c1_i32_447
  let v543 : BitVec 32 := Scalar.addi v541 v542
  v543.toNat
def k0_off18 (d0 : Dev nD) : Fin 3 → Nat :=
  let c6_453 : Index := 6#32
  let c0_454 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_7 : BitVec 32 := 512#32
  let v14 : BitVec 32 := Scalar.muli v2 c512_i32_7
  let v553 : Index := Scalar.indexCast v14
  ![6, 0, v553.toNat]
def k0_dev18 (d0 : Dev nD) : Nat :=
  let c0_i32_476 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_475 : BitVec 32 := 4#32
  let v575 : BitVec 32 := Scalar.muli v2 c4_i32_475
  let v576 : BitVec 32 := Scalar.addi c0_i32_476 v575
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_477 : BitVec 32 := 2#32
  let v577 : BitVec 32 := Scalar.muli v10 c2_i32_477
  let v578 : BitVec 32 := Scalar.addi v576 v577
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_478 : BitVec 32 := 1#32
  let v579 : BitVec 32 := Scalar.muli v8 c1_i32_478
  let v580 : BitVec 32 := Scalar.addi v578 v579
  v580.toNat
def k0_off19 (d0 : Dev nD) : Fin 3 → Nat :=
  let c7_484 : Index := 7#32
  let c0_485 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_7 : BitVec 32 := 512#32
  let v14 : BitVec 32 := Scalar.muli v2 c512_i32_7
  let v590 : Index := Scalar.indexCast v14
  ![7, 0, v590.toNat]
def k0_off20 (d0 : Dev nD) (c0_i32_503 : BitVec 32) : Fin 2 → Nat :=
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c512_i32_6 : BitVec 32 := 512#32
  let v13 : BitVec 32 := Scalar.muli v12 c512_i32_6
  let v614 : BitVec 32 := Scalar.addi v13 c0_i32_503
  let v621 : Index := Scalar.indexCast v614
  let c0_509 : Index := 0#32
  ![v621.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S8_S1_0 : ∀ a, (![0] : Fin 1 → Nat) a + S1.size a ≤ S8.size a
  squeezes_S1_S_ : S1.Squeezes S_
  inb_S8x64x1024_S1x64x1024_0_0_0 : ∀ a, (![0, 0, 0] : Fin 3 → Nat) a + S1x64x1024.size a ≤ S8x64x1024.size a
  squeezes_S1x64x1024_S64x1024 : S1x64x1024.Squeezes S64x1024
  inb_S8_S1_1 : ∀ a, (![1] : Fin 1 → Nat) a + S1.size a ≤ S8.size a
  inb_S8x64x1024_S1x64x1024_1_0_0 : ∀ a, (![1, 0, 0] : Fin 3 → Nat) a + S1x64x1024.size a ≤ S8x64x1024.size a
  inb_S8_S1_2 : ∀ a, (![2] : Fin 1 → Nat) a + S1.size a ≤ S8.size a
  inb_S8x64x1024_S1x64x1024_2_0_0 : ∀ a, (![2, 0, 0] : Fin 3 → Nat) a + S1x64x1024.size a ≤ S8x64x1024.size a
  inb_S8_S1_3 : ∀ a, (![3] : Fin 1 → Nat) a + S1.size a ≤ S8.size a
  inb_S8x64x1024_S1x64x1024_3_0_0 : ∀ a, (![3, 0, 0] : Fin 3 → Nat) a + S1x64x1024.size a ≤ S8x64x1024.size a
  inb_S8_S1_4 : ∀ a, (![4] : Fin 1 → Nat) a + S1.size a ≤ S8.size a
  inb_S8x64x1024_S1x64x1024_4_0_0 : ∀ a, (![4, 0, 0] : Fin 3 → Nat) a + S1x64x1024.size a ≤ S8x64x1024.size a
  inb_S8_S1_5 : ∀ a, (![5] : Fin 1 → Nat) a + S1.size a ≤ S8.size a
  inb_S8x64x1024_S1x64x1024_5_0_0 : ∀ a, (![5, 0, 0] : Fin 3 → Nat) a + S1x64x1024.size a ≤ S8x64x1024.size a
  inb_S8_S1_6 : ∀ a, (![6] : Fin 1 → Nat) a + S1.size a ≤ S8.size a
  inb_S8x64x1024_S1x64x1024_6_0_0 : ∀ a, (![6, 0, 0] : Fin 3 → Nat) a + S1x64x1024.size a ≤ S8x64x1024.size a
  inb_S8_S1_7 : ∀ a, (![7] : Fin 1 → Nat) a + S1.size a ≤ S8.size a
  inb_S8x64x1024_S1x64x1024_7_0_0 : ∀ a, (![7, 0, 0] : Fin 3 → Nat) a + S1x64x1024.size a ≤ S8x64x1024.size a
  squeezes_S1x512x512_S512x512 : S1x512x512.Squeezes S512x512
  hamt_2 : (2#32 : BitVec 32).msb = false
  h_S1x64x512 : 0 < S1x64x512.numel
  shapeCasts_S1x64x512_S64x512 : S1x64x512.ShapeCasts S64x512
  bitsLt_bf16_f32 : FTy.bits .bf16 < FTy.bits .f32
  inb_S8x64x512_S1x64x512_0_0_0 : ∀ a, (![0, 0, 0] : Fin 3 → Nat) a + S1x64x512.size a ≤ S8x64x512.size a
  shapeCasts_S64x512_S1x64x512 : S64x512.ShapeCasts S1x64x512
  packedbf16_S8x64x512_S1x64x512_0_0_0 : (Rect.unit (s := S8x64x512) ![0, 0, 0] S1x64x512.size inb_S8x64x512_S1x64x512_0_0_0).PackedRows (EltTy.packing .bf16)
  squeezes_S1x64x512_S64x512 : S1x64x512.Squeezes S64x512
  wordsbf16_S8x64x512_S1x64x512_0_0_0 : (Rect.unit (s := S8x64x512) ![0, 0, 0] S1x64x512.size inb_S8x64x512_S1x64x512_0_0_0).WholeWords (EltTy.packing .bf16)
  inb_S8x64x512_S1x64x512_1_0_0 : ∀ a, (![1, 0, 0] : Fin 3 → Nat) a + S1x64x512.size a ≤ S8x64x512.size a
  packedbf16_S8x64x512_S1x64x512_1_0_0 : (Rect.unit (s := S8x64x512) ![1, 0, 0] S1x64x512.size inb_S8x64x512_S1x64x512_1_0_0).PackedRows (EltTy.packing .bf16)
  wordsbf16_S8x64x512_S1x64x512_1_0_0 : (Rect.unit (s := S8x64x512) ![1, 0, 0] S1x64x512.size inb_S8x64x512_S1x64x512_1_0_0).WholeWords (EltTy.packing .bf16)
  inb_S8x64x512_S1x64x512_2_0_0 : ∀ a, (![2, 0, 0] : Fin 3 → Nat) a + S1x64x512.size a ≤ S8x64x512.size a
  packedbf16_S8x64x512_S1x64x512_2_0_0 : (Rect.unit (s := S8x64x512) ![2, 0, 0] S1x64x512.size inb_S8x64x512_S1x64x512_2_0_0).PackedRows (EltTy.packing .bf16)
  wordsbf16_S8x64x512_S1x64x512_2_0_0 : (Rect.unit (s := S8x64x512) ![2, 0, 0] S1x64x512.size inb_S8x64x512_S1x64x512_2_0_0).WholeWords (EltTy.packing .bf16)
  inb_S8x64x512_S1x64x512_3_0_0 : ∀ a, (![3, 0, 0] : Fin 3 → Nat) a + S1x64x512.size a ≤ S8x64x512.size a
  packedbf16_S8x64x512_S1x64x512_3_0_0 : (Rect.unit (s := S8x64x512) ![3, 0, 0] S1x64x512.size inb_S8x64x512_S1x64x512_3_0_0).PackedRows (EltTy.packing .bf16)
  wordsbf16_S8x64x512_S1x64x512_3_0_0 : (Rect.unit (s := S8x64x512) ![3, 0, 0] S1x64x512.size inb_S8x64x512_S1x64x512_3_0_0).WholeWords (EltTy.packing .bf16)
  inb_S8x64x512_S1x64x512_4_0_0 : ∀ a, (![4, 0, 0] : Fin 3 → Nat) a + S1x64x512.size a ≤ S8x64x512.size a
  packedbf16_S8x64x512_S1x64x512_4_0_0 : (Rect.unit (s := S8x64x512) ![4, 0, 0] S1x64x512.size inb_S8x64x512_S1x64x512_4_0_0).PackedRows (EltTy.packing .bf16)
  wordsbf16_S8x64x512_S1x64x512_4_0_0 : (Rect.unit (s := S8x64x512) ![4, 0, 0] S1x64x512.size inb_S8x64x512_S1x64x512_4_0_0).WholeWords (EltTy.packing .bf16)
  inb_S8x64x512_S1x64x512_5_0_0 : ∀ a, (![5, 0, 0] : Fin 3 → Nat) a + S1x64x512.size a ≤ S8x64x512.size a
  packedbf16_S8x64x512_S1x64x512_5_0_0 : (Rect.unit (s := S8x64x512) ![5, 0, 0] S1x64x512.size inb_S8x64x512_S1x64x512_5_0_0).PackedRows (EltTy.packing .bf16)
  wordsbf16_S8x64x512_S1x64x512_5_0_0 : (Rect.unit (s := S8x64x512) ![5, 0, 0] S1x64x512.size inb_S8x64x512_S1x64x512_5_0_0).WholeWords (EltTy.packing .bf16)
  inb_S8x64x512_S1x64x512_6_0_0 : ∀ a, (![6, 0, 0] : Fin 3 → Nat) a + S1x64x512.size a ≤ S8x64x512.size a
  packedbf16_S8x64x512_S1x64x512_6_0_0 : (Rect.unit (s := S8x64x512) ![6, 0, 0] S1x64x512.size inb_S8x64x512_S1x64x512_6_0_0).PackedRows (EltTy.packing .bf16)
  wordsbf16_S8x64x512_S1x64x512_6_0_0 : (Rect.unit (s := S8x64x512) ![6, 0, 0] S1x64x512.size inb_S8x64x512_S1x64x512_6_0_0).WholeWords (EltTy.packing .bf16)
  inb_S8x64x512_S1x64x512_7_0_0 : ∀ a, (![7, 0, 0] : Fin 3 → Nat) a + S1x64x512.size a ≤ S8x64x512.size a
  packedbf16_S8x64x512_S1x64x512_7_0_0 : (Rect.unit (s := S8x64x512) ![7, 0, 0] S1x64x512.size inb_S8x64x512_S1x64x512_7_0_0).PackedRows (EltTy.packing .bf16)
  wordsbf16_S8x64x512_S1x64x512_7_0_0 : (Rect.unit (s := S8x64x512) ![7, 0, 0] S1x64x512.size inb_S8x64x512_S1x64x512_7_0_0).WholeWords (EltTy.packing .bf16)
  h_S64x512 : 0 < S64x512.numel
  inb_S512x512_S64x512_0_0 : ∀ a, (![0, 0] : Fin 2 → Nat) a + S64x512.size a ≤ S512x512.size a
  inb_S512x512_S64x512_64_0 : ∀ a, (![64, 0] : Fin 2 → Nat) a + S64x512.size a ≤ S512x512.size a
  inb_S512x512_S64x512_128_0 : ∀ a, (![128, 0] : Fin 2 → Nat) a + S64x512.size a ≤ S512x512.size a
  inb_S512x512_S64x512_192_0 : ∀ a, (![192, 0] : Fin 2 → Nat) a + S64x512.size a ≤ S512x512.size a
  inb_S512x512_S64x512_256_0 : ∀ a, (![256, 0] : Fin 2 → Nat) a + S64x512.size a ≤ S512x512.size a
  inb_S512x512_S64x512_320_0 : ∀ a, (![320, 0] : Fin 2 → Nat) a + S64x512.size a ≤ S512x512.size a
  inb_S512x512_S64x512_384_0 : ∀ a, (![384, 0] : Fin 2 → Nat) a + S64x512.size a ≤ S512x512.size a
  inb_S512x512_S64x512_448_0 : ∀ a, (![448, 0] : Fin 2 → Nat) a + S64x512.size a ≤ S512x512.size a
  hcc0_scratch5 : 1 + S8.numel ≤ 42
  hcc0_scratch6 : 9 + S_.numel ≤ 42
  hcc0_scratch7 : 10 + S8.numel ≤ 42
  hcc0_scratch8 : 18 + S8.numel ≤ 42
  hcc0_scratch9 : 26 + S8.numel ≤ 42
  hcc0_scratch10 : 34 + S8.numel ≤ 42
  k0_dev1_lt : ∀ d0 : Dev nD, (k0_dev1 d0) < nD
  k0_dev2_lt : ∀ d0 : Dev nD, (k0_dev2 d0) < nD
  k0_off1_inb : ∀ d0 : Dev nD, ∀ (r : Fin 8), ∀ a, (k0_off1 d0 (BitVec.ofNat 32 (64 * r.val))) a + S1x64x1024.size a ≤ S1x1024x1024.size a
  k0_off2_inb : ∀ d0 : Dev nD, ∀ a, (k0_off2 d0) a + S1x512x512.size a ≤ S1x1024x1024.size a
  k0_off3_inb : ∀ d0 : Dev nD, ∀ a, (k0_off3 d0) a + S1x64x512.size a ≤ S8x64x1024.size a
  k0_dev3_lt : ∀ d0 : Dev nD, (k0_dev3 d0) < nD
  k0_off4_inb : ∀ d0 : Dev nD, ∀ a, (k0_off4 d0) a + S1x64x512.size a ≤ S8x64x1024.size a
  k0_dev4_lt : ∀ d0 : Dev nD, (k0_dev4 d0) < nD
  k0_off5_inb : ∀ d0 : Dev nD, ∀ a, (k0_off5 d0) a + S1x64x512.size a ≤ S8x64x1024.size a
  k0_dev5_lt : ∀ d0 : Dev nD, (k0_dev5 d0) < nD
  k0_off6_inb : ∀ d0 : Dev nD, ∀ a, (k0_off6 d0) a + S1x64x512.size a ≤ S8x64x1024.size a
  k0_dev6_lt : ∀ d0 : Dev nD, (k0_dev6 d0) < nD
  k0_off7_inb : ∀ d0 : Dev nD, ∀ a, (k0_off7 d0) a + S1x64x512.size a ≤ S8x64x1024.size a
  k0_dev7_lt : ∀ d0 : Dev nD, (k0_dev7 d0) < nD
  k0_off8_inb : ∀ d0 : Dev nD, ∀ a, (k0_off8 d0) a + S1x64x512.size a ≤ S8x64x1024.size a
  k0_dev8_lt : ∀ d0 : Dev nD, (k0_dev8 d0) < nD
  k0_off9_inb : ∀ d0 : Dev nD, ∀ a, (k0_off9 d0) a + S1x64x512.size a ≤ S8x64x1024.size a
  k0_dev9_lt : ∀ d0 : Dev nD, (k0_dev9 d0) < nD
  k0_off10_inb : ∀ d0 : Dev nD, ∀ a, (k0_off10 d0) a + S1x64x512.size a ≤ S8x64x1024.size a
  k0_dev10_lt : ∀ d0 : Dev nD, (k0_dev10 d0) < nD
  k0_dev11_lt : ∀ d0 : Dev nD, (k0_dev11 d0) < nD
  k0_off11_inb : ∀ d0 : Dev nD, ∀ a, (k0_off11 d0) a + S1x64x512.size a ≤ S8x64x1024.size a
  k0_off12_inb : ∀ d0 : Dev nD, ∀ (r : Fin 8), ∀ a, (k0_off12 d0 (BitVec.ofNat 32 (64 * r.val))) a + S64x512.size a ≤ S1024x512.size a
  k0_off12_packedbf16 : ∀ d0 : Dev nD, ∀ (r : Fin 8), (Rect.unit (s := S1024x512) (k0_off12 d0 (BitVec.ofNat 32 (64 * r.val))) S64x512.size (k0_off12_inb d0 r)).PackedRows (EltTy.packing .bf16)
  k0_dev12_lt : ∀ d0 : Dev nD, (k0_dev12 d0) < nD
  k0_off13_inb : ∀ d0 : Dev nD, ∀ a, (k0_off13 d0) a + S1x64x512.size a ≤ S8x64x1024.size a
  k0_dev13_lt : ∀ d0 : Dev nD, (k0_dev13 d0) < nD
  k0_off14_inb : ∀ d0 : Dev nD, ∀ a, (k0_off14 d0) a + S1x64x512.size a ≤ S8x64x1024.size a
  k0_dev14_lt : ∀ d0 : Dev nD, (k0_dev14 d0) < nD
  k0_off15_inb : ∀ d0 : Dev nD, ∀ a, (k0_off15 d0) a + S1x64x512.size a ≤ S8x64x1024.size a
  k0_dev15_lt : ∀ d0 : Dev nD, (k0_dev15 d0) < nD
  k0_off16_inb : ∀ d0 : Dev nD, ∀ a, (k0_off16 d0) a + S1x64x512.size a ≤ S8x64x1024.size a
  k0_dev16_lt : ∀ d0 : Dev nD, (k0_dev16 d0) < nD
  k0_off17_inb : ∀ d0 : Dev nD, ∀ a, (k0_off17 d0) a + S1x64x512.size a ≤ S8x64x1024.size a
  k0_dev17_lt : ∀ d0 : Dev nD, (k0_dev17 d0) < nD
  k0_off18_inb : ∀ d0 : Dev nD, ∀ a, (k0_off18 d0) a + S1x64x512.size a ≤ S8x64x1024.size a
  k0_dev18_lt : ∀ d0 : Dev nD, (k0_dev18 d0) < nD
  k0_off19_inb : ∀ d0 : Dev nD, ∀ a, (k0_off19 d0) a + S1x64x512.size a ≤ S8x64x1024.size a
  k0_off20_inb : ∀ d0 : Dev nD, ∀ (r : Fin 8), ∀ a, (k0_off20 d0 (BitVec.ofNat 32 (64 * r.val))) a + S64x512.size a ≤ S1024x512.size a
  k0_off20_packedbf16 : ∀ d0 : Dev nD, ∀ (r : Fin 8), (Rect.unit (s := S1024x512) (k0_off20 d0 (BitVec.ofNat 32 (64 * r.val))) S64x512.size (k0_off20_inb d0 r)).PackedRows (EltTy.packing .bf16)
  hstage0_0 : ∀ j, (stage0_0 j).IsWhole

variable [Facts₀]

abbrev cc0_scratch5 : DmaSems sig S8 := SemArray.consecutive 1 S8 hcc0_scratch5
abbrev cc0_scratch6 : DmaSems sig S_ := SemArray.consecutive 9 S_ hcc0_scratch6
abbrev cc0_scratch7 : DmaSems sig S8 := SemArray.consecutive 10 S8 hcc0_scratch7
abbrev cc0_scratch8 : DmaSems sig S8 := SemArray.consecutive 18 S8 hcc0_scratch8
abbrev cc0_scratch9 : DmaSems sig S8 := SemArray.consecutive 26 S8 hcc0_scratch9
abbrev cc0_scratch10 : DmaSems sig S8 := SemArray.consecutive 34 S8 hcc0_scratch10

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S_, .f32⟩
  | .hbm, ⟨2, _⟩ => ⟨S1024x1024, .f32⟩
  | .hbm, ⟨3, _⟩ => ⟨S1024x1024, .bf16⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x1024x1024_S1024x1024_d0 : S2x1024x1024.ReducesTo [0] S1024x1024
  h_S_ : 0 < S_.numel
  bitsLt_bf16_f32 : FTy.bits .bf16 < FTy.bits .f32

variable [Facts₀]

class Facts : Prop extends Facts₀ where

variable [Facts]
-- ==== Proof.RSContents.lean ====
/-
  The mesh and what every buffer of the kernel holds, as pure definitions.

  Eight devices, device `d = 4·x + 2·y + z` on the mesh x = 2, y = 2, z = 2. A device holds block `x` of the
  input `f32[2, 1024, 1024]` (one `[1, 1024, 1024]` slab, the same on the four devices sharing `x`) and must end
  with columns `512·x … 512·x + 511` of `slab 0 + slab 1`. It gets the other slab's entries in two hops: its
  x-peer (the device with the other `x`) sends it, in bf16, the own-row half (rows `512·y …`) of the peer's slab
  at this device's columns; it forwards those rows to its y-peer (the device with the other `y`), for which they are
  the other row half. Rows travel in eight chunks of 64.
-/
import proofs.«901020_g7700000000001021_dist_rs_v7x_xyz2x2x2_x_m1024_n512_bf16_1_alg».proof.Proof.Gen.KernelIdeal
import Idealize.ShloMosaic.Lib.ValueIdx

noncomputable section

namespace Cert.KernelIdeal.RS

open Cert.KernelIdeal Cert.KernelIdeal.Gen
open Idealize.ShloMosaic Idealize.ShloMosaic.ValueIdx

variable {F : FTy → Type} [FloatOps F]

/-! ## Mesh coordinates and peers -/

/-- The `x` coordinate of device `d = 4x + 2y + z`. -/
def cx (c : Dev nD) : ℕ := c.val / 4
/-- Its `y` coordinate. -/
def cy (c : Dev nD) : ℕ := (c.val / 2) % 2
/-- The device with the other `x` coordinate. -/
def px (c : Dev nD) : Dev nD := ⟨(c.val + 4) % 8, Nat.mod_lt _ (by decide)⟩
/-- The device with the other `y` coordinate. -/
def py (c : Dev nD) : Dev nD := ⟨(4 * (c.val / 4) + (c.val + 2) % 4) % 8, Nat.mod_lt _ (by decide)⟩

theorem px_px (c : Dev nD) : px (px c) = c := by revert c; decide
theorem py_py (c : Dev nD) : py (py c) = c := by revert c; decide
theorem px_py (c : Dev nD) : px (py c) = py (px c) := by revert c; decide
theorem px_ne (c : Dev nD) : px c ≠ c := by revert c; decide
theorem py_ne (c : Dev nD) : py c ≠ c := by revert c; decide
theorem px_ne_py (c : Dev nD) : px c ≠ py c := by revert c; decide
theorem cx_lt (c : Dev nD) : cx c < 2 := by revert c; decide
theorem cy_lt (c : Dev nD) : cy c < 2 := by revert c; decide
theorem cx_px (c : Dev nD) : cx (px c) = 1 - cx c := by revert c; decide
theorem cy_px (c : Dev nD) : cy (px c) = cy c := by revert c; decide
theorem cx_py (c : Dev nD) : cx (py c) = cx c := by revert c; decide
theorem cy_py (c : Dev nD) : cy (py c) = 1 - cy c := by revert c; decide

/-- The x and the y exchange as permutations of the devices. -/
def swapX : Dev nD ≃ Dev nD := ⟨px, px, px_px, px_px⟩
def swapY : Dev nD ≃ Dev nD := ⟨py, py, py_py, py_py⟩

/-! ## Contents -/

/-- A coordinate reduced into its axis (no sum below ever wraps: each stays inside its extent). -/
def rd (n : ℕ) (h : 0 < n) (v : ℕ) : Fin n := ⟨v % n, Nat.mod_lt _ h⟩

theorem rd_val (n : ℕ) (h : 0 < n) (v : ℕ) (hv : v < n) : (rd n h v).val = v := Nat.mod_eq_of_lt hv

/-- Entry `(row, col)` of a slab. -/
def slabAt (A : FVec F S1x1024x1024 .f32) (row col : ℕ) : F .f32 :=
  A (ix3 (0 : Fin 1) (rd 1024 (by decide) row) (rd 1024 (by decide) col))

variable (X : Dev nD → FVec F S1x1024x1024 .f32)

/-- The fetch buffer after the eight row fetches: chunk `k`, row `r` holds row `512·y + 64k + r` of the slab, whole. -/
def fetchC (c : Dev nD) : FVec F S8x64x1024 .f32 := fun i =>
  slabAt (X c) (512 * cy c + 64 * (i 0).val + (i 1).val) (i 2).val

/-- The direct fetch of the other row half at the own columns: row `512·(1−y) + r`, column `512·x + q`. -/
def otherC (c : Dev nD) : FVec F S512x512 .f32 := fun i =>
  slabAt (X c) (512 * (1 - cy c) + (i 0).val) (512 * cx c + (i 1).val)

/-- What the device sends along x: its own row half at the PEER's columns, rounded to bf16. -/
def sendXC (c : Dev nD) : FVec F S8x64x512 .bf16 := fun i =>
  FloatOps.truncf .bf16 bitsLt_bf16_f32 (slabAt (X c) (512 * cy c + 64 * (i 0).val + (i 1).val) (512 * (1 - cx c) + (i 2).val))

/-- What lands from the x-peer: the peer's slab, this device's own row half and columns. -/
def recvXC (c : Dev nD) : FVec F S8x64x512 .bf16 := sendXC X (px c)

/-- What lands from the y-peer: what the y-peer received along x — the other slab, the other row half, own columns. -/
def recvZC (c : Dev nD) : FVec F S8x64x512 .bf16 := recvXC X (py c)

/-- The device whose slab supplies the second summand of result row `r`: the x-peer for the own row half, the
    y-peer's x-peer for the other half (the same slab, held by another device). -/
def srcDev (c : Dev nD) (r : ℕ) : Dev nD := if r / 512 = cy c then px c else px (py c)

/-- The result block: entry `(r, q)` is the own slab's entry at `(r, 512·x + q)` plus the other slab's, the latter
    having passed through bf16. -/
def outC (c : Dev nD) : FVec F S1024x512 .bf16 := fun i =>
  FloatOps.truncf .bf16 bitsLt_bf16_f32
    (FloatOps.addf (slabAt (X c) (i 0).val (512 * cx c + (i 1).val))
      (FloatOps.extf .f32 bitsLt_bf16_f32
        (FloatOps.truncf .bf16 bitsLt_bf16_f32 (slabAt (X (srcDev c (i 0).val)) (i 0).val (512 * cx c + (i 1).val)))))

end Cert.KernelIdeal.RS

end
-- ==== Proof.RSProto.lean ====
/-
  The protocol of the reduce-scatter, as a schedule of rounds.

  Each device has, besides the barrier semaphore, four arrays of eight DMA semaphores that other devices credit:
  array 0 counts its x-sends leaving, array 1 the x-peer's chunks landing, array 2 its forwards to the y-peer
  leaving, array 3 the y-peer's forwards landing. Every such cell has one round of one duty, worth one chunk's
  credit, whose payload is the chunk it is about: a send cell gives the source chunk back, a receive cell hands over
  the landed chunk with its contents named. The barrier cell has one round of two unit duties, one per peer: the
  x-peer's signal hands over the x-peer's eight receive chunks (so that this device may write them), the y-peer's
  its eight forward-receive chunks.

  Deadlock freedom is by levels: barrier cells at 1, x-receive cells at 2, y-receive cells at 3, everything a device
  only ever waits for while owing nothing (its local copies, its send cells) at 0; a device waits on a cell only while
  everything it still owes lies strictly above it.
-/
import proofs.«901020_g7700000000001021_dist_rs_v7x_xyz2x2x2_x_m1024_n512_bf16_1_alg».proof.Proof.RSContents
import proofs.«901020_g7700000000001021_dist_rs_v7x_xyz2x2x2_x_m1024_n512_bf16_1_alg».proof.Proof.Gen.KernelIdeal
import proofs.«901020_g7700000000001021_dist_rs_v7x_xyz2x2x2_x_m1024_n512_bf16_1_alg».proof.Proof.Gen.KernelIdeal.Skeleton
import proofs.«901020_g7700000000001021_dist_rs_v7x_xyz2x2x2_x_m1024_n512_bf16_1_alg».proof.Proof.Gen.KernelIdeal.Launch
import proofs.«901020_g7700000000001021_dist_rs_v7x_xyz2x2x2_x_m1024_n512_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the rounds' (duties `Bool`), and the counters of the device's own local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR

instance ER_landsIn : (ER : Emb UB (MT nD τ sig Unit (Elt F) ℕ UU ℕ)).LandsIn (upEmb : UEmb _ (MT nD τ sig Unit (Elt F) ℕ UU ℕ)) := by
  unfold ER embR; infer_instance

variable (m : (ℓ : Loc nD τ sig) → Buf (Elt F) ℓ) (ρ : Dev nD → PrngReg)

/-- The slab each device was launched with. -/
abbrev slabs : Dev nD → FVec F S1x1024x1024 .f32 := fun d => m ((d.tc : Thread nD τ).loc main_arg0)

/-! ## The kernel's device chains name the two peers -/

theorem pxv (c : Dev nD) : (2 * ((c.val / 2) % 2) + (c.val % 2) + 4) - 4 * (c.val / 4) = (px c).val := by revert c; decide
theorem pyv (c : Dev nD) : (4 * (c.val / 4) + (c.val % 2) + 2) - 2 * ((c.val / 2) % 2) = (py c).val := by revert c; decide
theorem dev1_eq (c : Dev nD) : (⟨k0_dev1 c, k0_dev1_lt c⟩ : Dev nD) = px c := Fin.ext ((k0_dev1_eq c).trans (pxv c))
theorem dev2_eq (c : Dev nD) : (⟨k0_dev2 c, k0_dev2_lt c⟩ : Dev nD) = py c := Fin.ext ((k0_dev2_eq c).trans (pyv c))
theorem dev3_eq (c : Dev nD) : (⟨k0_dev3 c, k0_dev3_lt c⟩ : Dev nD) = px c := Fin.ext ((k0_dev3_eq c).trans (pxv c))
theorem dev4_eq (c : Dev nD) : (⟨k0_dev4 c, k0_dev4_lt c⟩ : Dev nD) = px c := Fin.ext ((k0_dev4_eq c).trans (pxv c))
theorem dev5_eq (c : Dev nD) : (⟨k0_dev5 c, k0_dev5_lt c⟩ : Dev nD) = px c := Fin.ext ((k0_dev5_eq c).trans (pxv c))
theorem dev6_eq (c : Dev nD) : (⟨k0_dev6 c, k0_dev6_lt c⟩ : Dev nD) = px c := Fin.ext ((k0_dev6_eq c).trans (pxv c))
theorem dev7_eq (c : Dev nD) : (⟨k0_dev7 c, k0_dev7_lt c⟩ : Dev nD) = px c := Fin.ext ((k0_dev7_eq c).trans (pxv c))
theorem dev8_eq (c : Dev nD) : (⟨k0_dev8 c, k0_dev8_lt c⟩ : Dev nD) = px c := Fin.ext ((k0_dev8_eq c).trans (pxv c))
theorem dev9_eq (c : Dev nD) : (⟨k0_dev9 c, k0_dev9_lt c⟩ : Dev nD) = px c := Fin.ext ((k0_dev9_eq c).trans (pxv c))
theorem dev10_eq (c : Dev nD) : (⟨k0_dev10 c, k0_dev10_lt c⟩ : Dev nD) = px c := Fin.ext ((k0_dev10_eq c).trans (pxv c))
theorem dev11_eq (c : Dev nD) : (⟨k0_dev11 c, k0_dev11_lt c⟩ : Dev nD) = py c := Fin.ext ((k0_dev11_eq c).trans (pyv c))
theorem dev12_eq (c : Dev nD) : (⟨k0_dev12 c, k0_dev12_lt c⟩ : Dev nD) = py c := Fin.ext ((k0_dev12_eq c).trans (pyv c))
theorem dev13_eq (c : Dev nD) : (⟨k0_dev13 c, k0_dev13_lt c⟩ : Dev nD) = py c := Fin.ext ((k0_dev13_eq c).trans (pyv c))
theorem dev14_eq (c : Dev nD) : (⟨k0_dev14 c, k0_dev14_lt c⟩ : Dev nD) = py c := Fin.ext ((k0_dev14_eq c).trans (pyv c))
theorem dev15_eq (c : Dev nD) : (⟨k0_dev15 c, k0_dev15_lt c⟩ : Dev nD) = py c := Fin.ext ((k0_dev15_eq c).trans (pyv c))
theorem dev16_eq (c : Dev nD) : (⟨k0_dev16 c, k0_dev16_lt c⟩ : Dev nD) = py c := Fin.ext ((k0_dev16_eq c).trans (pyv c))
theorem dev17_eq (c : Dev nD) : (⟨k0_dev17 c, k0_dev17_lt c⟩ : Dev nD) = py c := Fin.ext ((k0_dev17_eq c).trans (pyv c))
theorem dev18_eq (c : Dev nD) : (⟨k0_dev18 c, k0_dev18_lt c⟩ : Dev nD) = py c := Fin.ext ((k0_dev18_eq c).trans (pyv c))

/-! ## Chunks and cells, spelt as the program spells them -/

theorem inb1 : ∀ k : Fin 8, ∀ a, (![k.val] : Fin 1 → Nat) a + S1.size a ≤ S8.size a := by decide
theorem inbC : ∀ k : Fin 8, ∀ a, (![k.val, 0, 0] : Fin 3 → Nat) a + S1x64x512.size a ≤ S8x64x512.size a := by decide

/-- Chunk `k` (64 rows) of a buffer of eight. -/
abbrev chunkOf (B : Memref sig .tc .vmem S8x64x512 .bf16) (k : Fin 8) : Memref sig .tc .vmem S64x512 .bf16 :=
  (B.slice (Rect.unit (s := S8x64x512) ![k.val, 0, 0] S1x64x512.size (inbC k)) (fun _ => rfl)).squeeze S64x512 squeezes_S1x64x512_S64x512

/-- The x-send buffer, the x-receive buffer, the y-receive buffer. -/
abbrev sxB : Memref sig .tc .vmem S8x64x512 .bf16 := Memref.whole cc0_scratch2
abbrev rxB : Memref sig .tc .vmem S8x64x512 .bf16 := Memref.whole cc0_scratch3
abbrev rzB : Memref sig .tc .vmem S8x64x512 .bf16 := Memref.whole cc0_scratch4
abbrev sxM (k : Fin 8) : Memref sig .tc .vmem S64x512 .bf16 := chunkOf sxB k
abbrev rxM (k : Fin 8) : Memref sig .tc .vmem S64x512 .bf16 := chunkOf rxB k
abbrev rzM (k : Fin 8) : Memref sig .tc .vmem S64x512 .bf16 := chunkOf rzB k

/-- The runtime's barrier semaphore of collective id 0. -/
abbrev barS : Sem sig := (SemArray.scalar (sig.barrier 0 rfl) : Sems sig S_).sem
abbrev barCell (c : Dev nD) : GSem nD τ sig := ((c : Thread nD τ), .reg barS)

/-- The four semaphore arizes other devices credit: 0 x-send, 1 x-receive, 2 y-send, 3 y-receive. -/
abbrev famArr : Fin 4 → DmaSems sig S8
  | 0 => cc0_scratch7 | 1 => cc0_scratch8 | 2 => cc0_scratch9 | 3 => cc0_scratch10
abbrev qS (f : Fin 4) (k : Fin 8) : DmaSems sig S_ :=
  ((famArr f).slice (Rect.unit (s := S8) ![k.val] S1.size (inb1 k))).squeeze S_ squeezes_S1_S_
abbrev qCell (c : Dev nD) (f : Fin 4) (k : Fin 8) : GSem nD τ sig := ((c : Thread nD τ), .dma (qS f k).sem)

/-- Which array and chunk a semaphore is, if it is one of the thirty-two. -/
def famOf : SemLoc sig → Option (Fin 4 × Fin 8)
  | .dma q => if 10 ≤ q.val then some (⟨((q.val - 10) / 8) % 4, Nat.mod_lt _ (by decide)⟩, ⟨(q.val - 10) % 8, Nat.mod_lt _ (by decide)⟩) else none
  | _ => none

theorem famOf_q : ∀ (f : Fin 4) (k : Fin 8), famOf (.dma (qS f k).sem) = some (f, k) := by decide
theorem famOf_bar : famOf (.reg barS) = none := rfl
theorem q_ne_bar (f : Fin 4) (k : Fin 8) : (SemLoc.dma (qS f k).sem : SemLoc sig) ≠ .reg barS := fun h => by cases h

/-- One chunk's credit. -/
abbrev N : ℕ := (sxM 0 : Memref sig .tc .vmem S64x512 .bf16).view.dmaCredit
theorem N_pos : 0 < N := View.dmaCredit_pos _ (by decide)

/-! ## Payloads -/

/-- The elements of a memref on device `c`, at share `q`, holding `f`. -/
abbrev ptsM {sh : Shape} {e : EltTy} (M : Memref sig .tc .vmem sh e) (c : Dev nD) (q : PosShare TreeShare)
    (f : Buf (Elt F) (M.view.loc (c : Thread nD τ))) : sProp 𝕄 :=
  M.view.loc (c : Thread nD τ) ↦[M.view.set]{q} f

/-- What the x-peer's entry signal hands device `c`: the peer's eight x-receive chunks, whatever they hold. -/
def barPayX (c : Dev nD) : sProp 𝕄 := bigSep Finset.univ fun k : Fin 8 => iprop(∃ f, ptsM (F := F) (rxM k) (px c) fullShare f)
/-- What the y-peer's hands it: the peer's eight y-receive chunks. -/
def barPayY (c : Dev nD) : sProp 𝕄 := bigSep Finset.univ fun k : Fin 8 => iprop(∃ f, ptsM (F := F) (rzM k) (py c) fullShare f)

/-- The payload of array `f`'s cell `k` on device `c`. The forward to the y-peer reads the x-receive chunk while the
    device itself still reads it for its own sum, so the forward borrows only half of it. -/
def famPay (c : Dev nD) (f : Fin 4) (k : Fin 8) : sProp 𝕄 :=
  match f with
  | 0 => ptsM (sxM k) c fullShare (sendXC (slabs m) c)
  | 1 => ptsM (rxM k) c fullShare (recvXC (slabs m) c)
  | 2 => ptsM (rxM k) c fullShare.left (recvXC (slabs m) c)
  | 3 => ptsM (rzM k) c fullShare (recvZC (slabs m) c)

/-! ## The schedule -/

abbrev IsBar (g : GSem nD τ sig) : Prop := g.1.2 = .tc ∧ g.2 = .reg barS
abbrev IsFam (g : GSem nD τ sig) : Prop := g.1.2 = .tc ∧ (famOf g.2).isSome = true

def rsRd : Rounds.Schedule (GSem nD τ sig) Bool 𝕄 where
  duties g r := if r = 0 ∧ IsBar g then Finset.univ else if r = 0 ∧ IsFam g then {false} else ∅
  unitless _ := False
  amount g _ _ := if g.2 = .reg barS then 1 else N
  payload g _ d :=
    if g.2 = .reg barS then (if d then barPayY g.1.1 else barPayX g.1.1)
    else match famOf g.2 with
      | some (f, k) => famPay m g.1.1 f k
      | none => iprop(emp)
  amount_pos g _ _ _ := by
    by_cases h : g.2 = .reg barS
    · rw [if_pos h]; exact Nat.one_pos
    · rw [if_neg h]; exact N_pos

instance rsRd_payload_storable (g : GSem nD τ sig) (r : ℕ) (d : Bool) :
    BI.Storable (upEmb : UEmb _ 𝕄) ((rsRd (F := F) m).payload g r d) := by
  show BI.Storable upEmb (if g.2 = .reg barS then (if d then barPayY g.1.1 else barPayX g.1.1)
    else match famOf g.2 with
      | some (f, k) => famPay m g.1.1 f k
      | none => iprop(emp))
  unfold barPayX barPayY famPay
  (repeat' split) <;> infer_instance

section Sched
variable (c : Dev nD) (f : Fin 4) (k : Fin 8)

theorem not_bar_q : ¬ IsBar (qCell c f k) := fun h => q_ne_bar f k h.2

theorem duties_bar : (rsRd (F := F) m).duties (barCell c) 0 = Finset.univ := by dsimp only [rsRd]; exact if_pos ⟨rfl, rfl, rfl⟩
theorem duties_q : (rsRd (F := F) m).duties (qCell c f k) 0 = {false} := by
  dsimp only [rsRd]; rw [if_neg (fun h => not_bar_q c f k h.2)]; exact if_pos ⟨rfl, rfl, by rw [famOf_q]; rfl⟩
theorem duties_later (g : GSem nD τ sig) : ∀ r, 1 ≤ r → (rsRd (F := F) m).duties g r = ∅ :=
  fun r hr => by dsimp only [rsRd]; rw [if_neg fun h => by omega, if_neg fun h => by omega]

theorem amount_bar (d : Bool) : (rsRd (F := F) m).amount (barCell c) 0 d = 1 := by dsimp only [rsRd]; exact if_pos rfl
theorem amount_q (d : Bool) : (rsRd (F := F) m).amount (qCell c f k) 0 d = N := by dsimp only [rsRd]; exact if_neg (q_ne_bar f k)

theorem expect_bar : (rsRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_q : (rsRd (F := F) m).expect (qCell c f k) 0 = N := by
  unfold Schedule.expect Schedule.amountOf; rw [duties_q, Finset.sum_singleton, amount_q]

theorem payload_bar_true : (rsRd (F := F) m).payload (barCell c) 0 true = barPayY c := by dsimp only [rsRd]; rw [if_pos rfl, if_pos rfl]
theorem payload_bar_false : (rsRd (F := F) m).payload (barCell c) 0 false = barPayX c := by
  dsimp only [rsRd]; rw [if_pos rfl]; exact if_neg Bool.false_ne_true
theorem payload_q (d : Bool) : (rsRd (F := F) m).payload (qCell c f k) 0 d = famPay m c f k := by
  dsimp only [rsRd]; rw [if_neg (q_ne_bar f k), famOf_q]

/-- The whole of a barrier cell's round: both peers' chunks. -/
theorem rest_bar : bigSep ((rsRd (F := F) m).duties (barCell c) 0 \ ∅) (fun d => (rsRd (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_q : bigSep ((rsRd (F := F) m).duties (qCell c f k) 0 \ ∅) (fun d => (rsRd (F := F) m).payload (qCell c f k) 0 d) = famPay m c f k := by
  rw [Finset.sdiff_empty, duties_q, bigSep_singleton, payload_q]

end Sched

/-! ## What each device owes at launch; the levels -/

/-- One unit to each peer's barrier cell, a chunk's credit to each of the x-peer's x-receive cells and of the y-peer's
    y-receive cells — summed so that the program's steps peel the summands from the right, in program order. -/
def O₀ (c : Dev nD) : CellTallies nD τ sig Unit :=
  tallyAt (qCell (py c) 3 7) () N
    + tallyAt (qCell (py c) 3 6) () N
    + tallyAt (qCell (py c) 3 5) () N
    + tallyAt (qCell (py c) 3 4) () N
    + tallyAt (qCell (py c) 3 3) () N
    + tallyAt (qCell (py c) 3 2) () N
    + tallyAt (qCell (py c) 3 1) () N
    + tallyAt (qCell (py c) 3 0) () N
    + tallyAt (qCell (px c) 1 7) () N
    + tallyAt (qCell (px c) 1 6) () N
    + tallyAt (qCell (px c) 1 5) () N
    + tallyAt (qCell (px c) 1 4) () N
    + tallyAt (qCell (px c) 1 3) () N
    + tallyAt (qCell (px c) 1 2) () N
    + tallyAt (qCell (px c) 1 1) () N
    + tallyAt (qCell (px c) 1 0) () N
    + tallyAt (barCell (py c)) () 1
    + tallyAt (barCell (px c)) () 1

def L (g : GSem nD τ sig) : Finset Unit := if g.1.2 = .tc then {()} else ∅
def lv (g : GSem nD τ sig) (_ : Unit) : ℕ :=
  if g.2 = .reg barS then 1 else match famOf g.2 with
    | some (f, _) => if f = 1 then 2 else if f = 3 then 3 else 0
    | none => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; exact if_pos rfl
theorem lv_q (c : Dev nD) (f : Fin 4) (k : Fin 8) : lv (qCell c f k) () = if f = 1 then 2 else if f = 3 then 3 else 0 := by
  dsimp only [lv]; rw [if_neg (q_ne_bar f k), famOf_q]

/-- A device may wait on a cell of its own at level `n` while all it owes lies on TensorCore cells strictly above `n`. -/
theorem mayWait_above (c : Dev nD) (sm : SemLoc sig) (O : CellTallies nD τ sig Unit) (n : ℕ)
    (hsm : lv ((c : Thread nD τ), sm) () ≤ n) (hO : ∀ (g : GSem nD τ sig) (u : Unit), 0 < O g u → g.1.2 = .tc ∧ n < lv g u) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by
      have h := (hO g u hg).1
      obtain ⟨⟨d, pr⟩, s⟩ := g
      simp only at h; subst h
      exact Finset.mem_singleton_self _)
    (fun p hp => by rw [Finset.mem_singleton.mp hp]; exact hsm)
    (fun g u hg => (hO g u hg).2)

end Cert.KernelIdeal.RS

end
-- ==== Proof.RSInv.lean ====
/-
  What a device's thread holds before and after the kernel's one grid point, and the proof data of the pipeline.

  Before: every cell's invariant and that its round 0 is reached (persistent records, the same on every device); the
  device's positions at round 0 of its own thirty-three cells; the tokens of the duties it pays — one unit on each
  peer's barrier cell, the x-peer's eight x-receive cells, the y-peer's eight y-receive cells, and its own sixteen
  send cells; the credit others owe its barrier and receive cells; its nine local DMA semaphores at zero; its slab;
  its five scratch buffers, holding anything. After: the slab as it was, the scratch buffers, and every semaphore of
  its own at zero again. The staged result holds its column half of the sum of the slabs.
-/
import proofs.«901020_g7700000000001021_dist_rs_v7x_xyz2x2x2_x_m1024_n512_bf16_1_alg».proof.Proof.RSProto

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells by index -/

/-- A device's thirty-three cells: `none` the barrier, `some (f, k)` cell `k` of array `f`. -/
abbrev CK : Type := Option (Fin 4 × Fin 8)
abbrev csem : CK → SemLoc sig
  | none => .reg barS
  | some fk => .dma (qS fk.1 fk.2).sem
abbrev kcell (ck : Dev nD × CK) : GSem nD τ sig := ((ck.1 : Thread nD τ), csem ck.2)

/-- The nine DMA semaphores only the device itself credits: the eight row fetches' and the other-half fetch's. -/
abbrev fS (k : Fin 8) : DmaSems sig S_ := (cc0_scratch5.slice (Rect.unit (s := S8) ![k.val] S1.size (inb1 k))).squeeze S_ squeezes_S1_S_
abbrev oS : DmaSems sig S_ := cc0_scratch6
abbrev fCell (c : Dev nD) (k : Fin 8) : GSem nD τ sig := ((c : Thread nD τ), .dma (fS k).sem)
abbrev oCell (c : Dev nD) : GSem nD τ sig := ((c : Thread nD τ), .dma oS.sem)

/-- Those nine counters at zero. -/
def locals0 (c : Dev nD) : sProp 𝕄 := iprop((bigSep Finset.univ fun k : Fin 8 => semVal (fCell c k) 0) ∗ semVal (oCell c) 0)

/-! ## The ghost state -/

/-- Every cell's invariant, under the names `K` the launch allocated them at, and that its round 0 is reached. -/
def records (K : Dev nD × CK → ℕ) : sProp 𝕄 :=
  iprop((bigSep Finset.univ fun ck : Dev nD × CK => cellInv ER (rsRd m) (K ck) (kcell ck))
    ∗ bigSep Finset.univ fun ck : Dev nD × CK => reached ER (kcell ck) 0)

instance records_persistent (K : Dev nD × CK → ℕ) : BI.Persistent (records m K) := by unfold records; infer_instance

theorem inv_at' (K : Dev nD × CK → ℕ) (ck : Dev nD × CK) :
    (bigSep Finset.univ fun ck : Dev nD × CK => (cellInv ER (rsRd m) (K ck) (kcell ck) : sProp 𝕄)) ⊢ cellInv ER (rsRd m) (K ck) (kcell ck) :=
  bigSep_elim (Finset.mem_univ ck)
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (K : Dev nD × CK → ℕ) (ck : Dev nD × CK) : records m K ⊢ cellInv ER (rsRd m) (K ck) (kcell ck) := by
  unfold records; iintro ⟨H, -⟩; iapply (inv_at' m K ck); iexact H
theorem reached_at (K : Dev nD × CK → ℕ) (ck : Dev nD × CK) : records m K ⊢ reached ER (kcell ck) 0 := by
  unfold records; iintro ⟨-, H⟩; iapply (reached_at' (F := F) ck); iexact H

/-- The tokens of the duties device `c` pays. -/
def payToks (c : Dev nD) : sProp 𝕄 :=
  iprop(dutyTok ER (barCell (px c)) 0 false ∗ dutyTok ER (barCell (py c)) 0 true
    ∗ (bigSep Finset.univ fun k : Fin 8 => dutyTok ER (qCell (px c) 1 k) 0 false)
    ∗ (bigSep Finset.univ fun k : Fin 8 => dutyTok ER (qCell (py c) 3 k) 0 false)
    ∗ (bigSep Finset.univ fun k : Fin 8 => dutyTok ER (qCell c 0 k) 0 false)
    ∗ (bigSep Finset.univ fun k : Fin 8 => dutyTok ER (qCell c 2 k) 0 false))

/-- What stays with device `c` alone: its positions at round 0 of its own cells, and those tokens. -/
def linear (c : Dev nD) : sProp 𝕄 :=
  iprop(atPos ER (barCell c) 0 ∅ 0
    ∗ (bigSep Finset.univ fun fk : Fin 4 × Fin 8 => atPos ER (qCell c fk.1 fk.2) 0 ∅ 0)
    ∗ payToks c)

def ghost (K : Dev nD × CK → ℕ) (c : Dev nD) : sProp 𝕄 := iprop(records m K ∗ linear c)

/-- The credit others owe device `c`'s cells from launch: two units on its barrier cell, a chunk on each receive cell. -/
def creds (c : Dev nD) : sProp 𝕄 :=
  iprop(cred (tallyAt (barCell c) () 2)
    ∗ (bigSep Finset.univ fun k : Fin 8 => cred (tallyAt (qCell c 1 k) () N))
    ∗ (bigSep Finset.univ fun k : Fin 8 => cred (tallyAt (qCell c 3 k) () N)))

/-- The device's slab, whole, as launched. -/
def slabPts (c : Dev nD) : sProp 𝕄 := ((c : Thread nD τ).loc main_arg0) ↦{fullShare} m ((c : Thread nD τ).loc main_arg0)

/-- What device `c`'s body starts from, the scratch buffers apart. -/
def start (c : Dev nD) : sProp 𝕄 :=
  iprop((∃ K, ghost m K c) ∗ creds c ∗ levAts L lv ∗ slabPts m c ∗ locals0 c)

/-- The five scratch buffers, each whole at some contents: fetch, other half, x-send, x-receive, y-receive. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

def Φ₀ (c : Dev nD) : sProp 𝕄 := iprop(start m c ∗ scratch c)

/-- After the point: the slab, the scratch buffers, and all forty-one own counters at zero (the thirty-two cells closed). -/
def Φ₁ (c : Dev nD) : sProp 𝕄 :=
  iprop(slabPts m c ∗ scratch c ∗ locals0 c ∗ bigSep Finset.univ fun fk : Fin 4 × Fin 8 => semVal (qCell c fk.1 fk.2) 0)

/-! ## What the launch deals -/

/-- The device's own (scoped) semaphores as the launch indexes them: the other-half fetch's, the eight row fetches',
    and the thirty-two cells'. -/
abbrev OS : Type := Option (Fin 8) ⊕ (Fin 4 × Fin 8)
abbrev osem : OS → SemLoc sig
  | .inl none => .dma oS.sem
  | .inl (some k) => .dma (fS k).sem
  | .inr fk => .dma (qS fk.1 fk.2).sem

/-- The duty tokens of device `c`'s own cells, as minted: its barrier's two, one for each of the thirty-two. -/
def toks (c : Dev nD) : sProp 𝕄 :=
  iprop(dutyTok ER (barCell c) 0 false ∗ dutyTok ER (barCell c) 0 true
    ∗ bigSep Finset.univ fun fk : Fin 4 × Fin 8 => dutyTok ER (qCell c fk.1 fk.2) 0 false)

/-- What the launch element deals device `c`: its cells' round states, positions and reached-marks, and those tokens. -/
def G (c : Dev nD) : sProp 𝕄 :=
  iprop((bigSep Finset.univ fun ck : CK => roundState ER (rsRd m) (kcell (c, ck)) 0)
    ∗ (bigSep Finset.univ fun ck : CK => iprop(atPos ER (kcell (c, ck)) 0 ∅ 0 ∗ reached ER (kcell (c, ck)) 0)) ∗ toks c)

/-- What the global step makes of it: the ghost state at some names, and the nine local counters. -/
def G' (c : Dev nD) : sProp 𝕄 := iprop((∃ K, ghost m K c) ∗ locals0 c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => outC (slabs m) c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the body starts from, the names of the invariants fixed. -/
def bodyPre (K : Dev nD × CK → ℕ) (c : Dev nD) : sProp 𝕄 :=
  iprop((ghost m K c ∗ creds c ∗ levAts L lv ∗ slabPts m c ∗ locals0 c ∗ scratch c)
    ∗ (dats m 0 c).owesAt () t₀.castSucc
    ∗ (∃ d, stg c cc0_stg0_0 ((dats m 0 c).before (0 : Fin 1) t₀ d)))

/-- What it ends with. -/
def bodyPost (c : Dev nD) : sProp 𝕄 :=
  iprop(Φ₁ m c ∗ (dats m 0 c).owesAt () t₀.succ ∗ stg c cc0_stg0_0 (outC (slabs m) c))

end Cert.KernelIdeal.RS

end
-- ==== Proof.RSFund.lean ====
/-
  Funding the ghost state at launch, and the one allocation step over all devices.

  The launch element of the rounds' algebra holds, for every device, its thirty-three cells' round states, positions
  and reached-marks, and the duty tokens of those cells. One update over all eight devices at once turns every cell's
  counter at zero and round state into its invariant, and deals the tokens to the devices that pay them: a barrier
  cell's two tokens to the x-peer and the y-peer, an x-receive cell's to the x-peer, a y-receive cell's to the y-peer,
  a send cell's to the device itself.
-/
import proofs.«901020_g7700000000001021_dist_rs_v7x_xyz2x2x2_x_m1024_n512_bf16_1_alg».proof.Proof.RSInv

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's forty-one scoped DMA semaphores are its own: none is a staging semaphore of the pipeline. -/
theorem ownSemFacts : Pipeline.OwnSemFacts cfg0.spec osem := by decide

/-- The rounds' cells and tokens of the whole mesh. -/
theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by
    rcases k with _ | ⟨f, k⟩ <;> rcases k' with _ | ⟨f', k'⟩
    · rfl
    · exact absurd h2.symm (q_ne_bar f' k')
    · exact absurd h2 (q_ne_bar f k)
    · have h3 : famOf (.dma (qS f k).sem) = famOf (.dma (qS f' k').sem) := congrArg famOf h2
      rw [famOf_q, famOf_q] at h3
      exact h3
  subst this; rfl
def rsCells : Finset (GSem nD τ sig) := Finset.univ.map ⟨kcell, kcell_injective⟩

/-- A device's own cells' duty tokens as minted: the barrier's `false` and `true`, each of the thirty-two's `false`. -/
abbrev tokOf (cj : Dev nD × (Bool ⊕ (Fin 4 × Fin 8))) : GSem nD τ sig × ℕ × Bool := match cj.2 with
  | .inl b => (barCell cj.1, 0, b)
  | .inr fk => (qCell cj.1 fk.1 fk.2, 0, false)
theorem tokOf_injective : Function.Injective (tokOf : Dev nD × (Bool ⊕ (Fin 4 × Fin 8)) → GSem nD τ sig × ℕ × Bool) := by
  rintro ⟨c, j⟩ ⟨c', j'⟩ h
  have h1 : c = c' := by
    have := congrArg (fun x : GSem nD τ sig × ℕ × Bool => x.1.1.1) h
    rcases j with b | fk <;> rcases j' with b' | fk' <;> exact this
  subst h1
  have : j = j' := by
    rcases j with b | ⟨f, k⟩ <;> rcases j' with b' | ⟨f', k'⟩
    · exact congrArg Sum.inl (congrArg (fun x : GSem nD τ sig × ℕ × Bool => x.2.2) h)
    · exact absurd (congrArg (fun x : GSem nD τ sig × ℕ × Bool => x.1.2) h).symm (q_ne_bar f' k')
    · exact absurd (congrArg (fun x : GSem nD τ sig × ℕ × Bool => x.1.2) h) (q_ne_bar f k)
    · have h3 : famOf (.dma (qS f k).sem) = famOf (.dma (qS f' k').sem) :=
        congrArg (fun x : GSem nD τ sig × ℕ × Bool => famOf x.1.2) h
      rw [famOf_q, famOf_q] at h3
      exact congrArg Sum.inr (Option.some.inj h3)
  subst this; rfl
def rsToks : Finset (GSem nD τ sig × ℕ × Bool) := Finset.univ.map ⟨tokOf, tokOf_injective⟩

/-- The launch element: the pipeline's beside the rounds'. -/
def u₀ : UU :=
  (initOf (Pipeline.cells cfgs cellOf_inj) (Pipeline.launchToks cfgs cellOf_inj), (initOf rsCells rsToks, 1))

/-! ### Sums over an optional index, over the four arrays -/

omit [FloatOps F] in
/-- A sum over an optional index: the summand at `none` beside the sum over `some`. -/
theorem bigSep_univ_option {α : Type} [Fintype α] [DecidableEq α] (Φ : Option α → sProp 𝕄) :
    bigSep Finset.univ Φ = iprop(Φ none ∗ bigSep Finset.univ fun a => Φ (some a)) := by
  have h : (Finset.univ : Finset (Option α)).erase none = Finset.univ.map Function.Embedding.some := by
    ext x
    rcases x with _ | a
    · simp
    · simp
  rw [bigSep_univ_at Φ none, h, bigSep_map]
  rfl

omit [FloatOps F] in
/-- A sum over a disjoint union of index types: the two sums side by side. -/
theorem bigSep_univ_sum'' {α β : Type} [Fintype α] [Fintype β] (Φ : α ⊕ β → sProp 𝕄) :
    bigSep Finset.univ Φ = iprop((bigSep Finset.univ fun a => Φ (.inl a)) ∗ bigSep Finset.univ fun b => Φ (.inr b)) :=
  bigSep_univ_sum Φ

omit [FloatOps F] in
theorem bigSep_fin4F (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_bool (Φ : Bool → sProp 𝕄) : bigSep Finset.univ Φ = iprop(Φ false ∗ Φ true) :=
  bigSep_univ_eq_bigSepL [false, true] (by decide) (by decide) Φ

/-! ### Funding -/

theorem toks_of_minted_at (c : Dev nD) :
    (bigSep Finset.univ fun j : Bool ⊕ (Fin 4 × Fin 8) => (dutyTok ER (tokOf (c, j)).1 (tokOf (c, j)).2.1 (tokOf (c, j)).2.2 : sProp 𝕄)) ⊢ toks c := by
  rw [bigSep_univ_sum'', bigSep_bool]
  unfold toks
  iintro ⟨⟨H1, H2⟩, H3⟩
  isplitl [H1]; · iexact H1
  isplitl [H2]; · iexact H2
  iexact H3

theorem toks_of_minted :
    bigSep rsToks (fun x => (dutyTok ER x.1 x.2.1 x.2.2 : sProp 𝕄)) ⊢ bigSep Finset.univ fun c : Dev nD => toks c := by
  unfold rsToks; rw [bigSep_map, bigSep_univ_prod]
  exact bigSep_mono fun c _ => toks_of_minted_at (F := F) c

theorem fund_rs (m : (ℓ : Loc nD τ sig) → Buf (Elt F) ℓ) : BI.own (ER (initOf rsCells rsToks)) ⊢ (|==> bigSep Finset.univ (G m) : sProp 𝕄) := by
  have hX (Φ : GSem nD τ sig → sProp 𝕄) : bigSep rsCells Φ = bigSep Finset.univ fun c : Dev nD => bigSep Finset.univ fun k : CK => Φ (kcell (c, k)) := by
    unfold rsCells; rw [bigSep_map, bigSep_univ_prod]; rfl
  iintro HX
  imod (Rounds.fund ER (rsRd m) rsCells rsToks) $$ HX with ⟨Hst, Hr, Hat, Htok⟩
  imodintro
  ihave Hst' := (Entails.of_eq (hX fun g => roundState ER (rsRd m) g 0)) $$ Hst
  ihave Hat' := (Entails.of_eq (hX fun g => atPos ER g 0 ∅ 0)) $$ Hat
  ihave Hr' := (Entails.of_eq (hX fun g => reached ER g 0)) $$ Hr
  ihave Htok' := (toks_of_minted (F := F)) $$ Htok
  unfold G; simp only [bigSep_sep']
  isplitl [Hst']; · iexact Hst'
  isplitl [Hat' Hr']
  · isplitl [Hat'] <;> iassumption
  iexact Htok'

/-- The same, the rounds' embedding spelt out: the left half of the right half of the user algebra. -/
theorem fund_rs_inl (m : (ℓ : Loc nD τ sig) → Buf (Elt F) ℓ) :
    (BI.own (((Emb.inl : Emb UB (UB × Counters)).trans embR) (initOf rsCells rsToks)) : sProp 𝕄) ⊢ |==> bigSep Finset.univ (G m) :=
  fund_rs m

/-- The launch element splits into the pipeline's and, dealt device by device, the rounds'. -/
theorem fund_u₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb embR _ _) $$ HX
  icases H2 with ⟨HR, -⟩
  imod (fund_rs_inl m) $$ HR with HG
  imodintro
  isplitl [HP] <;> iassumption

/-! ### The counters at zero -/

/-- A device's own counters at zero are its nine local ones and its thirty-two cells'. -/
theorem ownSems0_split (c : Dev nD) :
    (Pipeline.ownSems0 (Ix := Unit) (Name := ℕ) (U := UU) (Lvl := ℕ) (Val := Elt F) (τ := τ) osem c : sProp 𝕄)
      ⊢ iprop(locals0 c ∗ bigSep Finset.univ fun fk : Fin 4 × Fin 8 => semVal (qCell c fk.1 fk.2) 0) := by
  unfold Pipeline.ownSems0 locals0
  rw [bigSep_univ_sum'', bigSep_univ_option]
  iintro ⟨⟨Ho, Hf⟩, Hq⟩
  isplitl [Ho Hf]
  · isplitl [Hf]; · iexact Hf
    iexact Ho
  iexact Hq
theorem ownSems0_join (c : Dev nD) :
    iprop(locals0 c ∗ bigSep Finset.univ fun fk : Fin 4 × Fin 8 => semVal (qCell c fk.1 fk.2) 0)
      ⊢ (Pipeline.ownSems0 (Ix := Unit) (Name := ℕ) (U := UU) (Lvl := ℕ) (Val := Elt F) (τ := τ) osem c : sProp 𝕄) := by
  unfold Pipeline.ownSems0 locals0
  rw [bigSep_univ_sum'', bigSep_univ_option]
  iintro ⟨⟨Hf, Ho⟩, Hq⟩
  isplitl [Ho Hf]
  · isplitl [Ho]; · iexact Ho
    iexact Hf
  iexact Hq

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All forty-two counters of a device at zero: the nine local ones beside its thirty-three cells'. -/
theorem sems0_cells (c : Dev nD) :
    iprop(Pipeline.ownSems0 (Ix := Unit) (Name := ℕ) (U := UU) (Lvl := ℕ) (Val := Elt F) (τ := τ) osem c ∗ unscopedSems0 c)
      ⊢ (iprop(locals0 c ∗ bigSep Finset.univ fun ck : CK => semVal (kcell (c, ck)) 0) : sProp 𝕄) := by
  rw [unscopedSems0_eq, bigSep_univ_option]
  iintro ⟨Hos, HB⟩
  ihave H := (ownSems0_split (F := F) c) $$ Hos
  icases H with ⟨Hl, Hq⟩
  isplitl [Hl]; · iexact Hl
  isplitl [HB]; · iexact HB
  iexact Hq

/-! ### The global step -/

/-- On one device: each of its thirty-three counters at zero, with its round state, becomes the cell's invariant at
    some name; the nine local counters pass through. -/
theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ck : CK => iprop(∃ κ : ℕ, cellInv ER (rsRd m) κ (kcell (c, ck))))
          ∗ (bigSep Finset.univ fun ck : CK => iprop(atPos ER (kcell (c, ck)) 0 ∅ 0 ∗ reached ER (kcell (c, ck)) 0)) ∗ toks c ∗ locals0 c) := by
  unfold G
  iintro ⟨Hos, Hus, Hst, Hat, Htok⟩
  ihave Hv := (sems0_cells (F := F) c) $$ [Hos Hus]
  · isplitl [Hos] <;> iassumption
  icases Hv with ⟨Hloc, Hv⟩
  imod (show iprop((bigSep Finset.univ fun k : CK => semVal (kcell (c, k)) 0) ∗ bigSep Finset.univ fun k : CK => roundState ER (rsRd m) (kcell (c, k)) 0)
      ⊢ (|={Set.univ}=> bigSep Finset.univ fun k : CK => iprop(∃ κ : ℕ, cellInv ER (rsRd m) κ (kcell (c, k))) : sProp 𝕄) from by
        rw [← bigSep_sep']
        exact (bigSep_mono fun k _ => (Rounds.body_intro ER (rsRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- The ghost state of a device from the records and what stays with it. -/
theorem ghost_intro (m : (ℓ : Loc nD τ sig) → Buf (Elt F) ℓ) (K : Dev nD × CK → ℕ) (c : Dev nD) :
    iprop(records m K ∗ (linear c ∗ locals0 c)) ⊢ G' m c := by
  unfold G' ghost
  iintro ⟨#HR, Hl, Hloc⟩
  isplitl [Hl]
  · iexists K
    isplitr; · iexact HR
    iexact Hl
  iexact Hloc

/-- A device's minted tokens, the thirty-two sorted by array. -/
theorem toks_eq (c : Dev nD) :
    (toks c : sProp 𝕄) = iprop(dutyTok ER (barCell c) 0 false ∗ dutyTok ER (barCell c) 0 true
      ∗ (bigSep Finset.univ fun k : Fin 8 => dutyTok ER (qCell c 0 k) 0 false)
      ∗ (bigSep Finset.univ fun k : Fin 8 => dutyTok ER (qCell c 1 k) 0 false)
      ∗ (bigSep Finset.univ fun k : Fin 8 => dutyTok ER (qCell c 2 k) 0 false)
      ∗ (bigSep Finset.univ fun k : Fin 8 => dutyTok ER (qCell c 3 k) 0 false)) := by
  unfold toks; rw [bigSep_univ_prod, bigSep_fin4F]

/-- The tokens dealt to their payers: a barrier cell's `false` token to the x-peer and its `true` token to the
    y-peer, an x-receive cell's to the x-peer, a y-receive cell's to the y-peer, a send cell's stays. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  rw [bigSep_sep', bigSep_sep', bigSep_sep', bigSep_sep', bigSep_sep', bigSep_sep', bigSep_sep', bigSep_sep', bigSep_sep', bigSep_sep',
    bigSep_univ_equiv swapX (fun c : Dev nD => (dutyTok ER (barCell c) 0 false : sProp 𝕄)),
    bigSep_univ_equiv swapY (fun c : Dev nD => (dutyTok ER (barCell c) 0 true : sProp 𝕄)),
    bigSep_univ_equiv swapX (fun c : Dev nD => (bigSep Finset.univ fun k : Fin 8 => dutyTok ER (qCell c 1 k) 0 false : sProp 𝕄)),
    bigSep_univ_equiv swapY (fun c : Dev nD => (bigSep Finset.univ fun k : Fin 8 => dutyTok ER (qCell c 3 k) 0 false : sProp 𝕄))]
  iintro ⟨HB, HT, H0, H1, H2, H3⟩
  isplitl [HB]; · iexact HB
  isplitl [HT]; · iexact HT
  isplitl [H1]; · iexact H1
  isplitl [H3]; · iexact H3
  isplitl [H0]; · iexact H0
  iexact H2

/-- What stays with a device, from its thirty-three positions and the tokens it pays. -/
theorem linear_intro (c : Dev nD) :
    (iprop((bigSep Finset.univ fun k : CK => atPos ER (kcell (c, k)) 0 ∅ 0) ∗ payToks c) : sProp 𝕄) ⊢ linear c := by
  unfold linear; rw [bigSep_univ_option]
  iintro ⟨⟨H1, H2⟩, H3⟩
  isplitl [H1]; · iexact H1
  isplitl [H2]; · iexact H2
  iexact H3

theorem regroup (m : (ℓ : Loc nD τ sig) → Buf (Elt F) ℓ) :
    (bigSep Finset.univ fun c : Dev nD => iprop((bigSep Finset.univ fun ck : CK => iprop(∃ κ : ℕ, cellInv ER (rsRd m) κ (kcell (c, ck))))
          ∗ (bigSep Finset.univ fun ck : CK => iprop(atPos ER (kcell (c, ck)) 0 ∅ 0 ∗ reached ER (kcell (c, ck)) 0)) ∗ toks c ∗ locals0 c) : sProp 𝕄)
      ⊢ bigSep Finset.univ (G' m) := by
  rw [bigSep_sep', bigSep_sep', bigSep_sep', ← bigSep_univ_prod (fun ck : Dev nD × CK => iprop(∃ κ : ℕ, cellInv ER (rsRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hloc⟩
  ihave HK := (BI.bigSep_exists_pi Finset.univ (fun (ck : Dev nD × CK) (κ : ℕ) => (cellInv ER (rsRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => iprop((bigSep Finset.univ fun k : CK => (atPos ER (kcell (c, k)) 0 ∅ 0 : sProp 𝕄)) ∗ payToks c)) locals0).symm).trans
      (bigSep_mono fun c _ => sep_mono_left (linear_intro (F := F) c)))
    isplitl [Hat Htk]
    · iapply (Entails.of_eq (bigSep_sep' Finset.univ (fun c : Dev nD => bigSep Finset.univ fun k : CK => (atPos ER (kcell (c, k)) 0 ∅ 0 : sProp 𝕄)) payToks).symm)
      isplitl [Hat]; · iexact Hat
      iexact Htk
    iexact Hloc

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.RS.fund_u₀' depends on axioms: [propext, Classical.choice, Quot.sound] -/
#guard_msgs in #print axioms fund_u₀

/-- info: 'Cert.KernelIdeal.RS.glob' depends on axioms: [propext, Classical.choice, Quot.sound] -/
#guard_msgs in #print axioms glob

end Cert.KernelIdeal.RS

end
-- ==== Proof.RSChunks.lean ====
/-
  The three exchange buffers, chunk by chunk.

  Each of the x-send, x-receive and y-receive buffers is eight chunks of 64 rows; chunk `k` is the elements whose leading
  coordinate is `k`. The chunks are pairwise disjoint and together are every element of the buffer, so a buffer held whole
  (any share, one contents function) is the same as its eight chunks held separately with that function; and eight chunks
  held in full, each with contents of its own, are the buffer held in full with the contents glued chunk by chunk.
  Last, a held region at the full share is its left half and its right half.
-/
import proofs.«901020_g7700000000001021_dist_rs_v7x_xyz2x2x2_x_m1024_n512_bf16_1_alg».proof.Proof.RSProto

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Which elements a chunk is -/

/-- The rows of chunk `k`: leading coordinate `k`, every row and column below it. -/
abbrev chunkRect (k : Fin 8) : Rect S8x64x512 := Rect.unit (s := S8x64x512) ![k.val, 0, 0] S1x64x512.size (inbC k)

/-- An index lies in chunk `k`'s rows exactly when its leading coordinate is `k`. -/
theorem mem_chunkRect (k : Fin 8) (i : S8x64x512.Idx) : i ∈ (chunkRect k).set ↔ (i 0).val = k.val := by
  rw [Rect.mem_set_unit]
  constructor
  · intro h
    have h0 := h 0
    have e0 : (![k.val, 0, 0] : Fin 3 → ℕ) 0 = k.val := rfl
    have e1 : S1x64x512.size 0 = 1 := rfl
    rw [e0, e1] at h0
    omega
  · intro h a
    match a with
    | ⟨0, _⟩ =>
      show k.val ≤ (i 0).val ∧ (i 0).val < k.val + 1
      omega
    | ⟨1, _⟩ =>
      have := (i 1).isLt
      show 0 ≤ (i 1).val ∧ (i 1).val < 0 + 64
      have e : S8x64x512.size 1 = 64 := rfl
      omega
    | ⟨2, _⟩ =>
      have := (i 2).isLt
      show 0 ≤ (i 2).val ∧ (i 2).val < 0 + 512
      have e : S8x64x512.size 2 = 512 := rfl
      omega

/-- Chunk `k` of a buffer holds the buffer's elements under chunk `k`'s rows. -/
theorem chunk_set (B : Memref sig .tc .vmem S8x64x512 .bf16) (k : Fin 8) :
    (chunkOf B k).view.set = (chunkRect k).set.map B.view.emb := by
  rw [Memref.set_view_squeeze]
  exact View.set_slice _ _

/-- Two different chunks share no element. -/
theorem chunk_disjoint (B : Memref sig .tc .vmem S8x64x512 .bf16) (k k' : Fin 8) (h : k ≠ k') :
    Disjoint (chunkOf B k).view.set (chunkOf B k').view.set := by
  rw [chunk_set, chunk_set, Finset.disjoint_map]
  rw [Finset.disjoint_left]
  intro i hi hi'
  rw [mem_chunkRect] at hi hi'
  exact h (Fin.ext (hi.symm.trans hi'))

/-- The eight chunks are the whole buffer. -/
theorem chunks_cover (B : Memref sig .tc .vmem S8x64x512 .bf16) :
    B.view.set = Finset.univ.biUnion fun k : Fin 8 => (chunkOf B k).view.set := by
  ext x
  rw [Finset.mem_biUnion]
  constructor
  · intro hx
    obtain ⟨i, -, rfl⟩ := Finset.mem_map.mp hx
    refine ⟨⟨(i 0).val, (i 0).isLt⟩, Finset.mem_univ _, ?_⟩
    rw [chunk_set]
    exact Finset.mem_map_of_mem _ ((mem_chunkRect _ i).mpr rfl)
  · rintro ⟨k, -, hk⟩
    rw [chunk_set] at hk
    obtain ⟨i, -, rfl⟩ := Finset.mem_map.mp hk
    exact View.emb_mem_set _ i

/-! ## A buffer held whole and held by chunks -/

/-- A buffer held whole is held chunk by chunk: the same contents function in every chunk. -/
theorem chunks_eq {F : FTy → Type} [FloatOps F] (B : Memref sig .tc .vmem S8x64x512 .bf16) (c : Dev nD) (q : PosShare TreeShare)
    (f : Buf (Elt F) (B.view.loc (c : Thread nD τ))) :
    (ptsM B c q f : sProp (MT nD τ sig Unit (Elt F) ℕ UU ℕ)) = bigSep Finset.univ fun k : Fin 8 => ptsM (chunkOf B k) c q f := by
  have key := pointsTo_biUnion (nD := nD) (τ := τ) (sig := sig) (Ix := Unit) (Val := Elt F) (Name := ℕ) (U := UU) (Lvl := ℕ)
    (ℓ := B.view.loc (c : Thread nD τ)) (q := q) (f := f) Finset.univ (fun k : Fin 8 => (chunkOf B k).view.set)
    (fun k _ k' _ h => chunk_disjoint B k k' h)
  rw [← chunks_cover B] at key
  exact key

theorem chunks_split {F : FTy → Type} [FloatOps F] (B : Memref sig .tc .vmem S8x64x512 .bf16) (c : Dev nD) (q : PosShare TreeShare)
    (f : Buf (Elt F) (B.view.loc (c : Thread nD τ))) :
    (ptsM B c q f : sProp (MT nD τ sig Unit (Elt F) ℕ UU ℕ)) ⊢ bigSep Finset.univ fun k : Fin 8 => ptsM (chunkOf B k) c q f :=
  Entails.of_eq (chunks_eq B c q f)

theorem chunks_join {F : FTy → Type} [FloatOps F] (B : Memref sig .tc .vmem S8x64x512 .bf16) (c : Dev nD) (q : PosShare TreeShare)
    (f : Buf (Elt F) (B.view.loc (c : Thread nD τ))) :
    (bigSep Finset.univ fun k : Fin 8 => ptsM (chunkOf B k) c q f : sProp (MT nD τ sig Unit (Elt F) ℕ UU ℕ)) ⊢ ptsM B c q f :=
  Entails.of_eq (chunks_eq B c q f).symm

/-- Pairwise disjoint sets of elements of one buffer, each held with some contents, are their union held with some
    contents: the contents are glued piece by piece. -/
theorem pts_biUnion_exists {F : FTy → Type} [FloatOps F] {ℓ : Loc nD τ sig} {T : Type} (S : Finset T) (K : T → Finset (Idx ℓ))
    (q : PosShare TreeShare) (h : ∀ t ∈ S, ∀ t' ∈ S, t ≠ t' → Disjoint (K t) (K t')) :
    (bigSep S (fun t => iprop(∃ f : Buf (Elt F) ℓ, ℓ ↦[K t]{q} f)) : sProp (MT nD τ sig Unit (Elt F) ℕ UU ℕ))
      ⊢ iprop(∃ g : Buf (Elt F) ℓ, ℓ ↦[S.biUnion K]{q} g) := by
  classical
  induction S using Finset.induction_on with
  | empty =>
    iintro -
    iexists (fun _ => default)
    rw [Finset.biUnion_empty, pointsTo_empty]
    iempintro
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine (show iprop((∃ f : Buf (Elt F) ℓ, ℓ ↦[K t]{q} f) ∗ bigSep S (fun t => iprop(∃ f : Buf (Elt F) ℓ, ℓ ↦[K t]{q} f))) ⊢ _ from ?_)
    iintro ⟨⟨%ft, Ht⟩, HS⟩
    ihave H := (ih fun t₁ h₁ t₂ h₂ => h t₁ (Finset.mem_insert_of_mem h₁) t₂ (Finset.mem_insert_of_mem h₂)) $$ HS
    icases H with ⟨%g, HS⟩
    iexists (S.biUnion K).piecewise g ft
    iapply (pointsTo_join hd)
    isplitl [Ht]
    · iexact Ht
    · iexact HS

/-- The eight chunks of a buffer, each held in full with some contents, are the buffer held in full with some contents. -/
theorem chunks_join_ex {F : FTy → Type} [FloatOps F] (B : Memref sig .tc .vmem S8x64x512 .bf16) (c : Dev nD) :
    (bigSep Finset.univ fun k : Fin 8 => iprop(∃ f, ptsM (F := F) (chunkOf B k) c fullShare f) : sProp (MT nD τ sig Unit (Elt F) ℕ UU ℕ))
      ⊢ iprop(∃ f, ptsM (F := F) B c fullShare f) := by
  have key := pts_biUnion_exists (F := F) (ℓ := B.view.loc (c : Thread nD τ)) Finset.univ (fun k : Fin 8 => (chunkOf B k).view.set)
    fullShare (fun k _ k' _ h => chunk_disjoint B k k' h)
  rw [← chunks_cover B] at key
  exact key

/-! ## A region's share, halved -/

theorem pts_halve {F : FTy → Type} [FloatOps F] {sh : Shape} {e : EltTy} (M : Memref sig .tc .vmem sh e) (c : Dev nD)
    (f : Buf (Elt F) (M.view.loc (c : Thread nD τ))) :
    (ptsM M c fullShare f : sProp (MT nD τ sig Unit (Elt F) ℕ UU ℕ)) ⊢ iprop(ptsM M c fullShare.left f ∗ ptsM M c fullShare.right f) :=
  (pointsTo_share (PosShare.mem_left_op_right fullShare)).1

theorem pts_unhalve {F : FTy → Type} [FloatOps F] {sh : Shape} {e : EltTy} (M : Memref sig .tc .vmem sh e) (c : Dev nD)
    (f : Buf (Elt F) (M.view.loc (c : Thread nD τ))) :
    (iprop(ptsM M c fullShare.left f ∗ ptsM M c fullShare.right f) : sProp (MT nD τ sig Unit (Elt F) ℕ UU ℕ)) ⊢ ptsM M c fullShare f :=
  (pointsTo_share (PosShare.mem_left_op_right fullShare)).2

/-! ## The three buffers of the exchange -/

/-- The x-send buffer held whole is its points-to over all of its elements. -/
theorem sx_whole {F : FTy → Type} [FloatOps F] (c : Dev nD) (q : PosShare TreeShare)
    (f : Buf (Elt F) ((c : Thread nD τ).loc cc0_scratch2)) :
    (ptsM sxB c q f : sProp (MT nD τ sig Unit (Elt F) ℕ UU ℕ)) = ((c : Thread nD τ).loc cc0_scratch2 ↦{q} f) := by
  unfold ptsM
  rw [View.set_whole]

theorem sx_split {F : FTy → Type} [FloatOps F] (c : Dev nD) (q : PosShare TreeShare)
    (f : Buf (Elt F) ((c : Thread nD τ).loc cc0_scratch2)) :
    (((c : Thread nD τ).loc cc0_scratch2) ↦{q} f : sProp (MT nD τ sig Unit (Elt F) ℕ UU ℕ))
      ⊢ bigSep Finset.univ fun k : Fin 8 => ptsM (chunkOf sxB k) c q f := by
  rw [← sx_whole]
  exact chunks_split sxB c q f

theorem sx_join {F : FTy → Type} [FloatOps F] (c : Dev nD) (q : PosShare TreeShare)
    (f : Buf (Elt F) ((c : Thread nD τ).loc cc0_scratch2)) :
    (bigSep Finset.univ fun k : Fin 8 => ptsM (chunkOf sxB k) c q f : sProp (MT nD τ sig Unit (Elt F) ℕ UU ℕ))
      ⊢ ((c : Thread nD τ).loc cc0_scratch2) ↦{q} f := by
  rw [← sx_whole]
  exact chunks_join sxB c q f

theorem sx_join_ex {F : FTy → Type} [FloatOps F] (c : Dev nD) :
    (bigSep Finset.univ fun k : Fin 8 => iprop(∃ f, ptsM (F := F) (chunkOf sxB k) c fullShare f) : sProp (MT nD τ sig Unit (Elt F) ℕ UU ℕ))
      ⊢ iprop(∃ f : Buf (Elt F) ((c : Thread nD τ).loc cc0_scratch2), ((c : Thread nD τ).loc cc0_scratch2) ↦{fullShare} f) := by
  refine (chunks_join_ex (F := F) sxB c).trans ?_
  iintro ⟨%f, H⟩
  iexists f
  iapply (Entails.of_eq (sx_whole c fullShare f))
  iexact H

/-- The x-receive buffer held whole is its points-to over all of its elements. -/
theorem rx_whole {F : FTy → Type} [FloatOps F] (c : Dev nD) (q : PosShare TreeShare)
    (f : Buf (Elt F) ((c : Thread nD τ).loc cc0_scratch3)) :
    (ptsM rxB c q f : sProp (MT nD τ sig Unit (Elt F) ℕ UU ℕ)) = ((c : Thread nD τ).loc cc0_scratch3 ↦{q} f) := by
  unfold ptsM
  rw [View.set_whole]

theorem rx_split {F : FTy → Type} [FloatOps F] (c : Dev nD) (q : PosShare TreeShare)
    (f : Buf (Elt F) ((c : Thread nD τ).loc cc0_scratch3)) :
    (((c : Thread nD τ).loc cc0_scratch3) ↦{q} f : sProp (MT nD τ sig Unit (Elt F) ℕ UU ℕ))
      ⊢ bigSep Finset.univ fun k : Fin 8 => ptsM (chunkOf rxB k) c q f := by
  rw [← rx_whole]
  exact chunks_split rxB c q f

theorem rx_join {F : FTy → Type} [FloatOps F] (c : Dev nD) (q : PosShare TreeShare)
    (f : Buf (Elt F) ((c : Thread nD τ).loc cc0_scratch3)) :
    (bigSep Finset.univ fun k : Fin 8 => ptsM (chunkOf rxB k) c q f : sProp (MT nD τ sig Unit (Elt F) ℕ UU ℕ))
      ⊢ ((c : Thread nD τ).loc cc0_scratch3) ↦{q} f := by
  rw [← rx_whole]
  exact chunks_join rxB c q f

theorem rx_join_ex {F : FTy → Type} [FloatOps F] (c : Dev nD) :
    (bigSep Finset.univ fun k : Fin 8 => iprop(∃ f, ptsM (F := F) (chunkOf rxB k) c fullShare f) : sProp (MT nD τ sig Unit (Elt F) ℕ UU ℕ))
      ⊢ iprop(∃ f : Buf (Elt F) ((c : Thread nD τ).loc cc0_scratch3), ((c : Thread nD τ).loc cc0_scratch3) ↦{fullShare} f) := by
  refine (chunks_join_ex (F := F) rxB c).trans ?_
  iintro ⟨%f, H⟩
  iexists f
  iapply (Entails.of_eq (rx_whole c fullShare f))
  iexact H

/-- The y-receive buffer held whole is its points-to over all of its elements. -/
theorem rz_whole {F : FTy → Type} [FloatOps F] (c : Dev nD) (q : PosShare TreeShare)
    (f : Buf (Elt F) ((c : Thread nD τ).loc cc0_scratch4)) :
    (ptsM rzB c q f : sProp (MT nD τ sig Unit (Elt F) ℕ UU ℕ)) = ((c : Thread nD τ).loc cc0_scratch4 ↦{q} f) := by
  unfold ptsM
  rw [View.set_whole]

theorem rz_split {F : FTy → Type} [FloatOps F] (c : Dev nD) (q : PosShare TreeShare)
    (f : Buf (Elt F) ((c : Thread nD τ).loc cc0_scratch4)) :
    (((c : Thread nD τ).loc cc0_scratch4) ↦{q} f : sProp (MT nD τ sig Unit (Elt F) ℕ UU ℕ))
      ⊢ bigSep Finset.univ fun k : Fin 8 => ptsM (chunkOf rzB k) c q f := by
  rw [← rz_whole]
  exact chunks_split rzB c q f

theorem rz_join {F : FTy → Type} [FloatOps F] (c : Dev nD) (q : PosShare TreeShare)
    (f : Buf (Elt F) ((c : Thread nD τ).loc cc0_scratch4)) :
    (bigSep Finset.univ fun k : Fin 8 => ptsM (chunkOf rzB k) c q f : sProp (MT nD τ sig Unit (Elt F) ℕ UU ℕ))
      ⊢ ((c : Thread nD τ).loc cc0_scratch4) ↦{q} f := by
  rw [← rz_whole]
  exact chunks_join rzB c q f

theorem rz_join_ex {F : FTy → Type} [FloatOps F] (c : Dev nD) :
    (bigSep Finset.univ fun k : Fin 8 => iprop(∃ f, ptsM (F := F) (chunkOf rzB k) c fullShare f) : sProp (MT nD τ sig Unit (Elt F) ℕ UU ℕ))
      ⊢ iprop(∃ f : Buf (Elt F) ((c : Thread nD τ).loc cc0_scratch4), ((c : Thread nD τ).loc cc0_scratch4) ↦{fullShare} f) := by
  refine (chunks_join_ex (F := F) rzB c).trans ?_
  iintro ⟨%f, H⟩
  iexists f
  iapply (Entails.of_eq (rz_whole c fullShare f))
  iexact H

/-- info: 'Cert.KernelIdeal.RS.chunks_split' depends on axioms: [propext, Classical.choice, Quot.sound] -/
#guard_msgs in #print axioms chunks_split
/-- info: 'Cert.KernelIdeal.RS.chunks_join' depends on axioms: [propext, Classical.choice, Quot.sound] -/
#guard_msgs in #print axioms chunks_join
/-- info: 'Cert.KernelIdeal.RS.chunks_join_ex' depends on axioms: [propext, Classical.choice, Quot.sound] -/
#guard_msgs in #print axioms chunks_join_ex
/-- info: 'Cert.KernelIdeal.RS.pts_halve' depends on axioms: [propext, Classical.choice, Quot.sound] -/
#guard_msgs in #print axioms pts_halve
/-- info: 'Cert.KernelIdeal.RS.pts_unhalve' depends on axioms: [propext, Classical.choice, Quot.sound] -/
#guard_msgs in #print axioms pts_unhalve
/-- info: 'Cert.KernelIdeal.RS.sx_split' depends on axioms: [propext, Classical.choice, Quot.sound] -/
#guard_msgs in #print axioms sx_split
/-- info: 'Cert.KernelIdeal.RS.sx_join' depends on axioms: [propext, Classical.choice, Quot.sound] -/
#guard_msgs in #print axioms sx_join
/-- info: 'Cert.KernelIdeal.RS.sx_join_ex' depends on axioms: [propext, Classical.choice, Quot.sound] -/
#guard_msgs in #print axioms sx_join_ex
/-- info: 'Cert.KernelIdeal.RS.rx_split' depends on axioms: [propext, Classical.choice, Quot.sound] -/
#guard_msgs in #print axioms rx_split
/-- info: 'Cert.KernelIdeal.RS.rx_join' depends on axioms: [propext, Classical.choice, Quot.sound] -/
#guard_msgs in #print axioms rx_join
/-- info: 'Cert.KernelIdeal.RS.rx_join_ex' depends on axioms: [propext, Classical.choice, Quot.sound] -/
#guard_msgs in #print axioms rx_join_ex
/-- info: 'Cert.KernelIdeal.RS.rz_split' depends on axioms: [propext, Classical.choice, Quot.sound] -/
#guard_msgs in #print axioms rz_split
/-- info: 'Cert.KernelIdeal.RS.rz_join' depends on axioms: [propext, Classical.choice, Quot.sound] -/
#guard_msgs in #print axioms rz_join
/-- info: 'Cert.KernelIdeal.RS.rz_join_ex' depends on axioms: [propext, Classical.choice, Quot.sound] -/
#guard_msgs in #print axioms rz_join_ex

end Cert.KernelIdeal.RS

end
-- ==== Proof.RSWaits.lean ====
/-
  A device never waits below what it owes.

  What device `c` still owes at each of its waits, as the explicit left-nested sums the program's steps leave: before
  its x-send of chunk `j` it owes the x-peer chunks `j … 7` and the y-peer all eight forwards; before its forward of
  chunk `j` it owes the y-peer forwards `j … 7`. The barrier cell (level 1) is waited while all sixteen are owed, a
  local fetch (level 0) while some x-sends and all forwards are, an x-receive cell (level 2) while only forwards
  (level 3) are: every wait sits strictly below everything owed.
-/
import proofs.«901020_g7700000000001021_dist_rs_v7x_xyz2x2x2_x_m1024_n512_bf16_1_alg».proof.Proof.RSProto

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- Owed to the y-peer before the forward of chunk `j`: forwards `j … 7`. -/
abbrev owZ (c : Dev nD) : Fin 8 → CellTallies nD τ sig Unit
  | 0 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N
  | 1 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N
  | 2 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N
  | 3 => tallyAt (qCell (py c) 3 7) () N + tallyAt (qCell (py c) 3 6) () N + tallyAt (qCell (py c) 3 5) () N + tallyAt (qCell (py c) 3 4) () N + tallyAt (qCell (py c) 3 3) () N
  | 4 => tallyAt (qCell (py c) 3 7) () N + tallyAt (qCell (py c) 3 6) () N + tallyAt (qCell (py c) 3 5) () N + tallyAt (qCell (py c) 3 4) () N
  | 5 => tallyAt (qCell (py c) 3 7) () N + tallyAt (qCell (py c) 3 6) () N + tallyAt (qCell (py c) 3 5) () N
  | 6 => tallyAt (qCell (py c) 3 7) () N + tallyAt (qCell (py c) 3 6) () N
  | 7 => tallyAt (qCell (py c) 3 7) () N

/-- Owed before the x-send of chunk `j`: all eight forwards and x-sends `j … 7`. -/
abbrev owX (c : Dev nD) : Fin 8 → CellTallies nD τ sig Unit
  | 0 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N + tallyAt (qCell (px c) 1 2) () N + tallyAt (qCell (px c) 1 1) () N + tallyAt (qCell (px c) 1 0) () N
  | 1 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N + tallyAt (qCell (px c) 1 2) () N + tallyAt (qCell (px c) 1 1) () N
  | 2 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N + tallyAt (qCell (px c) 1 2) () N
  | 3 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N
  | 4 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N
  | 5 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N
  | 6 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N
  | 7 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N

/-- Tallies all of which sit on TensorCore cells strictly above level `n`. -/
def OwedAbove (n : ℕ) (O : CellTallies nD τ sig Unit) : Prop :=
  ∀ (g : GSem nD τ sig) (u : Unit), 0 < O g u → g.1.2 = .tc ∧ n < lv g u

theorem OwedAbove.add {n : ℕ} {A B : CellTallies nD τ sig Unit} (hA : OwedAbove n A) (hB : OwedAbove n B) : OwedAbove n (A + B) :=
  fun g u h => (Pipeline.add_pos_cases h).elim (hA g u) (hB g u)

theorem OwedAbove.single (n : ℕ) (g₀ : GSem nD τ sig) (k : ℕ) (h1 : g₀.1.2 = .tc) (h2 : n < lv g₀ ()) : OwedAbove n (tallyAt g₀ () k) :=
  fun g u h => by
    rw [tallyAt_apply] at h
    by_cases hg : g = g₀ ∧ u = ()
    · rw [hg.1]; exact ⟨h1, h2⟩
    · rw [if_neg hg] at h; exact absurd h (Nat.lt_irrefl 0)

theorem OwedAbove.mono {n n' : ℕ} {O : CellTallies nD τ sig Unit} (hn : n' ≤ n) (h : OwedAbove n O) : OwedAbove n' O :=
  fun g u hg => ⟨(h g u hg).1, Nat.lt_of_le_of_lt hn (h g u hg).2⟩

/-- A y-receive cell sits at level 3, an x-receive cell at level 2. -/
theorem above_rz (c : Dev nD) (k : Fin 8) : OwedAbove 2 (tallyAt (qCell c 3 k) () N) :=
  OwedAbove.single 2 _ _ rfl (by rw [lv_q]; decide)
theorem above_rx (c : Dev nD) (k : Fin 8) : OwedAbove 1 (tallyAt (qCell c 1 k) () N) :=
  OwedAbove.single 1 _ _ rfl (by rw [lv_q]; decide)
theorem above_rz1 (c : Dev nD) (k : Fin 8) : OwedAbove 1 (tallyAt (qCell c 3 k) () N) := (above_rz c k).mono (by decide)

/-- While only forwards are owed, everything owed sits above level 2; -/
theorem above_owZ (c : Dev nD) : ∀ j : Fin 8, OwedAbove 2 (owZ c j)
  | 0 => (((((((above_rz (py c) 7).add (above_rz (py c) 6)).add (above_rz (py c) 5)).add (above_rz (py c) 4)).add (above_rz (py c) 3)).add (above_rz (py c) 2)).add (above_rz (py c) 1)).add (above_rz (py c) 0)
  | 1 => ((((((above_rz (py c) 7).add (above_rz (py c) 6)).add (above_rz (py c) 5)).add (above_rz (py c) 4)).add (above_rz (py c) 3)).add (above_rz (py c) 2)).add (above_rz (py c) 1)
  | 2 => (((((above_rz (py c) 7).add (above_rz (py c) 6)).add (above_rz (py c) 5)).add (above_rz (py c) 4)).add (above_rz (py c) 3)).add (above_rz (py c) 2)
  | 3 => ((((above_rz (py c) 7).add (above_rz (py c) 6)).add (above_rz (py c) 5)).add (above_rz (py c) 4)).add (above_rz (py c) 3)
  | 4 => (((above_rz (py c) 7).add (above_rz (py c) 6)).add (above_rz (py c) 5)).add (above_rz (py c) 4)
  | 5 => ((above_rz (py c) 7).add (above_rz (py c) 6)).add (above_rz (py c) 5)
  | 6 => (above_rz (py c) 7).add (above_rz (py c) 6)
  | 7 => above_rz (py c) 7

/-- with x-sends owed too, above level 1. -/
theorem above_owX (c : Dev nD) : ∀ j : Fin 8, OwedAbove 1 (owX c j)
  | 0 => (((((((((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)).add (above_rx (px c) 6)).add (above_rx (px c) 5)).add (above_rx (px c) 4)).add (above_rx (px c) 3)).add (above_rx (px c) 2)).add (above_rx (px c) 1)).add (above_rx (px c) 0)
  | 1 => ((((((((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)).add (above_rx (px c) 6)).add (above_rx (px c) 5)).add (above_rx (px c) 4)).add (above_rx (px c) 3)).add (above_rx (px c) 2)).add (above_rx (px c) 1)
  | 2 => (((((((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)).add (above_rx (px c) 6)).add (above_rx (px c) 5)).add (above_rx (px c) 4)).add (above_rx (px c) 3)).add (above_rx (px c) 2)
  | 3 => ((((((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)).add (above_rx (px c) 6)).add (above_rx (px c) 5)).add (above_rx (px c) 4)).add (above_rx (px c) 3)
  | 4 => (((((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)).add (above_rx (px c) 6)).add (above_rx (px c) 5)).add (above_rx (px c) 4)
  | 5 => ((((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)).add (above_rx (px c) 6)).add (above_rx (px c) 5)
  | 6 => (((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)).add (above_rx (px c) 6)
  | 7 => ((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)

/-- The barrier wait, all sixteen transfers still owed. -/
theorem mayWait_bar {F : FTy → Type} [FloatOps F] (c : Dev nD) :
    (levAts L lv : sProp (MT nD τ sig Unit (Elt F) ℕ UU ℕ)) ⊢ MayWait (c : Thread nD τ) (.reg barS) () (owX c 0) :=
  mayWait_above c _ (owX c 0) 1 (lv_bar c).le (above_owX c 0)

/-- A wait on a cell of level 0 (a local fetch's semaphore) before the x-send of chunk `j`. -/
theorem mayWait_low {F : FTy → Type} [FloatOps F] (c : Dev nD) (sm : SemLoc sig) (hsm : lv ((c : Thread nD τ), sm) () = 0) (j : Fin 8) :
    (levAts L lv : sProp (MT nD τ sig Unit (Elt F) ℕ UU ℕ)) ⊢ MayWait (c : Thread nD τ) sm () (owX c j) :=
  mayWait_above c sm (owX c j) 0 hsm.le ((above_owX c j).mono (by decide))

/-- The same while only forwards are owed (the other-half fetch is waited after the last x-send, if it is waited while owing at all). -/
theorem mayWait_lowZ {F : FTy → Type} [FloatOps F] (c : Dev nD) (sm : SemLoc sig) (hsm : lv ((c : Thread nD τ), sm) () = 0) (j : Fin 8) :
    (levAts L lv : sProp (MT nD τ sig Unit (Elt F) ℕ UU ℕ)) ⊢ MayWait (c : Thread nD τ) sm () (owZ c j) :=
  mayWait_above c sm (owZ c j) 0 hsm.le ((above_owZ c j).mono (by decide))

/-- The wait for the x-peer's chunk `j`, forwards `j … 7` still owed. -/
theorem mayWait_rx {F : FTy → Type} [FloatOps F] (c : Dev nD) (j : Fin 8) :
    (levAts L lv : sProp (MT nD τ sig Unit (Elt F) ℕ UU ℕ)) ⊢ MayWait (c : Thread nD τ) (.dma (qS 1 j).sem) () (owZ c j) :=
  mayWait_above c _ (owZ c j) 2 (by rw [lv_q]; decide) (above_owZ c j)

/-- The local DMA semaphores (numbers 1 … 9: the eight row fetches' and the other-half fetch's) are at level 0. -/
theorem lv_local (c : Dev nD) (q : DmaSem sig) (hq : q.val < 10) : lv ((c : Thread nD τ), .dma q) () = 0 := by
  have hf : famOf (SemLoc.dma q : SemLoc sig) = none := by rw [famOf]; exact if_neg (Nat.not_le.mpr hq)
  dsimp only [lv]
  rw [if_neg (fun h => by cases h), hf]

/-- info: 'Cert.KernelIdeal.RS.mayWait_bar' depends on axioms: [propext, Classical.choice, Quot.sound] -/
#guard_msgs in #print axioms mayWait_bar
/-- info: 'Cert.KernelIdeal.RS.mayWait_low' depends on axioms: [propext, Classical.choice, Quot.sound] -/
#guard_msgs in #print axioms mayWait_low
/-- info: 'Cert.KernelIdeal.RS.mayWait_lowZ' depends on axioms: [propext, Classical.choice, Quot.sound] -/
#guard_msgs in #print axioms mayWait_lowZ
/-- info: 'Cert.KernelIdeal.RS.mayWait_rx' depends on axioms: [propext, Classical.choice, Quot.sound] -/
#guard_msgs in #print axioms mayWait_rx
/-- info: 'Cert.KernelIdeal.RS.lv_local' depends on axioms: [propext, Classical.choice, Quot.sound] -/
#guard_msgs in #print axioms lv_local

end Cert.KernelIdeal.RS

end
-- ==== Proof.RSGeom.lean ====
/-
  Where the kernel's fetches out of a device's slab lie.

  The eight row fetches read rows `512·y + 64·k … + 63`, `k = 0 … 7`, of the slab, every column; the ninth reads the other
  row half, rows `512 − 512·y … + 511`, at the device's own columns. With `y ∈ {0, 1}` the two row ranges never meet, so
  the ninth rectangle shares no element with any of the eight.
-/
import proofs.«901020_g7700000000001021_dist_rs_v7x_xyz2x2x2_x_m1024_n512_bf16_1_alg».proof.Proof.RSProto

noncomputable section

namespace Cert.KernelIdeal.RS

open Cert.KernelIdeal Cert.KernelIdeal.Gen
open Idealize.ShloMosaic

/-- A rectangle of the slab, as elements of the slab. -/
theorem set_slice_arg0 (r : Rect S1x1024x1024) (h : ∀ a, r.stride a = 1) :
    ((Memref.whole main_arg0).slice r h).view.set = r.set := View.set_slice_whole main_arg0 r

/-- The other row half `[512 − 512·y, +512)` and the `k`-th 64-row block `[512·y + 64·k, +64)` of the own half never meet. -/
theorem other_disj (c : Dev nD) (r : Fin 8) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c (BitVec.ofNat 32 (64 * r.val))) S1x64x1024.size (k0_off1_inb c r)) (fun _ => rfl)).squeeze S64x1024 squeezes_S1x64x1024_S64x1024).view.set := by
  rw [Memref.set_view_squeeze, set_slice_arg0, set_slice_arg0]
  refine Rect.unit_disjoint 1 ?_
  rw [k0_off2_eq c, k0_off1_eq c r]
  have hr := r.isLt
  show 512 - 512 * ((c.val / 2) % 2) + 512 ≤ 512 * ((c.val / 2) % 2) + 64 * r.val
    ∨ 512 * ((c.val / 2) % 2) + 64 * r.val + 64 ≤ 512 - 512 * ((c.val / 2) % 2)
  omega

theorem other_disj_0 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 0#32) S1x64x1024.size (k0_off1_inb c 0)) (fun _ => rfl)).squeeze S64x1024 squeezes_S1x64x1024_S64x1024).view.set :=
  other_disj c 0

theorem other_disj_1 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 64#32) S1x64x1024.size (k0_off1_inb c 1)) (fun _ => rfl)).squeeze S64x1024 squeezes_S1x64x1024_S64x1024).view.set :=
  other_disj c 1

theorem other_disj_2 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 128#32) S1x64x1024.size (k0_off1_inb c 2)) (fun _ => rfl)).squeeze S64x1024 squeezes_S1x64x1024_S64x1024).view.set :=
  other_disj c 2

theorem other_disj_3 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 192#32) S1x64x1024.size (k0_off1_inb c 3)) (fun _ => rfl)).squeeze S64x1024 squeezes_S1x64x1024_S64x1024).view.set :=
  other_disj c 3

theorem other_disj_4 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 256#32) S1x64x1024.size (k0_off1_inb c 4)) (fun _ => rfl)).squeeze S64x1024 squeezes_S1x64x1024_S64x1024).view.set :=
  other_disj c 4

theorem other_disj_5 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 320#32) S1x64x1024.size (k0_off1_inb c 5)) (fun _ => rfl)).squeeze S64x1024 squeezes_S1x64x1024_S64x1024).view.set :=
  other_disj c 5

theorem other_disj_6 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 384#32) S1x64x1024.size (k0_off1_inb c 6)) (fun _ => rfl)).squeeze S64x1024 squeezes_S1x64x1024_S64x1024).view.set :=
  other_disj c 6

theorem other_disj_7 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 448#32) S1x64x1024.size (k0_off1_inb c 7)) (fun _ => rfl)).squeeze S64x1024 squeezes_S1x64x1024_S64x1024).view.set :=
  other_disj c 7

/-- info: 'Cert.KernelIdeal.RS.other_disj' depends on axioms: [propext, Classical.choice, Quot.sound] -/
#guard_msgs in #print axioms other_disj
/-- info: 'Cert.KernelIdeal.RS.other_disj_0' depends on axioms: [propext, Classical.choice, Quot.sound] -/
#guard_msgs in #print axioms other_disj_0
/-- info: 'Cert.KernelIdeal.RS.other_disj_1' depends on axioms: [propext, Classical.choice, Quot.sound] -/
#guard_msgs in #print axioms other_disj_1
/-- info: 'Cert.KernelIdeal.RS.other_disj_2' depends on axioms: [propext, Classical.choice, Quot.sound] -/
#guard_msgs in #print axioms other_disj_2
/-- info: 'Cert.KernelIdeal.RS.other_disj_3' depends on axioms: [propext, Classical.choice, Quot.sound] -/
#guard_msgs in #print axioms other_disj_3
/-- info: 'Cert.KernelIdeal.RS.other_disj_4' depends on axioms: [propext, Classical.choice, Quot.sound] -/
#guard_msgs in #print axioms other_disj_4
/-- info: 'Cert.KernelIdeal.RS.other_disj_5' depends on axioms: [propext, Classical.choice, Quot.sound] -/
#guard_msgs in #print axioms other_disj_5
/-- info: 'Cert.KernelIdeal.RS.other_disj_6' depends on axioms: [propext, Classical.choice, Quot.sound] -/
#guard_msgs in #print axioms other_disj_6
/-- info: 'Cert.KernelIdeal.RS.other_disj_7' depends on axioms: [propext, Classical.choice, Quot.sound] -/
#guard_msgs in #print axioms other_disj_7

end Cert.KernelIdeal.RS

end
-- ==== Proof.RSSteps.lean ====
/-
  The two remote copies of a chunk, as steps of one device's thread.

  A chunk of one exchange buffer copied into the same chunk of another carries its values index for index, the two
  chunks sitting at the same indices of two buffers of one shape. With that, the x-send of chunk `k` lands, on the
  x-peer, what this device sends (which is what the peer is to receive along x), and the forward of chunk `k` lands,
  on the y-peer, what this device received along x (which is what the peer is to receive along y). Each copy pays two
  duties: its send cell's, whose payload is the source chunk given back, and the peer's receive cell's, whose payload is
  the landed chunk with its contents named; the chunk's credit on the peer's receive cell comes off what the device owes.
-/
import proofs.«901020_g7700000000001021_dist_rs_v7x_xyz2x2x2_x_m1024_n512_bf16_1_alg».proof.Proof.RSInv
import proofs.«901020_g7700000000001021_dist_rs_v7x_xyz2x2x2_x_m1024_n512_bf16_1_alg».proof.Proof.RSChunks
import Idealize.ShloMosaic.Lib.Pipeline.Value

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A chunk copied between two of the exchange buffers at the same position -/

/-- A chunk of the x-send buffer copied into the same chunk of the x-receive buffer carries its values index for
    index: the two chunks sit at the same indices of two buffers of one shape. -/
theorem land_chunk_xx (k : Fin 8) (fd : (rxM k).view.ty.Contents (Elt F)) (fs : (sxM k).view.ty.Contents (Elt F))
    (G : FVec F S8x64x512 .bf16) (hfs : ∀ i ∈ (sxM k).view.set, fs i = G i) :
    ∀ i ∈ (rxM k).view.set, (rxM k).view.write (Elt F) fd ((sxM k).view.read (Elt F) fs) Finset.univ i = G i := by
  intro i hi
  obtain ⟨y, rfl⟩ := View.exists_emb_of_mem_set _ hi
  rw [View.write_emb_of_mem _ _ (Finset.mem_univ y), View.read_apply, hfs ((sxM k).view.emb y) (View.emb_mem_set _ y)]
  rfl

/-- The same from the x-receive buffer into the y-receive buffer. -/
theorem land_chunk_xz (k : Fin 8) (fd : (rzM k).view.ty.Contents (Elt F)) (fs : (rxM k).view.ty.Contents (Elt F))
    (G : FVec F S8x64x512 .bf16) (hfs : ∀ i ∈ (rxM k).view.set, fs i = G i) :
    ∀ i ∈ (rzM k).view.set, (rzM k).view.write (Elt F) fd ((rxM k).view.read (Elt F) fs) Finset.univ i = G i := by
  intro i hi
  obtain ⟨y, rfl⟩ := View.exists_emb_of_mem_set _ hi
  rw [View.write_emb_of_mem _ _ (Finset.mem_univ y), View.read_apply, hfs ((rxM k).view.emb y) (View.emb_mem_set _ y)]
  rfl

/-- What the x-peer receives along x is what this device sends; what the y-peer receives along y is what this device
    received along x. -/
theorem recvXC_px (X : Dev nD → FVec F S1x1024x1024 .f32) (c : Dev nD) : recvXC X (px c) = sendXC X c := by
  unfold recvXC; rw [px_px]
theorem recvZC_py (X : Dev nD → FVec F S1x1024x1024 .f32) (c : Dev nD) : recvZC X (py c) = recvXC X c := by
  unfold recvZC; rw [py_py]

/-! ## The two remote copies of a chunk -/

/-- The x-send of chunk `k`, addressed to `n`, the x-peer: the send cell gives the source chunk back, the peer's
    x-receive cell hands over the landed chunk holding what this device sends. -/
theorem wp_send_x (m : (ℓ : Loc nD τ sig) → Buf (Elt F) ℓ) (K : Dev nD × CK → ℕ) (c n : Dev nD) (hn : n = px c) (k : Fin 8)
    {hsc : (rxM k : Memref sig (Dev.tc n : Thread nD τ).2.kind .vmem S64x512 .bf16).view.ref.isScScratch = false}
    {hsrc : (sxM k : Memref sig .tc .vmem S64x512 .bf16).view.WordExact} {hdst : (rxM k : Memref sig .tc .vmem S64x512 .bf16).view.WordExact}
    {hsem : DmaTarget.Typed .vmem (.dma (qS 1 k).sem) (.remote (Dev.tc n : Thread nD τ) (rxM k : Memref sig .tc .vmem S64x512 .bf16) (.dma (qS 0 k).sem) hsc)}
    {α : Type} {Q : α → sProp 𝕄} {kont : PUnit → Prog (TpuEff nD τ sig (Elt F) Λ₀ .tc) α}
    (fs : Buf (Elt F) ((sxM k).view.loc (c : Thread nD τ))) (hfs : ∀ i ∈ (sxM k).view.set, fs i = sendXC (slabs m) c i)
    (fd : Buf (Elt F) ((rxM k).view.loc (px c : Thread nD τ)))
    {O₀ : CellTallies nD τ sig Unit} (O : CellTallies nD τ sig Unit) (hO : O₀ = O + tallyAt (qCell (px c) 1 k) () N) (W : Waits sig Unit) :
    iprop(cellInv ER (rsRd m) (K (c, some (0, k))) (qCell c 0 k) ∗ cellInv ER (rsRd m) (K (px c, some (1, k))) (qCell (px c) 1 k)
        ∗ ptsM (sxM k) c fullShare fs ∗ ptsM (rxM k) (px c) fullShare fd
        ∗ owes (c : Thread nD τ) O₀ W
        ∗ dutyTok ER (qCell c 0 k) 0 false ∗ reached ER (qCell c 0 k) 0
        ∗ dutyTok ER (qCell (px c) 1 k) 0 false ∗ reached ER (qCell (px c) 1 k) 0)
      ⊢ iprop(((cred (tallyAt (qCell c 0 k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sxM k) (.remote (Dev.tc n : Thread nD τ) (rxM k) (.dma (qS 0 k).sem) hsc) (.dma (qS 1 k).sem) hsrc hdst hsem) kont) Q) := by
  subst hn
  exact Rounds.wp_send_pointsTo 𝒱₀ ER (rsRd m) (c : Thread nD τ) none (κ₁ := K (c, some (0, k))) (κ₂ := K (px c, some (1, k)))
    (r₁ := 0) (r₂ := 0) (d₁ := false) (d₂ := false) (src := sxM k) (dst := rxM k) (q := fullShare) (fs := fs) (fd := fd)
    (c' := (px c : Thread nD τ))
    (by rw [duties_q]; exact Finset.mem_singleton_self _) (by rw [duties_q]; exact Finset.mem_singleton_self _)
    () () N rfl (amount_q m c 0 k false) (amount_q m (px c) 1 k false) O hO (W := W)
    (by rw [payload_q]; exact Entails.of_eq (pointsTo_congr hfs))
    (by
      rw [payload_q]
      refine Entails.of_eq (pointsTo_congr ?_)
      show ∀ i ∈ (rxM k).view.set, _ = recvXC (slabs m) (px c) i
      rw [recvXC_px]
      exact land_chunk_xx k fd fs _ hfs)

/-- The forward of chunk `k` to `n`, the y-peer: the source is the x-receive chunk at the canonical contents, lent at
    half share (the device keeps reading the other half); the send cell gives that half back, the peer's y-receive cell
    hands over the landed chunk holding what this device received along x. -/
theorem wp_send_z (m : (ℓ : Loc nD τ sig) → Buf (Elt F) ℓ) (K : Dev nD × CK → ℕ) (c n : Dev nD) (hn : n = py c) (k : Fin 8)
    {hsc : (rzM k : Memref sig (Dev.tc n : Thread nD τ).2.kind .vmem S64x512 .bf16).view.ref.isScScratch = false}
    {hsrc : (rxM k : Memref sig .tc .vmem S64x512 .bf16).view.WordExact} {hdst : (rzM k : Memref sig .tc .vmem S64x512 .bf16).view.WordExact}
    {hsem : DmaTarget.Typed .vmem (.dma (qS 3 k).sem) (.remote (Dev.tc n : Thread nD τ) (rzM k : Memref sig .tc .vmem S64x512 .bf16) (.dma (qS 2 k).sem) hsc)}
    {α : Type} {Q : α → sProp 𝕄} {kont : PUnit → Prog (TpuEff nD τ sig (Elt F) Λ₀ .tc) α}
    (fd : Buf (Elt F) ((rzM k).view.loc (py c : Thread nD τ)))
    {O₀ : CellTallies nD τ sig Unit} (O : CellTallies nD τ sig Unit) (hO : O₀ = O + tallyAt (qCell (py c) 3 k) () N) (W : Waits sig Unit) :
    iprop(cellInv ER (rsRd m) (K (c, some (2, k))) (qCell c 2 k) ∗ cellInv ER (rsRd m) (K (py c, some (3, k))) (qCell (py c) 3 k)
        ∗ ptsM (rxM k) c fullShare.left (recvXC (slabs m) c) ∗ ptsM (rzM k) (py c) fullShare fd
        ∗ owes (c : Thread nD τ) O₀ W
        ∗ dutyTok ER (qCell c 2 k) 0 false ∗ reached ER (qCell c 2 k) 0
        ∗ dutyTok ER (qCell (py c) 3 k) 0 false ∗ reached ER (qCell (py c) 3 k) 0)
      ⊢ iprop(((cred (tallyAt (qCell c 2 k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rxM k) (.remote (Dev.tc n : Thread nD τ) (rzM k) (.dma (qS 2 k).sem) hsc) (.dma (qS 3 k).sem) hsrc hdst hsem) kont) Q) := by
  subst hn
  exact Rounds.wp_send_pointsTo 𝒱₀ ER (rsRd m) (c : Thread nD τ) none (κ₁ := K (c, some (2, k))) (κ₂ := K (py c, some (3, k)))
    (r₁ := 0) (r₂ := 0) (d₁ := false) (d₂ := false) (src := rxM k) (dst := rzM k) (q := fullShare.left)
    (fs := recvXC (slabs m) c) (fd := fd) (c' := (py c : Thread nD τ))
    (by rw [duties_q]; exact Finset.mem_singleton_self _) (by rw [duties_q]; exact Finset.mem_singleton_self _)
    () () N rfl (amount_q m c 2 k false) (amount_q m (py c) 3 k false) O hO (W := W)
    (by rw [payload_q]; exact BI.Entails.refl _)
    (by
      rw [payload_q]
      refine Entails.of_eq (pointsTo_congr ?_)
      show ∀ i ∈ (rzM k).view.set, _ = recvZC (slabs m) (py c) i
      rw [recvZC_py]
      exact land_chunk_xz k fd (recvXC (slabs m) c) _ fun _ _ => rfl)

/-- info: 'Cert.KernelIdeal.RS.wp_send_x' depends on axioms: [propext, Classical.choice, Quot.sound] -/
#guard_msgs in #print axioms wp_send_x

/-- info: 'Cert.KernelIdeal.RS.wp_send_z' depends on axioms: [propext, Classical.choice, Quot.sound] -/
#guard_msgs in #print axioms wp_send_z

end Cert.KernelIdeal.RS

end
-- ==== Proof.RSBodyLemmas.lean ====
/-
  Book-keeping for one device's thread: sums over chunks and arrays written out, the records read cell by cell, a
  whole buffer spelt through its memref, the barrier round's payload with the peer of the peer resolved, the send
  buffer cut into its chunks, and the slab cut into read shares (one per local copy that reads it: the copies read
  disjoint rows at once, and none writes, so each takes a positive share of the whole).
-/
import proofs.«901020_g7700000000001021_dist_rs_v7x_xyz2x2x2_x_m1024_n512_bf16_1_alg».proof.Proof.RSInv
import proofs.«901020_g7700000000001021_dist_rs_v7x_xyz2x2x2_x_m1024_n512_bf16_1_alg».proof.Proof.RSChunks

noncomputable section

namespace Cert.KernelIdeal.RS

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! Expanding the sums over chunks and arrays -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! The records, spelt by cell -/
theorem inv_bar (K : Dev nD × CK → ℕ) (d : Dev nD) : records m K ⊢ cellInv ER (rsRd m) (K (d, none)) (barCell d) := inv_at m K (d, none)
theorem inv_q (K : Dev nD × CK → ℕ) (d : Dev nD) (f : Fin 4) (k : Fin 8) : records m K ⊢ cellInv ER (rsRd m) (K (d, some (f, k))) (qCell d f k) := inv_at m K (d, some (f, k))
theorem reached_bar (K : Dev nD × CK → ℕ) (d : Dev nD) : records m K ⊢ reached ER (barCell d) 0 := reached_at m K (d, none)
theorem reached_q (K : Dev nD × CK → ℕ) (d : Dev nD) (f : Fin 4) (k : Fin 8) : records m K ⊢ reached ER (qCell d f k) 0 := reached_at m K (d, some (f, k))

/-! A whole buffer, spelt through its memref -/
theorem whole_pts (c : Dev nD) (b : Ref sig .tc) (q : PosShare TreeShare) (f : Buf (Elt F) ((c : Thread nD τ).loc b)) :
    (((c : Thread nD τ).loc b) ↦{q} f : sProp 𝕄) = ((Memref.whole b).view.loc (c : Thread nD τ) ↦[(Memref.whole b).view.set]{q} f : sProp 𝕄) := by
  have h : (Memref.whole b : Memref sig .tc _ _ _).view.set = Finset.univ := View.set_whole _
  rw [h]

/-! The peers' cells' payloads, the peer of the peer resolved -/
theorem payload_bar_px (c : Dev nD) : (rsRd (F := F) m).payload (barCell (px c)) 0 false
    = iprop((∃ f, ptsM (F := F) (rxM 0) c fullShare f) ∗ (∃ f, ptsM (F := F) (rxM 1) c fullShare f) ∗ (∃ f, ptsM (F := F) (rxM 2) c fullShare f) ∗ (∃ f, ptsM (F := F) (rxM 3) c fullShare f) ∗ (∃ f, ptsM (F := F) (rxM 4) c fullShare f) ∗ (∃ f, ptsM (F := F) (rxM 5) c fullShare f) ∗ (∃ f, ptsM (F := F) (rxM 6) c fullShare f) ∗ (∃ f, ptsM (F := F) (rxM 7) c fullShare f)) := by
  rw [payload_bar_false]; unfold barPayX; rw [bigSep_fin8, px_px]
theorem payload_bar_py (c : Dev nD) : (rsRd (F := F) m).payload (barCell (py c)) 0 true
    = iprop((∃ f, ptsM (F := F) (rzM 0) c fullShare f) ∗ (∃ f, ptsM (F := F) (rzM 1) c fullShare f) ∗ (∃ f, ptsM (F := F) (rzM 2) c fullShare f) ∗ (∃ f, ptsM (F := F) (rzM 3) c fullShare f) ∗ (∃ f, ptsM (F := F) (rzM 4) c fullShare f) ∗ (∃ f, ptsM (F := F) (rzM 5) c fullShare f) ∗ (∃ f, ptsM (F := F) (rzM 6) c fullShare f) ∗ (∃ f, ptsM (F := F) (rzM 7) c fullShare f)) := by
  rw [payload_bar_true]; unfold barPayY; rw [bigSep_fin8, py_py]
theorem payload_bar_false' (c : Dev nD) : (rsRd (F := F) m).payload (barCell c) 0 false
    = iprop((∃ f, ptsM (F := F) (rxM 0) (px c) fullShare f) ∗ (∃ f, ptsM (F := F) (rxM 1) (px c) fullShare f) ∗ (∃ f, ptsM (F := F) (rxM 2) (px c) fullShare f) ∗ (∃ f, ptsM (F := F) (rxM 3) (px c) fullShare f) ∗ (∃ f, ptsM (F := F) (rxM 4) (px c) fullShare f) ∗ (∃ f, ptsM (F := F) (rxM 5) (px c) fullShare f) ∗ (∃ f, ptsM (F := F) (rxM 6) (px c) fullShare f) ∗ (∃ f, ptsM (F := F) (rxM 7) (px c) fullShare f)) := by
  rw [payload_bar_false]; unfold barPayX; rw [bigSep_fin8]
theorem payload_bar_true' (c : Dev nD) : (rsRd (F := F) m).payload (barCell c) 0 true
    = iprop((∃ f, ptsM (F := F) (rzM 0) (py c) fullShare f) ∗ (∃ f, ptsM (F := F) (rzM 1) (py c) fullShare f) ∗ (∃ f, ptsM (F := F) (rzM 2) (py c) fullShare f) ∗ (∃ f, ptsM (F := F) (rzM 3) (py c) fullShare f) ∗ (∃ f, ptsM (F := F) (rzM 4) (py c) fullShare f) ∗ (∃ f, ptsM (F := F) (rzM 5) (py c) fullShare f) ∗ (∃ f, ptsM (F := F) (rzM 6) (py c) fullShare f) ∗ (∃ f, ptsM (F := F) (rzM 7) (py c) fullShare f)) := by
  rw [payload_bar_true]; unfold barPayY; rw [bigSep_fin8]

theorem bigSep_fin4x8 (Φ : Fin 4 × Fin 8 → sProp 𝕄) : bigSep Finset.univ Φ = iprop((Φ (0, 0) ∗ Φ (0, 1) ∗ Φ (0, 2) ∗ Φ (0, 3) ∗ Φ (0, 4) ∗ Φ (0, 5) ∗ Φ (0, 6) ∗ Φ (0, 7)) ∗ (Φ (1, 0) ∗ Φ (1, 1) ∗ Φ (1, 2) ∗ Φ (1, 3) ∗ Φ (1, 4) ∗ Φ (1, 5) ∗ Φ (1, 6) ∗ Φ (1, 7)) ∗ (Φ (2, 0) ∗ Φ (2, 1) ∗ Φ (2, 2) ∗ Φ (2, 3) ∗ Φ (2, 4) ∗ Φ (2, 5) ∗ Φ (2, 6) ∗ Φ (2, 7)) ∗ (Φ (3, 0) ∗ Φ (3, 1) ∗ Φ (3, 2) ∗ Φ (3, 3) ∗ Φ (3, 4) ∗ Φ (3, 5) ∗ Φ (3, 6) ∗ Φ (3, 7))) := by
  rw [bigSep_univ_prod, bigSep_fin4, bigSep_fin8, bigSep_fin8, bigSep_fin8, bigSep_fin8]

theorem rest_bar8 (c : Dev nD) : bigSep ((rsRd (F := F) m).duties (barCell c) 0 \ ∅) (fun d => (rsRd (F := F) m).payload (barCell c) 0 d)
    = iprop(((∃ f, ptsM (F := F) (rxM 0) (px c) fullShare f) ∗ (∃ f, ptsM (F := F) (rxM 1) (px c) fullShare f) ∗ (∃ f, ptsM (F := F) (rxM 2) (px c) fullShare f) ∗ (∃ f, ptsM (F := F) (rxM 3) (px c) fullShare f) ∗ (∃ f, ptsM (F := F) (rxM 4) (px c) fullShare f) ∗ (∃ f, ptsM (F := F) (rxM 5) (px c) fullShare f) ∗ (∃ f, ptsM (F := F) (rxM 6) (px c) fullShare f) ∗ (∃ f, ptsM (F := F) (rxM 7) (px c) fullShare f)) ∗ ((∃ f, ptsM (F := F) (rzM 0) (py c) fullShare f) ∗ (∃ f, ptsM (F := F) (rzM 1) (py c) fullShare f) ∗ (∃ f, ptsM (F := F) (rzM 2) (py c) fullShare f) ∗ (∃ f, ptsM (F := F) (rzM 3) (py c) fullShare f) ∗ (∃ f, ptsM (F := F) (rzM 4) (py c) fullShare f) ∗ (∃ f, ptsM (F := F) (rzM 5) (py c) fullShare f) ∗ (∃ f, ptsM (F := F) (rzM 6) (py c) fullShare f) ∗ (∃ f, ptsM (F := F) (rzM 7) (py c) fullShare f))) := by
  rw [rest_bar]; unfold barPayX barPayY; rw [bigSep_fin8, bigSep_fin8]

theorem sx_split8 (c : Dev nD) (f : Buf (Elt F) ((c : Thread nD τ).loc cc0_scratch2)) :
    (((c : Thread nD τ).loc cc0_scratch2) ↦{fullShare} f : sProp 𝕄) ⊢ iprop(ptsM (F := F) (sxM 0) c fullShare f ∗ ptsM (F := F) (sxM 1) c fullShare f ∗ ptsM (F := F) (sxM 2) c fullShare f ∗ ptsM (F := F) (sxM 3) c fullShare f ∗ ptsM (F := F) (sxM 4) c fullShare f ∗ ptsM (F := F) (sxM 5) c fullShare f ∗ ptsM (F := F) (sxM 6) c fullShare f ∗ ptsM (F := F) (sxM 7) c fullShare f) := by
  refine (sx_split (F := F) c fullShare f).trans ?_
  rw [bigSep_fin8]

theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- The slab, spelt through its memref at a share. -/
abbrev slabAtQ (c : Dev nD) (q : PosShare TreeShare) : sProp 𝕄 :=
  (Memref.whole main_arg0).view.loc (c : Thread nD τ) ↦[(Memref.whole main_arg0).view.set]{q} m ((c : Thread nD τ).loc main_arg0)

/-- The slab as ten read shares: one per DMA semaphore number that reads it, and the remainder. -/
theorem slab_toks (c : Dev nD) : slabAtQ m c fullShare
    ⊢ iprop(slabAtQ m c (Transfers.shareDrop fullShare 10) ∗ slabAtQ m c (Transfers.shareTok fullShare 10 0) ∗ slabAtQ m c (Transfers.shareTok fullShare 10 1) ∗ slabAtQ m c (Transfers.shareTok fullShare 10 2) ∗ slabAtQ m c (Transfers.shareTok fullShare 10 3) ∗ slabAtQ m c (Transfers.shareTok fullShare 10 4) ∗ slabAtQ m c (Transfers.shareTok fullShare 10 5) ∗ slabAtQ m c (Transfers.shareTok fullShare 10 6) ∗ slabAtQ m c (Transfers.shareTok fullShare 10 7) ∗ slabAtQ m c (Transfers.shareTok fullShare 10 8) ∗ slabAtQ m c (Transfers.shareTok fullShare 10 9)) :=
  (Transfers.pointsTo_toks_split (Ix := Unit) (Name := ℕ) (U := UU) (Lvl := ℕ) fullShare 10).trans
    (Entails.of_eq (by rw [bigSep_fin10]))
theorem slab_untoks (c : Dev nD) : iprop(slabAtQ m c (Transfers.shareDrop fullShare 10) ∗ slabAtQ m c (Transfers.shareTok fullShare 10 0) ∗ slabAtQ m c (Transfers.shareTok fullShare 10 1) ∗ slabAtQ m c (Transfers.shareTok fullShare 10 2) ∗ slabAtQ m c (Transfers.shareTok fullShare 10 3) ∗ slabAtQ m c (Transfers.shareTok fullShare 10 4) ∗ slabAtQ m c (Transfers.shareTok fullShare 10 5) ∗ slabAtQ m c (Transfers.shareTok fullShare 10 6) ∗ slabAtQ m c (Transfers.shareTok fullShare 10 7) ∗ slabAtQ m c (Transfers.shareTok fullShare 10 8) ∗ slabAtQ m c (Transfers.shareTok fullShare 10 9))
    ⊢ slabAtQ m c fullShare :=
  (Entails.of_eq (by rw [bigSep_fin10])).trans
    (Transfers.pointsTo_toks_join (Ix := Unit) (Name := ℕ) (U := UU) (Lvl := ℕ) fullShare 10)

theorem sx_join8 (c : Dev nD) (f : Buf (Elt F) ((c : Thread nD τ).loc cc0_scratch2)) :
    iprop(ptsM (F := F) (sxM 0) c fullShare f ∗ ptsM (F := F) (sxM 1) c fullShare f ∗ ptsM (F := F) (sxM 2) c fullShare f ∗ ptsM (F := F) (sxM 3) c fullShare f ∗ ptsM (F := F) (sxM 4) c fullShare f ∗ ptsM (F := F) (sxM 5) c fullShare f ∗ ptsM (F := F) (sxM 6) c fullShare f ∗ ptsM (F := F) (sxM 7) c fullShare f) ⊢ (((c : Thread nD τ).loc cc0_scratch2) ↦{fullShare} f : sProp 𝕄) := by
  have h := sx_join (F := F) c fullShare f
  rw [bigSep_fin8] at h
  exact h
theorem rx_join8 (c : Dev nD) (f : Buf (Elt F) ((c : Thread nD τ).loc cc0_scratch3)) :
    iprop(ptsM (F := F) (rxM 0) c fullShare f ∗ ptsM (F := F) (rxM 1) c fullShare f ∗ ptsM (F := F) (rxM 2) c fullShare f ∗ ptsM (F := F) (rxM 3) c fullShare f ∗ ptsM (F := F) (rxM 4) c fullShare f ∗ ptsM (F := F) (rxM 5) c fullShare f ∗ ptsM (F := F) (rxM 6) c fullShare f ∗ ptsM (F := F) (rxM 7) c fullShare f) ⊢ (((c : Thread nD τ).loc cc0_scratch3) ↦{fullShare} f : sProp 𝕄) := by
  have h := rx_join (F := F) c fullShare f
  rw [bigSep_fin8] at h
  exact h
theorem rz_join8 (c : Dev nD) (f : Buf (Elt F) ((c : Thread nD τ).loc cc0_scratch4)) :
    iprop(ptsM (F := F) (rzM 0) c fullShare f ∗ ptsM (F := F) (rzM 1) c fullShare f ∗ ptsM (F := F) (rzM 2) c fullShare f ∗ ptsM (F := F) (rzM 3) c fullShare f ∗ ptsM (F := F) (rzM 4) c fullShare f ∗ ptsM (F := F) (rzM 5) c fullShare f ∗ ptsM (F := F) (rzM 6) c fullShare f ∗ ptsM (F := F) (rzM 7) c fullShare f) ⊢ (((c : Thread nD τ).loc cc0_scratch4) ↦{fullShare} f : sProp 𝕄) := by
  have h := rz_join (F := F) c fullShare f
  rw [bigSep_fin8] at h
  exact h

/-- A cell's whole round, nothing taken yet: its one payload. -/
theorem full_q (c : Dev nD) (f : Fin 4) (k : Fin 8) :
    bigSep ((rsRd (F := F) m).duties (qCell c f k) 0) (fun d => (rsRd (F := F) m).payload (qCell c f k) 0 d) = famPay m c f k := by
  rw [duties_q, bigSep_singleton, payload_q]

/-- A returned value bound to its continuation is the continuation at the value. -/
theorem prog_ret_bind {E : Type → Type} {α β : Type} (a : α) (k : α → Prog E β) : (Prog.ret a).bind k = k a := rfl

end Cert.KernelIdeal.RS

end
-- ==== Proof.RSVals.lean ====
/-
  The values the kernel's body computes, as pure facts about contents.

  The eight row fetches land rows `512·y + 64·k … + 63` of the device's slab in the eight windows of the fetch buffer; every
  element of that buffer lies in exactly one window (the one its leading coordinate names), so after the eight landings it holds
  the own row half of the slab, whole. A `[1, 64, 512]` load out of it at `(k, 0, col)` reads those rows at columns
  `col … col + 511`: the peer's columns for the chunk sent along x (rounded to bf16 on the way into the x-send buffer), the
  own columns for the sum. The result buffer is written in sixteen blocks of 64 rows: the own row half holds the fetched entry
  plus the x-received one, the other row half the directly fetched entry plus the y-received one; every row lies in exactly
  one block, the received entry is in both cases the other slab's at the same place, and so the buffer ends as the result block.
-/
import proofs.«901020_g7700000000001021_dist_rs_v7x_xyz2x2x2_x_m1024_n512_bf16_1_alg».proof.Proof.RSProto
import proofs.«901020_g7700000000001021_dist_rs_v7x_xyz2x2x2_x_m1024_n512_bf16_1_alg».proof.Proof.RSChunks
import Idealize.ShloMosaic.Lib.Pipeline.Value
import Idealize.ShloMosaic.Lib.ValueIdx

noncomputable section

namespace Cert.KernelIdeal.RS

open Cert.KernelIdeal Cert.KernelIdeal.Gen
open Idealize.ShloMosaic Idealize.ShloMosaic.ValueIdx

/-! ## Indices through a 64-row window with its unit leading axis dropped -/

/-- Through a 64-row window of a rank-3 buffer with its unit leading axis dropped, index `(r, q)` is the buffer's element
    `(off 0, off 1 + r, off 2 + q)`. -/
theorem emb_window {κ : Kind} {sp : Space} {e : EltTy} {d : Fin 3 → ℕ} (M : Memref sig κ sp ⟨3, d⟩ e) (off : Fin 3 → ℕ)
    (inb : ∀ a, off a + S1x64x1024.size a ≤ (⟨3, d⟩ : Shape).size a) (y : S64x1024.Idx) :
    ((M.slice (Rect.unit (s := ⟨3, d⟩) off S1x64x1024.size inb) (fun _ => rfl)).squeeze S64x1024 squeezes_S1x64x1024_S64x1024).view.emb y
      = M.view.emb ((Rect.unit (s := ⟨3, d⟩) off S1x64x1024.size inb).emb (ix3 (0 : Fin 1) (y 0) (y 1))) := by
  show M.view.emb ((Rect.unit (s := ⟨3, d⟩) off S1x64x1024.size inb).emb (Shape.reshapeEquiv _ y)) = _
  congr 2
  apply Shape.reshapeEquiv_eq_of_rowMajor
  rw [Shape.rowMajor_val_three, Shape.rowMajor_val_two]
  show (0 * 64 + (y 0).val) * 1024 + (y 1).val = (y 0).val * 1024 + (y 1).val
  omega

/-- Read through such a window, entry `(r, q)` is the memref's entry `(off 0, off 1 + r, off 2 + q)`. -/
theorem read_window {κ : Kind} {sp : Space} {e : EltTy} {d : Fin 3 → ℕ} {Val : EltTy → Type} (M : Memref sig κ sp ⟨3, d⟩ e) (off : Fin 3 → ℕ)
    (inb : ∀ a, off a + S1x64x1024.size a ≤ (⟨3, d⟩ : Shape).size a) (f : M.view.ty.Contents Val) (y : S64x1024.Idx)
    (j : (⟨3, d⟩ : Shape).Idx) (h0 : (j 0).val = off 0) (h1 : (j 1).val = off 1 + (y 0).val) (h2 : (j 2).val = off 2 + (y 1).val) :
    View.read Val ((M.slice (Rect.unit (s := ⟨3, d⟩) off S1x64x1024.size inb) (fun _ => rfl)).squeeze S64x1024 squeezes_S1x64x1024_S64x1024).view f y
      = View.read Val M.view f j := by
  have hj : (Rect.unit (s := ⟨3, d⟩) off S1x64x1024.size inb).emb (ix3 (0 : Fin 1) (y 0) (y 1)) = j := by
    funext a
    refine Fin.ext ?_
    match a with
    | ⟨0, _⟩ =>
      show off 0 + 1 * 0 = (j 0).val
      omega
    | ⟨1, _⟩ =>
      show off 1 + 1 * (y 0).val = (j 1).val
      omega
    | ⟨2, _⟩ =>
      show off 2 + 1 * (y 1).val = (j 2).val
      omega
  rw [View.read_apply, View.read_apply, emb_window, hj]

/-- A buffer read whole is its contents. -/
theorem read_whole_apply {κ : Kind} {Val : EltTy → Type} (b : Ref sig κ) (f : b.ty.Contents Val) (j : b.ty.shape.Idx) :
    View.read Val (Memref.whole b).view f j = f j := by
  rw [View.read_apply]
  exact cast_eq _ _

/-! ## What the eight row fetches land -/

/-- What fetch `k` lands: rows `512·y + 64·k … + 63` of the slab, every column. -/
def landF {F : FTy → Type} [FloatOps F] (c : Dev nD) (A : FVec F S1x1024x1024 .f32) (k : Fin 8) : FVec F S64x1024 .f32 :=
  (ReadAs.same (Val := Elt F)).apply (View.read (Elt F) (((Memref.whole main_arg0).slice (Rect.unit (s := S1x1024x1024) (k0_off1 c (BitVec.ofNat 32 (64 * k.val))) S1x64x1024.size (k0_off1_inb c k)) (fun _ => rfl)).squeeze S64x1024 squeezes_S1x64x1024_S64x1024).view A)

theorem landF_0 {F : FTy → Type} [FloatOps F] (c : Dev nD) (A : FVec F S1x1024x1024 .f32) :
    landF c A 0 = (ReadAs.same (Val := Elt F)).apply (View.read (Elt F) (((Memref.whole main_arg0).slice (Rect.unit (s := S1x1024x1024) (k0_off1 c 0#32) S1x64x1024.size (k0_off1_inb c 0)) (fun _ => rfl)).squeeze S64x1024 squeezes_S1x64x1024_S64x1024).view A) := rfl
theorem landF_1 {F : FTy → Type} [FloatOps F] (c : Dev nD) (A : FVec F S1x1024x1024 .f32) :
    landF c A 1 = (ReadAs.same (Val := Elt F)).apply (View.read (Elt F) (((Memref.whole main_arg0).slice (Rect.unit (s := S1x1024x1024) (k0_off1 c 64#32) S1x64x1024.size (k0_off1_inb c 1)) (fun _ => rfl)).squeeze S64x1024 squeezes_S1x64x1024_S64x1024).view A) := rfl
theorem landF_2 {F : FTy → Type} [FloatOps F] (c : Dev nD) (A : FVec F S1x1024x1024 .f32) :
    landF c A 2 = (ReadAs.same (Val := Elt F)).apply (View.read (Elt F) (((Memref.whole main_arg0).slice (Rect.unit (s := S1x1024x1024) (k0_off1 c 128#32) S1x64x1024.size (k0_off1_inb c 2)) (fun _ => rfl)).squeeze S64x1024 squeezes_S1x64x1024_S64x1024).view A) := rfl
theorem landF_3 {F : FTy → Type} [FloatOps F] (c : Dev nD) (A : FVec F S1x1024x1024 .f32) :
    landF c A 3 = (ReadAs.same (Val := Elt F)).apply (View.read (Elt F) (((Memref.whole main_arg0).slice (Rect.unit (s := S1x1024x1024) (k0_off1 c 192#32) S1x64x1024.size (k0_off1_inb c 3)) (fun _ => rfl)).squeeze S64x1024 squeezes_S1x64x1024_S64x1024).view A) := rfl
theorem landF_4 {F : FTy → Type} [FloatOps F] (c : Dev nD) (A : FVec F S1x1024x1024 .f32) :
    landF c A 4 = (ReadAs.same (Val := Elt F)).apply (View.read (Elt F) (((Memref.whole main_arg0).slice (Rect.unit (s := S1x1024x1024) (k0_off1 c 256#32) S1x64x1024.size (k0_off1_inb c 4)) (fun _ => rfl)).squeeze S64x1024 squeezes_S1x64x1024_S64x1024).view A) := rfl
theorem landF_5 {F : FTy → Type} [FloatOps F] (c : Dev nD) (A : FVec F S1x1024x1024 .f32) :
    landF c A 5 = (ReadAs.same (Val := Elt F)).apply (View.read (Elt F) (((Memref.whole main_arg0).slice (Rect.unit (s := S1x1024x1024) (k0_off1 c 320#32) S1x64x1024.size (k0_off1_inb c 5)) (fun _ => rfl)).squeeze S64x1024 squeezes_S1x64x1024_S64x1024).view A) := rfl
theorem landF_6 {F : FTy → Type} [FloatOps F] (c : Dev nD) (A : FVec F S1x1024x1024 .f32) :
    landF c A 6 = (ReadAs.same (Val := Elt F)).apply (View.read (Elt F) (((Memref.whole main_arg0).slice (Rect.unit (s := S1x1024x1024) (k0_off1 c 384#32) S1x64x1024.size (k0_off1_inb c 6)) (fun _ => rfl)).squeeze S64x1024 squeezes_S1x64x1024_S64x1024).view A) := rfl
theorem landF_7 {F : FTy → Type} [FloatOps F] (c : Dev nD) (A : FVec F S1x1024x1024 .f32) :
    landF c A 7 = (ReadAs.same (Val := Elt F)).apply (View.read (Elt F) (((Memref.whole main_arg0).slice (Rect.unit (s := S1x1024x1024) (k0_off1 c 448#32) S1x64x1024.size (k0_off1_inb c 7)) (fun _ => rfl)).squeeze S64x1024 squeezes_S1x64x1024_S64x1024).view A) := rfl

theorem landF_apply {F : FTy → Type} [FloatOps F] (c : Dev nD) (A : FVec F S1x1024x1024 .f32) (k : Fin 8) (y : S64x1024.Idx) :
    landF c A k y = slabAt A (512 * cy c + 64 * k.val + (y 0).val) (y 1).val := by
  have hy0 : (y 0).val < 64 := (y 0).isLt
  have hy1 : (y 1).val < 1024 := (y 1).isLt
  have hk : k.val < 8 := k.isLt
  have hc : c.val < 8 := c.isLt
  have e := read_window (Val := Elt F) (Memref.whole main_arg0) (k0_off1 c (BitVec.ofNat 32 (64 * k.val))) (k0_off1_inb c k) A y
    (ix3 (0 : Fin 1) (rd 1024 (by decide) (512 * cy c + 64 * k.val + (y 0).val)) (rd 1024 (by decide) (y 1).val))
  refine ((e ?_ ?_ ?_).trans ((read_whole_apply (Val := Elt F) main_arg0 A (ix3 (0 : Fin 1) (rd 1024 (by decide) (512 * cy c + 64 * k.val + (y 0).val)) (rd 1024 (by decide) (y 1).val))).trans rfl))
  · rw [k0_off1_eq c k]
    rfl
  · rw [k0_off1_eq c k]
    show (512 * cy c + 64 * k.val + (y 0).val) % 1024 = 512 * ((c.val / 2) % 2) + 64 * k.val + (y 0).val
    unfold cy
    omega
  · rw [k0_off1_eq c k]
    show (y 1).val % 1024 = 0 + (y 1).val
    omega

/-! ## The fetch buffer after the eight landings -/

theorem inbF : ∀ k : Fin 8, ∀ a, (![k.val, 0, 0] : Fin 3 → Nat) a + S1x64x1024.size a ≤ S8x64x1024.size a := by decide

/-- Window `k` of the fetch buffer: its rows `[k, 0 … 63, 0 … 1023]`. -/
def fwin (k : Fin 8) : View sig .tc .vmem S64x1024 .f32 :=
  (((Memref.whole cc0_scratch0).slice (Rect.unit (s := S8x64x1024) ![k.val, 0, 0] S1x64x1024.size (inbF k)) (fun _ => rfl)).squeeze S64x1024 squeezes_S1x64x1024_S64x1024).view

theorem fwin_emb (k : Fin 8) (y : S64x1024.Idx) :
    (fwin k).emb y = (ix3 (⟨k.val, k.isLt⟩ : Fin 8) (y 0) (y 1) : S8x64x1024.Idx) := by
  unfold fwin
  rw [emb_window]
  funext a
  refine Fin.ext ?_
  match a with
  | ⟨0, _⟩ =>
    show k.val + 1 * 0 = k.val
    omega
  | ⟨1, _⟩ =>
    show 0 + 1 * (y 0).val = (y 0).val
    omega
  | ⟨2, _⟩ =>
    show 0 + 1 * (y 1).val = (y 1).val
    omega

/-- A write through window `k` decides the elements whose leading coordinate is `k` … -/
theorem write_fwin_hit {Val : EltTy → Type} (k : Fin 8) (f : (fwin k).ty.Contents Val) (w : S64x1024.Idx → Val .f32) (i : S8x64x1024.Idx)
    (h : (i 0).val = k.val) : View.write Val (fwin k) f w Finset.univ i = w (ix2 (n0 := 64) (n1 := 1024) (i 1) (i 2)) := by
  have hi : (fwin k).emb (ix2 (n0 := 64) (n1 := 1024) (i 1) (i 2)) = i := by
    rw [fwin_emb]
    funext a
    refine Fin.ext ?_
    match a with
    | ⟨0, _⟩ => exact h.symm
    | ⟨1, _⟩ => rfl
    | ⟨2, _⟩ => rfl
  have e := View.write_emb_of_mem (v := fwin k) f w (Finset.mem_univ (ix2 (n0 := 64) (n1 := 1024) (i 1) (i 2)))
  rw [hi] at e
  exact e.trans (cast_eq _ _)

/-- … and leaves every other element as it was. -/
theorem write_fwin_miss {Val : EltTy → Type} (k : Fin 8) (f : (fwin k).ty.Contents Val) (w : S64x1024.Idx → Val .f32) (i : S8x64x1024.Idx)
    (h : (i 0).val ≠ k.val) : View.write Val (fwin k) f w Finset.univ i = f i := by
  refine View.write_of_not_mem f w Finset.univ fun hm => h ?_
  obtain ⟨y, hy⟩ := View.exists_emb_of_mem_set (fwin k) hm
  rw [fwin_emb] at hy
  rw [← hy]

/-- The fetch buffer after the eight landings, window 0 first. -/
def fbAll {F : FTy → Type} [FloatOps F] (c : Dev nD) (A : FVec F S1x1024x1024 .f32) (b0 : FVec F S8x64x1024 .f32) : FVec F S8x64x1024 .f32 :=
  View.write (Elt F) (((Memref.whole cc0_scratch0).slice (Rect.unit (s := S8x64x1024) ![7, 0, 0] S1x64x1024.size inb_S8x64x1024_S1x64x1024_7_0_0) (fun _ => rfl)).squeeze S64x1024 squeezes_S1x64x1024_S64x1024).view
      (View.write (Elt F) (((Memref.whole cc0_scratch0).slice (Rect.unit (s := S8x64x1024) ![6, 0, 0] S1x64x1024.size inb_S8x64x1024_S1x64x1024_6_0_0) (fun _ => rfl)).squeeze S64x1024 squeezes_S1x64x1024_S64x1024).view
      (View.write (Elt F) (((Memref.whole cc0_scratch0).slice (Rect.unit (s := S8x64x1024) ![5, 0, 0] S1x64x1024.size inb_S8x64x1024_S1x64x1024_5_0_0) (fun _ => rfl)).squeeze S64x1024 squeezes_S1x64x1024_S64x1024).view
      (View.write (Elt F) (((Memref.whole cc0_scratch0).slice (Rect.unit (s := S8x64x1024) ![4, 0, 0] S1x64x1024.size inb_S8x64x1024_S1x64x1024_4_0_0) (fun _ => rfl)).squeeze S64x1024 squeezes_S1x64x1024_S64x1024).view
      (View.write (Elt F) (((Memref.whole cc0_scratch0).slice (Rect.unit (s := S8x64x1024) ![3, 0, 0] S1x64x1024.size inb_S8x64x1024_S1x64x1024_3_0_0) (fun _ => rfl)).squeeze S64x1024 squeezes_S1x64x1024_S64x1024).view
      (View.write (Elt F) (((Memref.whole cc0_scratch0).slice (Rect.unit (s := S8x64x1024) ![2, 0, 0] S1x64x1024.size inb_S8x64x1024_S1x64x1024_2_0_0) (fun _ => rfl)).squeeze S64x1024 squeezes_S1x64x1024_S64x1024).view
      (View.write (Elt F) (((Memref.whole cc0_scratch0).slice (Rect.unit (s := S8x64x1024) ![1, 0, 0] S1x64x1024.size inb_S8x64x1024_S1x64x1024_1_0_0) (fun _ => rfl)).squeeze S64x1024 squeezes_S1x64x1024_S64x1024).view
      (View.write (Elt F) (((Memref.whole cc0_scratch0).slice (Rect.unit (s := S8x64x1024) ![0, 0, 0] S1x64x1024.size inb_S8x64x1024_S1x64x1024_0_0_0) (fun _ => rfl)).squeeze S64x1024 squeezes_S1x64x1024_S64x1024).view
      (b0)
      (landF c A 0) Finset.univ)
      (landF c A 1) Finset.univ)
      (landF c A 2) Finset.univ)
      (landF c A 3) Finset.univ)
      (landF c A 4) Finset.univ)
      (landF c A 5) Finset.univ)
      (landF c A 6) Finset.univ)
      (landF c A 7) Finset.univ

theorem fbAll_unfold {F : FTy → Type} [FloatOps F] (c : Dev nD) (A : FVec F S1x1024x1024 .f32) (b0 : FVec F S8x64x1024 .f32) :
    fbAll c A b0 = View.write (Elt F) (fwin 7) (View.write (Elt F) (fwin 6) (View.write (Elt F) (fwin 5) (View.write (Elt F) (fwin 4) (View.write (Elt F) (fwin 3) (View.write (Elt F) (fwin 2) (View.write (Elt F) (fwin 1) (View.write (Elt F) (fwin 0) (b0) (landF c A 0) Finset.univ) (landF c A 1) Finset.univ) (landF c A 2) Finset.univ) (landF c A 3) Finset.univ) (landF c A 4) Finset.univ) (landF c A 5) Finset.univ) (landF c A 6) Finset.univ) (landF c A 7) Finset.univ := rfl

/-- After the eight landings the fetch buffer holds the own row half of the slab, whole: every element lies in exactly one
    window, the one its leading coordinate names. -/
theorem fbAll_eq {F : FTy → Type} [FloatOps F] (X : Dev nD → FVec F S1x1024x1024 .f32) (c : Dev nD) (b0 : FVec F S8x64x1024 .f32) :
    fbAll c (X c) b0 = fetchC X c := by
  funext i
  rw [fbAll_unfold]
  have hi : (i 0).val < 8 := (i 0).isLt
  have key : ∀ k : Fin 8, (i 0).val = k.val → landF c (X c) k (ix2 (n0 := 64) (n1 := 1024) (i 1) (i 2)) = fetchC X c i := by
    intro k hk
    rw [landF_apply]
    show slabAt (X c) (512 * cy c + 64 * k.val + (i 1).val) (i 2).val = slabAt (X c) (512 * cy c + 64 * (i 0).val + (i 1).val) (i 2).val
    rw [hk]
  obtain h | h | h | h | h | h | h | h : (i 0).val = 0 ∨ (i 0).val = 1 ∨ (i 0).val = 2 ∨ (i 0).val = 3 ∨ (i 0).val = 4 ∨ (i 0).val = 5
      ∨ (i 0).val = 6 ∨ (i 0).val = 7 := by omega
  · exact ((write_fwin_miss 7 _ _ i (by rw [h]; decide)).trans ((write_fwin_miss 6 _ _ i (by rw [h]; decide)).trans ((write_fwin_miss 5 _ _ i (by rw [h]; decide)).trans ((write_fwin_miss 4 _ _ i (by rw [h]; decide)).trans ((write_fwin_miss 3 _ _ i (by rw [h]; decide)).trans ((write_fwin_miss 2 _ _ i (by rw [h]; decide)).trans ((write_fwin_miss 1 _ _ i (by rw [h]; decide)).trans (write_fwin_hit 0 _ _ i h)))))))).trans (key 0 h)
  · exact ((write_fwin_miss 7 _ _ i (by rw [h]; decide)).trans ((write_fwin_miss 6 _ _ i (by rw [h]; decide)).trans ((write_fwin_miss 5 _ _ i (by rw [h]; decide)).trans ((write_fwin_miss 4 _ _ i (by rw [h]; decide)).trans ((write_fwin_miss 3 _ _ i (by rw [h]; decide)).trans ((write_fwin_miss 2 _ _ i (by rw [h]; decide)).trans (write_fwin_hit 1 _ _ i h))))))).trans (key 1 h)
  · exact ((write_fwin_miss 7 _ _ i (by rw [h]; decide)).trans ((write_fwin_miss 6 _ _ i (by rw [h]; decide)).trans ((write_fwin_miss 5 _ _ i (by rw [h]; decide)).trans ((write_fwin_miss 4 _ _ i (by rw [h]; decide)).trans ((write_fwin_miss 3 _ _ i (by rw [h]; decide)).trans (write_fwin_hit 2 _ _ i h)))))).trans (key 2 h)
  · exact ((write_fwin_miss 7 _ _ i (by rw [h]; decide)).trans ((write_fwin_miss 6 _ _ i (by rw [h]; decide)).trans ((write_fwin_miss 5 _ _ i (by rw [h]; decide)).trans ((write_fwin_miss 4 _ _ i (by rw [h]; decide)).trans (write_fwin_hit 3 _ _ i h))))).trans (key 3 h)
  · exact ((write_fwin_miss 7 _ _ i (by rw [h]; decide)).trans ((write_fwin_miss 6 _ _ i (by rw [h]; decide)).trans ((write_fwin_miss 5 _ _ i (by rw [h]; decide)).trans (write_fwin_hit 4 _ _ i h)))).trans (key 4 h)
  · exact ((write_fwin_miss 7 _ _ i (by rw [h]; decide)).trans ((write_fwin_miss 6 _ _ i (by rw [h]; decide)).trans (write_fwin_hit 5 _ _ i h))).trans (key 5 h)
  · exact ((write_fwin_miss 7 _ _ i (by rw [h]; decide)).trans (write_fwin_hit 6 _ _ i h)).trans (key 6 h)
  · exact (write_fwin_hit 7 _ _ i h).trans (key 7 h)

/-! ## Loads out of the fetch buffer -/

/-- A load through a unit-stride rectangle of a buffer held whole reads the contents at the rectangle's offsets. -/
theorem readAt_whole_unit {κ : Kind} {Val : EltTy → Type} (b : Ref sig κ) (off size : Fin b.ty.shape.rank → ℕ)
    (inb : ∀ a, off a + size a ≤ b.ty.shape.size a) (f : b.ty.Contents Val) (y : (Rect.unit off size inb).shape.Idx)
    (j : b.ty.shape.Idx) (hj : ∀ a, (j a).val = off a + (y a).val) :
    View.readAt Val (Memref.whole b).view (Rect.unit off size inb).toLoadRect f y = f j := by
  rw [View.readAt_apply, read_whole_apply]
  congr 1
  funext a
  refine Fin.ext ?_
  rw [hj a]
  show off a + 1 * (y a).val = off a + (y a).val
  omega

/-- A `[1, 64, 512]` load at `(K, 0, col)` out of the fetch buffer: rows of chunk `K`, columns from `col`. -/
theorem ld_fetch {F : FTy → Type} [FloatOps F] (X : Dev nD → FVec F S1x1024x1024 .f32) (c : Dev nD) (off : Fin 3 → ℕ)
    (inb : ∀ a, off a + S1x64x512.size a ≤ S8x64x1024.size a) (K col : ℕ) (hK : K < 8) (hcol : col + 512 ≤ 1024)
    (hoff : off = ![K, 0, col]) (y : S1x64x512.Idx) :
    View.readAt (Elt F) (Memref.whole cc0_scratch0).view (Rect.unit (s := S8x64x1024) off S1x64x512.size inb).toLoadRect (fetchC X c) y
      = slabAt (X c) (512 * cy c + 64 * K + (y 1).val) (col + (y 2).val) := by
  have h0 : (y 0).val < 1 := (y 0).isLt
  have h1 : (y 1).val < 64 := (y 1).isLt
  have h2 : (y 2).val < 512 := (y 2).isLt
  subst hoff
  have hj : ∀ a : Fin 3, ((ix3 (⟨K, hK⟩ : Fin 8) (⟨(y 1).val, h1⟩ : Fin 64) (⟨col + (y 2).val, by omega⟩ : Fin 1024) : S8x64x1024.Idx) a).val
      = (![K, 0, col] : Fin 3 → ℕ) a + (y a).val := by
    intro a
    match a with
    | ⟨0, _⟩ =>
      show K = K + (y 0).val
      omega
    | ⟨1, _⟩ =>
      show (y 1).val = 0 + (y 1).val
      omega
    | ⟨2, _⟩ => rfl
  exact (readAt_whole_unit (Val := Elt F) cc0_scratch0 _ _ _ (fetchC X c) y _ hj).trans rfl

theorem ldP_0 {F : FTy → Type} [FloatOps F] (X : Dev nD → FVec F S1x1024x1024 .f32) (c : Dev nD) (y : S1x64x512.Idx) :
    View.readAt (Elt F) (Memref.whole cc0_scratch0).view (Rect.unit (s := S8x64x1024) (k0_off3 c) S1x64x512.size (k0_off3_inb c)).toLoadRect (fetchC X c) y
      = slabAt (X c) (512 * cy c + 64 * 0 + (y 1).val) (512 * (1 - cx c) + (y 2).val) := by
  have hc : c.val < 8 := c.isLt
  have e : 512 - 512 * (c.val / 4) = 512 * (1 - cx c) := by unfold cx; omega
  have := ld_fetch X c (k0_off3 c) (k0_off3_inb c) 0 (512 - 512 * (c.val / 4)) (by decide) (by omega) (k0_off3_eq c) y
  rw [e] at this
  exact this

theorem ldO_0 {F : FTy → Type} [FloatOps F] (X : Dev nD → FVec F S1x1024x1024 .f32) (c : Dev nD) (y : S1x64x512.Idx) :
    View.readAt (Elt F) (Memref.whole cc0_scratch0).view (Rect.unit (s := S8x64x1024) (k0_off11 c) S1x64x512.size (k0_off11_inb c)).toLoadRect (fetchC X c) y
      = slabAt (X c) (512 * cy c + 64 * 0 + (y 1).val) (512 * cx c + (y 2).val) := by
  have hc : c.val < 8 := c.isLt
  exact ld_fetch X c (k0_off11 c) (k0_off11_inb c) 0 (512 * (c.val / 4)) (by decide) (by omega) (k0_off11_eq c) y

theorem ldP_1 {F : FTy → Type} [FloatOps F] (X : Dev nD → FVec F S1x1024x1024 .f32) (c : Dev nD) (y : S1x64x512.Idx) :
    View.readAt (Elt F) (Memref.whole cc0_scratch0).view (Rect.unit (s := S8x64x1024) (k0_off4 c) S1x64x512.size (k0_off4_inb c)).toLoadRect (fetchC X c) y
      = slabAt (X c) (512 * cy c + 64 * 1 + (y 1).val) (512 * (1 - cx c) + (y 2).val) := by
  have hc : c.val < 8 := c.isLt
  have e : 512 - 512 * (c.val / 4) = 512 * (1 - cx c) := by unfold cx; omega
  have := ld_fetch X c (k0_off4 c) (k0_off4_inb c) 1 (512 - 512 * (c.val / 4)) (by decide) (by omega) (k0_off4_eq c) y
  rw [e] at this
  exact this

theorem ldO_1 {F : FTy → Type} [FloatOps F] (X : Dev nD → FVec F S1x1024x1024 .f32) (c : Dev nD) (y : S1x64x512.Idx) :
    View.readAt (Elt F) (Memref.whole cc0_scratch0).view (Rect.unit (s := S8x64x1024) (k0_off13 c) S1x64x512.size (k0_off13_inb c)).toLoadRect (fetchC X c) y
      = slabAt (X c) (512 * cy c + 64 * 1 + (y 1).val) (512 * cx c + (y 2).val) := by
  have hc : c.val < 8 := c.isLt
  exact ld_fetch X c (k0_off13 c) (k0_off13_inb c) 1 (512 * (c.val / 4)) (by decide) (by omega) (k0_off13_eq c) y

theorem ldP_2 {F : FTy → Type} [FloatOps F] (X : Dev nD → FVec F S1x1024x1024 .f32) (c : Dev nD) (y : S1x64x512.Idx) :
    View.readAt (Elt F) (Memref.whole cc0_scratch0).view (Rect.unit (s := S8x64x1024) (k0_off5 c) S1x64x512.size (k0_off5_inb c)).toLoadRect (fetchC X c) y
      = slabAt (X c) (512 * cy c + 64 * 2 + (y 1).val) (512 * (1 - cx c) + (y 2).val) := by
  have hc : c.val < 8 := c.isLt
  have e : 512 - 512 * (c.val / 4) = 512 * (1 - cx c) := by unfold cx; omega
  have := ld_fetch X c (k0_off5 c) (k0_off5_inb c) 2 (512 - 512 * (c.val / 4)) (by decide) (by omega) (k0_off5_eq c) y
  rw [e] at this
  exact this

theorem ldO_2 {F : FTy → Type} [FloatOps F] (X : Dev nD → FVec F S1x1024x1024 .f32) (c : Dev nD) (y : S1x64x512.Idx) :
    View.readAt (Elt F) (Memref.whole cc0_scratch0).view (Rect.unit (s := S8x64x1024) (k0_off14 c) S1x64x512.size (k0_off14_inb c)).toLoadRect (fetchC X c) y
      = slabAt (X c) (512 * cy c + 64 * 2 + (y 1).val) (512 * cx c + (y 2).val) := by
  have hc : c.val < 8 := c.isLt
  exact ld_fetch X c (k0_off14 c) (k0_off14_inb c) 2 (512 * (c.val / 4)) (by decide) (by omega) (k0_off14_eq c) y

theorem ldP_3 {F : FTy → Type} [FloatOps F] (X : Dev nD → FVec F S1x1024x1024 .f32) (c : Dev nD) (y : S1x64x512.Idx) :
    View.readAt (Elt F) (Memref.whole cc0_scratch0).view (Rect.unit (s := S8x64x1024) (k0_off6 c) S1x64x512.size (k0_off6_inb c)).toLoadRect (fetchC X c) y
      = slabAt (X c) (512 * cy c + 64 * 3 + (y 1).val) (512 * (1 - cx c) + (y 2).val) := by
  have hc : c.val < 8 := c.isLt
  have e : 512 - 512 * (c.val / 4) = 512 * (1 - cx c) := by unfold cx; omega
  have := ld_fetch X c (k0_off6 c) (k0_off6_inb c) 3 (512 - 512 * (c.val / 4)) (by decide) (by omega) (k0_off6_eq c) y
  rw [e] at this
  exact this

theorem ldO_3 {F : FTy → Type} [FloatOps F] (X : Dev nD → FVec F S1x1024x1024 .f32) (c : Dev nD) (y : S1x64x512.Idx) :
    View.readAt (Elt F) (Memref.whole cc0_scratch0).view (Rect.unit (s := S8x64x1024) (k0_off15 c) S1x64x512.size (k0_off15_inb c)).toLoadRect (fetchC X c) y
      = slabAt (X c) (512 * cy c + 64 * 3 + (y 1).val) (512 * cx c + (y 2).val) := by
  have hc : c.val < 8 := c.isLt
  exact ld_fetch X c (k0_off15 c) (k0_off15_inb c) 3 (512 * (c.val / 4)) (by decide) (by omega) (k0_off15_eq c) y

theorem ldP_4 {F : FTy → Type} [FloatOps F] (X : Dev nD → FVec F S1x1024x1024 .f32) (c : Dev nD) (y : S1x64x512.Idx) :
    View.readAt (Elt F) (Memref.whole cc0_scratch0).view (Rect.unit (s := S8x64x1024) (k0_off7 c) S1x64x512.size (k0_off7_inb c)).toLoadRect (fetchC X c) y
      = slabAt (X c) (512 * cy c + 64 * 4 + (y 1).val) (512 * (1 - cx c) + (y 2).val) := by
  have hc : c.val < 8 := c.isLt
  have e : 512 - 512 * (c.val / 4) = 512 * (1 - cx c) := by unfold cx; omega
  have := ld_fetch X c (k0_off7 c) (k0_off7_inb c) 4 (512 - 512 * (c.val / 4)) (by decide) (by omega) (k0_off7_eq c) y
  rw [e] at this
  exact this

theorem ldO_4 {F : FTy → Type} [FloatOps F] (X : Dev nD → FVec F S1x1024x1024 .f32) (c : Dev nD) (y : S1x64x512.Idx) :
    View.readAt (Elt F) (Memref.whole cc0_scratch0).view (Rect.unit (s := S8x64x1024) (k0_off16 c) S1x64x512.size (k0_off16_inb c)).toLoadRect (fetchC X c) y
      = slabAt (X c) (512 * cy c + 64 * 4 + (y 1).val) (512 * cx c + (y 2).val) := by
  have hc : c.val < 8 := c.isLt
  exact ld_fetch X c (k0_off16 c) (k0_off16_inb c) 4 (512 * (c.val / 4)) (by decide) (by omega) (k0_off16_eq c) y

theorem ldP_5 {F : FTy → Type} [FloatOps F] (X : Dev nD → FVec F S1x1024x1024 .f32) (c : Dev nD) (y : S1x64x512.Idx) :
    View.readAt (Elt F) (Memref.whole cc0_scratch0).view (Rect.unit (s := S8x64x1024) (k0_off8 c) S1x64x512.size (k0_off8_inb c)).toLoadRect (fetchC X c) y
      = slabAt (X c) (512 * cy c + 64 * 5 + (y 1).val) (512 * (1 - cx c) + (y 2).val) := by
  have hc : c.val < 8 := c.isLt
  have e : 512 - 512 * (c.val / 4) = 512 * (1 - cx c) := by unfold cx; omega
  have := ld_fetch X c (k0_off8 c) (k0_off8_inb c) 5 (512 - 512 * (c.val / 4)) (by decide) (by omega) (k0_off8_eq c) y
  rw [e] at this
  exact this

theorem ldO_5 {F : FTy → Type} [FloatOps F] (X : Dev nD → FVec F S1x1024x1024 .f32) (c : Dev nD) (y : S1x64x512.Idx) :
    View.readAt (Elt F) (Memref.whole cc0_scratch0).view (Rect.unit (s := S8x64x1024) (k0_off17 c) S1x64x512.size (k0_off17_inb c)).toLoadRect (fetchC X c) y
      = slabAt (X c) (512 * cy c + 64 * 5 + (y 1).val) (512 * cx c + (y 2).val) := by
  have hc : c.val < 8 := c.isLt
  exact ld_fetch X c (k0_off17 c) (k0_off17_inb c) 5 (512 * (c.val / 4)) (by decide) (by omega) (k0_off17_eq c) y

theorem ldP_6 {F : FTy → Type} [FloatOps F] (X : Dev nD → FVec F S1x1024x1024 .f32) (c : Dev nD) (y : S1x64x512.Idx) :
    View.readAt (Elt F) (Memref.whole cc0_scratch0).view (Rect.unit (s := S8x64x1024) (k0_off9 c) S1x64x512.size (k0_off9_inb c)).toLoadRect (fetchC X c) y
      = slabAt (X c) (512 * cy c + 64 * 6 + (y 1).val) (512 * (1 - cx c) + (y 2).val) := by
  have hc : c.val < 8 := c.isLt
  have e : 512 - 512 * (c.val / 4) = 512 * (1 - cx c) := by unfold cx; omega
  have := ld_fetch X c (k0_off9 c) (k0_off9_inb c) 6 (512 - 512 * (c.val / 4)) (by decide) (by omega) (k0_off9_eq c) y
  rw [e] at this
  exact this

theorem ldO_6 {F : FTy → Type} [FloatOps F] (X : Dev nD → FVec F S1x1024x1024 .f32) (c : Dev nD) (y : S1x64x512.Idx) :
    View.readAt (Elt F) (Memref.whole cc0_scratch0).view (Rect.unit (s := S8x64x1024) (k0_off18 c) S1x64x512.size (k0_off18_inb c)).toLoadRect (fetchC X c) y
      = slabAt (X c) (512 * cy c + 64 * 6 + (y 1).val) (512 * cx c + (y 2).val) := by
  have hc : c.val < 8 := c.isLt
  exact ld_fetch X c (k0_off18 c) (k0_off18_inb c) 6 (512 * (c.val / 4)) (by decide) (by omega) (k0_off18_eq c) y

theorem ldP_7 {F : FTy → Type} [FloatOps F] (X : Dev nD → FVec F S1x1024x1024 .f32) (c : Dev nD) (y : S1x64x512.Idx) :
    View.readAt (Elt F) (Memref.whole cc0_scratch0).view (Rect.unit (s := S8x64x1024) (k0_off10 c) S1x64x512.size (k0_off10_inb c)).toLoadRect (fetchC X c) y
      = slabAt (X c) (512 * cy c + 64 * 7 + (y 1).val) (512 * (1 - cx c) + (y 2).val) := by
  have hc : c.val < 8 := c.isLt
  have e : 512 - 512 * (c.val / 4) = 512 * (1 - cx c) := by unfold cx; omega
  have := ld_fetch X c (k0_off10 c) (k0_off10_inb c) 7 (512 - 512 * (c.val / 4)) (by decide) (by omega) (k0_off10_eq c) y
  rw [e] at this
  exact this

theorem ldO_7 {F : FTy → Type} [FloatOps F] (X : Dev nD → FVec F S1x1024x1024 .f32) (c : Dev nD) (y : S1x64x512.Idx) :
    View.readAt (Elt F) (Memref.whole cc0_scratch0).view (Rect.unit (s := S8x64x1024) (k0_off19 c) S1x64x512.size (k0_off19_inb c)).toLoadRect (fetchC X c) y
      = slabAt (X c) (512 * cy c + 64 * 7 + (y 1).val) (512 * cx c + (y 2).val) := by
  have hc : c.val < 8 := c.isLt
  exact ld_fetch X c (k0_off19 c) (k0_off19_inb c) 7 (512 * (c.val / 4)) (by decide) (by omega) (k0_off19_eq c) y

/-! ## The chunks stored into the x-send buffer -/

/-- Dropping the unit axis, rounding to bf16 and putting the axis back is rounding entry by entry. -/
theorem pay_trunc_eq {F : FTy → Type} [FloatOps F] (v : Vec F S1x64x512 .f32) :
    shapeCast S1x64x512 (truncf .bf16 (shapeCast S64x512 v shapeCasts_S1x64x512_S64x512) bitsLt_bf16_f32) shapeCasts_S64x512_S1x64x512
      = truncf .bf16 v bitsLt_bf16_f32 :=
  shapeCast_shapeCast (truncf .bf16 v bitsLt_bf16_f32) shapeCasts_S1x64x512_S64x512 shapeCasts_S64x512_S1x64x512

theorem k0_pay1_eq {F : FTy → Type} [FloatOps F] (v : Vec F S1x64x512 .f32) : k0_pay1 v = truncf .bf16 v bitsLt_bf16_f32 := pay_trunc_eq v
theorem k0_pay2_eq {F : FTy → Type} [FloatOps F] (v : Vec F S1x64x512 .f32) : k0_pay2 v = truncf .bf16 v bitsLt_bf16_f32 := pay_trunc_eq v
theorem k0_pay3_eq {F : FTy → Type} [FloatOps F] (v : Vec F S1x64x512 .f32) : k0_pay3 v = truncf .bf16 v bitsLt_bf16_f32 := pay_trunc_eq v
theorem k0_pay4_eq {F : FTy → Type} [FloatOps F] (v : Vec F S1x64x512 .f32) : k0_pay4 v = truncf .bf16 v bitsLt_bf16_f32 := pay_trunc_eq v
theorem k0_pay56_eq {F : FTy → Type} [FloatOps F] (v : Vec F S1x64x512 .f32) : k0_pay6 (k0_pay5 v) = truncf .bf16 v bitsLt_bf16_f32 := pay_trunc_eq v
theorem k0_pay7_eq {F : FTy → Type} [FloatOps F] (v : Vec F S1x64x512 .f32) : k0_pay7 v = truncf .bf16 v bitsLt_bf16_f32 := pay_trunc_eq v
theorem k0_pay8_eq {F : FTy → Type} [FloatOps F] (v : Vec F S1x64x512 .f32) : k0_pay8 v = truncf .bf16 v bitsLt_bf16_f32 := pay_trunc_eq v
theorem k0_pay9_eq {F : FTy → Type} [FloatOps F] (v : Vec F S1x64x512 .f32) : k0_pay9 v = truncf .bf16 v bitsLt_bf16_f32 := pay_trunc_eq v

/-- A write on every index through a unit-stride rectangle of a buffer held whole puts the payload's entry `y` at the
    element `off + y`. -/
theorem write_access_whole_hit {κ : Kind} {Val : EltTy → Type} (b : Ref sig κ) (off size : Fin b.ty.shape.rank → ℕ)
    (inb : ∀ a, off a + size a ≤ b.ty.shape.size a) (f : b.ty.Contents Val) (w : (Rect.unit off size inb).shape.Idx → Val b.ty.elt)
    (y : (Rect.unit off size inb).shape.Idx) (i : b.ty.shape.Idx) (hi : ∀ a, (i a).val = off a + (y a).val) :
    View.write Val ((Memref.whole b).access (Rect.unit off size inb)) f w Finset.univ i = w y := by
  have hy : ((Memref.whole b).access (Rect.unit off size inb)).emb y = i := by
    funext a
    refine Fin.ext ?_
    rw [hi a]
    show off a + 1 * (y a).val = off a + (y a).val
    omega
  have e := View.write_emb_of_mem (v := (Memref.whole b).access (Rect.unit off size inb)) f w (Finset.mem_univ y)
  rw [hy] at e
  exact e.trans (cast_eq _ _)

/-- Chunk `k` of the x-send buffer after the store of the rounded peer-column half of fetched chunk `k`. -/
theorem sx_store_gen {F : FTy → Type} [FloatOps F] (X : Dev nD → FVec F S1x1024x1024 .f32) (c : Dev nD) (k : Fin 8)
    (inb : ∀ a, (![k.val, 0, 0] : Fin 3 → ℕ) a + S1x64x512.size a ≤ S8x64x512.size a)
    (b2 : FVec F S8x64x512 .bf16) (v : Vec F S1x64x512 .f32)
    (hv : ∀ y : S1x64x512.Idx, v y = slabAt (X c) (512 * cy c + 64 * k.val + (y 1).val) (512 * (1 - cx c) + (y 2).val)) :
    ∀ i ∈ (sxM k).view.set,
      View.write (Elt F) ((Memref.whole cc0_scratch2).access (Rect.unit (s := S8x64x512) ![k.val, 0, 0] S1x64x512.size inb)) b2
        (truncf .bf16 v bitsLt_bf16_f32) Finset.univ i = sendXC X c i := by
  intro i hi
  have hi0 : (i 0).val = k.val := by
    rw [chunk_set] at hi
    obtain ⟨i', hi', rfl⟩ := Finset.mem_map.mp hi
    exact (mem_chunkRect k i').mp hi'
  have h1 : (i 1).val < 64 := (i 1).isLt
  have h2 : (i 2).val < 512 := (i 2).isLt
  have hj : ∀ a : Fin 3, (i a).val
      = (![k.val, 0, 0] : Fin 3 → ℕ) a + ((ix3 (0 : Fin 1) (⟨(i 1).val, h1⟩ : Fin 64) (⟨(i 2).val, h2⟩ : Fin 512) : S1x64x512.Idx) a).val := by
    intro a
    match a with
    | ⟨0, _⟩ =>
      show (i 0).val = k.val + 0
      omega
    | ⟨1, _⟩ =>
      show (i 1).val = 0 + (i 1).val
      omega
    | ⟨2, _⟩ =>
      show (i 2).val = 0 + (i 2).val
      omega
  have e := write_access_whole_hit (Val := Elt F) cc0_scratch2 (![k.val, 0, 0]) S1x64x512.size inb b2 (truncf .bf16 v bitsLt_bf16_f32)
    (ix3 (0 : Fin 1) (⟨(i 1).val, h1⟩ : Fin 64) (⟨(i 2).val, h2⟩ : Fin 512)) i hj
  have hs : sendXC X c i = FloatOps.truncf .bf16 bitsLt_bf16_f32
      (slabAt (X c) (512 * cy c + 64 * k.val + (i 1).val) (512 * (1 - cx c) + (i 2).val)) := by
    show FloatOps.truncf .bf16 bitsLt_bf16_f32
      (slabAt (X c) (512 * cy c + 64 * (i 0).val + (i 1).val) (512 * (1 - cx c) + (i 2).val)) = _
    rw [hi0]
  rw [hs]
  exact e.trans (congrArg (FloatOps.truncf .bf16 bitsLt_bf16_f32) (hv _))

theorem sx_store_0 {F : FTy → Type} [FloatOps F] (X : Dev nD → FVec F S1x1024x1024 .f32) (c : Dev nD)
    (b0 : FVec F S8x64x1024 .f32) (b2 : FVec F S8x64x512 .bf16) :
    ∀ i ∈ (sxM 0).view.set,
      View.write (Elt F) ((Memref.whole cc0_scratch2).access (Rect.unit (s := S8x64x512) ![0, 0, 0] S1x64x512.size inb_S8x64x512_S1x64x512_0_0_0)) b2
        (k0_pay1 (View.readAt (Elt F) (Memref.whole cc0_scratch0).view (Rect.unit (s := S8x64x1024) (k0_off3 c) S1x64x512.size (k0_off3_inb c)).toLoadRect (fbAll c (X c) b0))) Finset.univ i = sendXC X c i := by
  rw [fbAll_eq, k0_pay1_eq]
  exact sx_store_gen X c 0 inb_S8x64x512_S1x64x512_0_0_0 b2 _ (fun y => ldP_0 X c y)

theorem sx_store_1 {F : FTy → Type} [FloatOps F] (X : Dev nD → FVec F S1x1024x1024 .f32) (c : Dev nD)
    (b0 : FVec F S8x64x1024 .f32) (b2 : FVec F S8x64x512 .bf16) :
    ∀ i ∈ (sxM 1).view.set,
      View.write (Elt F) ((Memref.whole cc0_scratch2).access (Rect.unit (s := S8x64x512) ![1, 0, 0] S1x64x512.size inb_S8x64x512_S1x64x512_1_0_0)) b2
        (k0_pay2 (View.readAt (Elt F) (Memref.whole cc0_scratch0).view (Rect.unit (s := S8x64x1024) (k0_off4 c) S1x64x512.size (k0_off4_inb c)).toLoadRect (fbAll c (X c) b0))) Finset.univ i = sendXC X c i := by
  rw [fbAll_eq, k0_pay2_eq]
  exact sx_store_gen X c 1 inb_S8x64x512_S1x64x512_1_0_0 b2 _ (fun y => ldP_1 X c y)

theorem sx_store_2 {F : FTy → Type} [FloatOps F] (X : Dev nD → FVec F S1x1024x1024 .f32) (c : Dev nD)
    (b0 : FVec F S8x64x1024 .f32) (b2 : FVec F S8x64x512 .bf16) :
    ∀ i ∈ (sxM 2).view.set,
      View.write (Elt F) ((Memref.whole cc0_scratch2).access (Rect.unit (s := S8x64x512) ![2, 0, 0] S1x64x512.size inb_S8x64x512_S1x64x512_2_0_0)) b2
        (k0_pay3 (View.readAt (Elt F) (Memref.whole cc0_scratch0).view (Rect.unit (s := S8x64x1024) (k0_off5 c) S1x64x512.size (k0_off5_inb c)).toLoadRect (fbAll c (X c) b0))) Finset.univ i = sendXC X c i := by
  rw [fbAll_eq, k0_pay3_eq]
  exact sx_store_gen X c 2 inb_S8x64x512_S1x64x512_2_0_0 b2 _ (fun y => ldP_2 X c y)

theorem sx_store_3 {F : FTy → Type} [FloatOps F] (X : Dev nD → FVec F S1x1024x1024 .f32) (c : Dev nD)
    (b0 : FVec F S8x64x1024 .f32) (b2 : FVec F S8x64x512 .bf16) :
    ∀ i ∈ (sxM 3).view.set,
      View.write (Elt F) ((Memref.whole cc0_scratch2).access (Rect.unit (s := S8x64x512) ![3, 0, 0] S1x64x512.size inb_S8x64x512_S1x64x512_3_0_0)) b2
        (k0_pay4 (View.readAt (Elt F) (Memref.whole cc0_scratch0).view (Rect.unit (s := S8x64x1024) (k0_off6 c) S1x64x512.size (k0_off6_inb c)).toLoadRect (fbAll c (X c) b0))) Finset.univ i = sendXC X c i := by
  rw [fbAll_eq, k0_pay4_eq]
  exact sx_store_gen X c 3 inb_S8x64x512_S1x64x512_3_0_0 b2 _ (fun y => ldP_3 X c y)

theorem sx_store_4 {F : FTy → Type} [FloatOps F] (X : Dev nD → FVec F S1x1024x1024 .f32) (c : Dev nD)
    (b0 : FVec F S8x64x1024 .f32) (b2 : FVec F S8x64x512 .bf16) :
    ∀ i ∈ (sxM 4).view.set,
      View.write (Elt F) ((Memref.whole cc0_scratch2).access (Rect.unit (s := S8x64x512) ![4, 0, 0] S1x64x512.size inb_S8x64x512_S1x64x512_4_0_0)) b2
        (k0_pay6 (k0_pay5 (View.readAt (Elt F) (Memref.whole cc0_scratch0).view (Rect.unit (s := S8x64x1024) (k0_off7 c) S1x64x512.size (k0_off7_inb c)).toLoadRect (fbAll c (X c) b0)))) Finset.univ i = sendXC X c i := by
  rw [fbAll_eq, k0_pay56_eq]
  exact sx_store_gen X c 4 inb_S8x64x512_S1x64x512_4_0_0 b2 _ (fun y => ldP_4 X c y)

theorem sx_store_5 {F : FTy → Type} [FloatOps F] (X : Dev nD → FVec F S1x1024x1024 .f32) (c : Dev nD)
    (b0 : FVec F S8x64x1024 .f32) (b2 : FVec F S8x64x512 .bf16) :
    ∀ i ∈ (sxM 5).view.set,
      View.write (Elt F) ((Memref.whole cc0_scratch2).access (Rect.unit (s := S8x64x512) ![5, 0, 0] S1x64x512.size inb_S8x64x512_S1x64x512_5_0_0)) b2
        (k0_pay7 (View.readAt (Elt F) (Memref.whole cc0_scratch0).view (Rect.unit (s := S8x64x1024) (k0_off8 c) S1x64x512.size (k0_off8_inb c)).toLoadRect (fbAll c (X c) b0))) Finset.univ i = sendXC X c i := by
  rw [fbAll_eq, k0_pay7_eq]
  exact sx_store_gen X c 5 inb_S8x64x512_S1x64x512_5_0_0 b2 _ (fun y => ldP_5 X c y)

theorem sx_store_6 {F : FTy → Type} [FloatOps F] (X : Dev nD → FVec F S1x1024x1024 .f32) (c : Dev nD)
    (b0 : FVec F S8x64x1024 .f32) (b2 : FVec F S8x64x512 .bf16) :
    ∀ i ∈ (sxM 6).view.set,
      View.write (Elt F) ((Memref.whole cc0_scratch2).access (Rect.unit (s := S8x64x512) ![6, 0, 0] S1x64x512.size inb_S8x64x512_S1x64x512_6_0_0)) b2
        (k0_pay8 (View.readAt (Elt F) (Memref.whole cc0_scratch0).view (Rect.unit (s := S8x64x1024) (k0_off9 c) S1x64x512.size (k0_off9_inb c)).toLoadRect (fbAll c (X c) b0))) Finset.univ i = sendXC X c i := by
  rw [fbAll_eq, k0_pay8_eq]
  exact sx_store_gen X c 6 inb_S8x64x512_S1x64x512_6_0_0 b2 _ (fun y => ldP_6 X c y)

theorem sx_store_7 {F : FTy → Type} [FloatOps F] (X : Dev nD → FVec F S1x1024x1024 .f32) (c : Dev nD)
    (b0 : FVec F S8x64x1024 .f32) (b2 : FVec F S8x64x512 .bf16) :
    ∀ i ∈ (sxM 7).view.set,
      View.write (Elt F) ((Memref.whole cc0_scratch2).access (Rect.unit (s := S8x64x512) ![7, 0, 0] S1x64x512.size inb_S8x64x512_S1x64x512_7_0_0)) b2
        (k0_pay9 (View.readAt (Elt F) (Memref.whole cc0_scratch0).view (Rect.unit (s := S8x64x1024) (k0_off10 c) S1x64x512.size (k0_off10_inb c)).toLoadRect (fbAll c (X c) b0))) Finset.univ i = sendXC X c i := by
  rw [fbAll_eq, k0_pay9_eq]
  exact sx_store_gen X c 7 inb_S8x64x512_S1x64x512_7_0_0 b2 _ (fun y => ldP_7 X c y)

/-! ## The result buffer: sixteen stores of 64 rows -/

/-- A write on every index through a unit-stride rectangle of a buffer held whole leaves an element outside the rectangle
    (on some axis) as it was. -/
theorem write_access_whole_miss {κ : Kind} {Val : EltTy → Type} (b : Ref sig κ) (off size : Fin b.ty.shape.rank → ℕ)
    (inb : ∀ a, off a + size a ≤ b.ty.shape.size a) (f : b.ty.Contents Val) (w : (Rect.unit off size inb).shape.Idx → Val b.ty.elt)
    (i : b.ty.shape.Idx) (a : Fin b.ty.shape.rank) (h : (i a).val < off a ∨ off a + size a ≤ (i a).val) :
    View.write Val ((Memref.whole b).access (Rect.unit off size inb)) f w Finset.univ i = f i := by
  refine View.write_of_not_mem (v := (Memref.whole b).access (Rect.unit off size inb)) f w Finset.univ fun hm => ?_
  have hm2 : i ∈ ((View.whole b).slice (Rect.unit off size inb)).set := hm
  rw [View.set_slice_whole] at hm2
  have := (Rect.mem_set_unit.mp hm2) a
  omega

/-- Dropping the unit leading axis of a `[1, 64, 512]` vector: entry `(r, q)` is entry `(0, r, q)`. -/
theorem shapeCast_drop_apply {α : Type} (v : S1x64x512.Idx → α) (y2 : S64x512.Idx) :
    shapeCast S64x512 v shapeCasts_S1x64x512_S64x512 y2 = v (ix3 (0 : Fin 1) (y2 0) (y2 1)) := by
  refine shapeCast_apply v _ y2 _ ?_
  rw [Shape.rowMajor_val_three, Shape.rowMajor_val_two]
  show (0 * 64 + (y2 0).val) * 512 + (y2 1).val = (y2 0).val * 512 + (y2 1).val
  omega

/-- The value stored in the own row half: the fetched entry plus the x-received one, rounded. -/
def pA {F : FTy → Type} [FloatOps F] (vF : Vec F S1x64x512 .f32) (vR : Vec F S1x64x512 .bf16) : FVec F S64x512 .bf16 :=
  truncf .bf16 (addf (shapeCast S64x512 vF shapeCasts_S1x64x512_S64x512) (extf .f32 (shapeCast S64x512 vR shapeCasts_S1x64x512_S64x512) bitsLt_bf16_f32)) bitsLt_bf16_f32

/-- The value stored in the other row half: the other-half entry plus the y-received one, rounded. -/
def pB {F : FTy → Type} [FloatOps F] (vO : Vec F S64x512 .f32) (vZ : Vec F S1x64x512 .bf16) : FVec F S64x512 .bf16 :=
  truncf .bf16 (addf vO (extf .f32 (shapeCast S64x512 vZ shapeCasts_S1x64x512_S64x512) bitsLt_bf16_f32)) bitsLt_bf16_f32

theorem k0_pay10_eq {F : FTy → Type} [FloatOps F] (vF : Vec F S1x64x512 .f32) (vR : Vec F S1x64x512 .bf16) : k0_pay10 vF vR = pA vF vR := rfl
theorem k0_pay11_eq {F : FTy → Type} [FloatOps F] (vF : Vec F S1x64x512 .f32) (vR : Vec F S1x64x512 .bf16) : k0_pay11 vF vR = pA vF vR := rfl
theorem k0_pay12_eq {F : FTy → Type} [FloatOps F] (vF : Vec F S1x64x512 .f32) (vR : Vec F S1x64x512 .bf16) : k0_pay12 vF vR = pA vF vR := rfl
theorem k0_pay13_eq {F : FTy → Type} [FloatOps F] (vF : Vec F S1x64x512 .f32) (vR : Vec F S1x64x512 .bf16) : k0_pay13 vF vR = pA vF vR := rfl
theorem k0_pay14_eq {F : FTy → Type} [FloatOps F] (vF : Vec F S1x64x512 .f32) (vR : Vec F S1x64x512 .bf16) : k0_pay14 vF vR = pA vF vR := rfl
theorem k0_pay15_eq {F : FTy → Type} [FloatOps F] (vF : Vec F S1x64x512 .f32) (vR : Vec F S1x64x512 .bf16) : k0_pay15 vF vR = pA vF vR := rfl
theorem k0_pay16_eq {F : FTy → Type} [FloatOps F] (vF : Vec F S1x64x512 .f32) (vR : Vec F S1x64x512 .bf16) : k0_pay16 vF vR = pA vF vR := rfl
theorem k0_pay17_eq {F : FTy → Type} [FloatOps F] (vF : Vec F S1x64x512 .f32) (vR : Vec F S1x64x512 .bf16) : k0_pay17 vF vR = pA vF vR := rfl
theorem k0_pay18_eq {F : FTy → Type} [FloatOps F] (vO : Vec F S64x512 .f32) (vZ : Vec F S1x64x512 .bf16) : k0_pay18 vO vZ = pB vO vZ := rfl
theorem k0_pay19_eq {F : FTy → Type} [FloatOps F] (vO : Vec F S64x512 .f32) (vZ : Vec F S1x64x512 .bf16) : k0_pay19 vO vZ = pB vO vZ := rfl
theorem k0_pay20_eq {F : FTy → Type} [FloatOps F] (vO : Vec F S64x512 .f32) (vZ : Vec F S1x64x512 .bf16) : k0_pay20 vO vZ = pB vO vZ := rfl
theorem k0_pay21_eq {F : FTy → Type} [FloatOps F] (vO : Vec F S64x512 .f32) (vZ : Vec F S1x64x512 .bf16) : k0_pay21 vO vZ = pB vO vZ := rfl
theorem k0_pay22_eq {F : FTy → Type} [FloatOps F] (vO : Vec F S64x512 .f32) (vZ : Vec F S1x64x512 .bf16) : k0_pay22 vO vZ = pB vO vZ := rfl
theorem k0_pay23_eq {F : FTy → Type} [FloatOps F] (vO : Vec F S64x512 .f32) (vZ : Vec F S1x64x512 .bf16) : k0_pay23 vO vZ = pB vO vZ := rfl
theorem k0_pay24_eq {F : FTy → Type} [FloatOps F] (vO : Vec F S64x512 .f32) (vZ : Vec F S1x64x512 .bf16) : k0_pay24 vO vZ = pB vO vZ := rfl
theorem k0_pay25_eq {F : FTy → Type} [FloatOps F] (vO : Vec F S64x512 .f32) (vZ : Vec F S1x64x512 .bf16) : k0_pay25 vO vZ = pB vO vZ := rfl

theorem pA_apply {F : FTy → Type} [FloatOps F] (vF : Vec F S1x64x512 .f32) (vR : Vec F S1x64x512 .bf16) (y2 : S64x512.Idx) :
    pA vF vR y2 = FloatOps.truncf .bf16 bitsLt_bf16_f32 (FloatOps.addf (vF (ix3 (0 : Fin 1) (y2 0) (y2 1)))
      (FloatOps.extf .f32 bitsLt_bf16_f32 (vR (ix3 (0 : Fin 1) (y2 0) (y2 1))))) := by
  show FloatOps.truncf .bf16 bitsLt_bf16_f32 (FloatOps.addf (shapeCast S64x512 vF shapeCasts_S1x64x512_S64x512 y2)
      (FloatOps.extf .f32 bitsLt_bf16_f32 (shapeCast S64x512 vR shapeCasts_S1x64x512_S64x512 y2))) = _
  rw [shapeCast_drop_apply, shapeCast_drop_apply]

theorem pB_apply {F : FTy → Type} [FloatOps F] (vO : Vec F S64x512 .f32) (vZ : Vec F S1x64x512 .bf16) (y2 : S64x512.Idx) :
    pB vO vZ y2 = FloatOps.truncf .bf16 bitsLt_bf16_f32 (FloatOps.addf (vO y2)
      (FloatOps.extf .f32 bitsLt_bf16_f32 (vZ (ix3 (0 : Fin 1) (y2 0) (y2 1))))) := by
  show FloatOps.truncf .bf16 bitsLt_bf16_f32 (FloatOps.addf (vO y2)
      (FloatOps.extf .f32 bitsLt_bf16_f32 (shapeCast S64x512 vZ shapeCasts_S1x64x512_S64x512 y2))) = _
  rw [shapeCast_drop_apply]

/-- Store `k` of the own row half: rows `512·y + 64·k … + 63` of the result buffer. -/
def stA {F : FTy → Type} [FloatOps F] (c : Dev nD) (k : Fin 8) (prev : FVec F S1024x512 .bf16) (w : FVec F S64x512 .bf16) : FVec F S1024x512 .bf16 :=
  View.write (Elt F) ((Memref.whole cc0_stg0_0).access (Rect.unit (s := S1024x512) (k0_off12 c (BitVec.ofNat 32 (64 * k.val))) S64x512.size (k0_off12_inb c k))) prev w Finset.univ

/-- Store `k` of the other row half: rows `512·(1 − y) + 64·k … + 63`. -/
def stB {F : FTy → Type} [FloatOps F] (c : Dev nD) (k : Fin 8) (prev : FVec F S1024x512 .bf16) (w : FVec F S64x512 .bf16) : FVec F S1024x512 .bf16 :=
  View.write (Elt F) ((Memref.whole cc0_stg0_0).access (Rect.unit (s := S1024x512) (k0_off20 c (BitVec.ofNat 32 (64 * k.val))) S64x512.size (k0_off20_inb c k))) prev w Finset.univ

theorem stA_hit {F : FTy → Type} [FloatOps F] (c : Dev nD) (kn : ℕ) (hk : kn < 8) (prev : FVec F S1024x512 .bf16) (w : FVec F S64x512 .bf16)
    (i : S1024x512.Idx) (h1 : 512 * cy c + 64 * kn ≤ (i 0).val) (h2 : (i 0).val < 512 * cy c + 64 * kn + 64) :
    stA c ⟨kn, hk⟩ prev w i = w (ix2 (⟨(i 0).val - (512 * cy c + 64 * kn), by omega⟩ : Fin 64) (⟨(i 1).val, (i 1).isLt⟩ : Fin 512)) := by
  have hj : ∀ a : Fin 2, (i a).val = (k0_off12 c (BitVec.ofNat 32 (64 * (⟨kn, hk⟩ : Fin 8).val))) a
      + ((ix2 (⟨(i 0).val - (512 * cy c + 64 * kn), by omega⟩ : Fin 64) (⟨(i 1).val, (i 1).isLt⟩ : Fin 512) : S64x512.Idx) a).val := by
    intro a
    rw [k0_off12_eq c ⟨kn, hk⟩]
    match a with
    | ⟨0, _⟩ =>
      show (i 0).val = 512 * ((c.val / 2) % 2) + 64 * kn + ((i 0).val - (512 * cy c + 64 * kn))
      unfold cy at h1 h2 ⊢
      omega
    | ⟨1, _⟩ =>
      show (i 1).val = 0 + (i 1).val
      omega
  exact write_access_whole_hit (Val := Elt F) cc0_stg0_0 _ S64x512.size (k0_off12_inb c ⟨kn, hk⟩) prev w _ i hj

theorem stA_miss {F : FTy → Type} [FloatOps F] (c : Dev nD) (kn : ℕ) (hk : kn < 8) (prev : FVec F S1024x512 .bf16) (w : FVec F S64x512 .bf16)
    (i : S1024x512.Idx) (h : (i 0).val < 512 * cy c + 64 * kn ∨ 512 * cy c + 64 * kn + 64 ≤ (i 0).val) :
    stA c ⟨kn, hk⟩ prev w i = prev i := by
  refine write_access_whole_miss (Val := Elt F) cc0_stg0_0 _ S64x512.size (k0_off12_inb c ⟨kn, hk⟩) prev w i (⟨0, Nat.zero_lt_two⟩ : Fin 2) ?_
  rw [k0_off12_eq c ⟨kn, hk⟩]
  exact h

theorem stB_hit {F : FTy → Type} [FloatOps F] (c : Dev nD) (kn : ℕ) (hk : kn < 8) (prev : FVec F S1024x512 .bf16) (w : FVec F S64x512 .bf16)
    (i : S1024x512.Idx) (h1 : 512 * (1 - cy c) + 64 * kn ≤ (i 0).val) (h2 : (i 0).val < 512 * (1 - cy c) + 64 * kn + 64) :
    stB c ⟨kn, hk⟩ prev w i = w (ix2 (⟨(i 0).val - (512 * (1 - cy c) + 64 * kn), by omega⟩ : Fin 64) (⟨(i 1).val, (i 1).isLt⟩ : Fin 512)) := by
  have hj : ∀ a : Fin 2, (i a).val = (k0_off20 c (BitVec.ofNat 32 (64 * (⟨kn, hk⟩ : Fin 8).val))) a
      + ((ix2 (⟨(i 0).val - (512 * (1 - cy c) + 64 * kn), by omega⟩ : Fin 64) (⟨(i 1).val, (i 1).isLt⟩ : Fin 512) : S64x512.Idx) a).val := by
    intro a
    rw [k0_off20_eq c ⟨kn, hk⟩]
    match a with
    | ⟨0, _⟩ =>
      show (i 0).val = (64 * kn + 512) - 512 * ((c.val / 2) % 2) + ((i 0).val - (512 * (1 - cy c) + 64 * kn))
      unfold cy at h1 h2 ⊢
      omega
    | ⟨1, _⟩ =>
      show (i 1).val = 0 + (i 1).val
      omega
  exact write_access_whole_hit (Val := Elt F) cc0_stg0_0 _ S64x512.size (k0_off20_inb c ⟨kn, hk⟩) prev w _ i hj

theorem stB_miss {F : FTy → Type} [FloatOps F] (c : Dev nD) (kn : ℕ) (hk : kn < 8) (prev : FVec F S1024x512 .bf16) (w : FVec F S64x512 .bf16)
    (i : S1024x512.Idx) (h : (i 0).val < 512 * (1 - cy c) + 64 * kn ∨ 512 * (1 - cy c) + 64 * kn + 64 ≤ (i 0).val) :
    stB c ⟨kn, hk⟩ prev w i = prev i := by
  refine write_access_whole_miss (Val := Elt F) cc0_stg0_0 _ S64x512.size (k0_off20_inb c ⟨kn, hk⟩) prev w i (⟨0, Nat.zero_lt_two⟩ : Fin 2) ?_
  rw [k0_off20_eq c ⟨kn, hk⟩]
  show (i 0).val < (64 * kn + 512) - 512 * ((c.val / 2) % 2) ∨ (64 * kn + 512) - 512 * ((c.val / 2) % 2) + 64 ≤ (i 0).val
  unfold cy at h
  omega

/-- On the own row half the stored value is the result block's entry: the second summand's slab is the x-peer's. -/
theorem outA_val {F : FTy → Type} [FloatOps F] (X : Dev nD → FVec F S1x1024x1024 .f32) (c : Dev nD)
    (vF : Fin 8 → Vec F S1x64x512 .f32) (vR : Fin 8 → Vec F S1x64x512 .bf16)
    (hF : ∀ (K : Fin 8) (y : S1x64x512.Idx), vF K y = slabAt (X c) (512 * cy c + 64 * K.val + (y 1).val) (512 * cx c + (y 2).val))
    (hR : ∀ (K : Fin 8) (y : S1x64x512.Idx), vR K y = recvXC X c (ix3 K (y 1) (y 2)))
    (kn : ℕ) (hk : kn < 8) (i : S1024x512.Idx) (h1 : 512 * cy c + 64 * kn ≤ (i 0).val) (h2 : (i 0).val < 512 * cy c + 64 * kn + 64) :
    pA (vF ⟨kn, hk⟩) (vR ⟨kn, hk⟩) (ix2 (⟨(i 0).val - (512 * cy c + 64 * kn), by omega⟩ : Fin 64) (⟨(i 1).val, (i 1).isLt⟩ : Fin 512)) = outC X c i := by
  have hcx := cx_lt c
  have hcy := cy_lt c
  have e1 : 512 * cy c + 64 * kn + ((i 0).val - (512 * cy c + 64 * kn)) = (i 0).val := by omega
  have e2 : 1 - (1 - cx c) = cx c := by omega
  have e3 : srcDev c (i 0).val = px c := by
    unfold srcDev
    rw [if_pos (by omega)]
  rw [pA_apply, hF, hR]
  show FloatOps.truncf .bf16 bitsLt_bf16_f32 (FloatOps.addf
      (slabAt (X c) (512 * cy c + 64 * kn + ((i 0).val - (512 * cy c + 64 * kn))) (512 * cx c + (i 1).val))
      (FloatOps.extf .f32 bitsLt_bf16_f32 (FloatOps.truncf .bf16 bitsLt_bf16_f32
        (slabAt (X (px c)) (512 * cy (px c) + 64 * kn + ((i 0).val - (512 * cy c + 64 * kn))) (512 * (1 - cx (px c)) + (i 1).val)))))
    = FloatOps.truncf .bf16 bitsLt_bf16_f32 (FloatOps.addf (slabAt (X c) (i 0).val (512 * cx c + (i 1).val))
      (FloatOps.extf .f32 bitsLt_bf16_f32 (FloatOps.truncf .bf16 bitsLt_bf16_f32
        (slabAt (X (srcDev c (i 0).val)) (i 0).val (512 * cx c + (i 1).val)))))
  rw [cy_px, cx_px, e1, e2, e3]

/-- On the other row half likewise: the second summand's slab is the y-peer's x-peer's, the same slab. -/
theorem outB_val {F : FTy → Type} [FloatOps F] (X : Dev nD → FVec F S1x1024x1024 .f32) (c : Dev nD)
    (vO : Fin 8 → Vec F S64x512 .f32) (vZ : Fin 8 → Vec F S1x64x512 .bf16)
    (hO : ∀ (K : Fin 8) (y : S64x512.Idx), vO K y = slabAt (X c) (512 * (1 - cy c) + 64 * K.val + (y 0).val) (512 * cx c + (y 1).val))
    (hZ : ∀ (K : Fin 8) (y : S1x64x512.Idx), vZ K y = recvZC X c (ix3 K (y 1) (y 2)))
    (kn : ℕ) (hk : kn < 8) (i : S1024x512.Idx) (h1 : 512 * (1 - cy c) + 64 * kn ≤ (i 0).val) (h2 : (i 0).val < 512 * (1 - cy c) + 64 * kn + 64) :
    pB (vO ⟨kn, hk⟩) (vZ ⟨kn, hk⟩) (ix2 (⟨(i 0).val - (512 * (1 - cy c) + 64 * kn), by omega⟩ : Fin 64) (⟨(i 1).val, (i 1).isLt⟩ : Fin 512)) = outC X c i := by
  have hcx := cx_lt c
  have hcy := cy_lt c
  have e1 : 512 * (1 - cy c) + 64 * kn + ((i 0).val - (512 * (1 - cy c) + 64 * kn)) = (i 0).val := by omega
  have e2 : 1 - (1 - cx c) = cx c := by omega
  have e3 : srcDev c (i 0).val = px (py c) := by
    unfold srcDev
    rw [if_neg (by omega)]
  rw [pB_apply, hO, hZ]
  show FloatOps.truncf .bf16 bitsLt_bf16_f32 (FloatOps.addf
      (slabAt (X c) (512 * (1 - cy c) + 64 * kn + ((i 0).val - (512 * (1 - cy c) + 64 * kn))) (512 * cx c + (i 1).val))
      (FloatOps.extf .f32 bitsLt_bf16_f32 (FloatOps.truncf .bf16 bitsLt_bf16_f32
        (slabAt (X (px (py c))) (512 * cy (px (py c)) + 64 * kn + ((i 0).val - (512 * (1 - cy c) + 64 * kn))) (512 * (1 - cx (px (py c))) + (i 1).val)))))
    = FloatOps.truncf .bf16 bitsLt_bf16_f32 (FloatOps.addf (slabAt (X c) (i 0).val (512 * cx c + (i 1).val))
      (FloatOps.extf .f32 bitsLt_bf16_f32 (FloatOps.truncf .bf16 bitsLt_bf16_f32
        (slabAt (X (srcDev c (i 0).val)) (i 0).val (512 * cx c + (i 1).val)))))
  rw [cy_px, cy_py, cx_px, cx_py, e1, e2, e3]

/-- The result buffer after the sixteen stores, in program order: the own row half's eight, then the other half's eight. -/
def outAll {F : FTy → Type} [FloatOps F] (c : Dev nD) (g0 : FVec F S1024x512 .bf16) (vF : Fin 8 → Vec F S1x64x512 .f32)
    (vR : Fin 8 → Vec F S1x64x512 .bf16) (vO : Fin 8 → Vec F S64x512 .f32) (vZ : Fin 8 → Vec F S1x64x512 .bf16) : FVec F S1024x512 .bf16 :=
  View.write (Elt F) ((Memref.whole cc0_stg0_0).access (Rect.unit (s := S1024x512) (k0_off20 c 448#32) S64x512.size (k0_off20_inb c 7)))
      (View.write (Elt F) ((Memref.whole cc0_stg0_0).access (Rect.unit (s := S1024x512) (k0_off20 c 384#32) S64x512.size (k0_off20_inb c 6)))
      (View.write (Elt F) ((Memref.whole cc0_stg0_0).access (Rect.unit (s := S1024x512) (k0_off20 c 320#32) S64x512.size (k0_off20_inb c 5)))
      (View.write (Elt F) ((Memref.whole cc0_stg0_0).access (Rect.unit (s := S1024x512) (k0_off20 c 256#32) S64x512.size (k0_off20_inb c 4)))
      (View.write (Elt F) ((Memref.whole cc0_stg0_0).access (Rect.unit (s := S1024x512) (k0_off20 c 192#32) S64x512.size (k0_off20_inb c 3)))
      (View.write (Elt F) ((Memref.whole cc0_stg0_0).access (Rect.unit (s := S1024x512) (k0_off20 c 128#32) S64x512.size (k0_off20_inb c 2)))
      (View.write (Elt F) ((Memref.whole cc0_stg0_0).access (Rect.unit (s := S1024x512) (k0_off20 c 64#32) S64x512.size (k0_off20_inb c 1)))
      (View.write (Elt F) ((Memref.whole cc0_stg0_0).access (Rect.unit (s := S1024x512) (k0_off20 c 0#32) S64x512.size (k0_off20_inb c 0)))
      (View.write (Elt F) ((Memref.whole cc0_stg0_0).access (Rect.unit (s := S1024x512) (k0_off12 c 448#32) S64x512.size (k0_off12_inb c 7)))
      (View.write (Elt F) ((Memref.whole cc0_stg0_0).access (Rect.unit (s := S1024x512) (k0_off12 c 384#32) S64x512.size (k0_off12_inb c 6)))
      (View.write (Elt F) ((Memref.whole cc0_stg0_0).access (Rect.unit (s := S1024x512) (k0_off12 c 320#32) S64x512.size (k0_off12_inb c 5)))
      (View.write (Elt F) ((Memref.whole cc0_stg0_0).access (Rect.unit (s := S1024x512) (k0_off12 c 256#32) S64x512.size (k0_off12_inb c 4)))
      (View.write (Elt F) ((Memref.whole cc0_stg0_0).access (Rect.unit (s := S1024x512) (k0_off12 c 192#32) S64x512.size (k0_off12_inb c 3)))
      (View.write (Elt F) ((Memref.whole cc0_stg0_0).access (Rect.unit (s := S1024x512) (k0_off12 c 128#32) S64x512.size (k0_off12_inb c 2)))
      (View.write (Elt F) ((Memref.whole cc0_stg0_0).access (Rect.unit (s := S1024x512) (k0_off12 c 64#32) S64x512.size (k0_off12_inb c 1)))
      (View.write (Elt F) ((Memref.whole cc0_stg0_0).access (Rect.unit (s := S1024x512) (k0_off12 c 0#32) S64x512.size (k0_off12_inb c 0)))
      (g0)
      (k0_pay10 (vF 0) (vR 0)) Finset.univ)
      (k0_pay11 (vF 1) (vR 1)) Finset.univ)
      (k0_pay12 (vF 2) (vR 2)) Finset.univ)
      (k0_pay13 (vF 3) (vR 3)) Finset.univ)
      (k0_pay14 (vF 4) (vR 4)) Finset.univ)
      (k0_pay15 (vF 5) (vR 5)) Finset.univ)
      (k0_pay16 (vF 6) (vR 6)) Finset.univ)
      (k0_pay17 (vF 7) (vR 7)) Finset.univ)
      (k0_pay18 (vO 0) (vZ 0)) Finset.univ)
      (k0_pay19 (vO 1) (vZ 1)) Finset.univ)
      (k0_pay20 (vO 2) (vZ 2)) Finset.univ)
      (k0_pay21 (vO 3) (vZ 3)) Finset.univ)
      (k0_pay22 (vO 4) (vZ 4)) Finset.univ)
      (k0_pay23 (vO 5) (vZ 5)) Finset.univ)
      (k0_pay24 (vO 6) (vZ 6)) Finset.univ)
      (k0_pay25 (vO 7) (vZ 7)) Finset.univ

theorem outAll_unfold {F : FTy → Type} [FloatOps F] (c : Dev nD) (g0 : FVec F S1024x512 .bf16) (vF : Fin 8 → Vec F S1x64x512 .f32)
    (vR : Fin 8 → Vec F S1x64x512 .bf16) (vO : Fin 8 → Vec F S64x512 .f32) (vZ : Fin 8 → Vec F S1x64x512 .bf16) :
    outAll c g0 vF vR vO vZ = stB c (⟨7, by decide⟩ : Fin 8) (stB c (⟨6, by decide⟩ : Fin 8) (stB c (⟨5, by decide⟩ : Fin 8) (stB c (⟨4, by decide⟩ : Fin 8) (stB c (⟨3, by decide⟩ : Fin 8) (stB c (⟨2, by decide⟩ : Fin 8) (stB c (⟨1, by decide⟩ : Fin 8) (stB c (⟨0, by decide⟩ : Fin 8) (stA c (⟨7, by decide⟩ : Fin 8) (stA c (⟨6, by decide⟩ : Fin 8) (stA c (⟨5, by decide⟩ : Fin 8) (stA c (⟨4, by decide⟩ : Fin 8) (stA c (⟨3, by decide⟩ : Fin 8) (stA c (⟨2, by decide⟩ : Fin 8) (stA c (⟨1, by decide⟩ : Fin 8) (stA c (⟨0, by decide⟩ : Fin 8) (g0) (pA (vF 0) (vR 0))) (pA (vF 1) (vR 1))) (pA (vF 2) (vR 2))) (pA (vF 3) (vR 3))) (pA (vF 4) (vR 4))) (pA (vF 5) (vR 5))) (pA (vF 6) (vR 6))) (pA (vF 7) (vR 7))) (pB (vO 0) (vZ 0))) (pB (vO 1) (vZ 1))) (pB (vO 2) (vZ 2))) (pB (vO 3) (vZ 3))) (pB (vO 4) (vZ 4))) (pB (vO 5) (vZ 5))) (pB (vO 6) (vZ 6))) (pB (vO 7) (vZ 7)) := rfl

/-- After the sixteen stores the result buffer is the result block: every row lies in exactly one of the sixteen 64-row
    blocks, and on it the last store that covers it decides. -/
theorem outAll_eq {F : FTy → Type} [FloatOps F] (X : Dev nD → FVec F S1x1024x1024 .f32) (c : Dev nD) (g0 : FVec F S1024x512 .bf16)
    (vF : Fin 8 → Vec F S1x64x512 .f32) (vR : Fin 8 → Vec F S1x64x512 .bf16) (vO : Fin 8 → Vec F S64x512 .f32) (vZ : Fin 8 → Vec F S1x64x512 .bf16)
    (hF : ∀ (K : Fin 8) (y : S1x64x512.Idx), vF K y = slabAt (X c) (512 * cy c + 64 * K.val + (y 1).val) (512 * cx c + (y 2).val))
    (hR : ∀ (K : Fin 8) (y : S1x64x512.Idx), vR K y = recvXC X c (ix3 K (y 1) (y 2)))
    (hO : ∀ (K : Fin 8) (y : S64x512.Idx), vO K y = slabAt (X c) (512 * (1 - cy c) + 64 * K.val + (y 0).val) (512 * cx c + (y 1).val))
    (hZ : ∀ (K : Fin 8) (y : S1x64x512.Idx), vZ K y = recvZC X c (ix3 K (y 1) (y 2))) :
    outAll c g0 vF vR vO vZ = outC X c := by
  funext i
  rw [outAll_unfold]
  have hr : (i 0).val < 1024 := (i 0).isLt
  have hcy := cy_lt c
  have hcases : ((512 * cy c + 64 * 0 ≤ (i 0).val ∧ (i 0).val < 512 * cy c + 64 * 0 + 64) ∨ (512 * cy c + 64 * 1 ≤ (i 0).val ∧ (i 0).val < 512 * cy c + 64 * 1 + 64) ∨ (512 * cy c + 64 * 2 ≤ (i 0).val ∧ (i 0).val < 512 * cy c + 64 * 2 + 64) ∨ (512 * cy c + 64 * 3 ≤ (i 0).val ∧ (i 0).val < 512 * cy c + 64 * 3 + 64) ∨ (512 * cy c + 64 * 4 ≤ (i 0).val ∧ (i 0).val < 512 * cy c + 64 * 4 + 64) ∨ (512 * cy c + 64 * 5 ≤ (i 0).val ∧ (i 0).val < 512 * cy c + 64 * 5 + 64) ∨ (512 * cy c + 64 * 6 ≤ (i 0).val ∧ (i 0).val < 512 * cy c + 64 * 6 + 64) ∨ (512 * cy c + 64 * 7 ≤ (i 0).val ∧ (i 0).val < 512 * cy c + 64 * 7 + 64))
      ∨ ((512 * (1 - cy c) + 64 * 0 ≤ (i 0).val ∧ (i 0).val < 512 * (1 - cy c) + 64 * 0 + 64) ∨ (512 * (1 - cy c) + 64 * 1 ≤ (i 0).val ∧ (i 0).val < 512 * (1 - cy c) + 64 * 1 + 64) ∨ (512 * (1 - cy c) + 64 * 2 ≤ (i 0).val ∧ (i 0).val < 512 * (1 - cy c) + 64 * 2 + 64) ∨ (512 * (1 - cy c) + 64 * 3 ≤ (i 0).val ∧ (i 0).val < 512 * (1 - cy c) + 64 * 3 + 64) ∨ (512 * (1 - cy c) + 64 * 4 ≤ (i 0).val ∧ (i 0).val < 512 * (1 - cy c) + 64 * 4 + 64) ∨ (512 * (1 - cy c) + 64 * 5 ≤ (i 0).val ∧ (i 0).val < 512 * (1 - cy c) + 64 * 5 + 64) ∨ (512 * (1 - cy c) + 64 * 6 ≤ (i 0).val ∧ (i 0).val < 512 * (1 - cy c) + 64 * 6 + 64) ∨ (512 * (1 - cy c) + 64 * 7 ≤ (i 0).val ∧ (i 0).val < 512 * (1 - cy c) + 64 * 7 + 64)) := by omega
  rcases hcases with (h | h | h | h | h | h | h | h) | (h | h | h | h | h | h | h | h)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans ((stA_miss c 7 (by decide) _ _ i (by omega)).trans ((stA_miss c 6 (by decide) _ _ i (by omega)).trans ((stA_miss c 5 (by decide) _ _ i (by omega)).trans ((stA_miss c 4 (by decide) _ _ i (by omega)).trans ((stA_miss c 3 (by decide) _ _ i (by omega)).trans ((stA_miss c 2 (by decide) _ _ i (by omega)).trans ((stA_miss c 1 (by decide) _ _ i (by omega)).trans (stA_hit c 0 (by decide) _ _ i h.1 h.2)))))))))))))))).trans (outA_val X c vF vR hF hR 0 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans ((stA_miss c 7 (by decide) _ _ i (by omega)).trans ((stA_miss c 6 (by decide) _ _ i (by omega)).trans ((stA_miss c 5 (by decide) _ _ i (by omega)).trans ((stA_miss c 4 (by decide) _ _ i (by omega)).trans ((stA_miss c 3 (by decide) _ _ i (by omega)).trans ((stA_miss c 2 (by decide) _ _ i (by omega)).trans (stA_hit c 1 (by decide) _ _ i h.1 h.2))))))))))))))).trans (outA_val X c vF vR hF hR 1 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans ((stA_miss c 7 (by decide) _ _ i (by omega)).trans ((stA_miss c 6 (by decide) _ _ i (by omega)).trans ((stA_miss c 5 (by decide) _ _ i (by omega)).trans ((stA_miss c 4 (by decide) _ _ i (by omega)).trans ((stA_miss c 3 (by decide) _ _ i (by omega)).trans (stA_hit c 2 (by decide) _ _ i h.1 h.2)))))))))))))).trans (outA_val X c vF vR hF hR 2 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans ((stA_miss c 7 (by decide) _ _ i (by omega)).trans ((stA_miss c 6 (by decide) _ _ i (by omega)).trans ((stA_miss c 5 (by decide) _ _ i (by omega)).trans ((stA_miss c 4 (by decide) _ _ i (by omega)).trans (stA_hit c 3 (by decide) _ _ i h.1 h.2))))))))))))).trans (outA_val X c vF vR hF hR 3 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans ((stA_miss c 7 (by decide) _ _ i (by omega)).trans ((stA_miss c 6 (by decide) _ _ i (by omega)).trans ((stA_miss c 5 (by decide) _ _ i (by omega)).trans (stA_hit c 4 (by decide) _ _ i h.1 h.2)))))))))))).trans (outA_val X c vF vR hF hR 4 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans ((stA_miss c 7 (by decide) _ _ i (by omega)).trans ((stA_miss c 6 (by decide) _ _ i (by omega)).trans (stA_hit c 5 (by decide) _ _ i h.1 h.2))))))))))).trans (outA_val X c vF vR hF hR 5 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans ((stA_miss c 7 (by decide) _ _ i (by omega)).trans (stA_hit c 6 (by decide) _ _ i h.1 h.2)))))))))).trans (outA_val X c vF vR hF hR 6 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans (stA_hit c 7 (by decide) _ _ i h.1 h.2))))))))).trans (outA_val X c vF vR hF hR 7 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans (stB_hit c 0 (by decide) _ _ i h.1 h.2)))))))).trans (outB_val X c vO vZ hO hZ 0 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans (stB_hit c 1 (by decide) _ _ i h.1 h.2))))))).trans (outB_val X c vO vZ hO hZ 1 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans (stB_hit c 2 (by decide) _ _ i h.1 h.2)))))).trans (outB_val X c vO vZ hO hZ 2 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans (stB_hit c 3 (by decide) _ _ i h.1 h.2))))).trans (outB_val X c vO vZ hO hZ 3 (by decide) i h.1 h.2)
  · exact ((stB_miss c 7 (by decide) _ _ i (by omega)).trans ((stB_miss c 6 (by decide) _ _ i (by omega)).trans ((stB_miss c 5 (by decide) _ _ i (by omega)).trans (stB_hit c 4 (by decide) _ _ i h.1 h.2)))).trans (outB_val X c vO vZ hO hZ 4 (by decide) i h.1 h.2)
  · exact ((stB_miss c 7 (by decide) _ _ i (by omega)).trans ((stB_miss c 6 (by decide) _ _ i (by omega)).trans (stB_hit c 5 (by decide) _ _ i h.1 h.2))).trans (outB_val X c vO vZ hO hZ 5 (by decide) i h.1 h.2)
  · exact ((stB_miss c 7 (by decide) _ _ i (by omega)).trans (stB_hit c 6 (by decide) _ _ i h.1 h.2)).trans (outB_val X c vO vZ hO hZ 6 (by decide) i h.1 h.2)
  · exact (stB_hit c 7 (by decide) _ _ i h.1 h.2).trans (outB_val X c vO vZ hO hZ 7 (by decide) i h.1 h.2)

/-! ## Loads of a received chunk and of the other-half buffer; what the other-half fetch lands -/

/-- A `[1, 64, 512]` load at `(K, 0, 0)` of a buffer of eight chunks reads chunk `K`. -/
theorem rx_ld {F : FTy → Type} [FloatOps F] (kn : ℕ) (hk : kn < 8)
    (inb : ∀ a, (![kn, 0, 0] : Fin 3 → ℕ) a + S1x64x512.size a ≤ S8x64x512.size a) (G : FVec F S8x64x512 .bf16) (y : S1x64x512.Idx) :
    View.readAt (Elt F) rxB.view (Rect.unit (s := S8x64x512) ![kn, 0, 0] S1x64x512.size inb).toLoadRect G y
      = G (ix3 (⟨kn, hk⟩ : Fin 8) (y 1) (y 2)) := by
  have h0 : (y 0).val < 1 := (y 0).isLt
  have hj : ∀ a : Fin 3, ((ix3 (⟨kn, hk⟩ : Fin 8) (y 1) (y 2) : S8x64x512.Idx) a).val = (![kn, 0, 0] : Fin 3 → ℕ) a + (y a).val := by
    intro a
    match a with
    | ⟨0, _⟩ =>
      show kn = kn + (y 0).val
      omega
    | ⟨1, _⟩ =>
      show (y 1).val = 0 + (y 1).val
      omega
    | ⟨2, _⟩ =>
      show (y 2).val = 0 + (y 2).val
      omega
  exact readAt_whole_unit (Val := Elt F) cc0_scratch3 _ _ _ G y _ hj

theorem rx_ld_0 {F : FTy → Type} [FloatOps F] (G : FVec F S8x64x512 .bf16) (y : S1x64x512.Idx) :
    View.readAt (Elt F) rxB.view (Rect.unit (s := S8x64x512) ![0, 0, 0] S1x64x512.size inb_S8x64x512_S1x64x512_0_0_0).toLoadRect G y
      = G (ix3 (0 : Fin 8) (y 1) (y 2)) := rx_ld 0 (by decide) inb_S8x64x512_S1x64x512_0_0_0 G y
theorem rx_ld_1 {F : FTy → Type} [FloatOps F] (G : FVec F S8x64x512 .bf16) (y : S1x64x512.Idx) :
    View.readAt (Elt F) rxB.view (Rect.unit (s := S8x64x512) ![1, 0, 0] S1x64x512.size inb_S8x64x512_S1x64x512_1_0_0).toLoadRect G y
      = G (ix3 (1 : Fin 8) (y 1) (y 2)) := rx_ld 1 (by decide) inb_S8x64x512_S1x64x512_1_0_0 G y
theorem rx_ld_2 {F : FTy → Type} [FloatOps F] (G : FVec F S8x64x512 .bf16) (y : S1x64x512.Idx) :
    View.readAt (Elt F) rxB.view (Rect.unit (s := S8x64x512) ![2, 0, 0] S1x64x512.size inb_S8x64x512_S1x64x512_2_0_0).toLoadRect G y
      = G (ix3 (2 : Fin 8) (y 1) (y 2)) := rx_ld 2 (by decide) inb_S8x64x512_S1x64x512_2_0_0 G y
theorem rx_ld_3 {F : FTy → Type} [FloatOps F] (G : FVec F S8x64x512 .bf16) (y : S1x64x512.Idx) :
    View.readAt (Elt F) rxB.view (Rect.unit (s := S8x64x512) ![3, 0, 0] S1x64x512.size inb_S8x64x512_S1x64x512_3_0_0).toLoadRect G y
      = G (ix3 (3 : Fin 8) (y 1) (y 2)) := rx_ld 3 (by decide) inb_S8x64x512_S1x64x512_3_0_0 G y
theorem rx_ld_4 {F : FTy → Type} [FloatOps F] (G : FVec F S8x64x512 .bf16) (y : S1x64x512.Idx) :
    View.readAt (Elt F) rxB.view (Rect.unit (s := S8x64x512) ![4, 0, 0] S1x64x512.size inb_S8x64x512_S1x64x512_4_0_0).toLoadRect G y
      = G (ix3 (4 : Fin 8) (y 1) (y 2)) := rx_ld 4 (by decide) inb_S8x64x512_S1x64x512_4_0_0 G y
theorem rx_ld_5 {F : FTy → Type} [FloatOps F] (G : FVec F S8x64x512 .bf16) (y : S1x64x512.Idx) :
    View.readAt (Elt F) rxB.view (Rect.unit (s := S8x64x512) ![5, 0, 0] S1x64x512.size inb_S8x64x512_S1x64x512_5_0_0).toLoadRect G y
      = G (ix3 (5 : Fin 8) (y 1) (y 2)) := rx_ld 5 (by decide) inb_S8x64x512_S1x64x512_5_0_0 G y
theorem rx_ld_6 {F : FTy → Type} [FloatOps F] (G : FVec F S8x64x512 .bf16) (y : S1x64x512.Idx) :
    View.readAt (Elt F) rxB.view (Rect.unit (s := S8x64x512) ![6, 0, 0] S1x64x512.size inb_S8x64x512_S1x64x512_6_0_0).toLoadRect G y
      = G (ix3 (6 : Fin 8) (y 1) (y 2)) := rx_ld 6 (by decide) inb_S8x64x512_S1x64x512_6_0_0 G y
theorem rx_ld_7 {F : FTy → Type} [FloatOps F] (G : FVec F S8x64x512 .bf16) (y : S1x64x512.Idx) :
    View.readAt (Elt F) rxB.view (Rect.unit (s := S8x64x512) ![7, 0, 0] S1x64x512.size inb_S8x64x512_S1x64x512_7_0_0).toLoadRect G y
      = G (ix3 (7 : Fin 8) (y 1) (y 2)) := rx_ld 7 (by decide) inb_S8x64x512_S1x64x512_7_0_0 G y

theorem rz_ld {F : FTy → Type} [FloatOps F] (kn : ℕ) (hk : kn < 8)
    (inb : ∀ a, (![kn, 0, 0] : Fin 3 → ℕ) a + S1x64x512.size a ≤ S8x64x512.size a) (G : FVec F S8x64x512 .bf16) (y : S1x64x512.Idx) :
    View.readAt (Elt F) rzB.view (Rect.unit (s := S8x64x512) ![kn, 0, 0] S1x64x512.size inb).toLoadRect G y
      = G (ix3 (⟨kn, hk⟩ : Fin 8) (y 1) (y 2)) := by
  have h0 : (y 0).val < 1 := (y 0).isLt
  have hj : ∀ a : Fin 3, ((ix3 (⟨kn, hk⟩ : Fin 8) (y 1) (y 2) : S8x64x512.Idx) a).val = (![kn, 0, 0] : Fin 3 → ℕ) a + (y a).val := by
    intro a
    match a with
    | ⟨0, _⟩ =>
      show kn = kn + (y 0).val
      omega
    | ⟨1, _⟩ =>
      show (y 1).val = 0 + (y 1).val
      omega
    | ⟨2, _⟩ =>
      show (y 2).val = 0 + (y 2).val
      omega
  exact readAt_whole_unit (Val := Elt F) cc0_scratch4 _ _ _ G y _ hj

theorem rz_ld_0 {F : FTy → Type} [FloatOps F] (G : FVec F S8x64x512 .bf16) (y : S1x64x512.Idx) :
    View.readAt (Elt F) rzB.view (Rect.unit (s := S8x64x512) ![0, 0, 0] S1x64x512.size inb_S8x64x512_S1x64x512_0_0_0).toLoadRect G y
      = G (ix3 (0 : Fin 8) (y 1) (y 2)) := rz_ld 0 (by decide) inb_S8x64x512_S1x64x512_0_0_0 G y
theorem rz_ld_1 {F : FTy → Type} [FloatOps F] (G : FVec F S8x64x512 .bf16) (y : S1x64x512.Idx) :
    View.readAt (Elt F) rzB.view (Rect.unit (s := S8x64x512) ![1, 0, 0] S1x64x512.size inb_S8x64x512_S1x64x512_1_0_0).toLoadRect G y
      = G (ix3 (1 : Fin 8) (y 1) (y 2)) := rz_ld 1 (by decide) inb_S8x64x512_S1x64x512_1_0_0 G y
theorem rz_ld_2 {F : FTy → Type} [FloatOps F] (G : FVec F S8x64x512 .bf16) (y : S1x64x512.Idx) :
    View.readAt (Elt F) rzB.view (Rect.unit (s := S8x64x512) ![2, 0, 0] S1x64x512.size inb_S8x64x512_S1x64x512_2_0_0).toLoadRect G y
      = G (ix3 (2 : Fin 8) (y 1) (y 2)) := rz_ld 2 (by decide) inb_S8x64x512_S1x64x512_2_0_0 G y
theorem rz_ld_3 {F : FTy → Type} [FloatOps F] (G : FVec F S8x64x512 .bf16) (y : S1x64x512.Idx) :
    View.readAt (Elt F) rzB.view (Rect.unit (s := S8x64x512) ![3, 0, 0] S1x64x512.size inb_S8x64x512_S1x64x512_3_0_0).toLoadRect G y
      = G (ix3 (3 : Fin 8) (y 1) (y 2)) := rz_ld 3 (by decide) inb_S8x64x512_S1x64x512_3_0_0 G y
theorem rz_ld_4 {F : FTy → Type} [FloatOps F] (G : FVec F S8x64x512 .bf16) (y : S1x64x512.Idx) :
    View.readAt (Elt F) rzB.view (Rect.unit (s := S8x64x512) ![4, 0, 0] S1x64x512.size inb_S8x64x512_S1x64x512_4_0_0).toLoadRect G y
      = G (ix3 (4 : Fin 8) (y 1) (y 2)) := rz_ld 4 (by decide) inb_S8x64x512_S1x64x512_4_0_0 G y
theorem rz_ld_5 {F : FTy → Type} [FloatOps F] (G : FVec F S8x64x512 .bf16) (y : S1x64x512.Idx) :
    View.readAt (Elt F) rzB.view (Rect.unit (s := S8x64x512) ![5, 0, 0] S1x64x512.size inb_S8x64x512_S1x64x512_5_0_0).toLoadRect G y
      = G (ix3 (5 : Fin 8) (y 1) (y 2)) := rz_ld 5 (by decide) inb_S8x64x512_S1x64x512_5_0_0 G y
theorem rz_ld_6 {F : FTy → Type} [FloatOps F] (G : FVec F S8x64x512 .bf16) (y : S1x64x512.Idx) :
    View.readAt (Elt F) rzB.view (Rect.unit (s := S8x64x512) ![6, 0, 0] S1x64x512.size inb_S8x64x512_S1x64x512_6_0_0).toLoadRect G y
      = G (ix3 (6 : Fin 8) (y 1) (y 2)) := rz_ld 6 (by decide) inb_S8x64x512_S1x64x512_6_0_0 G y
theorem rz_ld_7 {F : FTy → Type} [FloatOps F] (G : FVec F S8x64x512 .bf16) (y : S1x64x512.Idx) :
    View.readAt (Elt F) rzB.view (Rect.unit (s := S8x64x512) ![7, 0, 0] S1x64x512.size inb_S8x64x512_S1x64x512_7_0_0).toLoadRect G y
      = G (ix3 (7 : Fin 8) (y 1) (y 2)) := rz_ld 7 (by decide) inb_S8x64x512_S1x64x512_7_0_0 G y

/-- A `[64, 512]` load at `(r0, 0)` of the other-half buffer reads its rows `r0 … r0 + 63`. -/
theorem oh_ld {F : FTy → Type} [FloatOps F] (r0 : ℕ) (hr : r0 + 64 ≤ 512)
    (inb : ∀ a, (![r0, 0] : Fin 2 → ℕ) a + S64x512.size a ≤ S512x512.size a) (G : FVec F S512x512 .f32) (y : S64x512.Idx) :
    View.readAt (Elt F) (Memref.whole cc0_scratch1).view (Rect.unit (s := S512x512) ![r0, 0] S64x512.size inb).toLoadRect G y
      = G (ix2 (⟨r0 + (y 0).val, by have := (y 0).isLt; have e : S64x512.size 0 = 64 := rfl; omega⟩ : Fin 512) (⟨(y 1).val, (y 1).isLt⟩ : Fin 512)) := by
  have hj : ∀ a : Fin 2, ((ix2 (⟨r0 + (y 0).val, by have := (y 0).isLt; have e : S64x512.size 0 = 64 := rfl; omega⟩ : Fin 512) (⟨(y 1).val, (y 1).isLt⟩ : Fin 512) : S512x512.Idx) a).val
      = (![r0, 0] : Fin 2 → ℕ) a + (y a).val := by
    intro a
    match a with
    | ⟨0, _⟩ => rfl
    | ⟨1, _⟩ =>
      show (y 1).val = 0 + (y 1).val
      omega
  exact readAt_whole_unit (Val := Elt F) cc0_scratch1 _ _ _ G y _ hj

theorem oh_ld_0 {F : FTy → Type} [FloatOps F] (G : FVec F S512x512 .f32) (y : S64x512.Idx) :
    View.readAt (Elt F) (Memref.whole cc0_scratch1).view (Rect.unit (s := S512x512) ![0, 0] S64x512.size inb_S512x512_S64x512_0_0).toLoadRect G y
      = G (ix2 (⟨0 + (y 0).val, by have := (y 0).isLt; have e : S64x512.size 0 = 64 := rfl; omega⟩ : Fin 512) (⟨(y 1).val, (y 1).isLt⟩ : Fin 512)) :=
  oh_ld 0 (by decide) inb_S512x512_S64x512_0_0 G y
theorem oh_ld_1 {F : FTy → Type} [FloatOps F] (G : FVec F S512x512 .f32) (y : S64x512.Idx) :
    View.readAt (Elt F) (Memref.whole cc0_scratch1).view (Rect.unit (s := S512x512) ![64, 0] S64x512.size inb_S512x512_S64x512_64_0).toLoadRect G y
      = G (ix2 (⟨64 + (y 0).val, by have := (y 0).isLt; have e : S64x512.size 0 = 64 := rfl; omega⟩ : Fin 512) (⟨(y 1).val, (y 1).isLt⟩ : Fin 512)) :=
  oh_ld 64 (by decide) inb_S512x512_S64x512_64_0 G y
theorem oh_ld_2 {F : FTy → Type} [FloatOps F] (G : FVec F S512x512 .f32) (y : S64x512.Idx) :
    View.readAt (Elt F) (Memref.whole cc0_scratch1).view (Rect.unit (s := S512x512) ![128, 0] S64x512.size inb_S512x512_S64x512_128_0).toLoadRect G y
      = G (ix2 (⟨128 + (y 0).val, by have := (y 0).isLt; have e : S64x512.size 0 = 64 := rfl; omega⟩ : Fin 512) (⟨(y 1).val, (y 1).isLt⟩ : Fin 512)) :=
  oh_ld 128 (by decide) inb_S512x512_S64x512_128_0 G y
theorem oh_ld_3 {F : FTy → Type} [FloatOps F] (G : FVec F S512x512 .f32) (y : S64x512.Idx) :
    View.readAt (Elt F) (Memref.whole cc0_scratch1).view (Rect.unit (s := S512x512) ![192, 0] S64x512.size inb_S512x512_S64x512_192_0).toLoadRect G y
      = G (ix2 (⟨192 + (y 0).val, by have := (y 0).isLt; have e : S64x512.size 0 = 64 := rfl; omega⟩ : Fin 512) (⟨(y 1).val, (y 1).isLt⟩ : Fin 512)) :=
  oh_ld 192 (by decide) inb_S512x512_S64x512_192_0 G y
theorem oh_ld_4 {F : FTy → Type} [FloatOps F] (G : FVec F S512x512 .f32) (y : S64x512.Idx) :
    View.readAt (Elt F) (Memref.whole cc0_scratch1).view (Rect.unit (s := S512x512) ![256, 0] S64x512.size inb_S512x512_S64x512_256_0).toLoadRect G y
      = G (ix2 (⟨256 + (y 0).val, by have := (y 0).isLt; have e : S64x512.size 0 = 64 := rfl; omega⟩ : Fin 512) (⟨(y 1).val, (y 1).isLt⟩ : Fin 512)) :=
  oh_ld 256 (by decide) inb_S512x512_S64x512_256_0 G y
theorem oh_ld_5 {F : FTy → Type} [FloatOps F] (G : FVec F S512x512 .f32) (y : S64x512.Idx) :
    View.readAt (Elt F) (Memref.whole cc0_scratch1).view (Rect.unit (s := S512x512) ![320, 0] S64x512.size inb_S512x512_S64x512_320_0).toLoadRect G y
      = G (ix2 (⟨320 + (y 0).val, by have := (y 0).isLt; have e : S64x512.size 0 = 64 := rfl; omega⟩ : Fin 512) (⟨(y 1).val, (y 1).isLt⟩ : Fin 512)) :=
  oh_ld 320 (by decide) inb_S512x512_S64x512_320_0 G y
theorem oh_ld_6 {F : FTy → Type} [FloatOps F] (G : FVec F S512x512 .f32) (y : S64x512.Idx) :
    View.readAt (Elt F) (Memref.whole cc0_scratch1).view (Rect.unit (s := S512x512) ![384, 0] S64x512.size inb_S512x512_S64x512_384_0).toLoadRect G y
      = G (ix2 (⟨384 + (y 0).val, by have := (y 0).isLt; have e : S64x512.size 0 = 64 := rfl; omega⟩ : Fin 512) (⟨(y 1).val, (y 1).isLt⟩ : Fin 512)) :=
  oh_ld 384 (by decide) inb_S512x512_S64x512_384_0 G y
theorem oh_ld_7 {F : FTy → Type} [FloatOps F] (G : FVec F S512x512 .f32) (y : S64x512.Idx) :
    View.readAt (Elt F) (Memref.whole cc0_scratch1).view (Rect.unit (s := S512x512) ![448, 0] S64x512.size inb_S512x512_S64x512_448_0).toLoadRect G y
      = G (ix2 (⟨448 + (y 0).val, by have := (y 0).isLt; have e : S64x512.size 0 = 64 := rfl; omega⟩ : Fin 512) (⟨(y 1).val, (y 1).isLt⟩ : Fin 512)) :=
  oh_ld 448 (by decide) inb_S512x512_S64x512_448_0 G y

/-- A write on every index through a buffer held whole leaves the payload. -/
theorem write_whole_univ {κ : Kind} {Val : EltTy → Type} (b : Ref sig κ) (f : b.ty.Contents Val) (w : b.ty.shape.Idx → Val b.ty.elt) :
    View.write Val (Memref.whole b).view f w Finset.univ = w := by
  funext i
  exact (View.write_emb_of_mem (v := (Memref.whole b).view) f w (Finset.mem_univ i)).trans (cast_eq _ _)

theorem emb_windowH {κ : Kind} {sp : Space} {e : EltTy} {d : Fin 3 → ℕ} (M : Memref sig κ sp ⟨3, d⟩ e) (off : Fin 3 → ℕ)
    (inb : ∀ a, off a + S1x512x512.size a ≤ (⟨3, d⟩ : Shape).size a) (y : S512x512.Idx) :
    ((M.slice (Rect.unit (s := ⟨3, d⟩) off S1x512x512.size inb) (fun _ => rfl)).squeeze S512x512 squeezes_S1x512x512_S512x512).view.emb y
      = M.view.emb ((Rect.unit (s := ⟨3, d⟩) off S1x512x512.size inb).emb (ix3 (0 : Fin 1) (y 0) (y 1))) := by
  show M.view.emb ((Rect.unit (s := ⟨3, d⟩) off S1x512x512.size inb).emb (Shape.reshapeEquiv _ y)) = _
  congr 2
  apply Shape.reshapeEquiv_eq_of_rowMajor
  rw [Shape.rowMajor_val_three, Shape.rowMajor_val_two]
  show (0 * 512 + (y 0).val) * 512 + (y 1).val = (y 0).val * 512 + (y 1).val
  omega

theorem read_windowH {κ : Kind} {sp : Space} {e : EltTy} {d : Fin 3 → ℕ} {Val : EltTy → Type} (M : Memref sig κ sp ⟨3, d⟩ e) (off : Fin 3 → ℕ)
    (inb : ∀ a, off a + S1x512x512.size a ≤ (⟨3, d⟩ : Shape).size a) (f : M.view.ty.Contents Val) (y : S512x512.Idx)
    (j : (⟨3, d⟩ : Shape).Idx) (h0 : (j 0).val = off 0) (h1 : (j 1).val = off 1 + (y 0).val) (h2 : (j 2).val = off 2 + (y 1).val) :
    View.read Val ((M.slice (Rect.unit (s := ⟨3, d⟩) off S1x512x512.size inb) (fun _ => rfl)).squeeze S512x512 squeezes_S1x512x512_S512x512).view f y
      = View.read Val M.view f j := by
  have hj : (Rect.unit (s := ⟨3, d⟩) off S1x512x512.size inb).emb (ix3 (0 : Fin 1) (y 0) (y 1)) = j := by
    funext a
    refine Fin.ext ?_
    match a with
    | ⟨0, _⟩ =>
      show off 0 + 1 * 0 = (j 0).val
      omega
    | ⟨1, _⟩ =>
      show off 1 + 1 * (y 0).val = (j 1).val
      omega
    | ⟨2, _⟩ =>
      show off 2 + 1 * (y 1).val = (j 2).val
      omega
  rw [View.read_apply, View.read_apply, emb_windowH, hj]

/-- The other-half fetch lands rows `512·(1 − y) … + 511` of the slab at the device's own columns. -/
theorem other_land {F : FTy → Type} [FloatOps F] (X : Dev nD → FVec F S1x1024x1024 .f32) (c : Dev nD) (b1 : FVec F S512x512 .f32) :
    View.write (Elt F) (Memref.whole cc0_scratch1).view b1
      ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))
      Finset.univ = otherC X c := by
  rw [write_whole_univ]
  funext y
  have hy0 : (y 0).val < 512 := (y 0).isLt
  have hy1 : (y 1).val < 512 := (y 1).isLt
  have hc : c.val < 8 := c.isLt
  have e := read_windowH (Val := Elt F) (Memref.whole main_arg0) (k0_off2 c) (k0_off2_inb c) (X c) y
    (ix3 (0 : Fin 1) (rd 1024 (by decide) (512 * (1 - cy c) + (y 0).val)) (rd 1024 (by decide) (512 * cx c + (y 1).val)))
  refine ((e ?_ ?_ ?_).trans ((read_whole_apply (Val := Elt F) main_arg0 (X c)
    (ix3 (0 : Fin 1) (rd 1024 (by decide) (512 * (1 - cy c) + (y 0).val)) (rd 1024 (by decide) (512 * cx c + (y 1).val)))).trans rfl))
  · rw [k0_off2_eq c]
    rfl
  · rw [k0_off2_eq c]
    show (512 * (1 - cy c) + (y 0).val) % 1024 = 512 - 512 * ((c.val / 2) % 2) + (y 0).val
    unfold cy
    omega
  · rw [k0_off2_eq c]
    show (512 * cx c + (y 1).val) % 1024 = 512 * (c.val / 4) + (y 1).val
    unfold cx
    omega

/-! ## The same contents, spelt as lists of pieces (the last write first) -/

/-- The sixteen stores as a list of pieces are the sixteen nested writes. -/
theorem outAll_writes {F : FTy → Type} [FloatOps F] (c : Dev nD) (g0 : FVec F S1024x512 .bf16) (vF : Fin 8 → Vec F S1x64x512 .f32)
    (vR : Fin 8 → Vec F S1x64x512 .bf16) (vO : Fin 8 → Vec F S64x512 .f32) (vZ : Fin 8 → Vec F S1x64x512 .bf16) :
    (Memref.whole cc0_stg0_0).view.writes (Elt F) g0
      [⟨Rect.unit (s := S1024x512) (k0_off20 c 448#32) S64x512.size (k0_off20_inb c 7), k0_pay25 (vO 7) (vZ 7)⟩,
       ⟨Rect.unit (s := S1024x512) (k0_off20 c 384#32) S64x512.size (k0_off20_inb c 6), k0_pay24 (vO 6) (vZ 6)⟩,
       ⟨Rect.unit (s := S1024x512) (k0_off20 c 320#32) S64x512.size (k0_off20_inb c 5), k0_pay23 (vO 5) (vZ 5)⟩,
       ⟨Rect.unit (s := S1024x512) (k0_off20 c 256#32) S64x512.size (k0_off20_inb c 4), k0_pay22 (vO 4) (vZ 4)⟩,
       ⟨Rect.unit (s := S1024x512) (k0_off20 c 192#32) S64x512.size (k0_off20_inb c 3), k0_pay21 (vO 3) (vZ 3)⟩,
       ⟨Rect.unit (s := S1024x512) (k0_off20 c 128#32) S64x512.size (k0_off20_inb c 2), k0_pay20 (vO 2) (vZ 2)⟩,
       ⟨Rect.unit (s := S1024x512) (k0_off20 c 64#32) S64x512.size (k0_off20_inb c 1), k0_pay19 (vO 1) (vZ 1)⟩,
       ⟨Rect.unit (s := S1024x512) (k0_off20 c 0#32) S64x512.size (k0_off20_inb c 0), k0_pay18 (vO 0) (vZ 0)⟩,
       ⟨Rect.unit (s := S1024x512) (k0_off12 c 448#32) S64x512.size (k0_off12_inb c 7), k0_pay17 (vF 7) (vR 7)⟩,
       ⟨Rect.unit (s := S1024x512) (k0_off12 c 384#32) S64x512.size (k0_off12_inb c 6), k0_pay16 (vF 6) (vR 6)⟩,
       ⟨Rect.unit (s := S1024x512) (k0_off12 c 320#32) S64x512.size (k0_off12_inb c 5), k0_pay15 (vF 5) (vR 5)⟩,
       ⟨Rect.unit (s := S1024x512) (k0_off12 c 256#32) S64x512.size (k0_off12_inb c 4), k0_pay14 (vF 4) (vR 4)⟩,
       ⟨Rect.unit (s := S1024x512) (k0_off12 c 192#32) S64x512.size (k0_off12_inb c 3), k0_pay13 (vF 3) (vR 3)⟩,
       ⟨Rect.unit (s := S1024x512) (k0_off12 c 128#32) S64x512.size (k0_off12_inb c 2), k0_pay12 (vF 2) (vR 2)⟩,
       ⟨Rect.unit (s := S1024x512) (k0_off12 c 64#32) S64x512.size (k0_off12_inb c 1), k0_pay11 (vF 1) (vR 1)⟩,
       ⟨Rect.unit (s := S1024x512) (k0_off12 c 0#32) S64x512.size (k0_off12_inb c 0), k0_pay10 (vF 0) (vR 0)⟩]
      = outAll c g0 vF vR vO vZ := rfl

/-- What the other-half fetch lands is the other row half of the slab at the device's own columns. -/
theorem other_val {F : FTy → Type} [FloatOps F] (X : Dev nD → FVec F S1x1024x1024 .f32) (c : Dev nD) :
    ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c))) = otherC X c := by
  have h := other_land X c (otherC X c)
  rwa [write_whole_univ] at h

theorem inbO : ∀ a : Fin 2, (fun _ => 0 : Fin 2 → ℕ) a + S512x512.size a ≤ S512x512.size a := by decide

/-- The other-half buffer after that one landing, spelt as one piece over the whole shape. -/
theorem other_land_writes {F : FTy → Type} [FloatOps F] (X : Dev nD → FVec F S1x1024x1024 .f32) (c : Dev nD) (b1 : FVec F S512x512 .f32) :
    ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) = otherC X c := by
  funext i
  rw [View.writes_singleton]
  have hi : ∀ a : Fin 2, (i a).val = (fun _ => 0 : Fin 2 → ℕ) a + (i a).val := fun a => (Nat.zero_add _).symm
  refine (write_access_whole_hit (Val := Elt F) cc0_scratch1 (fun _ => 0) S512x512.size inbO b1
    ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c))) i i hi).trans ?_
  rw [other_val]

theorem oh_val_0 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![0, 0] S64x512.size inb_S512x512_S64x512_0_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 0 + (y 0).val) (512 * cx c + (y 1).val) := by
  rw [other_land_writes, oh_ld_0]
  show slabAt (X c) (512 * (1 - cy c) + (0 + (y 0).val)) (512 * cx c + (y 1).val)
    = slabAt (X c) (512 * (1 - cy c) + 64 * 0 + (y 0).val) (512 * cx c + (y 1).val)
  exact congrArg (fun r => slabAt (X c) r (512 * cx c + (y 1).val)) (by omega)

theorem oh_val_1 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![64, 0] S64x512.size inb_S512x512_S64x512_64_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 1 + (y 0).val) (512 * cx c + (y 1).val) := by
  rw [other_land_writes, oh_ld_1]
  show slabAt (X c) (512 * (1 - cy c) + (64 + (y 0).val)) (512 * cx c + (y 1).val)
    = slabAt (X c) (512 * (1 - cy c) + 64 * 1 + (y 0).val) (512 * cx c + (y 1).val)
  exact congrArg (fun r => slabAt (X c) r (512 * cx c + (y 1).val)) (by omega)

theorem oh_val_2 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![128, 0] S64x512.size inb_S512x512_S64x512_128_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 2 + (y 0).val) (512 * cx c + (y 1).val) := by
  rw [other_land_writes, oh_ld_2]
  show slabAt (X c) (512 * (1 - cy c) + (128 + (y 0).val)) (512 * cx c + (y 1).val)
    = slabAt (X c) (512 * (1 - cy c) + 64 * 2 + (y 0).val) (512 * cx c + (y 1).val)
  exact congrArg (fun r => slabAt (X c) r (512 * cx c + (y 1).val)) (by omega)

theorem oh_val_3 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![192, 0] S64x512.size inb_S512x512_S64x512_192_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 3 + (y 0).val) (512 * cx c + (y 1).val) := by
  rw [other_land_writes, oh_ld_3]
  show slabAt (X c) (512 * (1 - cy c) + (192 + (y 0).val)) (512 * cx c + (y 1).val)
    = slabAt (X c) (512 * (1 - cy c) + 64 * 3 + (y 0).val) (512 * cx c + (y 1).val)
  exact congrArg (fun r => slabAt (X c) r (512 * cx c + (y 1).val)) (by omega)

theorem oh_val_4 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![256, 0] S64x512.size inb_S512x512_S64x512_256_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 4 + (y 0).val) (512 * cx c + (y 1).val) := by
  rw [other_land_writes, oh_ld_4]
  show slabAt (X c) (512 * (1 - cy c) + (256 + (y 0).val)) (512 * cx c + (y 1).val)
    = slabAt (X c) (512 * (1 - cy c) + 64 * 4 + (y 0).val) (512 * cx c + (y 1).val)
  exact congrArg (fun r => slabAt (X c) r (512 * cx c + (y 1).val)) (by omega)

theorem oh_val_5 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![320, 0] S64x512.size inb_S512x512_S64x512_320_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 5 + (y 0).val) (512 * cx c + (y 1).val) := by
  rw [other_land_writes, oh_ld_5]
  show slabAt (X c) (512 * (1 - cy c) + (320 + (y 0).val)) (512 * cx c + (y 1).val)
    = slabAt (X c) (512 * (1 - cy c) + 64 * 5 + (y 0).val) (512 * cx c + (y 1).val)
  exact congrArg (fun r => slabAt (X c) r (512 * cx c + (y 1).val)) (by omega)

theorem oh_val_6 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![384, 0] S64x512.size inb_S512x512_S64x512_384_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 6 + (y 0).val) (512 * cx c + (y 1).val) := by
  rw [other_land_writes, oh_ld_6]
  show slabAt (X c) (512 * (1 - cy c) + (384 + (y 0).val)) (512 * cx c + (y 1).val)
    = slabAt (X c) (512 * (1 - cy c) + 64 * 6 + (y 0).val) (512 * cx c + (y 1).val)
  exact congrArg (fun r => slabAt (X c) r (512 * cx c + (y 1).val)) (by omega)

theorem oh_val_7 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![448, 0] S64x512.size inb_S512x512_S64x512_448_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 7 + (y 0).val) (512 * cx c + (y 1).val) := by
  rw [other_land_writes, oh_ld_7]
  show slabAt (X c) (512 * (1 - cy c) + (448 + (y 0).val)) (512 * cx c + (y 1).val)
    = slabAt (X c) (512 * (1 - cy c) + 64 * 7 + (y 0).val) (512 * cx c + (y 1).val)
  exact congrArg (fun r => slabAt (X c) r (512 * cx c + (y 1).val)) (by omega)

/-! ## The other-half buffer read back by a covered load -/

theorem oh_cov_0 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![0, 0] S64x512.size inb_S512x512_S64x512_0_0).toLoadRect y
      = slabAt (X c) (512 * (1 - cy c) + 64 * 0 + (y 0).val) (512 * cx c + (y 1).val) :=
  oh_val_0 X c _ y

theorem oh_cov_1 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![64, 0] S64x512.size inb_S512x512_S64x512_64_0).toLoadRect y
      = slabAt (X c) (512 * (1 - cy c) + 64 * 1 + (y 0).val) (512 * cx c + (y 1).val) :=
  oh_val_1 X c _ y

theorem oh_cov_2 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![128, 0] S64x512.size inb_S512x512_S64x512_128_0).toLoadRect y
      = slabAt (X c) (512 * (1 - cy c) + 64 * 2 + (y 0).val) (512 * cx c + (y 1).val) :=
  oh_val_2 X c _ y

theorem oh_cov_3 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![192, 0] S64x512.size inb_S512x512_S64x512_192_0).toLoadRect y
      = slabAt (X c) (512 * (1 - cy c) + 64 * 3 + (y 0).val) (512 * cx c + (y 1).val) :=
  oh_val_3 X c _ y

theorem oh_cov_4 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![256, 0] S64x512.size inb_S512x512_S64x512_256_0).toLoadRect y
      = slabAt (X c) (512 * (1 - cy c) + 64 * 4 + (y 0).val) (512 * cx c + (y 1).val) :=
  oh_val_4 X c _ y

theorem oh_cov_5 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![320, 0] S64x512.size inb_S512x512_S64x512_320_0).toLoadRect y
      = slabAt (X c) (512 * (1 - cy c) + 64 * 5 + (y 0).val) (512 * cx c + (y 1).val) :=
  oh_val_5 X c _ y

theorem oh_cov_6 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![384, 0] S64x512.size inb_S512x512_S64x512_384_0).toLoadRect y
      = slabAt (X c) (512 * (1 - cy c) + 64 * 6 + (y 0).val) (512 * cx c + (y 1).val) :=
  oh_val_6 X c _ y

theorem oh_cov_7 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![448, 0] S64x512.size inb_S512x512_S64x512_448_0).toLoadRect y
      = slabAt (X c) (512 * (1 - cy c) + 64 * 7 + (y 0).val) (512 * cx c + (y 1).val) :=
  oh_val_7 X c _ y

/-! ## The end result over thirty-two separately named values -/

/-- The sixteen pieces, their thirty-two operands each named and each known entry by entry, leave the result block. -/
theorem out_final32 {F : FTy → Type} [FloatOps F] (X : Dev nD → FVec F S1x1024x1024 .f32) (c : Dev nD) (g0 : FVec F S1024x512 .bf16)
    (f0 f1 f2 f3 f4 f5 f6 f7 : Vec F S1x64x512 .f32) (r0 r1 r2 r3 r4 r5 r6 r7 : Vec F S1x64x512 .bf16)
    (o0 o1 o2 o3 o4 o5 o6 o7 : Vec F S64x512 .f32) (z0 z1 z2 z3 z4 z5 z6 z7 : Vec F S1x64x512 .bf16)
    (hf0 : ∀ y : S1x64x512.Idx, f0 y = slabAt (X c) (512 * cy c + 64 * 0 + (y 1).val) (512 * cx c + (y 2).val))
    (hf1 : ∀ y : S1x64x512.Idx, f1 y = slabAt (X c) (512 * cy c + 64 * 1 + (y 1).val) (512 * cx c + (y 2).val))
    (hf2 : ∀ y : S1x64x512.Idx, f2 y = slabAt (X c) (512 * cy c + 64 * 2 + (y 1).val) (512 * cx c + (y 2).val))
    (hf3 : ∀ y : S1x64x512.Idx, f3 y = slabAt (X c) (512 * cy c + 64 * 3 + (y 1).val) (512 * cx c + (y 2).val))
    (hf4 : ∀ y : S1x64x512.Idx, f4 y = slabAt (X c) (512 * cy c + 64 * 4 + (y 1).val) (512 * cx c + (y 2).val))
    (hf5 : ∀ y : S1x64x512.Idx, f5 y = slabAt (X c) (512 * cy c + 64 * 5 + (y 1).val) (512 * cx c + (y 2).val))
    (hf6 : ∀ y : S1x64x512.Idx, f6 y = slabAt (X c) (512 * cy c + 64 * 6 + (y 1).val) (512 * cx c + (y 2).val))
    (hf7 : ∀ y : S1x64x512.Idx, f7 y = slabAt (X c) (512 * cy c + 64 * 7 + (y 1).val) (512 * cx c + (y 2).val))
    (hr0 : ∀ y : S1x64x512.Idx, r0 y = recvXC X c (ix3 (0 : Fin 8) (y 1) (y 2)))
    (hr1 : ∀ y : S1x64x512.Idx, r1 y = recvXC X c (ix3 (1 : Fin 8) (y 1) (y 2)))
    (hr2 : ∀ y : S1x64x512.Idx, r2 y = recvXC X c (ix3 (2 : Fin 8) (y 1) (y 2)))
    (hr3 : ∀ y : S1x64x512.Idx, r3 y = recvXC X c (ix3 (3 : Fin 8) (y 1) (y 2)))
    (hr4 : ∀ y : S1x64x512.Idx, r4 y = recvXC X c (ix3 (4 : Fin 8) (y 1) (y 2)))
    (hr5 : ∀ y : S1x64x512.Idx, r5 y = recvXC X c (ix3 (5 : Fin 8) (y 1) (y 2)))
    (hr6 : ∀ y : S1x64x512.Idx, r6 y = recvXC X c (ix3 (6 : Fin 8) (y 1) (y 2)))
    (hr7 : ∀ y : S1x64x512.Idx, r7 y = recvXC X c (ix3 (7 : Fin 8) (y 1) (y 2)))
    (ho0 : ∀ y : S64x512.Idx, o0 y = slabAt (X c) (512 * (1 - cy c) + 64 * 0 + (y 0).val) (512 * cx c + (y 1).val))
    (ho1 : ∀ y : S64x512.Idx, o1 y = slabAt (X c) (512 * (1 - cy c) + 64 * 1 + (y 0).val) (512 * cx c + (y 1).val))
    (ho2 : ∀ y : S64x512.Idx, o2 y = slabAt (X c) (512 * (1 - cy c) + 64 * 2 + (y 0).val) (512 * cx c + (y 1).val))
    (ho3 : ∀ y : S64x512.Idx, o3 y = slabAt (X c) (512 * (1 - cy c) + 64 * 3 + (y 0).val) (512 * cx c + (y 1).val))
    (ho4 : ∀ y : S64x512.Idx, o4 y = slabAt (X c) (512 * (1 - cy c) + 64 * 4 + (y 0).val) (512 * cx c + (y 1).val))
    (ho5 : ∀ y : S64x512.Idx, o5 y = slabAt (X c) (512 * (1 - cy c) + 64 * 5 + (y 0).val) (512 * cx c + (y 1).val))
    (ho6 : ∀ y : S64x512.Idx, o6 y = slabAt (X c) (512 * (1 - cy c) + 64 * 6 + (y 0).val) (512 * cx c + (y 1).val))
    (ho7 : ∀ y : S64x512.Idx, o7 y = slabAt (X c) (512 * (1 - cy c) + 64 * 7 + (y 0).val) (512 * cx c + (y 1).val))
    (hz0 : ∀ y : S1x64x512.Idx, z0 y = recvZC X c (ix3 (0 : Fin 8) (y 1) (y 2)))
    (hz1 : ∀ y : S1x64x512.Idx, z1 y = recvZC X c (ix3 (1 : Fin 8) (y 1) (y 2)))
    (hz2 : ∀ y : S1x64x512.Idx, z2 y = recvZC X c (ix3 (2 : Fin 8) (y 1) (y 2)))
    (hz3 : ∀ y : S1x64x512.Idx, z3 y = recvZC X c (ix3 (3 : Fin 8) (y 1) (y 2)))
    (hz4 : ∀ y : S1x64x512.Idx, z4 y = recvZC X c (ix3 (4 : Fin 8) (y 1) (y 2)))
    (hz5 : ∀ y : S1x64x512.Idx, z5 y = recvZC X c (ix3 (5 : Fin 8) (y 1) (y 2)))
    (hz6 : ∀ y : S1x64x512.Idx, z6 y = recvZC X c (ix3 (6 : Fin 8) (y 1) (y 2)))
    (hz7 : ∀ y : S1x64x512.Idx, z7 y = recvZC X c (ix3 (7 : Fin 8) (y 1) (y 2))) :
    (Memref.whole cc0_stg0_0).view.writes (Elt F) g0
      [⟨Rect.unit (s := S1024x512) (k0_off20 c 448#32) S64x512.size (k0_off20_inb c 7), k0_pay25 o7 z7⟩,
       ⟨Rect.unit (s := S1024x512) (k0_off20 c 384#32) S64x512.size (k0_off20_inb c 6), k0_pay24 o6 z6⟩,
       ⟨Rect.unit (s := S1024x512) (k0_off20 c 320#32) S64x512.size (k0_off20_inb c 5), k0_pay23 o5 z5⟩,
       ⟨Rect.unit (s := S1024x512) (k0_off20 c 256#32) S64x512.size (k0_off20_inb c 4), k0_pay22 o4 z4⟩,
       ⟨Rect.unit (s := S1024x512) (k0_off20 c 192#32) S64x512.size (k0_off20_inb c 3), k0_pay21 o3 z3⟩,
       ⟨Rect.unit (s := S1024x512) (k0_off20 c 128#32) S64x512.size (k0_off20_inb c 2), k0_pay20 o2 z2⟩,
       ⟨Rect.unit (s := S1024x512) (k0_off20 c 64#32) S64x512.size (k0_off20_inb c 1), k0_pay19 o1 z1⟩,
       ⟨Rect.unit (s := S1024x512) (k0_off20 c 0#32) S64x512.size (k0_off20_inb c 0), k0_pay18 o0 z0⟩,
       ⟨Rect.unit (s := S1024x512) (k0_off12 c 448#32) S64x512.size (k0_off12_inb c 7), k0_pay17 f7 r7⟩,
       ⟨Rect.unit (s := S1024x512) (k0_off12 c 384#32) S64x512.size (k0_off12_inb c 6), k0_pay16 f6 r6⟩,
       ⟨Rect.unit (s := S1024x512) (k0_off12 c 320#32) S64x512.size (k0_off12_inb c 5), k0_pay15 f5 r5⟩,
       ⟨Rect.unit (s := S1024x512) (k0_off12 c 256#32) S64x512.size (k0_off12_inb c 4), k0_pay14 f4 r4⟩,
       ⟨Rect.unit (s := S1024x512) (k0_off12 c 192#32) S64x512.size (k0_off12_inb c 3), k0_pay13 f3 r3⟩,
       ⟨Rect.unit (s := S1024x512) (k0_off12 c 128#32) S64x512.size (k0_off12_inb c 2), k0_pay12 f2 r2⟩,
       ⟨Rect.unit (s := S1024x512) (k0_off12 c 64#32) S64x512.size (k0_off12_inb c 1), k0_pay11 f1 r1⟩,
       ⟨Rect.unit (s := S1024x512) (k0_off12 c 0#32) S64x512.size (k0_off12_inb c 0), k0_pay10 f0 r0⟩]
      = outC X c := by
  have hF : ∀ (K : Fin 8) (y : S1x64x512.Idx), (![f0, f1, f2, f3, f4, f5, f6, f7] : Fin 8 → Vec F S1x64x512 .f32) K y
      = slabAt (X c) (512 * cy c + 64 * K.val + (y 1).val) (512 * cx c + (y 2).val) := by
    intro K y
    match K with
    | ⟨0, _⟩ => exact hf0 y
    | ⟨1, _⟩ => exact hf1 y
    | ⟨2, _⟩ => exact hf2 y
    | ⟨3, _⟩ => exact hf3 y
    | ⟨4, _⟩ => exact hf4 y
    | ⟨5, _⟩ => exact hf5 y
    | ⟨6, _⟩ => exact hf6 y
    | ⟨7, _⟩ => exact hf7 y
  have hR : ∀ (K : Fin 8) (y : S1x64x512.Idx), (![r0, r1, r2, r3, r4, r5, r6, r7] : Fin 8 → Vec F S1x64x512 .bf16) K y = recvXC X c (ix3 K (y 1) (y 2)) := by
    intro K y
    match K with
    | ⟨0, _⟩ => exact hr0 y
    | ⟨1, _⟩ => exact hr1 y
    | ⟨2, _⟩ => exact hr2 y
    | ⟨3, _⟩ => exact hr3 y
    | ⟨4, _⟩ => exact hr4 y
    | ⟨5, _⟩ => exact hr5 y
    | ⟨6, _⟩ => exact hr6 y
    | ⟨7, _⟩ => exact hr7 y
  have hO : ∀ (K : Fin 8) (y : S64x512.Idx), (![o0, o1, o2, o3, o4, o5, o6, o7] : Fin 8 → Vec F S64x512 .f32) K y
      = slabAt (X c) (512 * (1 - cy c) + 64 * K.val + (y 0).val) (512 * cx c + (y 1).val) := by
    intro K y
    match K with
    | ⟨0, _⟩ => exact ho0 y
    | ⟨1, _⟩ => exact ho1 y
    | ⟨2, _⟩ => exact ho2 y
    | ⟨3, _⟩ => exact ho3 y
    | ⟨4, _⟩ => exact ho4 y
    | ⟨5, _⟩ => exact ho5 y
    | ⟨6, _⟩ => exact ho6 y
    | ⟨7, _⟩ => exact ho7 y
  have hZ : ∀ (K : Fin 8) (y : S1x64x512.Idx), (![z0, z1, z2, z3, z4, z5, z6, z7] : Fin 8 → Vec F S1x64x512 .bf16) K y = recvZC X c (ix3 K (y 1) (y 2)) := by
    intro K y
    match K with
    | ⟨0, _⟩ => exact hz0 y
    | ⟨1, _⟩ => exact hz1 y
    | ⟨2, _⟩ => exact hz2 y
    | ⟨3, _⟩ => exact hz3 y
    | ⟨4, _⟩ => exact hz4 y
    | ⟨5, _⟩ => exact hz5 y
    | ⟨6, _⟩ => exact hz6 y
    | ⟨7, _⟩ => exact hz7 y
  exact (outAll_writes c g0 ![f0, f1, f2, f3, f4, f5, f6, f7] ![r0, r1, r2, r3, r4, r5, r6, r7] ![o0, o1, o2, o3, o4, o5, o6, o7] ![z0, z1, z2, z3, z4, z5, z6, z7]).trans
    (outAll_eq X c g0 _ _ _ _ hF hR hO hZ)

/-- info: 'Cert.KernelIdeal.RS.landF_apply' depends on axioms: [propext, Classical.choice, Quot.sound] -/
#guard_msgs in #print axioms landF_apply
/-- info: 'Cert.KernelIdeal.RS.fbAll_eq' depends on axioms: [propext, Classical.choice, Quot.sound] -/
#guard_msgs in #print axioms fbAll_eq
/-- info: 'Cert.KernelIdeal.RS.ldP_0' depends on axioms: [propext, Classical.choice, Quot.sound] -/
#guard_msgs in #print axioms ldP_0
/-- info: 'Cert.KernelIdeal.RS.ldO_0' depends on axioms: [propext, Classical.choice, Quot.sound] -/
#guard_msgs in #print axioms ldO_0
/-- info: 'Cert.KernelIdeal.RS.sx_store_0' depends on axioms: [propext, Classical.choice, Quot.sound] -/
#guard_msgs in #print axioms sx_store_0
/-- info: 'Cert.KernelIdeal.RS.rx_ld_0' depends on axioms: [propext, Classical.choice, Quot.sound] -/
#guard_msgs in #print axioms rx_ld_0
/-- info: 'Cert.KernelIdeal.RS.rz_ld_0' depends on axioms: [propext, Classical.choice, Quot.sound] -/
#guard_msgs in #print axioms rz_ld_0
/-- info: 'Cert.KernelIdeal.RS.oh_ld_0' depends on axioms: [propext, Classical.choice, Quot.sound] -/
#guard_msgs in #print axioms oh_ld_0
/-- info: 'Cert.KernelIdeal.RS.ldP_1' depends on axioms: [propext, Classical.choice, Quot.sound] -/
#guard_msgs in #print axioms ldP_1
/-- info: 'Cert.KernelIdeal.RS.ldO_1' depends on axioms: [propext, Classical.choice, Quot.sound] -/
#guard_msgs in #print axioms ldO_1
/-- info: 'Cert.KernelIdeal.RS.sx_store_1' depends on axioms: [propext, Classical.choice, Quot.sound] -/
#guard_msgs in #print axioms sx_store_1
/-- info: 'Cert.KernelIdeal.RS.rx_ld_1' depends on axioms: [propext, Classical.choice, Quot.sound] -/
#guard_msgs in #print axioms rx_ld_1
/-- info: 'Cert.KernelIdeal.RS.rz_ld_1' depends on axioms: [propext, Classical.choice, Quot.sound] -/
#guard_msgs in #print axioms rz_ld_1
/-- info: 'Cert.KernelIdeal.RS.oh_ld_1' depends on axioms: [propext, Classical.choice, Quot.sound] -/
#guard_msgs in #print axioms oh_ld_1
/-- info: 'Cert.KernelIdeal.RS.ldP_2' depends on axioms: [propext, Classical.choice, Quot.sound] -/
#guard_msgs in #print axioms ldP_2
/-- info: 'Cert.KernelIdeal.RS.ldO_2' depends on axioms: [propext, Classical.choice, Quot.sound] -/
#guard_msgs in #print axioms ldO_2
/-- info: 'Cert.KernelIdeal.RS.sx_store_2' depends on axioms: [propext, Classical.choice, Quot.sound] -/
#guard_msgs in #print axioms sx_store_2
/-- info: 'Cert.KernelIdeal.RS.rx_ld_2' depends on axioms: [propext, Classical.choice, Quot.sound] -/
#guard_msgs in #print axioms rx_ld_2
/-- info: 'Cert.KernelIdeal.RS.rz_ld_2' depends on axioms: [propext, Classical.choice, Quot.sound] -/
#guard_msgs in #print axioms rz_ld_2
/-- info: 'Cert.KernelIdeal.RS.oh_ld_2' depends on axioms: [propext, Classical.choice, Quot.sound] -/
#guard_msgs in #print axioms oh_ld_2
/-- info: 'Cert.KernelIdeal.RS.ldP_3' depends on axioms: [propext, Classical.choice, Quot.sound] -/
#guard_msgs in #print axioms ldP_3
/-- info: 'Cert.KernelIdeal.RS.ldO_3' depends on axioms: [propext, Classical.choice, Quot.sound] -/
#guard_msgs in #print axioms ldO_3
/-- info: 'Cert.KernelIdeal.RS.sx_store_3' depends on axioms: [propext, Classical.choice, Quot.sound] -/
#guard_msgs in #print axioms sx_store_3
/-- info: 'Cert.KernelIdeal.RS.rx_ld_3' depends on axioms: [propext, Classical.choice, Quot.sound] -/
#guard_msgs in #print axioms rx_ld_3
/-- info: 'Cert.KernelIdeal.RS.rz_ld_3' depends on axioms: [propext, Classical.choice, Quot.sound] -/
#guard_msgs in #print axioms rz_ld_3
/-- info: 'Cert.KernelIdeal.RS.oh_ld_3' depends on axioms: [propext, Classical.choice, Quot.sound] -/
#guard_msgs in #print axioms oh_ld_3
/-- info: 'Cert.KernelIdeal.RS.ldP_4' depends on axioms: [propext, Classical.choice, Quot.sound] -/
#guard_msgs in #print axioms ldP_4
/-- info: 'Cert.KernelIdeal.RS.ldO_4' depends on axioms: [propext, Classical.choice, Quot.sound] -/
#guard_msgs in #print axioms ldO_4
/-- info: 'Cert.KernelIdeal.RS.sx_store_4' depends on axioms: [propext, Classical.choice, Quot.sound] -/
#guard_msgs in #print axioms sx_store_4
/-- info: 'Cert.KernelIdeal.RS.rx_ld_4' depends on axioms: [propext, Classical.choice, Quot.sound] -/
#guard_msgs in #print axioms rx_ld_4
/-- info: 'Cert.KernelIdeal.RS.rz_ld_4' depends on axioms: [propext, Classical.choice, Quot.sound] -/
#guard_msgs in #print axioms rz_ld_4
/-- info: 'Cert.KernelIdeal.RS.oh_ld_4' depends on axioms: [propext, Classical.choice, Quot.sound] -/
#guard_msgs in #print axioms oh_ld_4
/-- info: 'Cert.KernelIdeal.RS.ldP_5' depends on axioms: [propext, Classical.choice, Quot.sound] -/
#guard_msgs in #print axioms ldP_5
/-- info: 'Cert.KernelIdeal.RS.ldO_5' depends on axioms: [propext, Classical.choice, Quot.sound] -/
#guard_msgs in #print axioms ldO_5
/-- info: 'Cert.KernelIdeal.RS.sx_store_5' depends on axioms: [propext, Classical.choice, Quot.sound] -/
#guard_msgs in #print axioms sx_store_5
/-- info: 'Cert.KernelIdeal.RS.rx_ld_5' depends on axioms: [propext, Classical.choice, Quot.sound] -/
#guard_msgs in #print axioms rx_ld_5
/-- info: 'Cert.KernelIdeal.RS.rz_ld_5' depends on axioms: [propext, Classical.choice, Quot.sound] -/
#guard_msgs in #print axioms rz_ld_5
/-- info: 'Cert.KernelIdeal.RS.oh_ld_5' depends on axioms: [propext, Classical.choice, Quot.sound] -/
#guard_msgs in #print axioms oh_ld_5
/-- info: 'Cert.KernelIdeal.RS.ldP_6' depends on axioms: [propext, Classical.choice, Quot.sound] -/
#guard_msgs in #print axioms ldP_6
/-- info: 'Cert.KernelIdeal.RS.ldO_6' depends on axioms: [propext, Classical.choice, Quot.sound] -/
#guard_msgs in #print axioms ldO_6
/-- info: 'Cert.KernelIdeal.RS.sx_store_6' depends on axioms: [propext, Classical.choice, Quot.sound] -/
#guard_msgs in #print axioms sx_store_6
/-- info: 'Cert.KernelIdeal.RS.rx_ld_6' depends on axioms: [propext, Classical.choice, Quot.sound] -/
#guard_msgs in #print axioms rx_ld_6
/-- info: 'Cert.KernelIdeal.RS.rz_ld_6' depends on axioms: [propext, Classical.choice, Quot.sound] -/
#guard_msgs in #print axioms rz_ld_6
/-- info: 'Cert.KernelIdeal.RS.oh_ld_6' depends on axioms: [propext, Classical.choice, Quot.sound] -/
#guard_msgs in #print axioms oh_ld_6
/-- info: 'Cert.KernelIdeal.RS.ldP_7' depends on axioms: [propext, Classical.choice, Quot.sound] -/
#guard_msgs in #print axioms ldP_7
/-- info: 'Cert.KernelIdeal.RS.ldO_7' depends on axioms: [propext, Classical.choice, Quot.sound] -/
#guard_msgs in #print axioms ldO_7
/-- info: 'Cert.KernelIdeal.RS.sx_store_7' depends on axioms: [propext, Classical.choice, Quot.sound] -/
#guard_msgs in #print axioms sx_store_7
/-- info: 'Cert.KernelIdeal.RS.rx_ld_7' depends on axioms: [propext, Classical.choice, Quot.sound] -/
#guard_msgs in #print axioms rx_ld_7
/-- info: 'Cert.KernelIdeal.RS.rz_ld_7' depends on axioms: [propext, Classical.choice, Quot.sound] -/
#guard_msgs in #print axioms rz_ld_7
/-- info: 'Cert.KernelIdeal.RS.oh_ld_7' depends on axioms: [propext, Classical.choice, Quot.sound] -/
#guard_msgs in #print axioms oh_ld_7
/-- info: 'Cert.KernelIdeal.RS.outAll_eq' depends on axioms: [propext, Classical.choice, Quot.sound] -/
#guard_msgs in #print axioms outAll_eq
/-- info: 'Cert.KernelIdeal.RS.other_land' depends on axioms: [propext, Classical.choice, Quot.sound] -/
#guard_msgs in #print axioms other_land
/-- info: 'Cert.KernelIdeal.RS.outAll_writes' depends on axioms: [propext, Classical.choice, Quot.sound] -/
#guard_msgs in #print axioms outAll_writes
/-- info: 'Cert.KernelIdeal.RS.other_val' depends on axioms: [propext, Classical.choice, Quot.sound] -/
#guard_msgs in #print axioms other_val
/-- info: 'Cert.KernelIdeal.RS.other_land_writes' depends on axioms: [propext, Classical.choice, Quot.sound] -/
#guard_msgs in #print axioms other_land_writes
/-- info: 'Cert.KernelIdeal.RS.oh_val_0' depends on axioms: [propext, Classical.choice, Quot.sound] -/
#guard_msgs in #print axioms oh_val_0
/-- info: 'Cert.KernelIdeal.RS.oh_val_1' depends on axioms: [propext, Classical.choice, Quot.sound] -/
#guard_msgs in #print axioms oh_val_1
/-- info: 'Cert.KernelIdeal.RS.oh_val_2' depends on axioms: [propext, Classical.choice, Quot.sound] -/
#guard_msgs in #print axioms oh_val_2
/-- info: 'Cert.KernelIdeal.RS.oh_val_3' depends on axioms: [propext, Classical.choice, Quot.sound] -/
#guard_msgs in #print axioms oh_val_3
/-- info: 'Cert.KernelIdeal.RS.oh_val_4' depends on axioms: [propext, Classical.choice, Quot.sound] -/
#guard_msgs in #print axioms oh_val_4
/-- info: 'Cert.KernelIdeal.RS.oh_val_5' depends on axioms: [propext, Classical.choice, Quot.sound] -/
#guard_msgs in #print axioms oh_val_5
/-- info: 'Cert.KernelIdeal.RS.oh_val_6' depends on axioms: [propext, Classical.choice, Quot.sound] -/
#guard_msgs in #print axioms oh_val_6
/-- info: 'Cert.KernelIdeal.RS.oh_val_7' depends on axioms: [propext, Classical.choice, Quot.sound] -/
#guard_msgs in #print axioms oh_val_7
/-- info: 'Cert.KernelIdeal.RS.oh_cov_0' depends on axioms: [propext, Classical.choice, Quot.sound] -/
#guard_msgs in #print axioms oh_cov_0
/-- info: 'Cert.KernelIdeal.RS.oh_cov_1' depends on axioms: [propext, Classical.choice, Quot.sound] -/
#guard_msgs in #print axioms oh_cov_1
/-- info: 'Cert.KernelIdeal.RS.oh_cov_2' depends on axioms: [propext, Classical.choice, Quot.sound] -/
#guard_msgs in #print axioms oh_cov_2
/-- info: 'Cert.KernelIdeal.RS.oh_cov_3' depends on axioms: [propext, Classical.choice, Quot.sound] -/
#guard_msgs in #print axioms oh_cov_3
/-- info: 'Cert.KernelIdeal.RS.oh_cov_4' depends on axioms: [propext, Classical.choice, Quot.sound] -/
#guard_msgs in #print axioms oh_cov_4
/-- info: 'Cert.KernelIdeal.RS.oh_cov_5' depends on axioms: [propext, Classical.choice, Quot.sound] -/
#guard_msgs in #print axioms oh_cov_5
/-- info: 'Cert.KernelIdeal.RS.oh_cov_6' depends on axioms: [propext, Classical.choice, Quot.sound] -/
#guard_msgs in #print axioms oh_cov_6
/-- info: 'Cert.KernelIdeal.RS.oh_cov_7' depends on axioms: [propext, Classical.choice, Quot.sound] -/
#guard_msgs in #print axioms oh_cov_7
/-- info: 'Cert.KernelIdeal.RS.out_final32' depends on axioms: [propext, Classical.choice, Quot.sound] -/
#guard_msgs in #print axioms out_final32

end Cert.KernelIdeal.RS

end
-- ==== Proof.RSBody.lean ====
/-
  One device's thread through the whole kernel body.

  The thread signals both peers' barrier cells (handing each the receive chunks it may now write), starts its nine
  local fetches, and waits its own barrier for both peers. Then, chunk by chunk: it waits the row fetch, rounds the
  peer's column half to bf16 into the x-send buffer and sends it to the x-peer; chunk by chunk again: it waits the
  x-peer's chunk, lends half of it to the forward to the y-peer, and stores the own row half of the result as the
  fetched own-column half plus the received chunk; then it waits the other-half fetch and, chunk by chunk, the
  y-peer's forwards, storing the other row half; last it waits all sixteen sends. Local steps are run by the symbolic
  executor; a signal, a remote copy and a wait other devices pay are the rounds library's rules, applied at the cell
  the step names. At the end every cell of the device's own is closed and every buffer is whole again.
-/
import proofs.«901020_g7700000000001021_dist_rs_v7x_xyz2x2x2_x_m1024_n512_bf16_1_alg».proof.Proof.RSInv
import proofs.«901020_g7700000000001021_dist_rs_v7x_xyz2x2x2_x_m1024_n512_bf16_1_alg».proof.Proof.RSChunks
import proofs.«901020_g7700000000001021_dist_rs_v7x_xyz2x2x2_x_m1024_n512_bf16_1_alg».proof.Proof.RSWaits
import proofs.«901020_g7700000000001021_dist_rs_v7x_xyz2x2x2_x_m1024_n512_bf16_1_alg».proof.Proof.RSGeom
import proofs.«901020_g7700000000001021_dist_rs_v7x_xyz2x2x2_x_m1024_n512_bf16_1_alg».proof.Proof.RSSteps
import proofs.«901020_g7700000000001021_dist_rs_v7x_xyz2x2x2_x_m1024_n512_bf16_1_alg».proof.Proof.RSBodyLemmas
import proofs.«901020_g7700000000001021_dist_rs_v7x_xyz2x2x2_x_m1024_n512_bf16_1_alg».proof.Proof.RSVals

noncomputable section

namespace Cert.KernelIdeal.RS

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq dev15_eq dev16_eq dev17_eq dev18_eq

set_option maxRecDepth 65536 in
set_option maxHeartbeats 0 in
/-- One device's thread through the whole kernel body, from `bodyPre` to `bodyPost`. -/
theorem sound_body (K : Dev nD × CK → ℕ) (c : Dev nD) (Kt : PUnit → sProp 𝕄) :
    iprop(bodyPre m K c ∗ (bodyPost m c -∗ Kt ⟨⟩))
      ⊢ wp frame (wpE (defs₀ (F := F)) 𝒱₀ c none) Set.univ (bodyAt0 (F := F) t₀) Kt := by
  unfold bodyAt0
  simp only [cc0_body_eq_skeleton]; unfold cc0_body_skel
  unfold bodyPre ghost linear payToks creds locals0 scratch slabPts
  simp only [bigSep_fin8]
  iintro ⟨⟨⟨⟨#Hrec, HatB, Hat, HtBX, HtBY, ⟨HtRX0, HtRX1, HtRX2, HtRX3, HtRX4, HtRX5, HtRX6, HtRX7⟩, ⟨HtRZ0, HtRZ1, HtRZ2, HtRZ3, HtRZ4, HtRZ5, HtRZ6, HtRZ7⟩, ⟨HtSX0, HtSX1, HtSX2, HtSX3, HtSX4, HtSX5, HtSX6, HtSX7⟩, ⟨HtSZ0, HtSZ1, HtSZ2, HtSZ3, HtSZ4, HtSZ5, HtSZ6, HtSZ7⟩⟩, ⟨HcB, ⟨HcRX0, HcRX1, HcRX2, HcRX3, HcRX4, HcRX5, HcRX6, HcRX7⟩, ⟨HcRZ0, HcRZ1, HcRZ2, HcRZ3, HcRZ4, HcRZ5, HcRZ6, HcRZ7⟩⟩, #Hlev, Hslab, ⟨⟨Hf0, Hf1, Hf2, Hf3, Hf4, Hf5, Hf6, Hf7⟩, Hos⟩, ⟨%b0, Hb0⟩, ⟨%b1, Hb1⟩, ⟨%b2, Hb2⟩, ⟨%b3, Hb3⟩, ⟨%b4, Hb4⟩⟩, Ho, ⟨%d0, %g0, %hg0, Hout⟩⟩, Hk⟩
  ihave Hat := (Entails.of_eq (bigSep_fin4x8 _)) $$ Hat
  icases Hat with ⟨⟨Hat00, Hat01, Hat02, Hat03, Hat04, Hat05, Hat06, Hat07⟩, ⟨Hat10, Hat11, Hat12, Hat13, Hat14, Hat15, Hat16, Hat17⟩, ⟨Hat20, Hat21, Hat22, Hat23, Hat24, Hat25, Hat26, Hat27⟩, ⟨Hat30, Hat31, Hat32, Hat33, Hat34, Hat35, Hat36, Hat37⟩⟩
  ihave #HIbx := (inv_bar m K (px c)) $$ Hrec
  ihave #HRbx := (reached_bar m K (px c)) $$ Hrec
  ihave #HIby := (inv_bar m K (py c)) $$ Hrec
  ihave #HRby := (reached_bar m K (py c)) $$ Hrec
  ihave #HIb := (inv_bar m K c) $$ Hrec
  ihave Hrx := (rx_split (F := F) c fullShare b3) $$ Hb3
  ihave Hrz := (rz_split (F := F) c fullShare b4) $$ Hb4
  simp only [bigSep_fin8]
  icases Hrx with ⟨Hrx0, Hrx1, Hrx2, Hrx3, Hrx4, Hrx5, Hrx6, Hrx7⟩
  icases Hrz with ⟨Hrz0, Hrz1, Hrz2, Hrz3, Hrz4, Hrz5, Hrz6, Hrz7⟩
  ihave Hslab := (Entails.of_eq (whole_pts c main_arg0 fullShare _)) $$ Hslab
  ihave Hslab := (slab_toks m c) $$ Hslab
  icases Hslab with ⟨Hslr, Hsl0, Hsl1, Hsl2, Hsl3, Hsl4, Hsl5, Hsl6, Hsl7, Hsl8, Hsl9⟩
  ihave Hb0 := (Entails.of_eq (whole_pts c cc0_scratch0 fullShare b0)) $$ Hb0
  ihave Hb1 := (Entails.of_eq (whole_pts c cc0_scratch1 fullShare b1)) $$ Hb1
  ihave Hsx := (sx_split8 (F := F) c b2) $$ Hb2
  icases Hsx with ⟨Hsx0, Hsx1, Hsx2, Hsx3, Hsx4, Hsx5, Hsx6, Hsx7⟩
  ihave Hout := (Entails.of_eq (whole_pts c cc0_stg0_0 fullShare g0)) $$ Hout
  unfold Dat.owesAt Pipeline.owesWithin
  icases Ho with ⟨%W, %hW, HO⟩
  rw [show (dats m 0 c).owed t₀.castSucc = O₀ c from rfl]
  unfold O₀
  sl_exec
  -- the entry signal to the x-peer: its payload is this device's eight x-receive chunks
  iapply (Rounds.wp_signal 𝒱₀ ER (rsRd m) (c : Thread nD τ) none (dst := (px c : Thread nD τ)) (κ := K (px c, none))
      (d := false) (by rw [duties_bar]; exact Finset.mem_univ _) ((amount_bar m (px c) false).trans (by decide)) () _ rfl)
    $$ [HO HtBX Hrx0 Hrx1 Hrx2 Hrx3 Hrx4 Hrx5 Hrx6 Hrx7]
  · isplitr; · iexact HIbx
    isplitl [HO]; · iexact HO
    isplitl [HtBX]; · iexact HtBX
    isplitl [Hrx0 Hrx1 Hrx2 Hrx3 Hrx4 Hrx5 Hrx6 Hrx7]
    · rw [payload_bar_px]
      isplitl [Hrx0]; · iexists b3; iexact Hrx0
      isplitl [Hrx1]; · iexists b3; iexact Hrx1
      isplitl [Hrx2]; · iexists b3; iexact Hrx2
      isplitl [Hrx3]; · iexists b3; iexact Hrx3
      isplitl [Hrx4]; · iexists b3; iexact Hrx4
      isplitl [Hrx5]; · iexists b3; iexact Hrx5
      isplitl [Hrx6]; · iexists b3; iexact Hrx6
      iexists b3; iexact Hrx7
    · iexact HRbx
  iintro HO
  sl_exec
  -- the entry signal to the y-peer: its payload is this device's eight y-receive chunks
  iapply (Rounds.wp_signal 𝒱₀ ER (rsRd m) (c : Thread nD τ) none (dst := (py c : Thread nD τ)) (κ := K (py c, none))
      (d := true) (by rw [duties_bar]; exact Finset.mem_univ _) ((amount_bar m (py c) true).trans (by decide)) () _ rfl)
    $$ [HO HtBY Hrz0 Hrz1 Hrz2 Hrz3 Hrz4 Hrz5 Hrz6 Hrz7]
  · isplitr; · iexact HIby
    isplitl [HO]; · iexact HO
    isplitl [HtBY]; · iexact HtBY
    isplitl [Hrz0 Hrz1 Hrz2 Hrz3 Hrz4 Hrz5 Hrz6 Hrz7]
    · rw [payload_bar_py]
      isplitl [Hrz0]; · iexists b4; iexact Hrz0
      isplitl [Hrz1]; · iexists b4; iexact Hrz1
      isplitl [Hrz2]; · iexists b4; iexact Hrz2
      isplitl [Hrz3]; · iexists b4; iexact Hrz3
      isplitl [Hrz4]; · iexists b4; iexact Hrz4
      isplitl [Hrz5]; · iexists b4; iexact Hrz5
      isplitl [Hrz6]; · iexists b4; iexact Hrz6
      iexists b4; iexact Hrz7
    · iexact HRby
  iintro HO
  have hd0 := other_disj_0 c
  have hd1 := other_disj_1 c
  have hd2 := other_disj_2 c
  have hd3 := other_disj_3 c
  have hd4 := other_disj_4 c
  have hd5 := other_disj_5 c
  have hd6 := other_disj_6 c
  have hd7 := other_disj_7 c
  set_option sl_exec.dmaWindow true in set_option sl_exec.dmaWindowSet true in sl_exec
  clear hd0 hd1 hd2 hd3 hd4 hd5 hd6 hd7
  -- the wait for both peers' entry signals, all sixteen transfers still owed
  iapply (Rounds.wp_wait_rest_token 𝒱₀ ER (rsRd m) (c : Thread nD τ) none (κ := K (c, none))
      (wpE_semWait_eq 𝒱₀ (c : Thread nD τ) none Set.univ) (Set.mem_univ _) () (O := _) (W := _) (R := 0) (m := 0) (T := ∅)
      (by rw [expect_bar]; decide)) $$ [HcB HO HatB]
  · isplitr; · iexact HIb
    isplitl [HcB]; · iexact HcB
    isplitl [HO]; · iexact HO
    isplitr; · iapply (mayWait_bar (F := F) c); iexact Hlev
    iexact HatB
  iintro ⟨HO, HatB, -, Hpay⟩
  ihave Hp := (Entails.of_eq (rest_bar8 m c)) $$ Hpay
  icases Hp with ⟨⟨⟨%fx0, Hpx0⟩, ⟨%fx1, Hpx1⟩, ⟨%fx2, Hpx2⟩, ⟨%fx3, Hpx3⟩, ⟨%fx4, Hpx4⟩, ⟨%fx5, Hpx5⟩, ⟨%fx6, Hpx6⟩, ⟨%fx7, Hpx7⟩⟩, ⟨⟨%fz0, Hpz0⟩, ⟨%fz1, Hpz1⟩, ⟨%fz2, Hpz2⟩, ⟨%fz3, Hpz3⟩, ⟨%fz4, Hpz4⟩, ⟨%fz5, Hpz5⟩, ⟨%fz6, Hpz6⟩, ⟨%fz7, Hpz7⟩⟩⟩
  have hmwf0 : (levAts L lv : sProp 𝕄) ⊢ MayWait (c : Thread nD τ) (SemLoc.dma ((cc0_scratch5.slice (Rect.unit (s := S8) ![0] S1.size inb_S8_S1_0)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N + tallyAt (qCell (px c) 1 2) () N + tallyAt (qCell (px c) 1 1) () N + tallyAt (qCell (px c) 1 0) () N) :=
    mayWait_low (F := F) c _ (lv_local c _ (by decide)) 0
  have hmwf1 : (levAts L lv : sProp 𝕄) ⊢ MayWait (c : Thread nD τ) (SemLoc.dma ((cc0_scratch5.slice (Rect.unit (s := S8) ![1] S1.size inb_S8_S1_1)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N + tallyAt (qCell (px c) 1 2) () N + tallyAt (qCell (px c) 1 1) () N) :=
    mayWait_low (F := F) c _ (lv_local c _ (by decide)) 1
  have hmwf2 : (levAts L lv : sProp 𝕄) ⊢ MayWait (c : Thread nD τ) (SemLoc.dma ((cc0_scratch5.slice (Rect.unit (s := S8) ![2] S1.size inb_S8_S1_2)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N + tallyAt (qCell (px c) 1 2) () N) :=
    mayWait_low (F := F) c _ (lv_local c _ (by decide)) 2
  have hmwf3 : (levAts L lv : sProp 𝕄) ⊢ MayWait (c : Thread nD τ) (SemLoc.dma ((cc0_scratch5.slice (Rect.unit (s := S8) ![3] S1.size inb_S8_S1_3)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N) :=
    mayWait_low (F := F) c _ (lv_local c _ (by decide)) 3
  have hmwf4 : (levAts L lv : sProp 𝕄) ⊢ MayWait (c : Thread nD τ) (SemLoc.dma ((cc0_scratch5.slice (Rect.unit (s := S8) ![4] S1.size inb_S8_S1_4)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N) :=
    mayWait_low (F := F) c _ (lv_local c _ (by decide)) 4
  have hmwf5 : (levAts L lv : sProp 𝕄) ⊢ MayWait (c : Thread nD τ) (SemLoc.dma ((cc0_scratch5.slice (Rect.unit (s := S8) ![5] S1.size inb_S8_S1_5)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N) :=
    mayWait_low (F := F) c _ (lv_local c _ (by decide)) 5
  have hmwf6 : (levAts L lv : sProp 𝕄) ⊢ MayWait (c : Thread nD τ) (SemLoc.dma ((cc0_scratch5.slice (Rect.unit (s := S8) ![6] S1.size inb_S8_S1_6)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N) :=
    mayWait_low (F := F) c _ (lv_local c _ (by decide)) 6
  have hmwf7 : (levAts L lv : sProp 𝕄) ⊢ MayWait (c : Thread nD τ) (SemLoc.dma ((cc0_scratch5.slice (Rect.unit (s := S8) ![7] S1.size inb_S8_S1_7)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N) :=
    mayWait_low (F := F) c _ (lv_local c _ (by decide)) 7
  set_option sl_exec.dmaWindow true in set_option sl_exec.dmaWindowSet true in sl_exec
  ihave #HIsx0 := (inv_q m K c 0 0) $$ Hrec
  ihave #HIrxp0 := (inv_q m K (px c) 1 0) $$ Hrec
  ihave #HRsx0 := (reached_q m K c 0 0) $$ Hrec
  ihave #HRrxp0 := (reached_q m K (px c) 1 0) $$ Hrec
  -- the x-send of chunk 0: the chunk goes to the x-peer's receive buffer, its credit to the peer's cell
  iapply (wp_send_x m K c _ (dev3_eq c) 0 _ (sx_store_0 (F := F) (slabs m) c b0 b2) fx0 _ rfl _) $$ [Hsx0 Hpx0 HO HtSX0 HtRX0]
  · isplitr; · iexact HIsx0
    isplitr; · iexact HIrxp0
    isplitl [Hsx0]; · iexact Hsx0
    isplitl [Hpx0]; · iexact Hpx0
    isplitl [HO]; · iexact HO
    isplitl [HtSX0]; · iexact HtSX0
    isplitr; · iexact HRsx0
    isplitl [HtRX0]; · iexact HtRX0
    iexact HRrxp0
  iintro ⟨HcSX0, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HIsx1 := (inv_q m K c 0 1) $$ Hrec
  ihave #HIrxp1 := (inv_q m K (px c) 1 1) $$ Hrec
  ihave #HRsx1 := (reached_q m K c 0 1) $$ Hrec
  ihave #HRrxp1 := (reached_q m K (px c) 1 1) $$ Hrec
  -- the x-send of chunk 1: the chunk goes to the x-peer's receive buffer, its credit to the peer's cell
  iapply (wp_send_x m K c _ (dev4_eq c) 1 _ (sx_store_1 (F := F) (slabs m) c b0 b2) fx1 _ rfl _) $$ [Hsx1 Hpx1 HO HtSX1 HtRX1]
  · isplitr; · iexact HIsx1
    isplitr; · iexact HIrxp1
    isplitl [Hsx1]; · iexact Hsx1
    isplitl [Hpx1]; · iexact Hpx1
    isplitl [HO]; · iexact HO
    isplitl [HtSX1]; · iexact HtSX1
    isplitr; · iexact HRsx1
    isplitl [HtRX1]; · iexact HtRX1
    iexact HRrxp1
  iintro ⟨HcSX1, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HIsx2 := (inv_q m K c 0 2) $$ Hrec
  ihave #HIrxp2 := (inv_q m K (px c) 1 2) $$ Hrec
  ihave #HRsx2 := (reached_q m K c 0 2) $$ Hrec
  ihave #HRrxp2 := (reached_q m K (px c) 1 2) $$ Hrec
  -- the x-send of chunk 2: the chunk goes to the x-peer's receive buffer, its credit to the peer's cell
  iapply (wp_send_x m K c _ (dev5_eq c) 2 _ (sx_store_2 (F := F) (slabs m) c b0 b2) fx2 _ rfl _) $$ [Hsx2 Hpx2 HO HtSX2 HtRX2]
  · isplitr; · iexact HIsx2
    isplitr; · iexact HIrxp2
    isplitl [Hsx2]; · iexact Hsx2
    isplitl [Hpx2]; · iexact Hpx2
    isplitl [HO]; · iexact HO
    isplitl [HtSX2]; · iexact HtSX2
    isplitr; · iexact HRsx2
    isplitl [HtRX2]; · iexact HtRX2
    iexact HRrxp2
  iintro ⟨HcSX2, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HIsx3 := (inv_q m K c 0 3) $$ Hrec
  ihave #HIrxp3 := (inv_q m K (px c) 1 3) $$ Hrec
  ihave #HRsx3 := (reached_q m K c 0 3) $$ Hrec
  ihave #HRrxp3 := (reached_q m K (px c) 1 3) $$ Hrec
  -- the x-send of chunk 3: the chunk goes to the x-peer's receive buffer, its credit to the peer's cell
  iapply (wp_send_x m K c _ (dev6_eq c) 3 _ (sx_store_3 (F := F) (slabs m) c b0 b2) fx3 _ rfl _) $$ [Hsx3 Hpx3 HO HtSX3 HtRX3]
  · isplitr; · iexact HIsx3
    isplitr; · iexact HIrxp3
    isplitl [Hsx3]; · iexact Hsx3
    isplitl [Hpx3]; · iexact Hpx3
    isplitl [HO]; · iexact HO
    isplitl [HtSX3]; · iexact HtSX3
    isplitr; · iexact HRsx3
    isplitl [HtRX3]; · iexact HtRX3
    iexact HRrxp3
  iintro ⟨HcSX3, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HIsx4 := (inv_q m K c 0 4) $$ Hrec
  ihave #HIrxp4 := (inv_q m K (px c) 1 4) $$ Hrec
  ihave #HRsx4 := (reached_q m K c 0 4) $$ Hrec
  ihave #HRrxp4 := (reached_q m K (px c) 1 4) $$ Hrec
  -- the x-send of chunk 4: the chunk goes to the x-peer's receive buffer, its credit to the peer's cell
  iapply (wp_send_x m K c _ (dev7_eq c) 4 _ (sx_store_4 (F := F) (slabs m) c b0 b2) fx4 _ rfl _) $$ [Hsx4 Hpx4 HO HtSX4 HtRX4]
  · isplitr; · iexact HIsx4
    isplitr; · iexact HIrxp4
    isplitl [Hsx4]; · iexact Hsx4
    isplitl [Hpx4]; · iexact Hpx4
    isplitl [HO]; · iexact HO
    isplitl [HtSX4]; · iexact HtSX4
    isplitr; · iexact HRsx4
    isplitl [HtRX4]; · iexact HtRX4
    iexact HRrxp4
  iintro ⟨HcSX4, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HIsx5 := (inv_q m K c 0 5) $$ Hrec
  ihave #HIrxp5 := (inv_q m K (px c) 1 5) $$ Hrec
  ihave #HRsx5 := (reached_q m K c 0 5) $$ Hrec
  ihave #HRrxp5 := (reached_q m K (px c) 1 5) $$ Hrec
  -- the x-send of chunk 5: the chunk goes to the x-peer's receive buffer, its credit to the peer's cell
  iapply (wp_send_x m K c _ (dev8_eq c) 5 _ (sx_store_5 (F := F) (slabs m) c b0 b2) fx5 _ rfl _) $$ [Hsx5 Hpx5 HO HtSX5 HtRX5]
  · isplitr; · iexact HIsx5
    isplitr; · iexact HIrxp5
    isplitl [Hsx5]; · iexact Hsx5
    isplitl [Hpx5]; · iexact Hpx5
    isplitl [HO]; · iexact HO
    isplitl [HtSX5]; · iexact HtSX5
    isplitr; · iexact HRsx5
    isplitl [HtRX5]; · iexact HtRX5
    iexact HRrxp5
  iintro ⟨HcSX5, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HIsx6 := (inv_q m K c 0 6) $$ Hrec
  ihave #HIrxp6 := (inv_q m K (px c) 1 6) $$ Hrec
  ihave #HRsx6 := (reached_q m K c 0 6) $$ Hrec
  ihave #HRrxp6 := (reached_q m K (px c) 1 6) $$ Hrec
  -- the x-send of chunk 6: the chunk goes to the x-peer's receive buffer, its credit to the peer's cell
  iapply (wp_send_x m K c _ (dev9_eq c) 6 _ (sx_store_6 (F := F) (slabs m) c b0 b2) fx6 _ rfl _) $$ [Hsx6 Hpx6 HO HtSX6 HtRX6]
  · isplitr; · iexact HIsx6
    isplitr; · iexact HIrxp6
    isplitl [Hsx6]; · iexact Hsx6
    isplitl [Hpx6]; · iexact Hpx6
    isplitl [HO]; · iexact HO
    isplitl [HtSX6]; · iexact HtSX6
    isplitr; · iexact HRsx6
    isplitl [HtRX6]; · iexact HtRX6
    iexact HRrxp6
  iintro ⟨HcSX6, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HIsx7 := (inv_q m K c 0 7) $$ Hrec
  ihave #HIrxp7 := (inv_q m K (px c) 1 7) $$ Hrec
  ihave #HRsx7 := (reached_q m K c 0 7) $$ Hrec
  ihave #HRrxp7 := (reached_q m K (px c) 1 7) $$ Hrec
  -- the x-send of chunk 7: the chunk goes to the x-peer's receive buffer, its credit to the peer's cell
  iapply (wp_send_x m K c _ (dev10_eq c) 7 _ (sx_store_7 (F := F) (slabs m) c b0 b2) fx7 _ rfl _) $$ [Hsx7 Hpx7 HO HtSX7 HtRX7]
  · isplitr; · iexact HIsx7
    isplitr; · iexact HIrxp7
    isplitl [Hsx7]; · iexact Hsx7
    isplitl [Hpx7]; · iexact Hpx7
    isplitl [HO]; · iexact HO
    isplitl [HtSX7]; · iexact HtSX7
    isplitr; · iexact HRsx7
    isplitl [HtRX7]; · iexact HtRX7
    iexact HRrxp7
  iintro ⟨HcSX7, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 0 arrives from the x-peer; half of it is lent to the forward, the other half stays to be read
  ihave #HI1_0 := (inv_q m K c 1 0) $$ Hrec
  iapply (Rounds.wp_wait_rest_token 𝒱₀ ER (rsRd m) (c : Thread nD τ) none (sm := SemLoc.dma (qS 1 0).sem) (k' := (rxM 0 : Memref sig .tc .vmem S64x512 .bf16).view.dmaCredit) (κ := K (c, some (1, 0)))
      (wpE_waitDma2_eq 𝒱₀ (c : Thread nD τ) none Set.univ) (Set.mem_univ _) () (O := _) (W := _) (R := 0) (m := 0) (T := ∅)
      (by rw [Nat.zero_add, expect_q])) $$ [HcRX0 HO Hat10]
  · isplitr; · iexact HI1_0
    isplitl [HcRX0]; · iexact HcRX0
    isplitl [HO]; · iexact HO
    isplitr; · iapply (mayWait_rx (F := F) c 0); iexact Hlev
    iexact Hat10
  iintro ⟨HO, Hat10, -, Hpay⟩
  ihave Hrx0 := (Entails.of_eq (show _ = ptsM (F := F) (rxM 0) c fullShare (recvXC (slabs m) c) from rest_q m c 1 0)) $$ Hpay
  ihave Hh := (pts_halve (F := F) (rxM 0) c (recvXC (slabs m) c)) $$ Hrx0
  icases Hh with ⟨HrxL0, HrxR0⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_0 := (inv_q m K c 2 0) $$ Hrec
  ihave #HIrzp0 := (inv_q m K (py c) 3 0) $$ Hrec
  ihave #HRsz0 := (reached_q m K c 2 0) $$ Hrec
  ihave #HRrzp0 := (reached_q m K (py c) 3 0) $$ Hrec
  iapply (wp_send_z m K c _ (dev11_eq c) 0 fz0 _ rfl _) $$ [HrxL0 Hpz0 HO HtSZ0 HtRZ0]
  · isplitr; · iexact HI2_0
    isplitr; · iexact HIrzp0
    isplitl [HrxL0]; · iexact HrxL0
    isplitl [Hpz0]; · iexact Hpz0
    isplitl [HO]; · iexact HO
    isplitl [HtSZ0]; · iexact HtSZ0
    isplitr; · iexact HRsz0
    isplitl [HtRZ0]; · iexact HtRZ0
    iexact HRrzp0
  iintro ⟨HcSZ0, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 1 arrives from the x-peer; half of it is lent to the forward, the other half stays to be read
  ihave #HI1_1 := (inv_q m K c 1 1) $$ Hrec
  iapply (Rounds.wp_wait_rest_token 𝒱₀ ER (rsRd m) (c : Thread nD τ) none (sm := SemLoc.dma (qS 1 1).sem) (k' := (rxM 1 : Memref sig .tc .vmem S64x512 .bf16).view.dmaCredit) (κ := K (c, some (1, 1)))
      (wpE_waitDma2_eq 𝒱₀ (c : Thread nD τ) none Set.univ) (Set.mem_univ _) () (O := _) (W := _) (R := 0) (m := 0) (T := ∅)
      (by rw [Nat.zero_add, expect_q])) $$ [HcRX1 HO Hat11]
  · isplitr; · iexact HI1_1
    isplitl [HcRX1]; · iexact HcRX1
    isplitl [HO]; · iexact HO
    isplitr; · iapply (mayWait_rx (F := F) c 1); iexact Hlev
    iexact Hat11
  iintro ⟨HO, Hat11, -, Hpay⟩
  ihave Hrx1 := (Entails.of_eq (show _ = ptsM (F := F) (rxM 1) c fullShare (recvXC (slabs m) c) from rest_q m c 1 1)) $$ Hpay
  ihave Hh := (pts_halve (F := F) (rxM 1) c (recvXC (slabs m) c)) $$ Hrx1
  icases Hh with ⟨HrxL1, HrxR1⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_1 := (inv_q m K c 2 1) $$ Hrec
  ihave #HIrzp1 := (inv_q m K (py c) 3 1) $$ Hrec
  ihave #HRsz1 := (reached_q m K c 2 1) $$ Hrec
  ihave #HRrzp1 := (reached_q m K (py c) 3 1) $$ Hrec
  iapply (wp_send_z m K c _ (dev12_eq c) 1 fz1 _ rfl _) $$ [HrxL1 Hpz1 HO HtSZ1 HtRZ1]
  · isplitr; · iexact HI2_1
    isplitr; · iexact HIrzp1
    isplitl [HrxL1]; · iexact HrxL1
    isplitl [Hpz1]; · iexact Hpz1
    isplitl [HO]; · iexact HO
    isplitl [HtSZ1]; · iexact HtSZ1
    isplitr; · iexact HRsz1
    isplitl [HtRZ1]; · iexact HtRZ1
    iexact HRrzp1
  iintro ⟨HcSZ1, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 2 arrives from the x-peer; half of it is lent to the forward, the other half stays to be read
  ihave #HI1_2 := (inv_q m K c 1 2) $$ Hrec
  iapply (Rounds.wp_wait_rest_token 𝒱₀ ER (rsRd m) (c : Thread nD τ) none (sm := SemLoc.dma (qS 1 2).sem) (k' := (rxM 2 : Memref sig .tc .vmem S64x512 .bf16).view.dmaCredit) (κ := K (c, some (1, 2)))
      (wpE_waitDma2_eq 𝒱₀ (c : Thread nD τ) none Set.univ) (Set.mem_univ _) () (O := _) (W := _) (R := 0) (m := 0) (T := ∅)
      (by rw [Nat.zero_add, expect_q])) $$ [HcRX2 HO Hat12]
  · isplitr; · iexact HI1_2
    isplitl [HcRX2]; · iexact HcRX2
    isplitl [HO]; · iexact HO
    isplitr; · iapply (mayWait_rx (F := F) c 2); iexact Hlev
    iexact Hat12
  iintro ⟨HO, Hat12, -, Hpay⟩
  ihave Hrx2 := (Entails.of_eq (show _ = ptsM (F := F) (rxM 2) c fullShare (recvXC (slabs m) c) from rest_q m c 1 2)) $$ Hpay
  ihave Hh := (pts_halve (F := F) (rxM 2) c (recvXC (slabs m) c)) $$ Hrx2
  icases Hh with ⟨HrxL2, HrxR2⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_2 := (inv_q m K c 2 2) $$ Hrec
  ihave #HIrzp2 := (inv_q m K (py c) 3 2) $$ Hrec
  ihave #HRsz2 := (reached_q m K c 2 2) $$ Hrec
  ihave #HRrzp2 := (reached_q m K (py c) 3 2) $$ Hrec
  iapply (wp_send_z m K c _ (dev13_eq c) 2 fz2 _ rfl _) $$ [HrxL2 Hpz2 HO HtSZ2 HtRZ2]
  · isplitr; · iexact HI2_2
    isplitr; · iexact HIrzp2
    isplitl [HrxL2]; · iexact HrxL2
    isplitl [Hpz2]; · iexact Hpz2
    isplitl [HO]; · iexact HO
    isplitl [HtSZ2]; · iexact HtSZ2
    isplitr; · iexact HRsz2
    isplitl [HtRZ2]; · iexact HtRZ2
    iexact HRrzp2
  iintro ⟨HcSZ2, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 3 arrives from the x-peer; half of it is lent to the forward, the other half stays to be read
  ihave #HI1_3 := (inv_q m K c 1 3) $$ Hrec
  iapply (Rounds.wp_wait_rest_token 𝒱₀ ER (rsRd m) (c : Thread nD τ) none (sm := SemLoc.dma (qS 1 3).sem) (k' := (rxM 3 : Memref sig .tc .vmem S64x512 .bf16).view.dmaCredit) (κ := K (c, some (1, 3)))
      (wpE_waitDma2_eq 𝒱₀ (c : Thread nD τ) none Set.univ) (Set.mem_univ _) () (O := _) (W := _) (R := 0) (m := 0) (T := ∅)
      (by rw [Nat.zero_add, expect_q])) $$ [HcRX3 HO Hat13]
  · isplitr; · iexact HI1_3
    isplitl [HcRX3]; · iexact HcRX3
    isplitl [HO]; · iexact HO
    isplitr; · iapply (mayWait_rx (F := F) c 3); iexact Hlev
    iexact Hat13
  iintro ⟨HO, Hat13, -, Hpay⟩
  ihave Hrx3 := (Entails.of_eq (show _ = ptsM (F := F) (rxM 3) c fullShare (recvXC (slabs m) c) from rest_q m c 1 3)) $$ Hpay
  ihave Hh := (pts_halve (F := F) (rxM 3) c (recvXC (slabs m) c)) $$ Hrx3
  icases Hh with ⟨HrxL3, HrxR3⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_3 := (inv_q m K c 2 3) $$ Hrec
  ihave #HIrzp3 := (inv_q m K (py c) 3 3) $$ Hrec
  ihave #HRsz3 := (reached_q m K c 2 3) $$ Hrec
  ihave #HRrzp3 := (reached_q m K (py c) 3 3) $$ Hrec
  iapply (wp_send_z m K c _ (dev14_eq c) 3 fz3 _ rfl _) $$ [HrxL3 Hpz3 HO HtSZ3 HtRZ3]
  · isplitr; · iexact HI2_3
    isplitr; · iexact HIrzp3
    isplitl [HrxL3]; · iexact HrxL3
    isplitl [Hpz3]; · iexact Hpz3
    isplitl [HO]; · iexact HO
    isplitl [HtSZ3]; · iexact HtSZ3
    isplitr; · iexact HRsz3
    isplitl [HtRZ3]; · iexact HtRZ3
    iexact HRrzp3
  iintro ⟨HcSZ3, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 4 arrives from the x-peer; half of it is lent to the forward, the other half stays to be read
  ihave #HI1_4 := (inv_q m K c 1 4) $$ Hrec
  iapply (Rounds.wp_wait_rest_token 𝒱₀ ER (rsRd m) (c : Thread nD τ) none (sm := SemLoc.dma (qS 1 4).sem) (k' := (rxM 4 : Memref sig .tc .vmem S64x512 .bf16).view.dmaCredit) (κ := K (c, some (1, 4)))
      (wpE_waitDma2_eq 𝒱₀ (c : Thread nD τ) none Set.univ) (Set.mem_univ _) () (O := _) (W := _) (R := 0) (m := 0) (T := ∅)
      (by rw [Nat.zero_add, expect_q])) $$ [HcRX4 HO Hat14]
  · isplitr; · iexact HI1_4
    isplitl [HcRX4]; · iexact HcRX4
    isplitl [HO]; · iexact HO
    isplitr; · iapply (mayWait_rx (F := F) c 4); iexact Hlev
    iexact Hat14
  iintro ⟨HO, Hat14, -, Hpay⟩
  ihave Hrx4 := (Entails.of_eq (show _ = ptsM (F := F) (rxM 4) c fullShare (recvXC (slabs m) c) from rest_q m c 1 4)) $$ Hpay
  ihave Hh := (pts_halve (F := F) (rxM 4) c (recvXC (slabs m) c)) $$ Hrx4
  icases Hh with ⟨HrxL4, HrxR4⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_4 := (inv_q m K c 2 4) $$ Hrec
  ihave #HIrzp4 := (inv_q m K (py c) 3 4) $$ Hrec
  ihave #HRsz4 := (reached_q m K c 2 4) $$ Hrec
  ihave #HRrzp4 := (reached_q m K (py c) 3 4) $$ Hrec
  iapply (wp_send_z m K c _ (dev15_eq c) 4 fz4 _ rfl _) $$ [HrxL4 Hpz4 HO HtSZ4 HtRZ4]
  · isplitr; · iexact HI2_4
    isplitr; · iexact HIrzp4
    isplitl [HrxL4]; · iexact HrxL4
    isplitl [Hpz4]; · iexact Hpz4
    isplitl [HO]; · iexact HO
    isplitl [HtSZ4]; · iexact HtSZ4
    isplitr; · iexact HRsz4
    isplitl [HtRZ4]; · iexact HtRZ4
    iexact HRrzp4
  iintro ⟨HcSZ4, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 5 arrives from the x-peer; half of it is lent to the forward, the other half stays to be read
  ihave #HI1_5 := (inv_q m K c 1 5) $$ Hrec
  iapply (Rounds.wp_wait_rest_token 𝒱₀ ER (rsRd m) (c : Thread nD τ) none (sm := SemLoc.dma (qS 1 5).sem) (k' := (rxM 5 : Memref sig .tc .vmem S64x512 .bf16).view.dmaCredit) (κ := K (c, some (1, 5)))
      (wpE_waitDma2_eq 𝒱₀ (c : Thread nD τ) none Set.univ) (Set.mem_univ _) () (O := _) (W := _) (R := 0) (m := 0) (T := ∅)
      (by rw [Nat.zero_add, expect_q])) $$ [HcRX5 HO Hat15]
  · isplitr; · iexact HI1_5
    isplitl [HcRX5]; · iexact HcRX5
    isplitl [HO]; · iexact HO
    isplitr; · iapply (mayWait_rx (F := F) c 5); iexact Hlev
    iexact Hat15
  iintro ⟨HO, Hat15, -, Hpay⟩
  ihave Hrx5 := (Entails.of_eq (show _ = ptsM (F := F) (rxM 5) c fullShare (recvXC (slabs m) c) from rest_q m c 1 5)) $$ Hpay
  ihave Hh := (pts_halve (F := F) (rxM 5) c (recvXC (slabs m) c)) $$ Hrx5
  icases Hh with ⟨HrxL5, HrxR5⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_5 := (inv_q m K c 2 5) $$ Hrec
  ihave #HIrzp5 := (inv_q m K (py c) 3 5) $$ Hrec
  ihave #HRsz5 := (reached_q m K c 2 5) $$ Hrec
  ihave #HRrzp5 := (reached_q m K (py c) 3 5) $$ Hrec
  iapply (wp_send_z m K c _ (dev16_eq c) 5 fz5 _ rfl _) $$ [HrxL5 Hpz5 HO HtSZ5 HtRZ5]
  · isplitr; · iexact HI2_5
    isplitr; · iexact HIrzp5
    isplitl [HrxL5]; · iexact HrxL5
    isplitl [Hpz5]; · iexact Hpz5
    isplitl [HO]; · iexact HO
    isplitl [HtSZ5]; · iexact HtSZ5
    isplitr; · iexact HRsz5
    isplitl [HtRZ5]; · iexact HtRZ5
    iexact HRrzp5
  iintro ⟨HcSZ5, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 6 arrives from the x-peer; half of it is lent to the forward, the other half stays to be read
  ihave #HI1_6 := (inv_q m K c 1 6) $$ Hrec
  iapply (Rounds.wp_wait_rest_token 𝒱₀ ER (rsRd m) (c : Thread nD τ) none (sm := SemLoc.dma (qS 1 6).sem) (k' := (rxM 6 : Memref sig .tc .vmem S64x512 .bf16).view.dmaCredit) (κ := K (c, some (1, 6)))
      (wpE_waitDma2_eq 𝒱₀ (c : Thread nD τ) none Set.univ) (Set.mem_univ _) () (O := _) (W := _) (R := 0) (m := 0) (T := ∅)
      (by rw [Nat.zero_add, expect_q])) $$ [HcRX6 HO Hat16]
  · isplitr; · iexact HI1_6
    isplitl [HcRX6]; · iexact HcRX6
    isplitl [HO]; · iexact HO
    isplitr; · iapply (mayWait_rx (F := F) c 6); iexact Hlev
    iexact Hat16
  iintro ⟨HO, Hat16, -, Hpay⟩
  ihave Hrx6 := (Entails.of_eq (show _ = ptsM (F := F) (rxM 6) c fullShare (recvXC (slabs m) c) from rest_q m c 1 6)) $$ Hpay
  ihave Hh := (pts_halve (F := F) (rxM 6) c (recvXC (slabs m) c)) $$ Hrx6
  icases Hh with ⟨HrxL6, HrxR6⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_6 := (inv_q m K c 2 6) $$ Hrec
  ihave #HIrzp6 := (inv_q m K (py c) 3 6) $$ Hrec
  ihave #HRsz6 := (reached_q m K c 2 6) $$ Hrec
  ihave #HRrzp6 := (reached_q m K (py c) 3 6) $$ Hrec
  iapply (wp_send_z m K c _ (dev17_eq c) 6 fz6 _ rfl _) $$ [HrxL6 Hpz6 HO HtSZ6 HtRZ6]
  · isplitr; · iexact HI2_6
    isplitr; · iexact HIrzp6
    isplitl [HrxL6]; · iexact HrxL6
    isplitl [Hpz6]; · iexact Hpz6
    isplitl [HO]; · iexact HO
    isplitl [HtSZ6]; · iexact HtSZ6
    isplitr; · iexact HRsz6
    isplitl [HtRZ6]; · iexact HtRZ6
    iexact HRrzp6
  iintro ⟨HcSZ6, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 7 arrives from the x-peer; half of it is lent to the forward, the other half stays to be read
  ihave #HI1_7 := (inv_q m K c 1 7) $$ Hrec
  iapply (Rounds.wp_wait_rest_token 𝒱₀ ER (rsRd m) (c : Thread nD τ) none (sm := SemLoc.dma (qS 1 7).sem) (k' := (rxM 7 : Memref sig .tc .vmem S64x512 .bf16).view.dmaCredit) (κ := K (c, some (1, 7)))
      (wpE_waitDma2_eq 𝒱₀ (c : Thread nD τ) none Set.univ) (Set.mem_univ _) () (O := _) (W := _) (R := 0) (m := 0) (T := ∅)
      (by rw [Nat.zero_add, expect_q])) $$ [HcRX7 HO Hat17]
  · isplitr; · iexact HI1_7
    isplitl [HcRX7]; · iexact HcRX7
    isplitl [HO]; · iexact HO
    isplitr; · iapply (mayWait_rx (F := F) c 7); iexact Hlev
    iexact Hat17
  iintro ⟨HO, Hat17, -, Hpay⟩
  ihave Hrx7 := (Entails.of_eq (show _ = ptsM (F := F) (rxM 7) c fullShare (recvXC (slabs m) c) from rest_q m c 1 7)) $$ Hpay
  ihave Hh := (pts_halve (F := F) (rxM 7) c (recvXC (slabs m) c)) $$ Hrx7
  icases Hh with ⟨HrxL7, HrxR7⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_7 := (inv_q m K c 2 7) $$ Hrec
  ihave #HIrzp7 := (inv_q m K (py c) 3 7) $$ Hrec
  ihave #HRsz7 := (reached_q m K c 2 7) $$ Hrec
  ihave #HRrzp7 := (reached_q m K (py c) 3 7) $$ Hrec
  iapply (wp_send_z m K c _ (dev18_eq c) 7 fz7 _ (zero_add _).symm _) $$ [HrxL7 Hpz7 HO HtSZ7 HtRZ7]
  · isplitr; · iexact HI2_7
    isplitr; · iexact HIrzp7
    isplitl [HrxL7]; · iexact HrxL7
    isplitl [Hpz7]; · iexact Hpz7
    isplitl [HO]; · iexact HO
    isplitl [HtSZ7]; · iexact HtSZ7
    isplitr; · iexact HRsz7
    isplitl [HtRZ7]; · iexact HtRZ7
    iexact HRrzp7
  iintro ⟨HcSZ7, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 0 of the other row half arrives from the y-peer
  ihave #HI3_0 := (inv_q m K c 3 0) $$ Hrec
  iapply (Rounds.wp_wait_rest_token 𝒱₀ ER (rsRd m) (c : Thread nD τ) none (sm := SemLoc.dma (qS 3 0).sem) (k' := (rzM 0 : Memref sig .tc .vmem S64x512 .bf16).view.dmaCredit) (κ := K (c, some (3, 0)))
      (wpE_waitDma2_eq 𝒱₀ (c : Thread nD τ) none Set.univ) (Set.mem_univ _) () (O := _) (W := _) (R := 0) (m := 0) (T := ∅)
      (by rw [Nat.zero_add, expect_q])) $$ [HcRZ0 HO Hat30]
  · isplitr; · iexact HI3_0
    isplitl [HcRZ0]; · iexact HcRZ0
    isplitl [HO]; · iexact HO
    isplitr; · rw [MayWait_zero]; iempintro
    iexact Hat30
  iintro ⟨HO, Hat30, -, Hpay⟩
  ihave Hrz0 := (Entails.of_eq (show _ = ptsM (F := F) (rzM 0) c fullShare (recvZC (slabs m) c) from rest_q m c 3 0)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 1 of the other row half arrives from the y-peer
  ihave #HI3_1 := (inv_q m K c 3 1) $$ Hrec
  iapply (Rounds.wp_wait_rest_token 𝒱₀ ER (rsRd m) (c : Thread nD τ) none (sm := SemLoc.dma (qS 3 1).sem) (k' := (rzM 1 : Memref sig .tc .vmem S64x512 .bf16).view.dmaCredit) (κ := K (c, some (3, 1)))
      (wpE_waitDma2_eq 𝒱₀ (c : Thread nD τ) none Set.univ) (Set.mem_univ _) () (O := _) (W := _) (R := 0) (m := 0) (T := ∅)
      (by rw [Nat.zero_add, expect_q])) $$ [HcRZ1 HO Hat31]
  · isplitr; · iexact HI3_1
    isplitl [HcRZ1]; · iexact HcRZ1
    isplitl [HO]; · iexact HO
    isplitr; · rw [MayWait_zero]; iempintro
    iexact Hat31
  iintro ⟨HO, Hat31, -, Hpay⟩
  ihave Hrz1 := (Entails.of_eq (show _ = ptsM (F := F) (rzM 1) c fullShare (recvZC (slabs m) c) from rest_q m c 3 1)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 2 of the other row half arrives from the y-peer
  ihave #HI3_2 := (inv_q m K c 3 2) $$ Hrec
  iapply (Rounds.wp_wait_rest_token 𝒱₀ ER (rsRd m) (c : Thread nD τ) none (sm := SemLoc.dma (qS 3 2).sem) (k' := (rzM 2 : Memref sig .tc .vmem S64x512 .bf16).view.dmaCredit) (κ := K (c, some (3, 2)))
      (wpE_waitDma2_eq 𝒱₀ (c : Thread nD τ) none Set.univ) (Set.mem_univ _) () (O := _) (W := _) (R := 0) (m := 0) (T := ∅)
      (by rw [Nat.zero_add, expect_q])) $$ [HcRZ2 HO Hat32]
  · isplitr; · iexact HI3_2
    isplitl [HcRZ2]; · iexact HcRZ2
    isplitl [HO]; · iexact HO
    isplitr; · rw [MayWait_zero]; iempintro
    iexact Hat32
  iintro ⟨HO, Hat32, -, Hpay⟩
  ihave Hrz2 := (Entails.of_eq (show _ = ptsM (F := F) (rzM 2) c fullShare (recvZC (slabs m) c) from rest_q m c 3 2)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 3 of the other row half arrives from the y-peer
  ihave #HI3_3 := (inv_q m K c 3 3) $$ Hrec
  iapply (Rounds.wp_wait_rest_token 𝒱₀ ER (rsRd m) (c : Thread nD τ) none (sm := SemLoc.dma (qS 3 3).sem) (k' := (rzM 3 : Memref sig .tc .vmem S64x512 .bf16).view.dmaCredit) (κ := K (c, some (3, 3)))
      (wpE_waitDma2_eq 𝒱₀ (c : Thread nD τ) none Set.univ) (Set.mem_univ _) () (O := _) (W := _) (R := 0) (m := 0) (T := ∅)
      (by rw [Nat.zero_add, expect_q])) $$ [HcRZ3 HO Hat33]
  · isplitr; · iexact HI3_3
    isplitl [HcRZ3]; · iexact HcRZ3
    isplitl [HO]; · iexact HO
    isplitr; · rw [MayWait_zero]; iempintro
    iexact Hat33
  iintro ⟨HO, Hat33, -, Hpay⟩
  ihave Hrz3 := (Entails.of_eq (show _ = ptsM (F := F) (rzM 3) c fullShare (recvZC (slabs m) c) from rest_q m c 3 3)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 4 of the other row half arrives from the y-peer
  ihave #HI3_4 := (inv_q m K c 3 4) $$ Hrec
  iapply (Rounds.wp_wait_rest_token 𝒱₀ ER (rsRd m) (c : Thread nD τ) none (sm := SemLoc.dma (qS 3 4).sem) (k' := (rzM 4 : Memref sig .tc .vmem S64x512 .bf16).view.dmaCredit) (κ := K (c, some (3, 4)))
      (wpE_waitDma2_eq 𝒱₀ (c : Thread nD τ) none Set.univ) (Set.mem_univ _) () (O := _) (W := _) (R := 0) (m := 0) (T := ∅)
      (by rw [Nat.zero_add, expect_q])) $$ [HcRZ4 HO Hat34]
  · isplitr; · iexact HI3_4
    isplitl [HcRZ4]; · iexact HcRZ4
    isplitl [HO]; · iexact HO
    isplitr; · rw [MayWait_zero]; iempintro
    iexact Hat34
  iintro ⟨HO, Hat34, -, Hpay⟩
  ihave Hrz4 := (Entails.of_eq (show _ = ptsM (F := F) (rzM 4) c fullShare (recvZC (slabs m) c) from rest_q m c 3 4)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 5 of the other row half arrives from the y-peer
  ihave #HI3_5 := (inv_q m K c 3 5) $$ Hrec
  iapply (Rounds.wp_wait_rest_token 𝒱₀ ER (rsRd m) (c : Thread nD τ) none (sm := SemLoc.dma (qS 3 5).sem) (k' := (rzM 5 : Memref sig .tc .vmem S64x512 .bf16).view.dmaCredit) (κ := K (c, some (3, 5)))
      (wpE_waitDma2_eq 𝒱₀ (c : Thread nD τ) none Set.univ) (Set.mem_univ _) () (O := _) (W := _) (R := 0) (m := 0) (T := ∅)
      (by rw [Nat.zero_add, expect_q])) $$ [HcRZ5 HO Hat35]
  · isplitr; · iexact HI3_5
    isplitl [HcRZ5]; · iexact HcRZ5
    isplitl [HO]; · iexact HO
    isplitr; · rw [MayWait_zero]; iempintro
    iexact Hat35
  iintro ⟨HO, Hat35, -, Hpay⟩
  ihave Hrz5 := (Entails.of_eq (show _ = ptsM (F := F) (rzM 5) c fullShare (recvZC (slabs m) c) from rest_q m c 3 5)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 6 of the other row half arrives from the y-peer
  ihave #HI3_6 := (inv_q m K c 3 6) $$ Hrec
  iapply (Rounds.wp_wait_rest_token 𝒱₀ ER (rsRd m) (c : Thread nD τ) none (sm := SemLoc.dma (qS 3 6).sem) (k' := (rzM 6 : Memref sig .tc .vmem S64x512 .bf16).view.dmaCredit) (κ := K (c, some (3, 6)))
      (wpE_waitDma2_eq 𝒱₀ (c : Thread nD τ) none Set.univ) (Set.mem_univ _) () (O := _) (W := _) (R := 0) (m := 0) (T := ∅)
      (by rw [Nat.zero_add, expect_q])) $$ [HcRZ6 HO Hat36]
  · isplitr; · iexact HI3_6
    isplitl [HcRZ6]; · iexact HcRZ6
    isplitl [HO]; · iexact HO
    isplitr; · rw [MayWait_zero]; iempintro
    iexact Hat36
  iintro ⟨HO, Hat36, -, Hpay⟩
  ihave Hrz6 := (Entails.of_eq (show _ = ptsM (F := F) (rzM 6) c fullShare (recvZC (slabs m) c) from rest_q m c 3 6)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 7 of the other row half arrives from the y-peer
  ihave #HI3_7 := (inv_q m K c 3 7) $$ Hrec
  iapply (Rounds.wp_wait_rest_token 𝒱₀ ER (rsRd m) (c : Thread nD τ) none (sm := SemLoc.dma (qS 3 7).sem) (k' := (rzM 7 : Memref sig .tc .vmem S64x512 .bf16).view.dmaCredit) (κ := K (c, some (3, 7)))
      (wpE_waitDma2_eq 𝒱₀ (c : Thread nD τ) none Set.univ) (Set.mem_univ _) () (O := _) (W := _) (R := 0) (m := 0) (T := ∅)
      (by rw [Nat.zero_add, expect_q])) $$ [HcRZ7 HO Hat37]
  · isplitr; · iexact HI3_7
    isplitl [HcRZ7]; · iexact HcRZ7
    isplitl [HO]; · iexact HO
    isplitr; · rw [MayWait_zero]; iempintro
    iexact Hat37
  iintro ⟨HO, Hat37, -, Hpay⟩
  ihave Hrz7 := (Entails.of_eq (show _ = ptsM (F := F) (rzM 7) c fullShare (recvZC (slabs m) c) from rest_q m c 3 7)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave HsxD0 := (Entails.of_eq (show _ = ptsM (F := F) (sxM 0) c fullShare (sendXC (slabs m) c) from full_q m c 0 0)) $$ Hat00_pay1
  ihave HrxL0 := (Entails.of_eq (show _ = ptsM (F := F) (rxM 0) c fullShare.left (recvXC (slabs m) c) from full_q m c 2 0)) $$ Hat20_pay1
  ihave Hrx0 := (pts_unhalve (F := F) (rxM 0) c (recvXC (slabs m) c)) $$ [HrxL0 HrxR0]
  · isplitl [HrxL0]; · iexact HrxL0
    iexact HrxR0
  ihave HsxD1 := (Entails.of_eq (show _ = ptsM (F := F) (sxM 1) c fullShare (sendXC (slabs m) c) from full_q m c 0 1)) $$ Hat01_pay1
  ihave HrxL1 := (Entails.of_eq (show _ = ptsM (F := F) (rxM 1) c fullShare.left (recvXC (slabs m) c) from full_q m c 2 1)) $$ Hat21_pay1
  ihave Hrx1 := (pts_unhalve (F := F) (rxM 1) c (recvXC (slabs m) c)) $$ [HrxL1 HrxR1]
  · isplitl [HrxL1]; · iexact HrxL1
    iexact HrxR1
  ihave HsxD2 := (Entails.of_eq (show _ = ptsM (F := F) (sxM 2) c fullShare (sendXC (slabs m) c) from full_q m c 0 2)) $$ Hat02_pay1
  ihave HrxL2 := (Entails.of_eq (show _ = ptsM (F := F) (rxM 2) c fullShare.left (recvXC (slabs m) c) from full_q m c 2 2)) $$ Hat22_pay1
  ihave Hrx2 := (pts_unhalve (F := F) (rxM 2) c (recvXC (slabs m) c)) $$ [HrxL2 HrxR2]
  · isplitl [HrxL2]; · iexact HrxL2
    iexact HrxR2
  ihave HsxD3 := (Entails.of_eq (show _ = ptsM (F := F) (sxM 3) c fullShare (sendXC (slabs m) c) from full_q m c 0 3)) $$ Hat03_pay1
  ihave HrxL3 := (Entails.of_eq (show _ = ptsM (F := F) (rxM 3) c fullShare.left (recvXC (slabs m) c) from full_q m c 2 3)) $$ Hat23_pay1
  ihave Hrx3 := (pts_unhalve (F := F) (rxM 3) c (recvXC (slabs m) c)) $$ [HrxL3 HrxR3]
  · isplitl [HrxL3]; · iexact HrxL3
    iexact HrxR3
  ihave HsxD4 := (Entails.of_eq (show _ = ptsM (F := F) (sxM 4) c fullShare (sendXC (slabs m) c) from full_q m c 0 4)) $$ Hat04_pay1
  ihave HrxL4 := (Entails.of_eq (show _ = ptsM (F := F) (rxM 4) c fullShare.left (recvXC (slabs m) c) from full_q m c 2 4)) $$ Hat24_pay1
  ihave Hrx4 := (pts_unhalve (F := F) (rxM 4) c (recvXC (slabs m) c)) $$ [HrxL4 HrxR4]
  · isplitl [HrxL4]; · iexact HrxL4
    iexact HrxR4
  ihave HsxD5 := (Entails.of_eq (show _ = ptsM (F := F) (sxM 5) c fullShare (sendXC (slabs m) c) from full_q m c 0 5)) $$ Hat05_pay1
  ihave HrxL5 := (Entails.of_eq (show _ = ptsM (F := F) (rxM 5) c fullShare.left (recvXC (slabs m) c) from full_q m c 2 5)) $$ Hat25_pay1
  ihave Hrx5 := (pts_unhalve (F := F) (rxM 5) c (recvXC (slabs m) c)) $$ [HrxL5 HrxR5]
  · isplitl [HrxL5]; · iexact HrxL5
    iexact HrxR5
  ihave HsxD6 := (Entails.of_eq (show _ = ptsM (F := F) (sxM 6) c fullShare (sendXC (slabs m) c) from full_q m c 0 6)) $$ Hat06_pay1
  ihave HrxL6 := (Entails.of_eq (show _ = ptsM (F := F) (rxM 6) c fullShare.left (recvXC (slabs m) c) from full_q m c 2 6)) $$ Hat26_pay1
  ihave Hrx6 := (pts_unhalve (F := F) (rxM 6) c (recvXC (slabs m) c)) $$ [HrxL6 HrxR6]
  · isplitl [HrxL6]; · iexact HrxL6
    iexact HrxR6
  ihave HsxD7 := (Entails.of_eq (show _ = ptsM (F := F) (sxM 7) c fullShare (sendXC (slabs m) c) from full_q m c 0 7)) $$ Hat07_pay1
  ihave HrxL7 := (Entails.of_eq (show _ = ptsM (F := F) (rxM 7) c fullShare.left (recvXC (slabs m) c) from full_q m c 2 7)) $$ Hat27_pay1
  ihave Hrx7 := (pts_unhalve (F := F) (rxM 7) c (recvXC (slabs m) c)) $$ [HrxL7 HrxR7]
  · isplitl [HrxL7]; · iexact HrxL7
    iexact HrxR7
  imod (Rounds.cell_close ER (rsRd m) (Set.mem_univ (K (c, some (0, 0)))) (fun h => h) (R := 0 + 1) (duties_later m (qCell c 0 0))) $$ [Hat00] with Hz00
  · isplitr; · iexact HIsx0
    iexact Hat00
  imod (Rounds.cell_close ER (rsRd m) (Set.mem_univ (K (c, some (0, 1)))) (fun h => h) (R := 0 + 1) (duties_later m (qCell c 0 1))) $$ [Hat01] with Hz01
  · isplitr; · iexact HIsx1
    iexact Hat01
  imod (Rounds.cell_close ER (rsRd m) (Set.mem_univ (K (c, some (0, 2)))) (fun h => h) (R := 0 + 1) (duties_later m (qCell c 0 2))) $$ [Hat02] with Hz02
  · isplitr; · iexact HIsx2
    iexact Hat02
  imod (Rounds.cell_close ER (rsRd m) (Set.mem_univ (K (c, some (0, 3)))) (fun h => h) (R := 0 + 1) (duties_later m (qCell c 0 3))) $$ [Hat03] with Hz03
  · isplitr; · iexact HIsx3
    iexact Hat03
  imod (Rounds.cell_close ER (rsRd m) (Set.mem_univ (K (c, some (0, 4)))) (fun h => h) (R := 0 + 1) (duties_later m (qCell c 0 4))) $$ [Hat04] with Hz04
  · isplitr; · iexact HIsx4
    iexact Hat04
  imod (Rounds.cell_close ER (rsRd m) (Set.mem_univ (K (c, some (0, 5)))) (fun h => h) (R := 0 + 1) (duties_later m (qCell c 0 5))) $$ [Hat05] with Hz05
  · isplitr; · iexact HIsx5
    iexact Hat05
  imod (Rounds.cell_close ER (rsRd m) (Set.mem_univ (K (c, some (0, 6)))) (fun h => h) (R := 0 + 1) (duties_later m (qCell c 0 6))) $$ [Hat06] with Hz06
  · isplitr; · iexact HIsx6
    iexact Hat06
  imod (Rounds.cell_close ER (rsRd m) (Set.mem_univ (K (c, some (0, 7)))) (fun h => h) (R := 0 + 1) (duties_later m (qCell c 0 7))) $$ [Hat07] with Hz07
  · isplitr; · iexact HIsx7
    iexact Hat07
  imod (Rounds.cell_close ER (rsRd m) (Set.mem_univ (K (c, some (1, 0)))) (fun h => h) (R := 0 + 1) (duties_later m (qCell c 1 0))) $$ [Hat10] with Hz10
  · isplitr; · iexact HI1_0
    iexact Hat10
  imod (Rounds.cell_close ER (rsRd m) (Set.mem_univ (K (c, some (1, 1)))) (fun h => h) (R := 0 + 1) (duties_later m (qCell c 1 1))) $$ [Hat11] with Hz11
  · isplitr; · iexact HI1_1
    iexact Hat11
  imod (Rounds.cell_close ER (rsRd m) (Set.mem_univ (K (c, some (1, 2)))) (fun h => h) (R := 0 + 1) (duties_later m (qCell c 1 2))) $$ [Hat12] with Hz12
  · isplitr; · iexact HI1_2
    iexact Hat12
  imod (Rounds.cell_close ER (rsRd m) (Set.mem_univ (K (c, some (1, 3)))) (fun h => h) (R := 0 + 1) (duties_later m (qCell c 1 3))) $$ [Hat13] with Hz13
  · isplitr; · iexact HI1_3
    iexact Hat13
  imod (Rounds.cell_close ER (rsRd m) (Set.mem_univ (K (c, some (1, 4)))) (fun h => h) (R := 0 + 1) (duties_later m (qCell c 1 4))) $$ [Hat14] with Hz14
  · isplitr; · iexact HI1_4
    iexact Hat14
  imod (Rounds.cell_close ER (rsRd m) (Set.mem_univ (K (c, some (1, 5)))) (fun h => h) (R := 0 + 1) (duties_later m (qCell c 1 5))) $$ [Hat15] with Hz15
  · isplitr; · iexact HI1_5
    iexact Hat15
  imod (Rounds.cell_close ER (rsRd m) (Set.mem_univ (K (c, some (1, 6)))) (fun h => h) (R := 0 + 1) (duties_later m (qCell c 1 6))) $$ [Hat16] with Hz16
  · isplitr; · iexact HI1_6
    iexact Hat16
  imod (Rounds.cell_close ER (rsRd m) (Set.mem_univ (K (c, some (1, 7)))) (fun h => h) (R := 0 + 1) (duties_later m (qCell c 1 7))) $$ [Hat17] with Hz17
  · isplitr; · iexact HI1_7
    iexact Hat17
  imod (Rounds.cell_close ER (rsRd m) (Set.mem_univ (K (c, some (2, 0)))) (fun h => h) (R := 0 + 1) (duties_later m (qCell c 2 0))) $$ [Hat20] with Hz20
  · isplitr; · iexact HI2_0
    iexact Hat20
  imod (Rounds.cell_close ER (rsRd m) (Set.mem_univ (K (c, some (2, 1)))) (fun h => h) (R := 0 + 1) (duties_later m (qCell c 2 1))) $$ [Hat21] with Hz21
  · isplitr; · iexact HI2_1
    iexact Hat21
  imod (Rounds.cell_close ER (rsRd m) (Set.mem_univ (K (c, some (2, 2)))) (fun h => h) (R := 0 + 1) (duties_later m (qCell c 2 2))) $$ [Hat22] with Hz22
  · isplitr; · iexact HI2_2
    iexact Hat22
  imod (Rounds.cell_close ER (rsRd m) (Set.mem_univ (K (c, some (2, 3)))) (fun h => h) (R := 0 + 1) (duties_later m (qCell c 2 3))) $$ [Hat23] with Hz23
  · isplitr; · iexact HI2_3
    iexact Hat23
  imod (Rounds.cell_close ER (rsRd m) (Set.mem_univ (K (c, some (2, 4)))) (fun h => h) (R := 0 + 1) (duties_later m (qCell c 2 4))) $$ [Hat24] with Hz24
  · isplitr; · iexact HI2_4
    iexact Hat24
  imod (Rounds.cell_close ER (rsRd m) (Set.mem_univ (K (c, some (2, 5)))) (fun h => h) (R := 0 + 1) (duties_later m (qCell c 2 5))) $$ [Hat25] with Hz25
  · isplitr; · iexact HI2_5
    iexact Hat25
  imod (Rounds.cell_close ER (rsRd m) (Set.mem_univ (K (c, some (2, 6)))) (fun h => h) (R := 0 + 1) (duties_later m (qCell c 2 6))) $$ [Hat26] with Hz26
  · isplitr; · iexact HI2_6
    iexact Hat26
  imod (Rounds.cell_close ER (rsRd m) (Set.mem_univ (K (c, some (2, 7)))) (fun h => h) (R := 0 + 1) (duties_later m (qCell c 2 7))) $$ [Hat27] with Hz27
  · isplitr; · iexact HI2_7
    iexact Hat27
  imod (Rounds.cell_close ER (rsRd m) (Set.mem_univ (K (c, some (3, 0)))) (fun h => h) (R := 0 + 1) (duties_later m (qCell c 3 0))) $$ [Hat30] with Hz30
  · isplitr; · iexact HI3_0
    iexact Hat30
  imod (Rounds.cell_close ER (rsRd m) (Set.mem_univ (K (c, some (3, 1)))) (fun h => h) (R := 0 + 1) (duties_later m (qCell c 3 1))) $$ [Hat31] with Hz31
  · isplitr; · iexact HI3_1
    iexact Hat31
  imod (Rounds.cell_close ER (rsRd m) (Set.mem_univ (K (c, some (3, 2)))) (fun h => h) (R := 0 + 1) (duties_later m (qCell c 3 2))) $$ [Hat32] with Hz32
  · isplitr; · iexact HI3_2
    iexact Hat32
  imod (Rounds.cell_close ER (rsRd m) (Set.mem_univ (K (c, some (3, 3)))) (fun h => h) (R := 0 + 1) (duties_later m (qCell c 3 3))) $$ [Hat33] with Hz33
  · isplitr; · iexact HI3_3
    iexact Hat33
  imod (Rounds.cell_close ER (rsRd m) (Set.mem_univ (K (c, some (3, 4)))) (fun h => h) (R := 0 + 1) (duties_later m (qCell c 3 4))) $$ [Hat34] with Hz34
  · isplitr; · iexact HI3_4
    iexact Hat34
  imod (Rounds.cell_close ER (rsRd m) (Set.mem_univ (K (c, some (3, 5)))) (fun h => h) (R := 0 + 1) (duties_later m (qCell c 3 5))) $$ [Hat35] with Hz35
  · isplitr; · iexact HI3_5
    iexact Hat35
  imod (Rounds.cell_close ER (rsRd m) (Set.mem_univ (K (c, some (3, 6)))) (fun h => h) (R := 0 + 1) (duties_later m (qCell c 3 6))) $$ [Hat36] with Hz36
  · isplitr; · iexact HI3_6
    iexact Hat36
  imod (Rounds.cell_close ER (rsRd m) (Set.mem_univ (K (c, some (3, 7)))) (fun h => h) (R := 0 + 1) (duties_later m (qCell c 3 7))) $$ [Hat37] with Hz37
  · isplitr; · iexact HI3_7
    iexact Hat37
  rw [wp_ret]; imodintro
  iapply Hk
  unfold bodyPost Φ₁ slabPts scratch locals0 Dat.owesAt Pipeline.owesWithin
  rw [show (dats m 0 c).owed t₀.succ = 0 from rfl]
  isplitl [Hslr Hsl0 Hsl1 Hsl2 Hsl3 Hsl4 Hsl5 Hsl6 Hsl7 Hsl8 Hsl9 Hb0 Hb1 HsxD0 HsxD1 HsxD2 HsxD3 HsxD4 HsxD5 HsxD6 HsxD7 Hrx0 Hrx1 Hrx2 Hrx3 Hrx4 Hrx5 Hrx6 Hrx7 Hrz0 Hrz1 Hrz2 Hrz3 Hrz4 Hrz5 Hrz6 Hrz7 Hf0 Hf1 Hf2 Hf3 Hf4 Hf5 Hf6 Hf7 Hos Hz00 Hz01 Hz02 Hz03 Hz04 Hz05 Hz06 Hz07 Hz10 Hz11 Hz12 Hz13 Hz14 Hz15 Hz16 Hz17 Hz20 Hz21 Hz22 Hz23 Hz24 Hz25 Hz26 Hz27 Hz30 Hz31 Hz32 Hz33 Hz34 Hz35 Hz36 Hz37]
  · -- the slab whole again, out of its read shares
    isplitl [Hslr Hsl0 Hsl1 Hsl2 Hsl3 Hsl4 Hsl5 Hsl6 Hsl7 Hsl8 Hsl9]
    · iapply (Entails.of_eq (whole_pts (F := F) c main_arg0 fullShare (m ((c : Thread nD τ).loc main_arg0))).symm)
      iapply (slab_untoks m c)
      isplitl [Hslr]; · iexact Hslr
      isplitl [Hsl0]; · iexact Hsl0
      isplitl [Hsl1]; · iexact Hsl1
      isplitl [Hsl2]; · iexact Hsl2
      isplitl [Hsl3]; · iexact Hsl3
      isplitl [Hsl4]; · iexact Hsl4
      isplitl [Hsl5]; · iexact Hsl5
      isplitl [Hsl6]; · iexact Hsl6
      isplitl [Hsl7]; · iexact Hsl7
      isplitl [Hsl8]; · iexact Hsl8
      iexact Hsl9
    -- the five scratch buffers, each whole at some contents
    isplitl [Hb0 Hb1 HsxD0 HsxD1 HsxD2 HsxD3 HsxD4 HsxD5 HsxD6 HsxD7 Hrx0 Hrx1 Hrx2 Hrx3 Hrx4 Hrx5 Hrx6 Hrx7 Hrz0 Hrz1 Hrz2 Hrz3 Hrz4 Hrz5 Hrz6 Hrz7]
    · isplitl [Hb0]
      · iexists _; iapply (Entails.of_eq (whole_pts (F := F) c cc0_scratch0 fullShare _).symm); iexact Hb0
      isplitl [Hb1]
      · iexists _; iapply (Entails.of_eq (whole_pts (F := F) c cc0_scratch1 fullShare _).symm); iexact Hb1
      isplitl [HsxD0 HsxD1 HsxD2 HsxD3 HsxD4 HsxD5 HsxD6 HsxD7]
      · iexists (sendXC (slabs m) c); iapply (sx_join8 (F := F) c _)
        isplitl [HsxD0]; · iexact HsxD0
        isplitl [HsxD1]; · iexact HsxD1
        isplitl [HsxD2]; · iexact HsxD2
        isplitl [HsxD3]; · iexact HsxD3
        isplitl [HsxD4]; · iexact HsxD4
        isplitl [HsxD5]; · iexact HsxD5
        isplitl [HsxD6]; · iexact HsxD6
        iexact HsxD7
      isplitl [Hrx0 Hrx1 Hrx2 Hrx3 Hrx4 Hrx5 Hrx6 Hrx7]
      · iexists (recvXC (slabs m) c); iapply (rx_join8 (F := F) c _)
        isplitl [Hrx0]; · iexact Hrx0
        isplitl [Hrx1]; · iexact Hrx1
        isplitl [Hrx2]; · iexact Hrx2
        isplitl [Hrx3]; · iexact Hrx3
        isplitl [Hrx4]; · iexact Hrx4
        isplitl [Hrx5]; · iexact Hrx5
        isplitl [Hrx6]; · iexact Hrx6
        iexact Hrx7
      iexists (recvZC (slabs m) c); iapply (rz_join8 (F := F) c _)
      isplitl [Hrz0]; · iexact Hrz0
      isplitl [Hrz1]; · iexact Hrz1
      isplitl [Hrz2]; · iexact Hrz2
      isplitl [Hrz3]; · iexact Hrz3
      isplitl [Hrz4]; · iexact Hrz4
      isplitl [Hrz5]; · iexact Hrz5
      isplitl [Hrz6]; · iexact Hrz6
      iexact Hrz7
    -- the nine local counters at zero
    isplitl [Hf0 Hf1 Hf2 Hf3 Hf4 Hf5 Hf6 Hf7 Hos]
    · isplitl [Hf0 Hf1 Hf2 Hf3 Hf4 Hf5 Hf6 Hf7]
      · iapply (Entails.of_eq (bigSep_fin8 (fun k : Fin 8 => (semVal (fCell c k) 0 : sProp 𝕄))).symm)
        isplitl [Hf0]; · iexact Hf0
        isplitl [Hf1]; · iexact Hf1
        isplitl [Hf2]; · iexact Hf2
        isplitl [Hf3]; · iexact Hf3
        isplitl [Hf4]; · iexact Hf4
        isplitl [Hf5]; · iexact Hf5
        isplitl [Hf6]; · iexact Hf6
        iexact Hf7
      iexact Hos
    -- and the thirty-two cells', closed
    iapply (Entails.of_eq (bigSep_fin4x8 (fun fk : Fin 4 × Fin 8 => (semVal (qCell c fk.1 fk.2) 0 : sProp 𝕄))).symm)
    isplitl [Hz00 Hz01 Hz02 Hz03 Hz04 Hz05 Hz06 Hz07]
    · isplitl [Hz00]; · iexact Hz00
      isplitl [Hz01]; · iexact Hz01
      isplitl [Hz02]; · iexact Hz02
      isplitl [Hz03]; · iexact Hz03
      isplitl [Hz04]; · iexact Hz04
      isplitl [Hz05]; · iexact Hz05
      isplitl [Hz06]; · iexact Hz06
      iexact Hz07
    isplitl [Hz10 Hz11 Hz12 Hz13 Hz14 Hz15 Hz16 Hz17]
    · isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      iexact Hz17
    isplitl [Hz20 Hz21 Hz22 Hz23 Hz24 Hz25 Hz26 Hz27]
    · isplitl [Hz20]; · iexact Hz20
      isplitl [Hz21]; · iexact Hz21
      isplitl [Hz22]; · iexact Hz22
      isplitl [Hz23]; · iexact Hz23
      isplitl [Hz24]; · iexact Hz24
      isplitl [Hz25]; · iexact Hz25
      isplitl [Hz26]; · iexact Hz26
      iexact Hz27
    isplitl [Hz30]; · iexact Hz30
    isplitl [Hz31]; · iexact Hz31
    isplitl [Hz32]; · iexact Hz32
    isplitl [Hz33]; · iexact Hz33
    isplitl [Hz34]; · iexact Hz34
    isplitl [Hz35]; · iexact Hz35
    isplitl [Hz36]; · iexact Hz36
    iexact Hz37
  isplitl [HO]
  · iexists _; isplitr
    swap; · iexact HO
    ipureintro; exact fun _ _ => Or.inl trivial
  iexists _; isplitr
  swap; · iapply (Entails.of_eq (whole_pts (F := F) c cc0_stg0_0 fullShare _).symm); iexact Hout
  ipureintro
  -- the sixteen row blocks written: the own half from the fetched chunks and the x-peer's, the other half from the direct fetch and the y-peer's
  have er1 : sound_body.sl.r_1 m c b0 = k0_pay14 (sound_body.sl.v480 m c b0) (View.readAt (Elt F) (Memref.whole cc0_scratch3).view (Rect.unit (s := S8x64x512) ![4, 0, 0] S1x64x512.size inb_S8x64x512_S1x64x512_4_0_0).toLoadRect (recvXC (slabs m) c)) := rfl
  have er2 : sound_body.sl.r_2 m c = k0_pay19 (sound_body.sl.v636 m c) (View.readAt (Elt F) (Memref.whole cc0_scratch4).view (Rect.unit (s := S8x64x512) ![1, 0, 0] S1x64x512.size inb_S8x64x512_S1x64x512_1_0_0).toLoadRect (recvZC (slabs m) c)) := rfl
  rw [er1, er2]
  have hf0 : ∀ y, sound_body.sl.v332 m c b0 y = slabAt (slabs m c) (512 * cy c + 64 * 0 + (y 1).val) (512 * cx c + (y 2).val) :=
    fun y => (congrFun (congrArg (View.readAt (Elt F) (Memref.whole cc0_scratch0).view _) (fbAll_eq (F := F) (slabs m) c b0)) y).trans (ldO_0 (F := F) (slabs m) c y)
  have hf1 : ∀ y, sound_body.sl.v369 m c b0 y = slabAt (slabs m c) (512 * cy c + 64 * 1 + (y 1).val) (512 * cx c + (y 2).val) :=
    fun y => (congrFun (congrArg (View.readAt (Elt F) (Memref.whole cc0_scratch0).view _) (fbAll_eq (F := F) (slabs m) c b0)) y).trans (ldO_1 (F := F) (slabs m) c y)
  have hf2 : ∀ y, sound_body.sl.v406 m c b0 y = slabAt (slabs m c) (512 * cy c + 64 * 2 + (y 1).val) (512 * cx c + (y 2).val) :=
    fun y => (congrFun (congrArg (View.readAt (Elt F) (Memref.whole cc0_scratch0).view _) (fbAll_eq (F := F) (slabs m) c b0)) y).trans (ldO_2 (F := F) (slabs m) c y)
  have hf3 : ∀ y, sound_body.sl.v443 m c b0 y = slabAt (slabs m c) (512 * cy c + 64 * 3 + (y 1).val) (512 * cx c + (y 2).val) :=
    fun y => (congrFun (congrArg (View.readAt (Elt F) (Memref.whole cc0_scratch0).view _) (fbAll_eq (F := F) (slabs m) c b0)) y).trans (ldO_3 (F := F) (slabs m) c y)
  have hf4 : ∀ y, sound_body.sl.v480 m c b0 y = slabAt (slabs m c) (512 * cy c + 64 * 4 + (y 1).val) (512 * cx c + (y 2).val) :=
    fun y => (congrFun (congrArg (View.readAt (Elt F) (Memref.whole cc0_scratch0).view _) (fbAll_eq (F := F) (slabs m) c b0)) y).trans (ldO_4 (F := F) (slabs m) c y)
  have hf5 : ∀ y, sound_body.sl.v517 m c b0 y = slabAt (slabs m c) (512 * cy c + 64 * 5 + (y 1).val) (512 * cx c + (y 2).val) :=
    fun y => (congrFun (congrArg (View.readAt (Elt F) (Memref.whole cc0_scratch0).view _) (fbAll_eq (F := F) (slabs m) c b0)) y).trans (ldO_5 (F := F) (slabs m) c y)
  have hf6 : ∀ y, sound_body.sl.v554 m c b0 y = slabAt (slabs m c) (512 * cy c + 64 * 6 + (y 1).val) (512 * cx c + (y 2).val) :=
    fun y => (congrFun (congrArg (View.readAt (Elt F) (Memref.whole cc0_scratch0).view _) (fbAll_eq (F := F) (slabs m) c b0)) y).trans (ldO_6 (F := F) (slabs m) c y)
  have hf7 : ∀ y, sound_body.sl.v591 m c b0 y = slabAt (slabs m c) (512 * cy c + 64 * 7 + (y 1).val) (512 * cx c + (y 2).val) :=
    fun y => (congrFun (congrArg (View.readAt (Elt F) (Memref.whole cc0_scratch0).view _) (fbAll_eq (F := F) (slabs m) c b0)) y).trans (ldO_7 (F := F) (slabs m) c y)
  have ho0 : ∀ y, sound_body.sl.v615 m c y = slabAt (slabs m c) (512 * (1 - cy c) + 64 * 0 + (y 0).val) (512 * cx c + (y 1).val) :=
    fun y => oh_cov_0 (F := F) (slabs m) c y
  have ho1 : ∀ y, sound_body.sl.v636 m c y = slabAt (slabs m c) (512 * (1 - cy c) + 64 * 1 + (y 0).val) (512 * cx c + (y 1).val) :=
    fun y => oh_cov_1 (F := F) (slabs m) c y
  have ho2 : ∀ y, sound_body.sl.v657 m c y = slabAt (slabs m c) (512 * (1 - cy c) + 64 * 2 + (y 0).val) (512 * cx c + (y 1).val) :=
    fun y => oh_cov_2 (F := F) (slabs m) c y
  have ho3 : ∀ y, sound_body.sl.v678 m c y = slabAt (slabs m c) (512 * (1 - cy c) + 64 * 3 + (y 0).val) (512 * cx c + (y 1).val) :=
    fun y => oh_cov_3 (F := F) (slabs m) c y
  have ho4 : ∀ y, sound_body.sl.v699 m c y = slabAt (slabs m c) (512 * (1 - cy c) + 64 * 4 + (y 0).val) (512 * cx c + (y 1).val) :=
    fun y => oh_cov_4 (F := F) (slabs m) c y
  have ho5 : ∀ y, sound_body.sl.v720 m c y = slabAt (slabs m c) (512 * (1 - cy c) + 64 * 5 + (y 0).val) (512 * cx c + (y 1).val) :=
    fun y => oh_cov_5 (F := F) (slabs m) c y
  have ho6 : ∀ y, sound_body.sl.v741 m c y = slabAt (slabs m c) (512 * (1 - cy c) + 64 * 6 + (y 0).val) (512 * cx c + (y 1).val) :=
    fun y => oh_cov_6 (F := F) (slabs m) c y
  have ho7 : ∀ y, sound_body.sl.v762 m c y = slabAt (slabs m c) (512 * (1 - cy c) + 64 * 7 + (y 0).val) (512 * cx c + (y 1).val) :=
    fun y => oh_cov_7 (F := F) (slabs m) c y
  rw [out_final32 (F := F) (slabs m) c g0
    (sound_body.sl.v332 m c b0)
    (sound_body.sl.v369 m c b0)
    (sound_body.sl.v406 m c b0)
    (sound_body.sl.v443 m c b0)
    (sound_body.sl.v480 m c b0)
    (sound_body.sl.v517 m c b0)
    (sound_body.sl.v554 m c b0)
    (sound_body.sl.v591 m c b0)
    (View.readAt (Elt F) (Memref.whole cc0_scratch3).view (Rect.unit (s := S8x64x512) ![0, 0, 0] S1x64x512.size inb_S8x64x512_S1x64x512_0_0_0).toLoadRect (recvXC (slabs m) c))
    (View.readAt (Elt F) (Memref.whole cc0_scratch3).view (Rect.unit (s := S8x64x512) ![1, 0, 0] S1x64x512.size inb_S8x64x512_S1x64x512_1_0_0).toLoadRect (recvXC (slabs m) c))
    (View.readAt (Elt F) (Memref.whole cc0_scratch3).view (Rect.unit (s := S8x64x512) ![2, 0, 0] S1x64x512.size inb_S8x64x512_S1x64x512_2_0_0).toLoadRect (recvXC (slabs m) c))
    (View.readAt (Elt F) (Memref.whole cc0_scratch3).view (Rect.unit (s := S8x64x512) ![3, 0, 0] S1x64x512.size inb_S8x64x512_S1x64x512_3_0_0).toLoadRect (recvXC (slabs m) c))
    (View.readAt (Elt F) (Memref.whole cc0_scratch3).view (Rect.unit (s := S8x64x512) ![4, 0, 0] S1x64x512.size inb_S8x64x512_S1x64x512_4_0_0).toLoadRect (recvXC (slabs m) c))
    (View.readAt (Elt F) (Memref.whole cc0_scratch3).view (Rect.unit (s := S8x64x512) ![5, 0, 0] S1x64x512.size inb_S8x64x512_S1x64x512_5_0_0).toLoadRect (recvXC (slabs m) c))
    (View.readAt (Elt F) (Memref.whole cc0_scratch3).view (Rect.unit (s := S8x64x512) ![6, 0, 0] S1x64x512.size inb_S8x64x512_S1x64x512_6_0_0).toLoadRect (recvXC (slabs m) c))
    (View.readAt (Elt F) (Memref.whole cc0_scratch3).view (Rect.unit (s := S8x64x512) ![7, 0, 0] S1x64x512.size inb_S8x64x512_S1x64x512_7_0_0).toLoadRect (recvXC (slabs m) c))
    (sound_body.sl.v615 m c)
    (sound_body.sl.v636 m c)
    (sound_body.sl.v657 m c)
    (sound_body.sl.v678 m c)
    (sound_body.sl.v699 m c)
    (sound_body.sl.v720 m c)
    (sound_body.sl.v741 m c)
    (sound_body.sl.v762 m c)
    (View.readAt (Elt F) (Memref.whole cc0_scratch4).view (Rect.unit (s := S8x64x512) ![0, 0, 0] S1x64x512.size inb_S8x64x512_S1x64x512_0_0_0).toLoadRect (recvZC (slabs m) c))
    (View.readAt (Elt F) (Memref.whole cc0_scratch4).view (Rect.unit (s := S8x64x512) ![1, 0, 0] S1x64x512.size inb_S8x64x512_S1x64x512_1_0_0).toLoadRect (recvZC (slabs m) c))
    (View.readAt (Elt F) (Memref.whole cc0_scratch4).view (Rect.unit (s := S8x64x512) ![2, 0, 0] S1x64x512.size inb_S8x64x512_S1x64x512_2_0_0).toLoadRect (recvZC (slabs m) c))
    (View.readAt (Elt F) (Memref.whole cc0_scratch4).view (Rect.unit (s := S8x64x512) ![3, 0, 0] S1x64x512.size inb_S8x64x512_S1x64x512_3_0_0).toLoadRect (recvZC (slabs m) c))
    (View.readAt (Elt F) (Memref.whole cc0_scratch4).view (Rect.unit (s := S8x64x512) ![4, 0, 0] S1x64x512.size inb_S8x64x512_S1x64x512_4_0_0).toLoadRect (recvZC (slabs m) c))
    (View.readAt (Elt F) (Memref.whole cc0_scratch4).view (Rect.unit (s := S8x64x512) ![5, 0, 0] S1x64x512.size inb_S8x64x512_S1x64x512_5_0_0).toLoadRect (recvZC (slabs m) c))
    (View.readAt (Elt F) (Memref.whole cc0_scratch4).view (Rect.unit (s := S8x64x512) ![6, 0, 0] S1x64x512.size inb_S8x64x512_S1x64x512_6_0_0).toLoadRect (recvZC (slabs m) c))
    (View.readAt (Elt F) (Memref.whole cc0_scratch4).view (Rect.unit (s := S8x64x512) ![7, 0, 0] S1x64x512.size inb_S8x64x512_S1x64x512_7_0_0).toLoadRect (recvZC (slabs m) c))
    hf0 hf1 hf2 hf3 hf4 hf5 hf6 hf7
    (fun y => rx_ld_0 (F := F) (recvXC (slabs m) c) y)
    (fun y => rx_ld_1 (F := F) (recvXC (slabs m) c) y)
    (fun y => rx_ld_2 (F := F) (recvXC (slabs m) c) y)
    (fun y => rx_ld_3 (F := F) (recvXC (slabs m) c) y)
    (fun y => rx_ld_4 (F := F) (recvXC (slabs m) c) y)
    (fun y => rx_ld_5 (F := F) (recvXC (slabs m) c) y)
    (fun y => rx_ld_6 (F := F) (recvXC (slabs m) c) y)
    (fun y => rx_ld_7 (F := F) (recvXC (slabs m) c) y)
    ho0 ho1 ho2 ho3 ho4 ho5 ho6 ho7
    (fun y => rz_ld_0 (F := F) (recvZC (slabs m) c) y)
    (fun y => rz_ld_1 (F := F) (recvZC (slabs m) c) y)
    (fun y => rz_ld_2 (F := F) (recvZC (slabs m) c) y)
    (fun y => rz_ld_3 (F := F) (recvZC (slabs m) c) y)
    (fun y => rz_ld_4 (F := F) (recvZC (slabs m) c) y)
    (fun y => rz_ld_5 (F := F) (recvZC (slabs m) c) y)
    (fun y => rz_ld_6 (F := F) (recvZC (slabs m) c) y)
    (fun y => rz_ld_7 (F := F) (recvZC (slabs m) c) y)]

def bodyPre' (c : Dev nD) : sProp 𝕄 :=
  iprop(Φ₀ m c ∗ (dats m 0 c).owesAt () t₀.castSucc
    ∗ (∃ d, stg c cc0_stg0_0 ((dats m 0 c).before (0 : Fin 1) t₀ d)))

set_option maxRecDepth 65536 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ (bodyAt0 (F := F) t₀) (fun _ => bodyPost m c)
  unfold bodyPre' Φ₀ start
  iintro ⟨⟨⟨⟨%K, Hg⟩, Hcr, Hlev, Hsl, Hloc⟩, Hscr⟩, Ho, Hout⟩
  iapply (sound_body m K c fun _ => bodyPost m c)
  unfold bodyPre
  isplitr []
  · isplitl [Hg Hcr Hlev Hsl Hloc Hscr]
    · isplitl [Hg]; · iexact Hg
      isplitl [Hcr]; · iexact Hcr
      isplitl [Hlev]; · iexact Hlev
      isplitl [Hsl]; · iexact Hsl
      isplitl [Hloc]; · iexact Hloc
      iexact Hscr
    isplitl [Ho]; · iexact Ho
    iexact Hout
  · iintro H; iexact H

/-- info: 'Cert.KernelIdeal.RS.body_obligation' depends on axioms: [propext, Classical.choice, Quot.sound] -/
#guard_msgs in #print axioms body_obligation

end Cert.KernelIdeal.RS

end
-- ==== Proof.RSRun.lean ====
/-
  The kernel's run on the whole mesh: every fair interleaving of the eight devices' threads ends, nothing faults,
  each device's result buffer holds its column half of the sum of the two slabs, and the inputs are untouched.
-/
import proofs.«901020_g7700000000001021_dist_rs_v7x_xyz2x2x2_x_m1024_n512_bf16_1_alg».proof.Proof.RSFund
import proofs.«901020_g7700000000001021_dist_rs_v7x_xyz2x2x2_x_m1024_n512_bf16_1_alg».proof.Proof.RSBody

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch credit -/

/-- Eight conjuncts, one by one. -/
theorem bigSep_fin8R (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The last summand of what the devices owe, every device owing it to the same semaphore of its peer under an
    involution of the mesh, is dealt to the peer's peer: the device itself. -/
theorem launchCred_snoc (A : Dev nD → CellTallies nD τ sig Unit) (sm : SemLoc sig) (f : Dev nD → Dev nD)
    (hf : ∀ d, f (f d) = d) (n : ℕ) (c : Dev nD) :
    (Pipeline.launchCred (fun d => A d + tallyAt (((f d : Dev nD) : Thread nD τ), sm) () n) c : sProp 𝕄)
      ⊢ iprop(Pipeline.launchCred A c ∗ cred (tallyAt ((c : Thread nD τ), sm) () n)) := by
  rw [Pipeline.launchCred_add]
  exact sep_mono_right (Pipeline.launchCred_tallyAt sm f f hf hf () n c)

/-- What the launch deals device `c` against what all devices owe: two units on its barrier cell (one from each
    peer), a chunk's credit on each of its x-receive cells (from the x-peer) and y-receive cells (from the y-peer). -/
theorem creds_intro (c : Dev nD) : (Pipeline.launchCred O₀ c : sProp 𝕄) ⊢ creds c := by
  unfold creds O₀
  rw [bigSep_fin8R, bigSep_fin8R, ← tallyAt_add (barCell c) () 1 1]
  iintro H
  ihave H := (launchCred_snoc _ (.reg barS) px px_px 1 c) $$ H
  icases H with ⟨H, Hbx⟩
  ihave H := (launchCred_snoc _ (.reg barS) py py_py 1 c) $$ H
  icases H with ⟨H, Hby⟩
  ihave H := (launchCred_snoc _ (.dma (qS 1 0).sem) px px_px N c) $$ H
  icases H with ⟨H, Hx0⟩
  ihave H := (launchCred_snoc _ (.dma (qS 1 1).sem) px px_px N c) $$ H
  icases H with ⟨H, Hx1⟩
  ihave H := (launchCred_snoc _ (.dma (qS 1 2).sem) px px_px N c) $$ H
  icases H with ⟨H, Hx2⟩
  ihave H := (launchCred_snoc _ (.dma (qS 1 3).sem) px px_px N c) $$ H
  icases H with ⟨H, Hx3⟩
  ihave H := (launchCred_snoc _ (.dma (qS 1 4).sem) px px_px N c) $$ H
  icases H with ⟨H, Hx4⟩
  ihave H := (launchCred_snoc _ (.dma (qS 1 5).sem) px px_px N c) $$ H
  icases H with ⟨H, Hx5⟩
  ihave H := (launchCred_snoc _ (.dma (qS 1 6).sem) px px_px N c) $$ H
  icases H with ⟨H, Hx6⟩
  ihave H := (launchCred_snoc _ (.dma (qS 1 7).sem) px px_px N c) $$ H
  icases H with ⟨H, Hx7⟩
  ihave H := (launchCred_snoc _ (.dma (qS 3 0).sem) py py_py N c) $$ H
  icases H with ⟨H, Hy0⟩
  ihave H := (launchCred_snoc _ (.dma (qS 3 1).sem) py py_py N c) $$ H
  icases H with ⟨H, Hy1⟩
  ihave H := (launchCred_snoc _ (.dma (qS 3 2).sem) py py_py N c) $$ H
  icases H with ⟨H, Hy2⟩
  ihave H := (launchCred_snoc _ (.dma (qS 3 3).sem) py py_py N c) $$ H
  icases H with ⟨H, Hy3⟩
  ihave H := (launchCred_snoc _ (.dma (qS 3 4).sem) py py_py N c) $$ H
  icases H with ⟨H, Hy4⟩
  ihave H := (launchCred_snoc _ (.dma (qS 3 5).sem) py py_py N c) $$ H
  icases H with ⟨H, Hy5⟩
  ihave H := (launchCred_snoc _ (.dma (qS 3 6).sem) py py_py N c) $$ H
  icases H with ⟨H, Hy6⟩
  ihave Hy7 := (Pipeline.launchCred_tallyAt (.dma (qS 3 7).sem) py py py_py py_py () N c) $$ H
  isplitl [Hbx Hby]
  · iapply (cred_add _ _).2
    isplitl [Hbx] <;> iassumption
  isplitl [Hx0 Hx1 Hx2 Hx3 Hx4 Hx5 Hx6 Hx7]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  · isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    iexact Hy7

/-! ## The theorem's side conditions -/

theorem share_eq (m : (ℓ : Loc nD τ sig) → Buf (Elt F) ℓ) (c : Dev nD) (w : Fin cfg0.W) : (dats m 0 c).share w = fullShare := by
  unfold Dat.share; split <;> rfl

/-- Tallies all of which sit on TensorCore cells at level one or above. -/
def Above (O : CellTallies nD τ sig Unit) : Prop :=
  ∀ (g : GSem nD τ sig) (u : Unit), 0 < O g u → g.1.2 = .tc ∧ 0 < lv g u

theorem Above.add {A B : CellTallies nD τ sig Unit} (hA : Above A) (hB : Above B) : Above (A + B) := fun g u h =>
  (Pipeline.add_pos_cases h).elim (hA g u) (hB g u)

theorem Above.single (g₀ : GSem nD τ sig) (n : ℕ) (h1 : g₀.1.2 = .tc) (h2 : 0 < lv g₀ ()) : Above (tallyAt g₀ () n) := fun g u h => by
  rw [tallyAt_apply] at h
  by_cases hg : g = g₀ ∧ u = ()
  · rw [hg.1]; exact ⟨h1, h2⟩
  · rw [if_neg hg] at h; exact absurd h (Nat.lt_irrefl 0)

/-- What a device owes at launch: barrier cells (level 1), x-receive cells (level 2), y-receive cells (level 3). -/
theorem above_O₀ (c : Dev nD) : Above (O₀ c) := by
  have hb (d : Dev nD) : Above (tallyAt (barCell d) () 1) := Above.single _ _ rfl (by rw [lv_bar]; decide)
  have hx (d : Dev nD) (k : Fin 8) : Above (tallyAt (qCell d 1 k) () N) := Above.single _ _ rfl (by rw [lv_q]; decide)
  have hy (d : Dev nD) (k : Fin 8) : Above (tallyAt (qCell d 3 k) () N) := Above.single _ _ rfl (by rw [lv_q]; decide)
  unfold O₀
  exact (((((((((((((((((hy _ _).add (hy _ _)).add (hy _ _)).add (hy _ _)).add (hy _ _)).add (hy _ _)).add (hy _ _)).add (hy _ _)).add
    (hx _ _)).add (hx _ _)).add (hx _ _)).add (hx _ _)).add (hx _ _)).add (hx _ _)).add (hx _ _)).add (hx _ _)).add (hb _)).add (hb _)

/-- The pipeline's one staging semaphore is none of the rounds' cells: it sits at level 0. -/
theorem lv_stage (c : Dev nD) (w : Fin cfg0.W) (s : Fin (cfg0.win w).nbuf) :
    lv ((c : Thread nD τ), .dma ((cfg0.win w).sem s)) () ≤ 0 := by
  fin_cases w; fin_cases s; revert c; decide

theorem waits (m : (ℓ : Loc nD τ sig) → Buf (Elt F) ℓ) (c : Dev nD) :
    (levAts L lv : sProp 𝕄) ⊢ Pipeline.cellsWaits cfgs (dats m) () 0 c :=
  Pipeline.cellsWaits_intro cfgs (dats m) () 0 c fun w s t => by
    rcases t with ⟨_ | _, ht⟩
    · exact mayWait_above c _ (O₀ c) 0 (lv_stage c w s) (above_O₀ c)
    · show _ ⊢ MayWait _ _ () 0
      rw [MayWait_zero]; iintro -; iempintro

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hsl, Hlev, Hcr, -, HG⟩
  ihave Hc := (creds_intro (F := F) c) $$ Hcr
  imodintro
  unfold start G' slabPts
  icases HG with ⟨Hg, Hloc⟩
  isplitl
  · isplitl [Hg]; · iexact Hg
    isplitl [Hc]; · iexact Hc
    isplitl [Hlev]; · iexact Hlev
    isplitl [Hsl]; · iexact Hsl
    iexact Hloc
  · iempintro

theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (m : (ℓ : Loc nD τ sig) → Buf (Elt F) ℓ) (c : Dev nD) :
    (dats m 0 c).Φ (Fin.last cfg0.N) ⊢ iprop(slabPts m c ∗ Pipeline.ownSems0 osem c ∗ Pipeline.scopedRest cfg0.spec c) := by
  rw [show (dats m 0 c).Φ (Fin.last cfg0.N) = Φ₁ m c from rfl, scopedRest0_eq]
  unfold Φ₁ scratch
  iintro ⟨Hsl, Hscr, Hloc, Hq⟩
  isplitl [Hsl]; · iexact Hsl
  isplitl [Hloc Hq]
  · iapply (ownSems0_join (F := F) c)
    isplitl [Hloc] <;> iassumption
  iexact Hscr

/-! ## The run -/

/-- The device's slab holds, at the end, what it held at launch. -/
def QY (m : (ℓ : Loc nD τ sig) → Buf (Elt F) ℓ) (c : Dev nD) (s : MemSt nD τ sig (Elt F)) : Prop :=
  s.mem ((c : Thread nD τ).loc main_arg0) = m ((c : Thread nD τ).loc main_arg0)

set_option maxRecDepth 8000 in
/-- At the compiled mesh of eight devices, for any float values, from any memory with zero counters: every weakly fair
    execution of @main terminates, and every final state has each device's result array at the contents the pipeline's
    data names after the one write-back, and its slab as launched. -/
theorem run_main (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (∀ w : Fin cfg0.W, r.2.mem ((cfg0.win w).arr.view.loc (c : Thread nD τ)) = (dats m 0 c).arrAt w cfg0.N)
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_u₀ m)
    (hglob := glob m)
    (hA := fun _ _ => rfl) (hpf := fun _ k => k.elim0)
    (X := start m) (Y := slabPts m) (Z := fun _ => iprop(emp))
    (hX := start_intro m ρ) (hin := phi0_intro m) (hout := phi1_exit m)
    (QY := QY m)
    (hY := fun c s' => by
      unfold slabPts QY
      iintro ⟨Hx, -, HSI⟩
      icombine HSI Hx gives %hx
      imodintro
      isplitr; · ipureintro; exact Buf.eq_of_forall_mem_univ hx
      iexact HSI)
    (hQ := fun s h c => ⟨(h c).1, (h c).2.2⟩)

/-! ## The result array after the run -/

/-- The one window's block is the whole result array, written back after the one point: the array holds what the
    body left in the staging buffer. -/
theorem final_out (m : (ℓ : Loc nD τ sig) → Buf (Elt F) ℓ) (c : Dev nD) :
    (dats m 0 c).arrAt (0 : Fin 1) cfg0.N = outC (slabs m) c := by
  rw [show cfg0.N = (t₀ : Fin cfg0.N).val + 1 from rfl, (dats m 0 c).arrAt_succ (0 : Fin 1) t₀, if_pos (flush0_0 t₀)]
  have hz : (fun a => (win0_0.index t₀) a * main_v1.ty.shape.size a) = fun _ => 0 := funext fun a => by fin_cases a <;> decide
  rw [Memref.write_access_unit_zero_univ (Elt F) main_v1 hz]
  rfl

theorem kernel_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = outC (slabs m) c
      ∧ r.2.mem ((c.tc : Thread nD τ).loc main_arg0) = m ((c.tc : Thread nD τ).loc main_arg0)) := by
  exact (θ_run defs _ _).mono (fun _ h c => ⟨((h c).1 (0 : Fin 1)).trans (final_out m c), (h c).2⟩) (run_main m ρ)

/-- info: 'Cert.KernelIdeal.RS.kernel_run' depends on axioms: [propext, Classical.choice, Quot.sound] -/
#guard_msgs in #print axioms kernel_run

end Cert.KernelIdeal.RS

end
-- ==== Proof.KRSContents.lean ====
/-
  The mesh and what every buffer of the kernel holds, as pure definitions.

  Eight devices, device `d = 4·x + 2·y + z` on the mesh x = 2, y = 2, z = 2. A device holds block `x` of the
  input `f32[2, 1024, 1024]` (one `[1, 1024, 1024]` slab, the same on the four devices sharing `x`) and must end
  with columns `512·x … 512·x + 511` of `slab 0 + slab 1`. It gets the other slab's entries in two hops: its
  x-peer (the device with the other `x`) sends it, in bf16, the own-row half (rows `512·y …`) of the peer's slab
  at this device's columns; it forwards those rows to its y-peer (the device with the other `y`), for which they are
  the other row half. Rows travel in eight chunks of 64.
-/
import proofs.«901020_g7700000000001021_dist_rs_v7x_xyz2x2x2_x_m1024_n512_bf16_1_alg».proof.Proof.Gen.Kernel
import Idealize.ShloMosaic.Lib.ValueIdx

noncomputable section

namespace Cert.Kernel.RS

open Cert.Kernel Cert.Kernel.Gen
open Idealize.ShloMosaic Idealize.ShloMosaic.ValueIdx

variable {F : FTy → Type} [FloatOps F]

/-! ## Mesh coordinates and peers -/

/-- The `x` coordinate of device `d = 4x + 2y + z`. -/
def cx (c : Dev nD) : ℕ := c.val / 4
/-- Its `y` coordinate. -/
def cy (c : Dev nD) : ℕ := (c.val / 2) % 2
/-- The device with the other `x` coordinate. -/
def px (c : Dev nD) : Dev nD := ⟨(c.val + 4) % 8, Nat.mod_lt _ (by decide)⟩
/-- The device with the other `y` coordinate. -/
def py (c : Dev nD) : Dev nD := ⟨(4 * (c.val / 4) + (c.val + 2) % 4) % 8, Nat.mod_lt _ (by decide)⟩

theorem px_px (c : Dev nD) : px (px c) = c := by revert c; decide
theorem py_py (c : Dev nD) : py (py c) = c := by revert c; decide
theorem px_py (c : Dev nD) : px (py c) = py (px c) := by revert c; decide
theorem px_ne (c : Dev nD) : px c ≠ c := by revert c; decide
theorem py_ne (c : Dev nD) : py c ≠ c := by revert c; decide
theorem px_ne_py (c : Dev nD) : px c ≠ py c := by revert c; decide
theorem cx_lt (c : Dev nD) : cx c < 2 := by revert c; decide
theorem cy_lt (c : Dev nD) : cy c < 2 := by revert c; decide
theorem cx_px (c : Dev nD) : cx (px c) = 1 - cx c := by revert c; decide
theorem cy_px (c : Dev nD) : cy (px c) = cy c := by revert c; decide
theorem cx_py (c : Dev nD) : cx (py c) = cx c := by revert c; decide
theorem cy_py (c : Dev nD) : cy (py c) = 1 - cy c := by revert c; decide

/-- The x and the y exchange as permutations of the devices. -/
def swapX : Dev nD ≃ Dev nD := ⟨px, px, px_px, px_px⟩
def swapY : Dev nD ≃ Dev nD := ⟨py, py, py_py, py_py⟩

/-! ## Contents -/

/-- A coordinate reduced into its axis (no sum below ever wraps: each stays inside its extent). -/
def rd (n : ℕ) (h : 0 < n) (v : ℕ) : Fin n := ⟨v % n, Nat.mod_lt _ h⟩

theorem rd_val (n : ℕ) (h : 0 < n) (v : ℕ) (hv : v < n) : (rd n h v).val = v := Nat.mod_eq_of_lt hv

/-- Entry `(row, col)` of a slab. -/
def slabAt (A : FVec F S1x1024x1024 .f32) (row col : ℕ) : F .f32 :=
  A (ix3 (0 : Fin 1) (rd 1024 (by decide) row) (rd 1024 (by decide) col))

variable (X : Dev nD → FVec F S1x1024x1024 .f32)

/-- The fetch buffer after the eight row fetches: chunk `k`, row `r` holds row `512·y + 64k + r` of the slab, whole. -/
def fetchC (c : Dev nD) : FVec F S8x64x1024 .f32 := fun i =>
  slabAt (X c) (512 * cy c + 64 * (i 0).val + (i 1).val) (i 2).val

/-- The direct fetch of the other row half at the own columns: row `512·(1−y) + r`, column `512·x + q`. -/
def otherC (c : Dev nD) : FVec F S512x512 .f32 := fun i =>
  slabAt (X c) (512 * (1 - cy c) + (i 0).val) (512 * cx c + (i 1).val)

/-- What the device sends along x: its own row half at the PEER's columns, rounded to bf16. -/
def sendXC (c : Dev nD) : FVec F S8x64x512 .bf16 := fun i =>
  FloatOps.truncf .bf16 bitsLt_bf16_f32 (slabAt (X c) (512 * cy c + 64 * (i 0).val + (i 1).val) (512 * (1 - cx c) + (i 2).val))

/-- What lands from the x-peer: the peer's slab, this device's own row half and columns. -/
def recvXC (c : Dev nD) : FVec F S8x64x512 .bf16 := sendXC X (px c)

/-- What lands from the y-peer: what the y-peer received along x — the other slab, the other row half, own columns. -/
def recvZC (c : Dev nD) : FVec F S8x64x512 .bf16 := recvXC X (py c)

/-- The device whose slab supplies the second summand of result row `r`: the x-peer for the own row half, the
    y-peer's x-peer for the other half (the same slab, held by another device). -/
def srcDev (c : Dev nD) (r : ℕ) : Dev nD := if r / 512 = cy c then px c else px (py c)

/-- The result block: entry `(r, q)` is the own slab's entry at `(r, 512·x + q)` plus the other slab's, the latter
    having passed through bf16. -/
def outC (c : Dev nD) : FVec F S1024x512 .bf16 := fun i =>
  FloatOps.truncf .bf16 bitsLt_bf16_f32
    (FloatOps.addf (slabAt (X c) (i 0).val (512 * cx c + (i 1).val))
      (FloatOps.extf .f32 bitsLt_bf16_f32
        (FloatOps.truncf .bf16 bitsLt_bf16_f32 (slabAt (X (srcDev c (i 0).val)) (i 0).val (512 * cx c + (i 1).val)))))

end Cert.Kernel.RS

end
-- ==== Proof.KRSProto.lean ====
/-
  The protocol of the reduce-scatter, as a schedule of rounds.

  Each device has, besides the barrier semaphore, four arrays of eight DMA semaphores that other devices credit:
  array 0 counts its x-sends leaving, array 1 the x-peer's chunks landing, array 2 its forwards to the y-peer
  leaving, array 3 the y-peer's forwards landing. Every such cell has one round of one duty, worth one chunk's
  credit, whose payload is the chunk it is about: a send cell gives the source chunk back, a receive cell hands over
  the landed chunk with its contents named. The barrier cell has one round of two unit duties, one per peer: the
  x-peer's signal hands over the x-peer's eight receive chunks (so that this device may write them), the y-peer's
  its eight forward-receive chunks.

  Deadlock freedom is by levels: barrier cells at 1, x-receive cells at 2, y-receive cells at 3, everything a device
  only ever waits for while owing nothing (its local copies, its send cells) at 0; a device waits on a cell only while
  everything it still owes lies strictly above it.
-/
import proofs.«901020_g7700000000001021_dist_rs_v7x_xyz2x2x2_x_m1024_n512_bf16_1_alg».proof.Proof.KRSContents
import proofs.«901020_g7700000000001021_dist_rs_v7x_xyz2x2x2_x_m1024_n512_bf16_1_alg».proof.Proof.Gen.Kernel
import proofs.«901020_g7700000000001021_dist_rs_v7x_xyz2x2x2_x_m1024_n512_bf16_1_alg».proof.Proof.Gen.Kernel.Skeleton
import proofs.«901020_g7700000000001021_dist_rs_v7x_xyz2x2x2_x_m1024_n512_bf16_1_alg».proof.Proof.Gen.Kernel.Launch
import proofs.«901020_g7700000000001021_dist_rs_v7x_xyz2x2x2_x_m1024_n512_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the rounds' (duties `Bool`), and the counters of the device's own local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR

instance ER_landsIn : (ER : Emb UB (MT nD τ sig Unit (Elt F) ℕ UU ℕ)).LandsIn (upEmb : UEmb _ (MT nD τ sig Unit (Elt F) ℕ UU ℕ)) := by
  unfold ER embR; infer_instance

variable (m : (ℓ : Loc nD τ sig) → Buf (Elt F) ℓ) (ρ : Dev nD → PrngReg)

/-- The slab each device was launched with. -/
abbrev slabs : Dev nD → FVec F S1x1024x1024 .f32 := fun d => m ((d.tc : Thread nD τ).loc main_arg0)

/-! ## The kernel's device chains name the two peers -/

theorem pxv (c : Dev nD) : (2 * ((c.val / 2) % 2) + (c.val % 2) + 4) - 4 * (c.val / 4) = (px c).val := by revert c; decide
theorem pyv (c : Dev nD) : (4 * (c.val / 4) + (c.val % 2) + 2) - 2 * ((c.val / 2) % 2) = (py c).val := by revert c; decide
theorem dev1_eq (c : Dev nD) : (⟨k0_dev1 c, k0_dev1_lt c⟩ : Dev nD) = px c := Fin.ext ((k0_dev1_eq c).trans (pxv c))
theorem dev2_eq (c : Dev nD) : (⟨k0_dev2 c, k0_dev2_lt c⟩ : Dev nD) = py c := Fin.ext ((k0_dev2_eq c).trans (pyv c))
theorem dev3_eq (c : Dev nD) : (⟨k0_dev3 c, k0_dev3_lt c⟩ : Dev nD) = px c := Fin.ext ((k0_dev3_eq c).trans (pxv c))
theorem dev4_eq (c : Dev nD) : (⟨k0_dev4 c, k0_dev4_lt c⟩ : Dev nD) = px c := Fin.ext ((k0_dev4_eq c).trans (pxv c))
theorem dev5_eq (c : Dev nD) : (⟨k0_dev5 c, k0_dev5_lt c⟩ : Dev nD) = px c := Fin.ext ((k0_dev5_eq c).trans (pxv c))
theorem dev6_eq (c : Dev nD) : (⟨k0_dev6 c, k0_dev6_lt c⟩ : Dev nD) = px c := Fin.ext ((k0_dev6_eq c).trans (pxv c))
theorem dev7_eq (c : Dev nD) : (⟨k0_dev7 c, k0_dev7_lt c⟩ : Dev nD) = px c := Fin.ext ((k0_dev7_eq c).trans (pxv c))
theorem dev8_eq (c : Dev nD) : (⟨k0_dev8 c, k0_dev8_lt c⟩ : Dev nD) = px c := Fin.ext ((k0_dev8_eq c).trans (pxv c))
theorem dev9_eq (c : Dev nD) : (⟨k0_dev9 c, k0_dev9_lt c⟩ : Dev nD) = px c := Fin.ext ((k0_dev9_eq c).trans (pxv c))
theorem dev10_eq (c : Dev nD) : (⟨k0_dev10 c, k0_dev10_lt c⟩ : Dev nD) = px c := Fin.ext ((k0_dev10_eq c).trans (pxv c))
theorem dev11_eq (c : Dev nD) : (⟨k0_dev11 c, k0_dev11_lt c⟩ : Dev nD) = py c := Fin.ext ((k0_dev11_eq c).trans (pyv c))
theorem dev12_eq (c : Dev nD) : (⟨k0_dev12 c, k0_dev12_lt c⟩ : Dev nD) = py c := Fin.ext ((k0_dev12_eq c).trans (pyv c))
theorem dev13_eq (c : Dev nD) : (⟨k0_dev13 c, k0_dev13_lt c⟩ : Dev nD) = py c := Fin.ext ((k0_dev13_eq c).trans (pyv c))
theorem dev14_eq (c : Dev nD) : (⟨k0_dev14 c, k0_dev14_lt c⟩ : Dev nD) = py c := Fin.ext ((k0_dev14_eq c).trans (pyv c))
theorem dev15_eq (c : Dev nD) : (⟨k0_dev15 c, k0_dev15_lt c⟩ : Dev nD) = py c := Fin.ext ((k0_dev15_eq c).trans (pyv c))
theorem dev16_eq (c : Dev nD) : (⟨k0_dev16 c, k0_dev16_lt c⟩ : Dev nD) = py c := Fin.ext ((k0_dev16_eq c).trans (pyv c))
theorem dev17_eq (c : Dev nD) : (⟨k0_dev17 c, k0_dev17_lt c⟩ : Dev nD) = py c := Fin.ext ((k0_dev17_eq c).trans (pyv c))
theorem dev18_eq (c : Dev nD) : (⟨k0_dev18 c, k0_dev18_lt c⟩ : Dev nD) = py c := Fin.ext ((k0_dev18_eq c).trans (pyv c))

/-! ## Chunks and cells, spelt as the program spells them -/

theorem inb1 : ∀ k : Fin 8, ∀ a, (![k.val] : Fin 1 → Nat) a + S1.size a ≤ S8.size a := by decide
theorem inbC : ∀ k : Fin 8, ∀ a, (![k.val, 0, 0] : Fin 3 → Nat) a + S1x64x512.size a ≤ S8x64x512.size a := by decide

/-- Chunk `k` (64 rows) of a buffer of eight. -/
abbrev chunkOf (B : Memref sig .tc .vmem S8x64x512 .bf16) (k : Fin 8) : Memref sig .tc .vmem S64x512 .bf16 :=
  (B.slice (Rect.unit (s := S8x64x512) ![k.val, 0, 0] S1x64x512.size (inbC k)) (fun _ => rfl)).squeeze S64x512 squeezes_S1x64x512_S64x512

/-- The x-send buffer, the x-receive buffer, the y-receive buffer. -/
abbrev sxB : Memref sig .tc .vmem S8x64x512 .bf16 := Memref.whole cc0_scratch2
abbrev rxB : Memref sig .tc .vmem S8x64x512 .bf16 := Memref.whole cc0_scratch3
abbrev rzB : Memref sig .tc .vmem S8x64x512 .bf16 := Memref.whole cc0_scratch4
abbrev sxM (k : Fin 8) : Memref sig .tc .vmem S64x512 .bf16 := chunkOf sxB k
abbrev rxM (k : Fin 8) : Memref sig .tc .vmem S64x512 .bf16 := chunkOf rxB k
abbrev rzM (k : Fin 8) : Memref sig .tc .vmem S64x512 .bf16 := chunkOf rzB k

/-- The runtime's barrier semaphore of collective id 0. -/
abbrev barS : Sem sig := (SemArray.scalar (sig.barrier 0 rfl) : Sems sig S_).sem
abbrev barCell (c : Dev nD) : GSem nD τ sig := ((c : Thread nD τ), .reg barS)

/-- The four semaphore arizes other devices credit: 0 x-send, 1 x-receive, 2 y-send, 3 y-receive. -/
abbrev famArr : Fin 4 → DmaSems sig S8
  | 0 => cc0_scratch7 | 1 => cc0_scratch8 | 2 => cc0_scratch9 | 3 => cc0_scratch10
abbrev qS (f : Fin 4) (k : Fin 8) : DmaSems sig S_ :=
  ((famArr f).slice (Rect.unit (s := S8) ![k.val] S1.size (inb1 k))).squeeze S_ squeezes_S1_S_
abbrev qCell (c : Dev nD) (f : Fin 4) (k : Fin 8) : GSem nD τ sig := ((c : Thread nD τ), .dma (qS f k).sem)

/-- Which array and chunk a semaphore is, if it is one of the thirty-two. -/
def famOf : SemLoc sig → Option (Fin 4 × Fin 8)
  | .dma q => if 10 ≤ q.val then some (⟨((q.val - 10) / 8) % 4, Nat.mod_lt _ (by decide)⟩, ⟨(q.val - 10) % 8, Nat.mod_lt _ (by decide)⟩) else none
  | _ => none

theorem famOf_q : ∀ (f : Fin 4) (k : Fin 8), famOf (.dma (qS f k).sem) = some (f, k) := by decide
theorem famOf_bar : famOf (.reg barS) = none := rfl
theorem q_ne_bar (f : Fin 4) (k : Fin 8) : (SemLoc.dma (qS f k).sem : SemLoc sig) ≠ .reg barS := fun h => by cases h

/-- One chunk's credit. -/
abbrev N : ℕ := (sxM 0 : Memref sig .tc .vmem S64x512 .bf16).view.dmaCredit
theorem N_pos : 0 < N := View.dmaCredit_pos _ (by decide)

/-! ## Payloads -/

/-- The elements of a memref on device `c`, at share `q`, holding `f`. -/
abbrev ptsM {sh : Shape} {e : EltTy} (M : Memref sig .tc .vmem sh e) (c : Dev nD) (q : PosShare TreeShare)
    (f : Buf (Elt F) (M.view.loc (c : Thread nD τ))) : sProp 𝕄 :=
  M.view.loc (c : Thread nD τ) ↦[M.view.set]{q} f

/-- What the x-peer's entry signal hands device `c`: the peer's eight x-receive chunks, whatever they hold. -/
def barPayX (c : Dev nD) : sProp 𝕄 := bigSep Finset.univ fun k : Fin 8 => iprop(∃ f, ptsM (F := F) (rxM k) (px c) fullShare f)
/-- What the y-peer's hands it: the peer's eight y-receive chunks. -/
def barPayY (c : Dev nD) : sProp 𝕄 := bigSep Finset.univ fun k : Fin 8 => iprop(∃ f, ptsM (F := F) (rzM k) (py c) fullShare f)

/-- The payload of array `f`'s cell `k` on device `c`. The forward to the y-peer reads the x-receive chunk while the
    device itself still reads it for its own sum, so the forward borrows only half of it. -/
def famPay (c : Dev nD) (f : Fin 4) (k : Fin 8) : sProp 𝕄 :=
  match f with
  | 0 => ptsM (sxM k) c fullShare (sendXC (slabs m) c)
  | 1 => ptsM (rxM k) c fullShare (recvXC (slabs m) c)
  | 2 => ptsM (rxM k) c fullShare.left (recvXC (slabs m) c)
  | 3 => ptsM (rzM k) c fullShare (recvZC (slabs m) c)

/-! ## The schedule -/

abbrev IsBar (g : GSem nD τ sig) : Prop := g.1.2 = .tc ∧ g.2 = .reg barS
abbrev IsFam (g : GSem nD τ sig) : Prop := g.1.2 = .tc ∧ (famOf g.2).isSome = true

def rsRd : Rounds.Schedule (GSem nD τ sig) Bool 𝕄 where
  duties g r := if r = 0 ∧ IsBar g then Finset.univ else if r = 0 ∧ IsFam g then {false} else ∅
  unitless _ := False
  amount g _ _ := if g.2 = .reg barS then 1 else N
  payload g _ d :=
    if g.2 = .reg barS then (if d then barPayY g.1.1 else barPayX g.1.1)
    else match famOf g.2 with
      | some (f, k) => famPay m g.1.1 f k
      | none => iprop(emp)
  amount_pos g _ _ _ := by
    by_cases h : g.2 = .reg barS
    · rw [if_pos h]; exact Nat.one_pos
    · rw [if_neg h]; exact N_pos

instance rsRd_payload_storable (g : GSem nD τ sig) (r : ℕ) (d : Bool) :
    BI.Storable (upEmb : UEmb _ 𝕄) ((rsRd (F := F) m).payload g r d) := by
  show BI.Storable upEmb (if g.2 = .reg barS then (if d then barPayY g.1.1 else barPayX g.1.1)
    else match famOf g.2 with
      | some (f, k) => famPay m g.1.1 f k
      | none => iprop(emp))
  unfold barPayX barPayY famPay
  (repeat' split) <;> infer_instance

section Sched
variable (c : Dev nD) (f : Fin 4) (k : Fin 8)

theorem not_bar_q : ¬ IsBar (qCell c f k) := fun h => q_ne_bar f k h.2

theorem duties_bar : (rsRd (F := F) m).duties (barCell c) 0 = Finset.univ := by dsimp only [rsRd]; exact if_pos ⟨rfl, rfl, rfl⟩
theorem duties_q : (rsRd (F := F) m).duties (qCell c f k) 0 = {false} := by
  dsimp only [rsRd]; rw [if_neg (fun h => not_bar_q c f k h.2)]; exact if_pos ⟨rfl, rfl, by rw [famOf_q]; rfl⟩
theorem duties_later (g : GSem nD τ sig) : ∀ r, 1 ≤ r → (rsRd (F := F) m).duties g r = ∅ :=
  fun r hr => by dsimp only [rsRd]; rw [if_neg fun h => by omega, if_neg fun h => by omega]

theorem amount_bar (d : Bool) : (rsRd (F := F) m).amount (barCell c) 0 d = 1 := by dsimp only [rsRd]; exact if_pos rfl
theorem amount_q (d : Bool) : (rsRd (F := F) m).amount (qCell c f k) 0 d = N := by dsimp only [rsRd]; exact if_neg (q_ne_bar f k)

theorem expect_bar : (rsRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_q : (rsRd (F := F) m).expect (qCell c f k) 0 = N := by
  unfold Schedule.expect Schedule.amountOf; rw [duties_q, Finset.sum_singleton, amount_q]

theorem payload_bar_true : (rsRd (F := F) m).payload (barCell c) 0 true = barPayY c := by dsimp only [rsRd]; rw [if_pos rfl, if_pos rfl]
theorem payload_bar_false : (rsRd (F := F) m).payload (barCell c) 0 false = barPayX c := by
  dsimp only [rsRd]; rw [if_pos rfl]; exact if_neg Bool.false_ne_true
theorem payload_q (d : Bool) : (rsRd (F := F) m).payload (qCell c f k) 0 d = famPay m c f k := by
  dsimp only [rsRd]; rw [if_neg (q_ne_bar f k), famOf_q]

/-- The whole of a barrier cell's round: both peers' chunks. -/
theorem rest_bar : bigSep ((rsRd (F := F) m).duties (barCell c) 0 \ ∅) (fun d => (rsRd (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_q : bigSep ((rsRd (F := F) m).duties (qCell c f k) 0 \ ∅) (fun d => (rsRd (F := F) m).payload (qCell c f k) 0 d) = famPay m c f k := by
  rw [Finset.sdiff_empty, duties_q, bigSep_singleton, payload_q]

end Sched

/-! ## What each device owes at launch; the levels -/

/-- One unit to each peer's barrier cell, a chunk's credit to each of the x-peer's x-receive cells and of the y-peer's
    y-receive cells — summed so that the program's steps peel the summands from the right, in program order. -/
def O₀ (c : Dev nD) : CellTallies nD τ sig Unit :=
  tallyAt (qCell (py c) 3 7) () N
    + tallyAt (qCell (py c) 3 6) () N
    + tallyAt (qCell (py c) 3 5) () N
    + tallyAt (qCell (py c) 3 4) () N
    + tallyAt (qCell (py c) 3 3) () N
    + tallyAt (qCell (py c) 3 2) () N
    + tallyAt (qCell (py c) 3 1) () N
    + tallyAt (qCell (py c) 3 0) () N
    + tallyAt (qCell (px c) 1 7) () N
    + tallyAt (qCell (px c) 1 6) () N
    + tallyAt (qCell (px c) 1 5) () N
    + tallyAt (qCell (px c) 1 4) () N
    + tallyAt (qCell (px c) 1 3) () N
    + tallyAt (qCell (px c) 1 2) () N
    + tallyAt (qCell (px c) 1 1) () N
    + tallyAt (qCell (px c) 1 0) () N
    + tallyAt (barCell (py c)) () 1
    + tallyAt (barCell (px c)) () 1

def L (g : GSem nD τ sig) : Finset Unit := if g.1.2 = .tc then {()} else ∅
def lv (g : GSem nD τ sig) (_ : Unit) : ℕ :=
  if g.2 = .reg barS then 1 else match famOf g.2 with
    | some (f, _) => if f = 1 then 2 else if f = 3 then 3 else 0
    | none => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; exact if_pos rfl
theorem lv_q (c : Dev nD) (f : Fin 4) (k : Fin 8) : lv (qCell c f k) () = if f = 1 then 2 else if f = 3 then 3 else 0 := by
  dsimp only [lv]; rw [if_neg (q_ne_bar f k), famOf_q]

/-- A device may wait on a cell of its own at level `n` while all it owes lies on TensorCore cells strictly above `n`. -/
theorem mayWait_above (c : Dev nD) (sm : SemLoc sig) (O : CellTallies nD τ sig Unit) (n : ℕ)
    (hsm : lv ((c : Thread nD τ), sm) () ≤ n) (hO : ∀ (g : GSem nD τ sig) (u : Unit), 0 < O g u → g.1.2 = .tc ∧ n < lv g u) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by
      have h := (hO g u hg).1
      obtain ⟨⟨d, pr⟩, s⟩ := g
      simp only at h; subst h
      exact Finset.mem_singleton_self _)
    (fun p hp => by rw [Finset.mem_singleton.mp hp]; exact hsm)
    (fun g u hg => (hO g u hg).2)

end Cert.Kernel.RS

end
-- ==== Proof.KRSInv.lean ====
/-
  What a device's thread holds before and after the kernel's one grid point, and the proof data of the pipeline.

  Before: every cell's invariant and that its round 0 is reached (persistent records, the same on every device); the
  device's positions at round 0 of its own thirty-three cells; the tokens of the duties it pays — one unit on each
  peer's barrier cell, the x-peer's eight x-receive cells, the y-peer's eight y-receive cells, and its own sixteen
  send cells; the credit others owe its barrier and receive cells; its nine local DMA semaphores at zero; its slab;
  its five scratch buffers, holding anything. After: the slab as it was, the scratch buffers, and every semaphore of
  its own at zero again. The staged result holds its column half of the sum of the slabs.
-/
import proofs.«901020_g7700000000001021_dist_rs_v7x_xyz2x2x2_x_m1024_n512_bf16_1_alg».proof.Proof.KRSProto

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells by index -/

/-- A device's thirty-three cells: `none` the barrier, `some (f, k)` cell `k` of array `f`. -/
abbrev CK : Type := Option (Fin 4 × Fin 8)
abbrev csem : CK → SemLoc sig
  | none => .reg barS
  | some fk => .dma (qS fk.1 fk.2).sem
abbrev kcell (ck : Dev nD × CK) : GSem nD τ sig := ((ck.1 : Thread nD τ), csem ck.2)

/-- The nine DMA semaphores only the device itself credits: the eight row fetches' and the other-half fetch's. -/
abbrev fS (k : Fin 8) : DmaSems sig S_ := (cc0_scratch5.slice (Rect.unit (s := S8) ![k.val] S1.size (inb1 k))).squeeze S_ squeezes_S1_S_
abbrev oS : DmaSems sig S_ := cc0_scratch6
abbrev fCell (c : Dev nD) (k : Fin 8) : GSem nD τ sig := ((c : Thread nD τ), .dma (fS k).sem)
abbrev oCell (c : Dev nD) : GSem nD τ sig := ((c : Thread nD τ), .dma oS.sem)

/-- Those nine counters at zero. -/
def locals0 (c : Dev nD) : sProp 𝕄 := iprop((bigSep Finset.univ fun k : Fin 8 => semVal (fCell c k) 0) ∗ semVal (oCell c) 0)

/-! ## The ghost state -/

/-- Every cell's invariant, under the names `K` the launch allocated them at, and that its round 0 is reached. -/
def records (K : Dev nD × CK → ℕ) : sProp 𝕄 :=
  iprop((bigSep Finset.univ fun ck : Dev nD × CK => cellInv ER (rsRd m) (K ck) (kcell ck))
    ∗ bigSep Finset.univ fun ck : Dev nD × CK => reached ER (kcell ck) 0)

instance records_persistent (K : Dev nD × CK → ℕ) : BI.Persistent (records m K) := by unfold records; infer_instance

theorem inv_at' (K : Dev nD × CK → ℕ) (ck : Dev nD × CK) :
    (bigSep Finset.univ fun ck : Dev nD × CK => (cellInv ER (rsRd m) (K ck) (kcell ck) : sProp 𝕄)) ⊢ cellInv ER (rsRd m) (K ck) (kcell ck) :=
  bigSep_elim (Finset.mem_univ ck)
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (K : Dev nD × CK → ℕ) (ck : Dev nD × CK) : records m K ⊢ cellInv ER (rsRd m) (K ck) (kcell ck) := by
  unfold records; iintro ⟨H, -⟩; iapply (inv_at' m K ck); iexact H
theorem reached_at (K : Dev nD × CK → ℕ) (ck : Dev nD × CK) : records m K ⊢ reached ER (kcell ck) 0 := by
  unfold records; iintro ⟨-, H⟩; iapply (reached_at' (F := F) ck); iexact H

/-- The tokens of the duties device `c` pays. -/
def payToks (c : Dev nD) : sProp 𝕄 :=
  iprop(dutyTok ER (barCell (px c)) 0 false ∗ dutyTok ER (barCell (py c)) 0 true
    ∗ (bigSep Finset.univ fun k : Fin 8 => dutyTok ER (qCell (px c) 1 k) 0 false)
    ∗ (bigSep Finset.univ fun k : Fin 8 => dutyTok ER (qCell (py c) 3 k) 0 false)
    ∗ (bigSep Finset.univ fun k : Fin 8 => dutyTok ER (qCell c 0 k) 0 false)
    ∗ (bigSep Finset.univ fun k : Fin 8 => dutyTok ER (qCell c 2 k) 0 false))

/-- What stays with device `c` alone: its positions at round 0 of its own cells, and those tokens. -/
def linear (c : Dev nD) : sProp 𝕄 :=
  iprop(atPos ER (barCell c) 0 ∅ 0
    ∗ (bigSep Finset.univ fun fk : Fin 4 × Fin 8 => atPos ER (qCell c fk.1 fk.2) 0 ∅ 0)
    ∗ payToks c)

def ghost (K : Dev nD × CK → ℕ) (c : Dev nD) : sProp 𝕄 := iprop(records m K ∗ linear c)

/-- The credit others owe device `c`'s cells from launch: two units on its barrier cell, a chunk on each receive cell. -/
def creds (c : Dev nD) : sProp 𝕄 :=
  iprop(cred (tallyAt (barCell c) () 2)
    ∗ (bigSep Finset.univ fun k : Fin 8 => cred (tallyAt (qCell c 1 k) () N))
    ∗ (bigSep Finset.univ fun k : Fin 8 => cred (tallyAt (qCell c 3 k) () N)))

/-- The device's slab, whole, as launched. -/
def slabPts (c : Dev nD) : sProp 𝕄 := ((c : Thread nD τ).loc main_arg0) ↦{fullShare} m ((c : Thread nD τ).loc main_arg0)

/-- What device `c`'s body starts from, the scratch buffers apart. -/
def start (c : Dev nD) : sProp 𝕄 :=
  iprop((∃ K, ghost m K c) ∗ creds c ∗ levAts L lv ∗ slabPts m c ∗ locals0 c)

/-- The five scratch buffers, each whole at some contents: fetch, other half, x-send, x-receive, y-receive. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

def Φ₀ (c : Dev nD) : sProp 𝕄 := iprop(start m c ∗ scratch c)

/-- After the point: the slab, the scratch buffers, and all forty-one own counters at zero (the thirty-two cells closed). -/
def Φ₁ (c : Dev nD) : sProp 𝕄 :=
  iprop(slabPts m c ∗ scratch c ∗ locals0 c ∗ bigSep Finset.univ fun fk : Fin 4 × Fin 8 => semVal (qCell c fk.1 fk.2) 0)

/-! ## What the launch deals -/

/-- The device's own (scoped) semaphores as the launch indexes them: the other-half fetch's, the eight row fetches',
    and the thirty-two cells'. -/
abbrev OS : Type := Option (Fin 8) ⊕ (Fin 4 × Fin 8)
abbrev osem : OS → SemLoc sig
  | .inl none => .dma oS.sem
  | .inl (some k) => .dma (fS k).sem
  | .inr fk => .dma (qS fk.1 fk.2).sem

/-- The duty tokens of device `c`'s own cells, as minted: its barrier's two, one for each of the thirty-two. -/
def toks (c : Dev nD) : sProp 𝕄 :=
  iprop(dutyTok ER (barCell c) 0 false ∗ dutyTok ER (barCell c) 0 true
    ∗ bigSep Finset.univ fun fk : Fin 4 × Fin 8 => dutyTok ER (qCell c fk.1 fk.2) 0 false)

/-- What the launch element deals device `c`: its cells' round states, positions and reached-marks, and those tokens. -/
def G (c : Dev nD) : sProp 𝕄 :=
  iprop((bigSep Finset.univ fun ck : CK => roundState ER (rsRd m) (kcell (c, ck)) 0)
    ∗ (bigSep Finset.univ fun ck : CK => iprop(atPos ER (kcell (c, ck)) 0 ∅ 0 ∗ reached ER (kcell (c, ck)) 0)) ∗ toks c)

/-- What the global step makes of it: the ghost state at some names, and the nine local counters. -/
def G' (c : Dev nD) : sProp 𝕄 := iprop((∃ K, ghost m K c) ∗ locals0 c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => outC (slabs m) c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the body starts from, the names of the invariants fixed. -/
def bodyPre (K : Dev nD × CK → ℕ) (c : Dev nD) : sProp 𝕄 :=
  iprop((ghost m K c ∗ creds c ∗ levAts L lv ∗ slabPts m c ∗ locals0 c ∗ scratch c)
    ∗ (dats m 0 c).owesAt () t₀.castSucc
    ∗ (∃ d, stg c cc0_stg0_0 ((dats m 0 c).before (0 : Fin 1) t₀ d)))

/-- What it ends with. -/
def bodyPost (c : Dev nD) : sProp 𝕄 :=
  iprop(Φ₁ m c ∗ (dats m 0 c).owesAt () t₀.succ ∗ stg c cc0_stg0_0 (outC (slabs m) c))

end Cert.Kernel.RS

end
-- ==== Proof.KRSFund.lean ====
/-
  Funding the ghost state at launch, and the one allocation step over all devices.

  The launch element of the rounds' algebra holds, for every device, its thirty-three cells' round states, positions
  and reached-marks, and the duty tokens of those cells. One update over all eight devices at once turns every cell's
  counter at zero and round state into its invariant, and deals the tokens to the devices that pay them: a barrier
  cell's two tokens to the x-peer and the y-peer, an x-receive cell's to the x-peer, a y-receive cell's to the y-peer,
  a send cell's to the device itself.
-/
import proofs.«901020_g7700000000001021_dist_rs_v7x_xyz2x2x2_x_m1024_n512_bf16_1_alg».proof.Proof.KRSInv

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's forty-one scoped DMA semaphores are its own: none is a staging semaphore of the pipeline. -/
theorem ownSemFacts : Pipeline.OwnSemFacts cfg0.spec osem := by decide

/-- The rounds' cells and tokens of the whole mesh. -/
theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by
    rcases k with _ | ⟨f, k⟩ <;> rcases k' with _ | ⟨f', k'⟩
    · rfl
    · exact absurd h2.symm (q_ne_bar f' k')
    · exact absurd h2 (q_ne_bar f k)
    · have h3 : famOf (.dma (qS f k).sem) = famOf (.dma (qS f' k').sem) := congrArg famOf h2
      rw [famOf_q, famOf_q] at h3
      exact h3
  subst this; rfl
def rsCells : Finset (GSem nD τ sig) := Finset.univ.map ⟨kcell, kcell_injective⟩

/-- A device's own cells' duty tokens as minted: the barrier's `false` and `true`, each of the thirty-two's `false`. -/
abbrev tokOf (cj : Dev nD × (Bool ⊕ (Fin 4 × Fin 8))) : GSem nD τ sig × ℕ × Bool := match cj.2 with
  | .inl b => (barCell cj.1, 0, b)
  | .inr fk => (qCell cj.1 fk.1 fk.2, 0, false)
theorem tokOf_injective : Function.Injective (tokOf : Dev nD × (Bool ⊕ (Fin 4 × Fin 8)) → GSem nD τ sig × ℕ × Bool) := by
  rintro ⟨c, j⟩ ⟨c', j'⟩ h
  have h1 : c = c' := by
    have := congrArg (fun x : GSem nD τ sig × ℕ × Bool => x.1.1.1) h
    rcases j with b | fk <;> rcases j' with b' | fk' <;> exact this
  subst h1
  have : j = j' := by
    rcases j with b | ⟨f, k⟩ <;> rcases j' with b' | ⟨f', k'⟩
    · exact congrArg Sum.inl (congrArg (fun x : GSem nD τ sig × ℕ × Bool => x.2.2) h)
    · exact absurd (congrArg (fun x : GSem nD τ sig × ℕ × Bool => x.1.2) h).symm (q_ne_bar f' k')
    · exact absurd (congrArg (fun x : GSem nD τ sig × ℕ × Bool => x.1.2) h) (q_ne_bar f k)
    · have h3 : famOf (.dma (qS f k).sem) = famOf (.dma (qS f' k').sem) :=
        congrArg (fun x : GSem nD τ sig × ℕ × Bool => famOf x.1.2) h
      rw [famOf_q, famOf_q] at h3
      exact congrArg Sum.inr (Option.some.inj h3)
  subst this; rfl
def rsToks : Finset (GSem nD τ sig × ℕ × Bool) := Finset.univ.map ⟨tokOf, tokOf_injective⟩

/-- The launch element: the pipeline's beside the rounds'. -/
def u₀ : UU :=
  (initOf (Pipeline.cells cfgs cellOf_inj) (Pipeline.launchToks cfgs cellOf_inj), (initOf rsCells rsToks, 1))

/-! ### Sums over an optional index, over the four arrays -/

omit [FloatOps F] in
/-- A sum over an optional index: the summand at `none` beside the sum over `some`. -/
theorem bigSep_univ_option {α : Type} [Fintype α] [DecidableEq α] (Φ : Option α → sProp 𝕄) :
    bigSep Finset.univ Φ = iprop(Φ none ∗ bigSep Finset.univ fun a => Φ (some a)) := by
  have h : (Finset.univ : Finset (Option α)).erase none = Finset.univ.map Function.Embedding.some := by
    ext x
    rcases x with _ | a
    · simp
    · simp
  rw [bigSep_univ_at Φ none, h, bigSep_map]
  rfl

omit [FloatOps F] in
/-- A sum over a disjoint union of index types: the two sums side by side. -/
theorem bigSep_univ_sum'' {α β : Type} [Fintype α] [Fintype β] (Φ : α ⊕ β → sProp 𝕄) :
    bigSep Finset.univ Φ = iprop((bigSep Finset.univ fun a => Φ (.inl a)) ∗ bigSep Finset.univ fun b => Φ (.inr b)) :=
  bigSep_univ_sum Φ

omit [FloatOps F] in
theorem bigSep_fin4F (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_bool (Φ : Bool → sProp 𝕄) : bigSep Finset.univ Φ = iprop(Φ false ∗ Φ true) :=
  bigSep_univ_eq_bigSepL [false, true] (by decide) (by decide) Φ

/-! ### Funding -/

theorem toks_of_minted_at (c : Dev nD) :
    (bigSep Finset.univ fun j : Bool ⊕ (Fin 4 × Fin 8) => (dutyTok ER (tokOf (c, j)).1 (tokOf (c, j)).2.1 (tokOf (c, j)).2.2 : sProp 𝕄)) ⊢ toks c := by
  rw [bigSep_univ_sum'', bigSep_bool]
  unfold toks
  iintro ⟨⟨H1, H2⟩, H3⟩
  isplitl [H1]; · iexact H1
  isplitl [H2]; · iexact H2
  iexact H3

theorem toks_of_minted :
    bigSep rsToks (fun x => (dutyTok ER x.1 x.2.1 x.2.2 : sProp 𝕄)) ⊢ bigSep Finset.univ fun c : Dev nD => toks c := by
  unfold rsToks; rw [bigSep_map, bigSep_univ_prod]
  exact bigSep_mono fun c _ => toks_of_minted_at (F := F) c

theorem fund_rs (m : (ℓ : Loc nD τ sig) → Buf (Elt F) ℓ) : BI.own (ER (initOf rsCells rsToks)) ⊢ (|==> bigSep Finset.univ (G m) : sProp 𝕄) := by
  have hX (Φ : GSem nD τ sig → sProp 𝕄) : bigSep rsCells Φ = bigSep Finset.univ fun c : Dev nD => bigSep Finset.univ fun k : CK => Φ (kcell (c, k)) := by
    unfold rsCells; rw [bigSep_map, bigSep_univ_prod]; rfl
  iintro HX
  imod (Rounds.fund ER (rsRd m) rsCells rsToks) $$ HX with ⟨Hst, Hr, Hat, Htok⟩
  imodintro
  ihave Hst' := (Entails.of_eq (hX fun g => roundState ER (rsRd m) g 0)) $$ Hst
  ihave Hat' := (Entails.of_eq (hX fun g => atPos ER g 0 ∅ 0)) $$ Hat
  ihave Hr' := (Entails.of_eq (hX fun g => reached ER g 0)) $$ Hr
  ihave Htok' := (toks_of_minted (F := F)) $$ Htok
  unfold G; simp only [bigSep_sep']
  isplitl [Hst']; · iexact Hst'
  isplitl [Hat' Hr']
  · isplitl [Hat'] <;> iassumption
  iexact Htok'

/-- The same, the rounds' embedding spelt out: the left half of the right half of the user algebra. -/
theorem fund_rs_inl (m : (ℓ : Loc nD τ sig) → Buf (Elt F) ℓ) :
    (BI.own (((Emb.inl : Emb UB (UB × Counters)).trans embR) (initOf rsCells rsToks)) : sProp 𝕄) ⊢ |==> bigSep Finset.univ (G m) :=
  fund_rs m

/-- The launch element splits into the pipeline's and, dealt device by device, the rounds'. -/
theorem fund_u₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb embR _ _) $$ HX
  icases H2 with ⟨HR, -⟩
  imod (fund_rs_inl m) $$ HR with HG
  imodintro
  isplitl [HP] <;> iassumption

/-! ### The counters at zero -/

/-- A device's own counters at zero are its nine local ones and its thirty-two cells'. -/
theorem ownSems0_split (c : Dev nD) :
    (Pipeline.ownSems0 (Ix := Unit) (Name := ℕ) (U := UU) (Lvl := ℕ) (Val := Elt F) (τ := τ) osem c : sProp 𝕄)
      ⊢ iprop(locals0 c ∗ bigSep Finset.univ fun fk : Fin 4 × Fin 8 => semVal (qCell c fk.1 fk.2) 0) := by
  unfold Pipeline.ownSems0 locals0
  rw [bigSep_univ_sum'', bigSep_univ_option]
  iintro ⟨⟨Ho, Hf⟩, Hq⟩
  isplitl [Ho Hf]
  · isplitl [Hf]; · iexact Hf
    iexact Ho
  iexact Hq
theorem ownSems0_join (c : Dev nD) :
    iprop(locals0 c ∗ bigSep Finset.univ fun fk : Fin 4 × Fin 8 => semVal (qCell c fk.1 fk.2) 0)
      ⊢ (Pipeline.ownSems0 (Ix := Unit) (Name := ℕ) (U := UU) (Lvl := ℕ) (Val := Elt F) (τ := τ) osem c : sProp 𝕄) := by
  unfold Pipeline.ownSems0 locals0
  rw [bigSep_univ_sum'', bigSep_univ_option]
  iintro ⟨⟨Hf, Ho⟩, Hq⟩
  isplitl [Ho Hf]
  · isplitl [Ho]; · iexact Ho
    iexact Hf
  iexact Hq

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All forty-two counters of a device at zero: the nine local ones beside its thirty-three cells'. -/
theorem sems0_cells (c : Dev nD) :
    iprop(Pipeline.ownSems0 (Ix := Unit) (Name := ℕ) (U := UU) (Lvl := ℕ) (Val := Elt F) (τ := τ) osem c ∗ unscopedSems0 c)
      ⊢ (iprop(locals0 c ∗ bigSep Finset.univ fun ck : CK => semVal (kcell (c, ck)) 0) : sProp 𝕄) := by
  rw [unscopedSems0_eq, bigSep_univ_option]
  iintro ⟨Hos, HB⟩
  ihave H := (ownSems0_split (F := F) c) $$ Hos
  icases H with ⟨Hl, Hq⟩
  isplitl [Hl]; · iexact Hl
  isplitl [HB]; · iexact HB
  iexact Hq

/-! ### The global step -/

/-- On one device: each of its thirty-three counters at zero, with its round state, becomes the cell's invariant at
    some name; the nine local counters pass through. -/
theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ck : CK => iprop(∃ κ : ℕ, cellInv ER (rsRd m) κ (kcell (c, ck))))
          ∗ (bigSep Finset.univ fun ck : CK => iprop(atPos ER (kcell (c, ck)) 0 ∅ 0 ∗ reached ER (kcell (c, ck)) 0)) ∗ toks c ∗ locals0 c) := by
  unfold G
  iintro ⟨Hos, Hus, Hst, Hat, Htok⟩
  ihave Hv := (sems0_cells (F := F) c) $$ [Hos Hus]
  · isplitl [Hos] <;> iassumption
  icases Hv with ⟨Hloc, Hv⟩
  imod (show iprop((bigSep Finset.univ fun k : CK => semVal (kcell (c, k)) 0) ∗ bigSep Finset.univ fun k : CK => roundState ER (rsRd m) (kcell (c, k)) 0)
      ⊢ (|={Set.univ}=> bigSep Finset.univ fun k : CK => iprop(∃ κ : ℕ, cellInv ER (rsRd m) κ (kcell (c, k))) : sProp 𝕄) from by
        rw [← bigSep_sep']
        exact (bigSep_mono fun k _ => (Rounds.body_intro ER (rsRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- The ghost state of a device from the records and what stays with it. -/
theorem ghost_intro (m : (ℓ : Loc nD τ sig) → Buf (Elt F) ℓ) (K : Dev nD × CK → ℕ) (c : Dev nD) :
    iprop(records m K ∗ (linear c ∗ locals0 c)) ⊢ G' m c := by
  unfold G' ghost
  iintro ⟨#HR, Hl, Hloc⟩
  isplitl [Hl]
  · iexists K
    isplitr; · iexact HR
    iexact Hl
  iexact Hloc

/-- A device's minted tokens, the thirty-two sorted by array. -/
theorem toks_eq (c : Dev nD) :
    (toks c : sProp 𝕄) = iprop(dutyTok ER (barCell c) 0 false ∗ dutyTok ER (barCell c) 0 true
      ∗ (bigSep Finset.univ fun k : Fin 8 => dutyTok ER (qCell c 0 k) 0 false)
      ∗ (bigSep Finset.univ fun k : Fin 8 => dutyTok ER (qCell c 1 k) 0 false)
      ∗ (bigSep Finset.univ fun k : Fin 8 => dutyTok ER (qCell c 2 k) 0 false)
      ∗ (bigSep Finset.univ fun k : Fin 8 => dutyTok ER (qCell c 3 k) 0 false)) := by
  unfold toks; rw [bigSep_univ_prod, bigSep_fin4F]

/-- The tokens dealt to their payers: a barrier cell's `false` token to the x-peer and its `true` token to the
    y-peer, an x-receive cell's to the x-peer, a y-receive cell's to the y-peer, a send cell's stays. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  rw [bigSep_sep', bigSep_sep', bigSep_sep', bigSep_sep', bigSep_sep', bigSep_sep', bigSep_sep', bigSep_sep', bigSep_sep', bigSep_sep',
    bigSep_univ_equiv swapX (fun c : Dev nD => (dutyTok ER (barCell c) 0 false : sProp 𝕄)),
    bigSep_univ_equiv swapY (fun c : Dev nD => (dutyTok ER (barCell c) 0 true : sProp 𝕄)),
    bigSep_univ_equiv swapX (fun c : Dev nD => (bigSep Finset.univ fun k : Fin 8 => dutyTok ER (qCell c 1 k) 0 false : sProp 𝕄)),
    bigSep_univ_equiv swapY (fun c : Dev nD => (bigSep Finset.univ fun k : Fin 8 => dutyTok ER (qCell c 3 k) 0 false : sProp 𝕄))]
  iintro ⟨HB, HT, H0, H1, H2, H3⟩
  isplitl [HB]; · iexact HB
  isplitl [HT]; · iexact HT
  isplitl [H1]; · iexact H1
  isplitl [H3]; · iexact H3
  isplitl [H0]; · iexact H0
  iexact H2

/-- What stays with a device, from its thirty-three positions and the tokens it pays. -/
theorem linear_intro (c : Dev nD) :
    (iprop((bigSep Finset.univ fun k : CK => atPos ER (kcell (c, k)) 0 ∅ 0) ∗ payToks c) : sProp 𝕄) ⊢ linear c := by
  unfold linear; rw [bigSep_univ_option]
  iintro ⟨⟨H1, H2⟩, H3⟩
  isplitl [H1]; · iexact H1
  isplitl [H2]; · iexact H2
  iexact H3

theorem regroup (m : (ℓ : Loc nD τ sig) → Buf (Elt F) ℓ) :
    (bigSep Finset.univ fun c : Dev nD => iprop((bigSep Finset.univ fun ck : CK => iprop(∃ κ : ℕ, cellInv ER (rsRd m) κ (kcell (c, ck))))
          ∗ (bigSep Finset.univ fun ck : CK => iprop(atPos ER (kcell (c, ck)) 0 ∅ 0 ∗ reached ER (kcell (c, ck)) 0)) ∗ toks c ∗ locals0 c) : sProp 𝕄)
      ⊢ bigSep Finset.univ (G' m) := by
  rw [bigSep_sep', bigSep_sep', bigSep_sep', ← bigSep_univ_prod (fun ck : Dev nD × CK => iprop(∃ κ : ℕ, cellInv ER (rsRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hloc⟩
  ihave HK := (BI.bigSep_exists_pi Finset.univ (fun (ck : Dev nD × CK) (κ : ℕ) => (cellInv ER (rsRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => iprop((bigSep Finset.univ fun k : CK => (atPos ER (kcell (c, k)) 0 ∅ 0 : sProp 𝕄)) ∗ payToks c)) locals0).symm).trans
      (bigSep_mono fun c _ => sep_mono_left (linear_intro (F := F) c)))
    isplitl [Hat Htk]
    · iapply (Entails.of_eq (bigSep_sep' Finset.univ (fun c : Dev nD => bigSep Finset.univ fun k : CK => (atPos ER (kcell (c, k)) 0 ∅ 0 : sProp 𝕄)) payToks).symm)
      isplitl [Hat]; · iexact Hat
      iexact Htk
    iexact Hloc

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.RS.fund_u₀' depends on axioms: [propext, Classical.choice, Quot.sound] -/
#guard_msgs in #print axioms fund_u₀

/-- info: 'Cert.Kernel.RS.glob' depends on axioms: [propext, Classical.choice, Quot.sound] -/
#guard_msgs in #print axioms glob

end Cert.Kernel.RS

end
-- ==== Proof.KRSChunks.lean ====
/-
  The three exchange buffers, chunk by chunk.

  Each of the x-send, x-receive and y-receive buffers is eight chunks of 64 rows; chunk `k` is the elements whose leading
  coordinate is `k`. The chunks are pairwise disjoint and together are every element of the buffer, so a buffer held whole
  (any share, one contents function) is the same as its eight chunks held separately with that function; and eight chunks
  held in full, each with contents of its own, are the buffer held in full with the contents glued chunk by chunk.
  Last, a held region at the full share is its left half and its right half.
-/
import proofs.«901020_g7700000000001021_dist_rs_v7x_xyz2x2x2_x_m1024_n512_bf16_1_alg».proof.Proof.KRSProto

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Which elements a chunk is -/

/-- The rows of chunk `k`: leading coordinate `k`, every row and column below it. -/
abbrev chunkRect (k : Fin 8) : Rect S8x64x512 := Rect.unit (s := S8x64x512) ![k.val, 0, 0] S1x64x512.size (inbC k)

/-- An index lies in chunk `k`'s rows exactly when its leading coordinate is `k`. -/
theorem mem_chunkRect (k : Fin 8) (i : S8x64x512.Idx) : i ∈ (chunkRect k).set ↔ (i 0).val = k.val := by
  rw [Rect.mem_set_unit]
  constructor
  · intro h
    have h0 := h 0
    have e0 : (![k.val, 0, 0] : Fin 3 → ℕ) 0 = k.val := rfl
    have e1 : S1x64x512.size 0 = 1 := rfl
    rw [e0, e1] at h0
    omega
  · intro h a
    match a with
    | ⟨0, _⟩ =>
      show k.val ≤ (i 0).val ∧ (i 0).val < k.val + 1
      omega
    | ⟨1, _⟩ =>
      have := (i 1).isLt
      show 0 ≤ (i 1).val ∧ (i 1).val < 0 + 64
      have e : S8x64x512.size 1 = 64 := rfl
      omega
    | ⟨2, _⟩ =>
      have := (i 2).isLt
      show 0 ≤ (i 2).val ∧ (i 2).val < 0 + 512
      have e : S8x64x512.size 2 = 512 := rfl
      omega

/-- Chunk `k` of a buffer holds the buffer's elements under chunk `k`'s rows. -/
theorem chunk_set (B : Memref sig .tc .vmem S8x64x512 .bf16) (k : Fin 8) :
    (chunkOf B k).view.set = (chunkRect k).set.map B.view.emb := by
  rw [Memref.set_view_squeeze]
  exact View.set_slice _ _

/-- Two different chunks share no element. -/
theorem chunk_disjoint (B : Memref sig .tc .vmem S8x64x512 .bf16) (k k' : Fin 8) (h : k ≠ k') :
    Disjoint (chunkOf B k).view.set (chunkOf B k').view.set := by
  rw [chunk_set, chunk_set, Finset.disjoint_map]
  rw [Finset.disjoint_left]
  intro i hi hi'
  rw [mem_chunkRect] at hi hi'
  exact h (Fin.ext (hi.symm.trans hi'))

/-- The eight chunks are the whole buffer. -/
theorem chunks_cover (B : Memref sig .tc .vmem S8x64x512 .bf16) :
    B.view.set = Finset.univ.biUnion fun k : Fin 8 => (chunkOf B k).view.set := by
  ext x
  rw [Finset.mem_biUnion]
  constructor
  · intro hx
    obtain ⟨i, -, rfl⟩ := Finset.mem_map.mp hx
    refine ⟨⟨(i 0).val, (i 0).isLt⟩, Finset.mem_univ _, ?_⟩
    rw [chunk_set]
    exact Finset.mem_map_of_mem _ ((mem_chunkRect _ i).mpr rfl)
  · rintro ⟨k, -, hk⟩
    rw [chunk_set] at hk
    obtain ⟨i, -, rfl⟩ := Finset.mem_map.mp hk
    exact View.emb_mem_set _ i

/-! ## A buffer held whole and held by chunks -/

/-- A buffer held whole is held chunk by chunk: the same contents function in every chunk. -/
theorem chunks_eq {F : FTy → Type} [FloatOps F] (B : Memref sig .tc .vmem S8x64x512 .bf16) (c : Dev nD) (q : PosShare TreeShare)
    (f : Buf (Elt F) (B.view.loc (c : Thread nD τ))) :
    (ptsM B c q f : sProp (MT nD τ sig Unit (Elt F) ℕ UU ℕ)) = bigSep Finset.univ fun k : Fin 8 => ptsM (chunkOf B k) c q f := by
  have key := pointsTo_biUnion (nD := nD) (τ := τ) (sig := sig) (Ix := Unit) (Val := Elt F) (Name := ℕ) (U := UU) (Lvl := ℕ)
    (ℓ := B.view.loc (c : Thread nD τ)) (q := q) (f := f) Finset.univ (fun k : Fin 8 => (chunkOf B k).view.set)
    (fun k _ k' _ h => chunk_disjoint B k k' h)
  rw [← chunks_cover B] at key
  exact key

theorem chunks_split {F : FTy → Type} [FloatOps F] (B : Memref sig .tc .vmem S8x64x512 .bf16) (c : Dev nD) (q : PosShare TreeShare)
    (f : Buf (Elt F) (B.view.loc (c : Thread nD τ))) :
    (ptsM B c q f : sProp (MT nD τ sig Unit (Elt F) ℕ UU ℕ)) ⊢ bigSep Finset.univ fun k : Fin 8 => ptsM (chunkOf B k) c q f :=
  Entails.of_eq (chunks_eq B c q f)

theorem chunks_join {F : FTy → Type} [FloatOps F] (B : Memref sig .tc .vmem S8x64x512 .bf16) (c : Dev nD) (q : PosShare TreeShare)
    (f : Buf (Elt F) (B.view.loc (c : Thread nD τ))) :
    (bigSep Finset.univ fun k : Fin 8 => ptsM (chunkOf B k) c q f : sProp (MT nD τ sig Unit (Elt F) ℕ UU ℕ)) ⊢ ptsM B c q f :=
  Entails.of_eq (chunks_eq B c q f).symm

/-- Pairwise disjoint sets of elements of one buffer, each held with some contents, are their union held with some
    contents: the contents are glued piece by piece. -/
theorem pts_biUnion_exists {F : FTy → Type} [FloatOps F] {ℓ : Loc nD τ sig} {T : Type} (S : Finset T) (K : T → Finset (Idx ℓ))
    (q : PosShare TreeShare) (h : ∀ t ∈ S, ∀ t' ∈ S, t ≠ t' → Disjoint (K t) (K t')) :
    (bigSep S (fun t => iprop(∃ f : Buf (Elt F) ℓ, ℓ ↦[K t]{q} f)) : sProp (MT nD τ sig Unit (Elt F) ℕ UU ℕ))
      ⊢ iprop(∃ g : Buf (Elt F) ℓ, ℓ ↦[S.biUnion K]{q} g) := by
  classical
  induction S using Finset.induction_on with
  | empty =>
    iintro -
    iexists (fun _ => default)
    rw [Finset.biUnion_empty, pointsTo_empty]
    iempintro
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine (show iprop((∃ f : Buf (Elt F) ℓ, ℓ ↦[K t]{q} f) ∗ bigSep S (fun t => iprop(∃ f : Buf (Elt F) ℓ, ℓ ↦[K t]{q} f))) ⊢ _ from ?_)
    iintro ⟨⟨%ft, Ht⟩, HS⟩
    ihave H := (ih fun t₁ h₁ t₂ h₂ => h t₁ (Finset.mem_insert_of_mem h₁) t₂ (Finset.mem_insert_of_mem h₂)) $$ HS
    icases H with ⟨%g, HS⟩
    iexists (S.biUnion K).piecewise g ft
    iapply (pointsTo_join hd)
    isplitl [Ht]
    · iexact Ht
    · iexact HS

/-- The eight chunks of a buffer, each held in full with some contents, are the buffer held in full with some contents. -/
theorem chunks_join_ex {F : FTy → Type} [FloatOps F] (B : Memref sig .tc .vmem S8x64x512 .bf16) (c : Dev nD) :
    (bigSep Finset.univ fun k : Fin 8 => iprop(∃ f, ptsM (F := F) (chunkOf B k) c fullShare f) : sProp (MT nD τ sig Unit (Elt F) ℕ UU ℕ))
      ⊢ iprop(∃ f, ptsM (F := F) B c fullShare f) := by
  have key := pts_biUnion_exists (F := F) (ℓ := B.view.loc (c : Thread nD τ)) Finset.univ (fun k : Fin 8 => (chunkOf B k).view.set)
    fullShare (fun k _ k' _ h => chunk_disjoint B k k' h)
  rw [← chunks_cover B] at key
  exact key

/-! ## A region's share, halved -/

theorem pts_halve {F : FTy → Type} [FloatOps F] {sh : Shape} {e : EltTy} (M : Memref sig .tc .vmem sh e) (c : Dev nD)
    (f : Buf (Elt F) (M.view.loc (c : Thread nD τ))) :
    (ptsM M c fullShare f : sProp (MT nD τ sig Unit (Elt F) ℕ UU ℕ)) ⊢ iprop(ptsM M c fullShare.left f ∗ ptsM M c fullShare.right f) :=
  (pointsTo_share (PosShare.mem_left_op_right fullShare)).1

theorem pts_unhalve {F : FTy → Type} [FloatOps F] {sh : Shape} {e : EltTy} (M : Memref sig .tc .vmem sh e) (c : Dev nD)
    (f : Buf (Elt F) (M.view.loc (c : Thread nD τ))) :
    (iprop(ptsM M c fullShare.left f ∗ ptsM M c fullShare.right f) : sProp (MT nD τ sig Unit (Elt F) ℕ UU ℕ)) ⊢ ptsM M c fullShare f :=
  (pointsTo_share (PosShare.mem_left_op_right fullShare)).2

/-! ## The three buffers of the exchange -/

/-- The x-send buffer held whole is its points-to over all of its elements. -/
theorem sx_whole {F : FTy → Type} [FloatOps F] (c : Dev nD) (q : PosShare TreeShare)
    (f : Buf (Elt F) ((c : Thread nD τ).loc cc0_scratch2)) :
    (ptsM sxB c q f : sProp (MT nD τ sig Unit (Elt F) ℕ UU ℕ)) = ((c : Thread nD τ).loc cc0_scratch2 ↦{q} f) := by
  unfold ptsM
  rw [View.set_whole]

theorem sx_split {F : FTy → Type} [FloatOps F] (c : Dev nD) (q : PosShare TreeShare)
    (f : Buf (Elt F) ((c : Thread nD τ).loc cc0_scratch2)) :
    (((c : Thread nD τ).loc cc0_scratch2) ↦{q} f : sProp (MT nD τ sig Unit (Elt F) ℕ UU ℕ))
      ⊢ bigSep Finset.univ fun k : Fin 8 => ptsM (chunkOf sxB k) c q f := by
  rw [← sx_whole]
  exact chunks_split sxB c q f

theorem sx_join {F : FTy → Type} [FloatOps F] (c : Dev nD) (q : PosShare TreeShare)
    (f : Buf (Elt F) ((c : Thread nD τ).loc cc0_scratch2)) :
    (bigSep Finset.univ fun k : Fin 8 => ptsM (chunkOf sxB k) c q f : sProp (MT nD τ sig Unit (Elt F) ℕ UU ℕ))
      ⊢ ((c : Thread nD τ).loc cc0_scratch2) ↦{q} f := by
  rw [← sx_whole]
  exact chunks_join sxB c q f

theorem sx_join_ex {F : FTy → Type} [FloatOps F] (c : Dev nD) :
    (bigSep Finset.univ fun k : Fin 8 => iprop(∃ f, ptsM (F := F) (chunkOf sxB k) c fullShare f) : sProp (MT nD τ sig Unit (Elt F) ℕ UU ℕ))
      ⊢ iprop(∃ f : Buf (Elt F) ((c : Thread nD τ).loc cc0_scratch2), ((c : Thread nD τ).loc cc0_scratch2) ↦{fullShare} f) := by
  refine (chunks_join_ex (F := F) sxB c).trans ?_
  iintro ⟨%f, H⟩
  iexists f
  iapply (Entails.of_eq (sx_whole c fullShare f))
  iexact H

/-- The x-receive buffer held whole is its points-to over all of its elements. -/
theorem rx_whole {F : FTy → Type} [FloatOps F] (c : Dev nD) (q : PosShare TreeShare)
    (f : Buf (Elt F) ((c : Thread nD τ).loc cc0_scratch3)) :
    (ptsM rxB c q f : sProp (MT nD τ sig Unit (Elt F) ℕ UU ℕ)) = ((c : Thread nD τ).loc cc0_scratch3 ↦{q} f) := by
  unfold ptsM
  rw [View.set_whole]

theorem rx_split {F : FTy → Type} [FloatOps F] (c : Dev nD) (q : PosShare TreeShare)
    (f : Buf (Elt F) ((c : Thread nD τ).loc cc0_scratch3)) :
    (((c : Thread nD τ).loc cc0_scratch3) ↦{q} f : sProp (MT nD τ sig Unit (Elt F) ℕ UU ℕ))
      ⊢ bigSep Finset.univ fun k : Fin 8 => ptsM (chunkOf rxB k) c q f := by
  rw [← rx_whole]
  exact chunks_split rxB c q f

theorem rx_join {F : FTy → Type} [FloatOps F] (c : Dev nD) (q : PosShare TreeShare)
    (f : Buf (Elt F) ((c : Thread nD τ).loc cc0_scratch3)) :
    (bigSep Finset.univ fun k : Fin 8 => ptsM (chunkOf rxB k) c q f : sProp (MT nD τ sig Unit (Elt F) ℕ UU ℕ))
      ⊢ ((c : Thread nD τ).loc cc0_scratch3) ↦{q} f := by
  rw [← rx_whole]
  exact chunks_join rxB c q f

theorem rx_join_ex {F : FTy → Type} [FloatOps F] (c : Dev nD) :
    (bigSep Finset.univ fun k : Fin 8 => iprop(∃ f, ptsM (F := F) (chunkOf rxB k) c fullShare f) : sProp (MT nD τ sig Unit (Elt F) ℕ UU ℕ))
      ⊢ iprop(∃ f : Buf (Elt F) ((c : Thread nD τ).loc cc0_scratch3), ((c : Thread nD τ).loc cc0_scratch3) ↦{fullShare} f) := by
  refine (chunks_join_ex (F := F) rxB c).trans ?_
  iintro ⟨%f, H⟩
  iexists f
  iapply (Entails.of_eq (rx_whole c fullShare f))
  iexact H

/-- The y-receive buffer held whole is its points-to over all of its elements. -/
theorem rz_whole {F : FTy → Type} [FloatOps F] (c : Dev nD) (q : PosShare TreeShare)
    (f : Buf (Elt F) ((c : Thread nD τ).loc cc0_scratch4)) :
    (ptsM rzB c q f : sProp (MT nD τ sig Unit (Elt F) ℕ UU ℕ)) = ((c : Thread nD τ).loc cc0_scratch4 ↦{q} f) := by
  unfold ptsM
  rw [View.set_whole]

theorem rz_split {F : FTy → Type} [FloatOps F] (c : Dev nD) (q : PosShare TreeShare)
    (f : Buf (Elt F) ((c : Thread nD τ).loc cc0_scratch4)) :
    (((c : Thread nD τ).loc cc0_scratch4) ↦{q} f : sProp (MT nD τ sig Unit (Elt F) ℕ UU ℕ))
      ⊢ bigSep Finset.univ fun k : Fin 8 => ptsM (chunkOf rzB k) c q f := by
  rw [← rz_whole]
  exact chunks_split rzB c q f

theorem rz_join {F : FTy → Type} [FloatOps F] (c : Dev nD) (q : PosShare TreeShare)
    (f : Buf (Elt F) ((c : Thread nD τ).loc cc0_scratch4)) :
    (bigSep Finset.univ fun k : Fin 8 => ptsM (chunkOf rzB k) c q f : sProp (MT nD τ sig Unit (Elt F) ℕ UU ℕ))
      ⊢ ((c : Thread nD τ).loc cc0_scratch4) ↦{q} f := by
  rw [← rz_whole]
  exact chunks_join rzB c q f

theorem rz_join_ex {F : FTy → Type} [FloatOps F] (c : Dev nD) :
    (bigSep Finset.univ fun k : Fin 8 => iprop(∃ f, ptsM (F := F) (chunkOf rzB k) c fullShare f) : sProp (MT nD τ sig Unit (Elt F) ℕ UU ℕ))
      ⊢ iprop(∃ f : Buf (Elt F) ((c : Thread nD τ).loc cc0_scratch4), ((c : Thread nD τ).loc cc0_scratch4) ↦{fullShare} f) := by
  refine (chunks_join_ex (F := F) rzB c).trans ?_
  iintro ⟨%f, H⟩
  iexists f
  iapply (Entails.of_eq (rz_whole c fullShare f))
  iexact H

/-- info: 'Cert.Kernel.RS.chunks_split' depends on axioms: [propext, Classical.choice, Quot.sound] -/
#guard_msgs in #print axioms chunks_split
/-- info: 'Cert.Kernel.RS.chunks_join' depends on axioms: [propext, Classical.choice, Quot.sound] -/
#guard_msgs in #print axioms chunks_join
/-- info: 'Cert.Kernel.RS.chunks_join_ex' depends on axioms: [propext, Classical.choice, Quot.sound] -/
#guard_msgs in #print axioms chunks_join_ex
/-- info: 'Cert.Kernel.RS.pts_halve' depends on axioms: [propext, Classical.choice, Quot.sound] -/
#guard_msgs in #print axioms pts_halve
/-- info: 'Cert.Kernel.RS.pts_unhalve' depends on axioms: [propext, Classical.choice, Quot.sound] -/
#guard_msgs in #print axioms pts_unhalve
/-- info: 'Cert.Kernel.RS.sx_split' depends on axioms: [propext, Classical.choice, Quot.sound] -/
#guard_msgs in #print axioms sx_split
/-- info: 'Cert.Kernel.RS.sx_join' depends on axioms: [propext, Classical.choice, Quot.sound] -/
#guard_msgs in #print axioms sx_join
/-- info: 'Cert.Kernel.RS.sx_join_ex' depends on axioms: [propext, Classical.choice, Quot.sound] -/
#guard_msgs in #print axioms sx_join_ex
/-- info: 'Cert.Kernel.RS.rx_split' depends on axioms: [propext, Classical.choice, Quot.sound] -/
#guard_msgs in #print axioms rx_split
/-- info: 'Cert.Kernel.RS.rx_join' depends on axioms: [propext, Classical.choice, Quot.sound] -/
#guard_msgs in #print axioms rx_join
/-- info: 'Cert.Kernel.RS.rx_join_ex' depends on axioms: [propext, Classical.choice, Quot.sound] -/
#guard_msgs in #print axioms rx_join_ex
/-- info: 'Cert.Kernel.RS.rz_split' depends on axioms: [propext, Classical.choice, Quot.sound] -/
#guard_msgs in #print axioms rz_split
/-- info: 'Cert.Kernel.RS.rz_join' depends on axioms: [propext, Classical.choice, Quot.sound] -/
#guard_msgs in #print axioms rz_join
/-- info: 'Cert.Kernel.RS.rz_join_ex' depends on axioms: [propext, Classical.choice, Quot.sound] -/
#guard_msgs in #print axioms rz_join_ex

end Cert.Kernel.RS

end
-- ==== Proof.KRSWaits.lean ====
/-
  A device never waits below what it owes.

  What device `c` still owes at each of its waits, as the explicit left-nested sums the program's steps leave: before
  its x-send of chunk `j` it owes the x-peer chunks `j … 7` and the y-peer all eight forwards; before its forward of
  chunk `j` it owes the y-peer forwards `j … 7`. The barrier cell (level 1) is waited while all sixteen are owed, a
  local fetch (level 0) while some x-sends and all forwards are, an x-receive cell (level 2) while only forwards
  (level 3) are: every wait sits strictly below everything owed.
-/
import proofs.«901020_g7700000000001021_dist_rs_v7x_xyz2x2x2_x_m1024_n512_bf16_1_alg».proof.Proof.KRSProto

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- Owed to the y-peer before the forward of chunk `j`: forwards `j … 7`. -/
abbrev owZ (c : Dev nD) : Fin 8 → CellTallies nD τ sig Unit
  | 0 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N
  | 1 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N
  | 2 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N
  | 3 => tallyAt (qCell (py c) 3 7) () N + tallyAt (qCell (py c) 3 6) () N + tallyAt (qCell (py c) 3 5) () N + tallyAt (qCell (py c) 3 4) () N + tallyAt (qCell (py c) 3 3) () N
  | 4 => tallyAt (qCell (py c) 3 7) () N + tallyAt (qCell (py c) 3 6) () N + tallyAt (qCell (py c) 3 5) () N + tallyAt (qCell (py c) 3 4) () N
  | 5 => tallyAt (qCell (py c) 3 7) () N + tallyAt (qCell (py c) 3 6) () N + tallyAt (qCell (py c) 3 5) () N
  | 6 => tallyAt (qCell (py c) 3 7) () N + tallyAt (qCell (py c) 3 6) () N
  | 7 => tallyAt (qCell (py c) 3 7) () N

/-- Owed before the x-send of chunk `j`: all eight forwards and x-sends `j … 7`. -/
abbrev owX (c : Dev nD) : Fin 8 → CellTallies nD τ sig Unit
  | 0 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N + tallyAt (qCell (px c) 1 2) () N + tallyAt (qCell (px c) 1 1) () N + tallyAt (qCell (px c) 1 0) () N
  | 1 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N + tallyAt (qCell (px c) 1 2) () N + tallyAt (qCell (px c) 1 1) () N
  | 2 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N + tallyAt (qCell (px c) 1 2) () N
  | 3 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N
  | 4 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N
  | 5 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N
  | 6 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N
  | 7 => tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N

/-- Tallies all of which sit on TensorCore cells strictly above level `n`. -/
def OwedAbove (n : ℕ) (O : CellTallies nD τ sig Unit) : Prop :=
  ∀ (g : GSem nD τ sig) (u : Unit), 0 < O g u → g.1.2 = .tc ∧ n < lv g u

theorem OwedAbove.add {n : ℕ} {A B : CellTallies nD τ sig Unit} (hA : OwedAbove n A) (hB : OwedAbove n B) : OwedAbove n (A + B) :=
  fun g u h => (Pipeline.add_pos_cases h).elim (hA g u) (hB g u)

theorem OwedAbove.single (n : ℕ) (g₀ : GSem nD τ sig) (k : ℕ) (h1 : g₀.1.2 = .tc) (h2 : n < lv g₀ ()) : OwedAbove n (tallyAt g₀ () k) :=
  fun g u h => by
    rw [tallyAt_apply] at h
    by_cases hg : g = g₀ ∧ u = ()
    · rw [hg.1]; exact ⟨h1, h2⟩
    · rw [if_neg hg] at h; exact absurd h (Nat.lt_irrefl 0)

theorem OwedAbove.mono {n n' : ℕ} {O : CellTallies nD τ sig Unit} (hn : n' ≤ n) (h : OwedAbove n O) : OwedAbove n' O :=
  fun g u hg => ⟨(h g u hg).1, Nat.lt_of_le_of_lt hn (h g u hg).2⟩

/-- A y-receive cell sits at level 3, an x-receive cell at level 2. -/
theorem above_rz (c : Dev nD) (k : Fin 8) : OwedAbove 2 (tallyAt (qCell c 3 k) () N) :=
  OwedAbove.single 2 _ _ rfl (by rw [lv_q]; decide)
theorem above_rx (c : Dev nD) (k : Fin 8) : OwedAbove 1 (tallyAt (qCell c 1 k) () N) :=
  OwedAbove.single 1 _ _ rfl (by rw [lv_q]; decide)
theorem above_rz1 (c : Dev nD) (k : Fin 8) : OwedAbove 1 (tallyAt (qCell c 3 k) () N) := (above_rz c k).mono (by decide)

/-- While only forwards are owed, everything owed sits above level 2; -/
theorem above_owZ (c : Dev nD) : ∀ j : Fin 8, OwedAbove 2 (owZ c j)
  | 0 => (((((((above_rz (py c) 7).add (above_rz (py c) 6)).add (above_rz (py c) 5)).add (above_rz (py c) 4)).add (above_rz (py c) 3)).add (above_rz (py c) 2)).add (above_rz (py c) 1)).add (above_rz (py c) 0)
  | 1 => ((((((above_rz (py c) 7).add (above_rz (py c) 6)).add (above_rz (py c) 5)).add (above_rz (py c) 4)).add (above_rz (py c) 3)).add (above_rz (py c) 2)).add (above_rz (py c) 1)
  | 2 => (((((above_rz (py c) 7).add (above_rz (py c) 6)).add (above_rz (py c) 5)).add (above_rz (py c) 4)).add (above_rz (py c) 3)).add (above_rz (py c) 2)
  | 3 => ((((above_rz (py c) 7).add (above_rz (py c) 6)).add (above_rz (py c) 5)).add (above_rz (py c) 4)).add (above_rz (py c) 3)
  | 4 => (((above_rz (py c) 7).add (above_rz (py c) 6)).add (above_rz (py c) 5)).add (above_rz (py c) 4)
  | 5 => ((above_rz (py c) 7).add (above_rz (py c) 6)).add (above_rz (py c) 5)
  | 6 => (above_rz (py c) 7).add (above_rz (py c) 6)
  | 7 => above_rz (py c) 7

/-- with x-sends owed too, above level 1. -/
theorem above_owX (c : Dev nD) : ∀ j : Fin 8, OwedAbove 1 (owX c j)
  | 0 => (((((((((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)).add (above_rx (px c) 6)).add (above_rx (px c) 5)).add (above_rx (px c) 4)).add (above_rx (px c) 3)).add (above_rx (px c) 2)).add (above_rx (px c) 1)).add (above_rx (px c) 0)
  | 1 => ((((((((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)).add (above_rx (px c) 6)).add (above_rx (px c) 5)).add (above_rx (px c) 4)).add (above_rx (px c) 3)).add (above_rx (px c) 2)).add (above_rx (px c) 1)
  | 2 => (((((((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)).add (above_rx (px c) 6)).add (above_rx (px c) 5)).add (above_rx (px c) 4)).add (above_rx (px c) 3)).add (above_rx (px c) 2)
  | 3 => ((((((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)).add (above_rx (px c) 6)).add (above_rx (px c) 5)).add (above_rx (px c) 4)).add (above_rx (px c) 3)
  | 4 => (((((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)).add (above_rx (px c) 6)).add (above_rx (px c) 5)).add (above_rx (px c) 4)
  | 5 => ((((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)).add (above_rx (px c) 6)).add (above_rx (px c) 5)
  | 6 => (((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)).add (above_rx (px c) 6)
  | 7 => ((((((((above_rz1 (py c) 7).add (above_rz1 (py c) 6)).add (above_rz1 (py c) 5)).add (above_rz1 (py c) 4)).add (above_rz1 (py c) 3)).add (above_rz1 (py c) 2)).add (above_rz1 (py c) 1)).add (above_rz1 (py c) 0)).add (above_rx (px c) 7)

/-- The barrier wait, all sixteen transfers still owed. -/
theorem mayWait_bar {F : FTy → Type} [FloatOps F] (c : Dev nD) :
    (levAts L lv : sProp (MT nD τ sig Unit (Elt F) ℕ UU ℕ)) ⊢ MayWait (c : Thread nD τ) (.reg barS) () (owX c 0) :=
  mayWait_above c _ (owX c 0) 1 (lv_bar c).le (above_owX c 0)

/-- A wait on a cell of level 0 (a local fetch's semaphore) before the x-send of chunk `j`. -/
theorem mayWait_low {F : FTy → Type} [FloatOps F] (c : Dev nD) (sm : SemLoc sig) (hsm : lv ((c : Thread nD τ), sm) () = 0) (j : Fin 8) :
    (levAts L lv : sProp (MT nD τ sig Unit (Elt F) ℕ UU ℕ)) ⊢ MayWait (c : Thread nD τ) sm () (owX c j) :=
  mayWait_above c sm (owX c j) 0 hsm.le ((above_owX c j).mono (by decide))

/-- The same while only forwards are owed (the other-half fetch is waited after the last x-send, if it is waited while owing at all). -/
theorem mayWait_lowZ {F : FTy → Type} [FloatOps F] (c : Dev nD) (sm : SemLoc sig) (hsm : lv ((c : Thread nD τ), sm) () = 0) (j : Fin 8) :
    (levAts L lv : sProp (MT nD τ sig Unit (Elt F) ℕ UU ℕ)) ⊢ MayWait (c : Thread nD τ) sm () (owZ c j) :=
  mayWait_above c sm (owZ c j) 0 hsm.le ((above_owZ c j).mono (by decide))

/-- The wait for the x-peer's chunk `j`, forwards `j … 7` still owed. -/
theorem mayWait_rx {F : FTy → Type} [FloatOps F] (c : Dev nD) (j : Fin 8) :
    (levAts L lv : sProp (MT nD τ sig Unit (Elt F) ℕ UU ℕ)) ⊢ MayWait (c : Thread nD τ) (.dma (qS 1 j).sem) () (owZ c j) :=
  mayWait_above c _ (owZ c j) 2 (by rw [lv_q]; decide) (above_owZ c j)

/-- The local DMA semaphores (numbers 1 … 9: the eight row fetches' and the other-half fetch's) are at level 0. -/
theorem lv_local (c : Dev nD) (q : DmaSem sig) (hq : q.val < 10) : lv ((c : Thread nD τ), .dma q) () = 0 := by
  have hf : famOf (SemLoc.dma q : SemLoc sig) = none := by rw [famOf]; exact if_neg (Nat.not_le.mpr hq)
  dsimp only [lv]
  rw [if_neg (fun h => by cases h), hf]

/-- info: 'Cert.Kernel.RS.mayWait_bar' depends on axioms: [propext, Classical.choice, Quot.sound] -/
#guard_msgs in #print axioms mayWait_bar
/-- info: 'Cert.Kernel.RS.mayWait_low' depends on axioms: [propext, Classical.choice, Quot.sound] -/
#guard_msgs in #print axioms mayWait_low
/-- info: 'Cert.Kernel.RS.mayWait_lowZ' depends on axioms: [propext, Classical.choice, Quot.sound] -/
#guard_msgs in #print axioms mayWait_lowZ
/-- info: 'Cert.Kernel.RS.mayWait_rx' depends on axioms: [propext, Classical.choice, Quot.sound] -/
#guard_msgs in #print axioms mayWait_rx
/-- info: 'Cert.Kernel.RS.lv_local' depends on axioms: [propext, Classical.choice, Quot.sound] -/
#guard_msgs in #print axioms lv_local

end Cert.Kernel.RS

end
-- ==== Proof.KRSGeom.lean ====
/-
  Where the kernel's fetches out of a device's slab lie.

  The eight row fetches read rows `512·y + 64·k … + 63`, `k = 0 … 7`, of the slab, every column; the ninth reads the other
  row half, rows `512 − 512·y … + 511`, at the device's own columns. With `y ∈ {0, 1}` the two row ranges never meet, so
  the ninth rectangle shares no element with any of the eight.
-/
import proofs.«901020_g7700000000001021_dist_rs_v7x_xyz2x2x2_x_m1024_n512_bf16_1_alg».proof.Proof.KRSProto

noncomputable section

namespace Cert.Kernel.RS

open Cert.Kernel Cert.Kernel.Gen
open Idealize.ShloMosaic

/-- A rectangle of the slab, as elements of the slab. -/
theorem set_slice_arg0 (r : Rect S1x1024x1024) (h : ∀ a, r.stride a = 1) :
    ((Memref.whole main_arg0).slice r h).view.set = r.set := View.set_slice_whole main_arg0 r

/-- The other row half `[512 − 512·y, +512)` and the `k`-th 64-row block `[512·y + 64·k, +64)` of the own half never meet. -/
theorem other_disj (c : Dev nD) (r : Fin 8) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c (BitVec.ofNat 32 (64 * r.val))) S1x64x1024.size (k0_off1_inb c r)) (fun _ => rfl)).squeeze S64x1024 squeezes_S1x64x1024_S64x1024).view.set := by
  rw [Memref.set_view_squeeze, set_slice_arg0, set_slice_arg0]
  refine Rect.unit_disjoint 1 ?_
  rw [k0_off2_eq c, k0_off1_eq c r]
  have hr := r.isLt
  show 512 - 512 * ((c.val / 2) % 2) + 512 ≤ 512 * ((c.val / 2) % 2) + 64 * r.val
    ∨ 512 * ((c.val / 2) % 2) + 64 * r.val + 64 ≤ 512 - 512 * ((c.val / 2) % 2)
  omega

theorem other_disj_0 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 0#32) S1x64x1024.size (k0_off1_inb c 0)) (fun _ => rfl)).squeeze S64x1024 squeezes_S1x64x1024_S64x1024).view.set :=
  other_disj c 0

theorem other_disj_1 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 64#32) S1x64x1024.size (k0_off1_inb c 1)) (fun _ => rfl)).squeeze S64x1024 squeezes_S1x64x1024_S64x1024).view.set :=
  other_disj c 1

theorem other_disj_2 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 128#32) S1x64x1024.size (k0_off1_inb c 2)) (fun _ => rfl)).squeeze S64x1024 squeezes_S1x64x1024_S64x1024).view.set :=
  other_disj c 2

theorem other_disj_3 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 192#32) S1x64x1024.size (k0_off1_inb c 3)) (fun _ => rfl)).squeeze S64x1024 squeezes_S1x64x1024_S64x1024).view.set :=
  other_disj c 3

theorem other_disj_4 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 256#32) S1x64x1024.size (k0_off1_inb c 4)) (fun _ => rfl)).squeeze S64x1024 squeezes_S1x64x1024_S64x1024).view.set :=
  other_disj c 4

theorem other_disj_5 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 320#32) S1x64x1024.size (k0_off1_inb c 5)) (fun _ => rfl)).squeeze S64x1024 squeezes_S1x64x1024_S64x1024).view.set :=
  other_disj c 5

theorem other_disj_6 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 384#32) S1x64x1024.size (k0_off1_inb c 6)) (fun _ => rfl)).squeeze S64x1024 squeezes_S1x64x1024_S64x1024).view.set :=
  other_disj c 6

theorem other_disj_7 (c : Dev nD) :
    Disjoint
      ((Memref.whole main_arg0).slice (Rect.unit (s := S1x1024x1024) (k0_off2 c) S1x512x512.size (k0_off2_inb c)) (fun _ => rfl)).view.set
      (((Memref.whole main_arg0).slice (Rect.unit (s := S1x1024x1024) (k0_off1 c 448#32) S1x64x1024.size (k0_off1_inb c 7)) (fun _ => rfl)).squeeze S64x1024 squeezes_S1x64x1024_S64x1024).view.set :=
  other_disj c 7

/-- info: 'Cert.Kernel.RS.other_disj' depends on axioms: [propext, Classical.choice, Quot.sound] -/
#guard_msgs in #print axioms other_disj
/-- info: 'Cert.Kernel.RS.other_disj_0' depends on axioms: [propext, Classical.choice, Quot.sound] -/
#guard_msgs in #print axioms other_disj_0
/-- info: 'Cert.Kernel.RS.other_disj_1' depends on axioms: [propext, Classical.choice, Quot.sound] -/
#guard_msgs in #print axioms other_disj_1
/-- info: 'Cert.Kernel.RS.other_disj_2' depends on axioms: [propext, Classical.choice, Quot.sound] -/
#guard_msgs in #print axioms other_disj_2
/-- info: 'Cert.Kernel.RS.other_disj_3' depends on axioms: [propext, Classical.choice, Quot.sound] -/
#guard_msgs in #print axioms other_disj_3
/-- info: 'Cert.Kernel.RS.other_disj_4' depends on axioms: [propext, Classical.choice, Quot.sound] -/
#guard_msgs in #print axioms other_disj_4
/-- info: 'Cert.Kernel.RS.other_disj_5' depends on axioms: [propext, Classical.choice, Quot.sound] -/
#guard_msgs in #print axioms other_disj_5
/-- info: 'Cert.Kernel.RS.other_disj_6' depends on axioms: [propext, Classical.choice, Quot.sound] -/
#guard_msgs in #print axioms other_disj_6
/-- info: 'Cert.Kernel.RS.other_disj_7' depends on axioms: [propext, Classical.choice, Quot.sound] -/
#guard_msgs in #print axioms other_disj_7

end Cert.Kernel.RS

end
-- ==== Proof.KRSSteps.lean ====
/-
  The two remote copies of a chunk, as steps of one device's thread.

  A chunk of one exchange buffer copied into the same chunk of another carries its values index for index, the two
  chunks sitting at the same indices of two buffers of one shape. With that, the x-send of chunk `k` lands, on the
  x-peer, what this device sends (which is what the peer is to receive along x), and the forward of chunk `k` lands,
  on the y-peer, what this device received along x (which is what the peer is to receive along y). Each copy pays two
  duties: its send cell's, whose payload is the source chunk given back, and the peer's receive cell's, whose payload is
  the landed chunk with its contents named; the chunk's credit on the peer's receive cell comes off what the device owes.
-/
import proofs.«901020_g7700000000001021_dist_rs_v7x_xyz2x2x2_x_m1024_n512_bf16_1_alg».proof.Proof.KRSInv
import proofs.«901020_g7700000000001021_dist_rs_v7x_xyz2x2x2_x_m1024_n512_bf16_1_alg».proof.Proof.KRSChunks
import Idealize.ShloMosaic.Lib.Pipeline.Value

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A chunk copied between two of the exchange buffers at the same position -/

/-- A chunk of the x-send buffer copied into the same chunk of the x-receive buffer carries its values index for
    index: the two chunks sit at the same indices of two buffers of one shape. -/
theorem land_chunk_xx (k : Fin 8) (fd : (rxM k).view.ty.Contents (Elt F)) (fs : (sxM k).view.ty.Contents (Elt F))
    (G : FVec F S8x64x512 .bf16) (hfs : ∀ i ∈ (sxM k).view.set, fs i = G i) :
    ∀ i ∈ (rxM k).view.set, (rxM k).view.write (Elt F) fd ((sxM k).view.read (Elt F) fs) Finset.univ i = G i := by
  intro i hi
  obtain ⟨y, rfl⟩ := View.exists_emb_of_mem_set _ hi
  rw [View.write_emb_of_mem _ _ (Finset.mem_univ y), View.read_apply, hfs ((sxM k).view.emb y) (View.emb_mem_set _ y)]
  rfl

/-- The same from the x-receive buffer into the y-receive buffer. -/
theorem land_chunk_xz (k : Fin 8) (fd : (rzM k).view.ty.Contents (Elt F)) (fs : (rxM k).view.ty.Contents (Elt F))
    (G : FVec F S8x64x512 .bf16) (hfs : ∀ i ∈ (rxM k).view.set, fs i = G i) :
    ∀ i ∈ (rzM k).view.set, (rzM k).view.write (Elt F) fd ((rxM k).view.read (Elt F) fs) Finset.univ i = G i := by
  intro i hi
  obtain ⟨y, rfl⟩ := View.exists_emb_of_mem_set _ hi
  rw [View.write_emb_of_mem _ _ (Finset.mem_univ y), View.read_apply, hfs ((rxM k).view.emb y) (View.emb_mem_set _ y)]
  rfl

/-- What the x-peer receives along x is what this device sends; what the y-peer receives along y is what this device
    received along x. -/
theorem recvXC_px (X : Dev nD → FVec F S1x1024x1024 .f32) (c : Dev nD) : recvXC X (px c) = sendXC X c := by
  unfold recvXC; rw [px_px]
theorem recvZC_py (X : Dev nD → FVec F S1x1024x1024 .f32) (c : Dev nD) : recvZC X (py c) = recvXC X c := by
  unfold recvZC; rw [py_py]

/-! ## The two remote copies of a chunk -/

/-- The x-send of chunk `k`, addressed to `n`, the x-peer: the send cell gives the source chunk back, the peer's
    x-receive cell hands over the landed chunk holding what this device sends. -/
theorem wp_send_x (m : (ℓ : Loc nD τ sig) → Buf (Elt F) ℓ) (K : Dev nD × CK → ℕ) (c n : Dev nD) (hn : n = px c) (k : Fin 8)
    {hsc : (rxM k : Memref sig (Dev.tc n : Thread nD τ).2.kind .vmem S64x512 .bf16).view.ref.isScScratch = false}
    {hsrc : (sxM k : Memref sig .tc .vmem S64x512 .bf16).view.WordExact} {hdst : (rxM k : Memref sig .tc .vmem S64x512 .bf16).view.WordExact}
    {hsem : DmaTarget.Typed .vmem (.dma (qS 1 k).sem) (.remote (Dev.tc n : Thread nD τ) (rxM k : Memref sig .tc .vmem S64x512 .bf16) (.dma (qS 0 k).sem) hsc)}
    {α : Type} {Q : α → sProp 𝕄} {kont : PUnit → Prog (TpuEff nD τ sig (Elt F) Λ₀ .tc) α}
    (fs : Buf (Elt F) ((sxM k).view.loc (c : Thread nD τ))) (hfs : ∀ i ∈ (sxM k).view.set, fs i = sendXC (slabs m) c i)
    (fd : Buf (Elt F) ((rxM k).view.loc (px c : Thread nD τ)))
    {O₀ : CellTallies nD τ sig Unit} (O : CellTallies nD τ sig Unit) (hO : O₀ = O + tallyAt (qCell (px c) 1 k) () N) (W : Waits sig Unit) :
    iprop(cellInv ER (rsRd m) (K (c, some (0, k))) (qCell c 0 k) ∗ cellInv ER (rsRd m) (K (px c, some (1, k))) (qCell (px c) 1 k)
        ∗ ptsM (sxM k) c fullShare fs ∗ ptsM (rxM k) (px c) fullShare fd
        ∗ owes (c : Thread nD τ) O₀ W
        ∗ dutyTok ER (qCell c 0 k) 0 false ∗ reached ER (qCell c 0 k) 0
        ∗ dutyTok ER (qCell (px c) 1 k) 0 false ∗ reached ER (qCell (px c) 1 k) 0)
      ⊢ iprop(((cred (tallyAt (qCell c 0 k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sxM k) (.remote (Dev.tc n : Thread nD τ) (rxM k) (.dma (qS 0 k).sem) hsc) (.dma (qS 1 k).sem) hsrc hdst hsem) kont) Q) := by
  subst hn
  exact Rounds.wp_send_pointsTo 𝒱₀ ER (rsRd m) (c : Thread nD τ) none (κ₁ := K (c, some (0, k))) (κ₂ := K (px c, some (1, k)))
    (r₁ := 0) (r₂ := 0) (d₁ := false) (d₂ := false) (src := sxM k) (dst := rxM k) (q := fullShare) (fs := fs) (fd := fd)
    (c' := (px c : Thread nD τ))
    (by rw [duties_q]; exact Finset.mem_singleton_self _) (by rw [duties_q]; exact Finset.mem_singleton_self _)
    () () N rfl (amount_q m c 0 k false) (amount_q m (px c) 1 k false) O hO (W := W)
    (by rw [payload_q]; exact Entails.of_eq (pointsTo_congr hfs))
    (by
      rw [payload_q]
      refine Entails.of_eq (pointsTo_congr ?_)
      show ∀ i ∈ (rxM k).view.set, _ = recvXC (slabs m) (px c) i
      rw [recvXC_px]
      exact land_chunk_xx k fd fs _ hfs)

/-- The forward of chunk `k` to `n`, the y-peer: the source is the x-receive chunk at the canonical contents, lent at
    half share (the device keeps reading the other half); the send cell gives that half back, the peer's y-receive cell
    hands over the landed chunk holding what this device received along x. -/
theorem wp_send_z (m : (ℓ : Loc nD τ sig) → Buf (Elt F) ℓ) (K : Dev nD × CK → ℕ) (c n : Dev nD) (hn : n = py c) (k : Fin 8)
    {hsc : (rzM k : Memref sig (Dev.tc n : Thread nD τ).2.kind .vmem S64x512 .bf16).view.ref.isScScratch = false}
    {hsrc : (rxM k : Memref sig .tc .vmem S64x512 .bf16).view.WordExact} {hdst : (rzM k : Memref sig .tc .vmem S64x512 .bf16).view.WordExact}
    {hsem : DmaTarget.Typed .vmem (.dma (qS 3 k).sem) (.remote (Dev.tc n : Thread nD τ) (rzM k : Memref sig .tc .vmem S64x512 .bf16) (.dma (qS 2 k).sem) hsc)}
    {α : Type} {Q : α → sProp 𝕄} {kont : PUnit → Prog (TpuEff nD τ sig (Elt F) Λ₀ .tc) α}
    (fd : Buf (Elt F) ((rzM k).view.loc (py c : Thread nD τ)))
    {O₀ : CellTallies nD τ sig Unit} (O : CellTallies nD τ sig Unit) (hO : O₀ = O + tallyAt (qCell (py c) 3 k) () N) (W : Waits sig Unit) :
    iprop(cellInv ER (rsRd m) (K (c, some (2, k))) (qCell c 2 k) ∗ cellInv ER (rsRd m) (K (py c, some (3, k))) (qCell (py c) 3 k)
        ∗ ptsM (rxM k) c fullShare.left (recvXC (slabs m) c) ∗ ptsM (rzM k) (py c) fullShare fd
        ∗ owes (c : Thread nD τ) O₀ W
        ∗ dutyTok ER (qCell c 2 k) 0 false ∗ reached ER (qCell c 2 k) 0
        ∗ dutyTok ER (qCell (py c) 3 k) 0 false ∗ reached ER (qCell (py c) 3 k) 0)
      ⊢ iprop(((cred (tallyAt (qCell c 2 k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rxM k) (.remote (Dev.tc n : Thread nD τ) (rzM k) (.dma (qS 2 k).sem) hsc) (.dma (qS 3 k).sem) hsrc hdst hsem) kont) Q) := by
  subst hn
  exact Rounds.wp_send_pointsTo 𝒱₀ ER (rsRd m) (c : Thread nD τ) none (κ₁ := K (c, some (2, k))) (κ₂ := K (py c, some (3, k)))
    (r₁ := 0) (r₂ := 0) (d₁ := false) (d₂ := false) (src := rxM k) (dst := rzM k) (q := fullShare.left)
    (fs := recvXC (slabs m) c) (fd := fd) (c' := (py c : Thread nD τ))
    (by rw [duties_q]; exact Finset.mem_singleton_self _) (by rw [duties_q]; exact Finset.mem_singleton_self _)
    () () N rfl (amount_q m c 2 k false) (amount_q m (py c) 3 k false) O hO (W := W)
    (by rw [payload_q]; exact BI.Entails.refl _)
    (by
      rw [payload_q]
      refine Entails.of_eq (pointsTo_congr ?_)
      show ∀ i ∈ (rzM k).view.set, _ = recvZC (slabs m) (py c) i
      rw [recvZC_py]
      exact land_chunk_xz k fd (recvXC (slabs m) c) _ fun _ _ => rfl)

/-- info: 'Cert.Kernel.RS.wp_send_x' depends on axioms: [propext, Classical.choice, Quot.sound] -/
#guard_msgs in #print axioms wp_send_x

/-- info: 'Cert.Kernel.RS.wp_send_z' depends on axioms: [propext, Classical.choice, Quot.sound] -/
#guard_msgs in #print axioms wp_send_z

end Cert.Kernel.RS

end
-- ==== Proof.KRSBodyLemmas.lean ====
/-
  Book-keeping for one device's thread: sums over chunks and arrays written out, the records read cell by cell, a
  whole buffer spelt through its memref, the barrier round's payload with the peer of the peer resolved, the send
  buffer cut into its chunks, and the slab cut into read shares (one per local copy that reads it: the copies read
  disjoint rows at once, and none writes, so each takes a positive share of the whole).
-/
import proofs.«901020_g7700000000001021_dist_rs_v7x_xyz2x2x2_x_m1024_n512_bf16_1_alg».proof.Proof.KRSInv
import proofs.«901020_g7700000000001021_dist_rs_v7x_xyz2x2x2_x_m1024_n512_bf16_1_alg».proof.Proof.KRSChunks

noncomputable section

namespace Cert.Kernel.RS

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! Expanding the sums over chunks and arrays -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! The records, spelt by cell -/
theorem inv_bar (K : Dev nD × CK → ℕ) (d : Dev nD) : records m K ⊢ cellInv ER (rsRd m) (K (d, none)) (barCell d) := inv_at m K (d, none)
theorem inv_q (K : Dev nD × CK → ℕ) (d : Dev nD) (f : Fin 4) (k : Fin 8) : records m K ⊢ cellInv ER (rsRd m) (K (d, some (f, k))) (qCell d f k) := inv_at m K (d, some (f, k))
theorem reached_bar (K : Dev nD × CK → ℕ) (d : Dev nD) : records m K ⊢ reached ER (barCell d) 0 := reached_at m K (d, none)
theorem reached_q (K : Dev nD × CK → ℕ) (d : Dev nD) (f : Fin 4) (k : Fin 8) : records m K ⊢ reached ER (qCell d f k) 0 := reached_at m K (d, some (f, k))

/-! A whole buffer, spelt through its memref -/
theorem whole_pts (c : Dev nD) (b : Ref sig .tc) (q : PosShare TreeShare) (f : Buf (Elt F) ((c : Thread nD τ).loc b)) :
    (((c : Thread nD τ).loc b) ↦{q} f : sProp 𝕄) = ((Memref.whole b).view.loc (c : Thread nD τ) ↦[(Memref.whole b).view.set]{q} f : sProp 𝕄) := by
  have h : (Memref.whole b : Memref sig .tc _ _ _).view.set = Finset.univ := View.set_whole _
  rw [h]

/-! The peers' cells' payloads, the peer of the peer resolved -/
theorem payload_bar_px (c : Dev nD) : (rsRd (F := F) m).payload (barCell (px c)) 0 false
    = iprop((∃ f, ptsM (F := F) (rxM 0) c fullShare f) ∗ (∃ f, ptsM (F := F) (rxM 1) c fullShare f) ∗ (∃ f, ptsM (F := F) (rxM 2) c fullShare f) ∗ (∃ f, ptsM (F := F) (rxM 3) c fullShare f) ∗ (∃ f, ptsM (F := F) (rxM 4) c fullShare f) ∗ (∃ f, ptsM (F := F) (rxM 5) c fullShare f) ∗ (∃ f, ptsM (F := F) (rxM 6) c fullShare f) ∗ (∃ f, ptsM (F := F) (rxM 7) c fullShare f)) := by
  rw [payload_bar_false]; unfold barPayX; rw [bigSep_fin8, px_px]
theorem payload_bar_py (c : Dev nD) : (rsRd (F := F) m).payload (barCell (py c)) 0 true
    = iprop((∃ f, ptsM (F := F) (rzM 0) c fullShare f) ∗ (∃ f, ptsM (F := F) (rzM 1) c fullShare f) ∗ (∃ f, ptsM (F := F) (rzM 2) c fullShare f) ∗ (∃ f, ptsM (F := F) (rzM 3) c fullShare f) ∗ (∃ f, ptsM (F := F) (rzM 4) c fullShare f) ∗ (∃ f, ptsM (F := F) (rzM 5) c fullShare f) ∗ (∃ f, ptsM (F := F) (rzM 6) c fullShare f) ∗ (∃ f, ptsM (F := F) (rzM 7) c fullShare f)) := by
  rw [payload_bar_true]; unfold barPayY; rw [bigSep_fin8, py_py]
theorem payload_bar_false' (c : Dev nD) : (rsRd (F := F) m).payload (barCell c) 0 false
    = iprop((∃ f, ptsM (F := F) (rxM 0) (px c) fullShare f) ∗ (∃ f, ptsM (F := F) (rxM 1) (px c) fullShare f) ∗ (∃ f, ptsM (F := F) (rxM 2) (px c) fullShare f) ∗ (∃ f, ptsM (F := F) (rxM 3) (px c) fullShare f) ∗ (∃ f, ptsM (F := F) (rxM 4) (px c) fullShare f) ∗ (∃ f, ptsM (F := F) (rxM 5) (px c) fullShare f) ∗ (∃ f, ptsM (F := F) (rxM 6) (px c) fullShare f) ∗ (∃ f, ptsM (F := F) (rxM 7) (px c) fullShare f)) := by
  rw [payload_bar_false]; unfold barPayX; rw [bigSep_fin8]
theorem payload_bar_true' (c : Dev nD) : (rsRd (F := F) m).payload (barCell c) 0 true
    = iprop((∃ f, ptsM (F := F) (rzM 0) (py c) fullShare f) ∗ (∃ f, ptsM (F := F) (rzM 1) (py c) fullShare f) ∗ (∃ f, ptsM (F := F) (rzM 2) (py c) fullShare f) ∗ (∃ f, ptsM (F := F) (rzM 3) (py c) fullShare f) ∗ (∃ f, ptsM (F := F) (rzM 4) (py c) fullShare f) ∗ (∃ f, ptsM (F := F) (rzM 5) (py c) fullShare f) ∗ (∃ f, ptsM (F := F) (rzM 6) (py c) fullShare f) ∗ (∃ f, ptsM (F := F) (rzM 7) (py c) fullShare f)) := by
  rw [payload_bar_true]; unfold barPayY; rw [bigSep_fin8]

theorem bigSep_fin4x8 (Φ : Fin 4 × Fin 8 → sProp 𝕄) : bigSep Finset.univ Φ = iprop((Φ (0, 0) ∗ Φ (0, 1) ∗ Φ (0, 2) ∗ Φ (0, 3) ∗ Φ (0, 4) ∗ Φ (0, 5) ∗ Φ (0, 6) ∗ Φ (0, 7)) ∗ (Φ (1, 0) ∗ Φ (1, 1) ∗ Φ (1, 2) ∗ Φ (1, 3) ∗ Φ (1, 4) ∗ Φ (1, 5) ∗ Φ (1, 6) ∗ Φ (1, 7)) ∗ (Φ (2, 0) ∗ Φ (2, 1) ∗ Φ (2, 2) ∗ Φ (2, 3) ∗ Φ (2, 4) ∗ Φ (2, 5) ∗ Φ (2, 6) ∗ Φ (2, 7)) ∗ (Φ (3, 0) ∗ Φ (3, 1) ∗ Φ (3, 2) ∗ Φ (3, 3) ∗ Φ (3, 4) ∗ Φ (3, 5) ∗ Φ (3, 6) ∗ Φ (3, 7))) := by
  rw [bigSep_univ_prod, bigSep_fin4, bigSep_fin8, bigSep_fin8, bigSep_fin8, bigSep_fin8]

theorem rest_bar8 (c : Dev nD) : bigSep ((rsRd (F := F) m).duties (barCell c) 0 \ ∅) (fun d => (rsRd (F := F) m).payload (barCell c) 0 d)
    = iprop(((∃ f, ptsM (F := F) (rxM 0) (px c) fullShare f) ∗ (∃ f, ptsM (F := F) (rxM 1) (px c) fullShare f) ∗ (∃ f, ptsM (F := F) (rxM 2) (px c) fullShare f) ∗ (∃ f, ptsM (F := F) (rxM 3) (px c) fullShare f) ∗ (∃ f, ptsM (F := F) (rxM 4) (px c) fullShare f) ∗ (∃ f, ptsM (F := F) (rxM 5) (px c) fullShare f) ∗ (∃ f, ptsM (F := F) (rxM 6) (px c) fullShare f) ∗ (∃ f, ptsM (F := F) (rxM 7) (px c) fullShare f)) ∗ ((∃ f, ptsM (F := F) (rzM 0) (py c) fullShare f) ∗ (∃ f, ptsM (F := F) (rzM 1) (py c) fullShare f) ∗ (∃ f, ptsM (F := F) (rzM 2) (py c) fullShare f) ∗ (∃ f, ptsM (F := F) (rzM 3) (py c) fullShare f) ∗ (∃ f, ptsM (F := F) (rzM 4) (py c) fullShare f) ∗ (∃ f, ptsM (F := F) (rzM 5) (py c) fullShare f) ∗ (∃ f, ptsM (F := F) (rzM 6) (py c) fullShare f) ∗ (∃ f, ptsM (F := F) (rzM 7) (py c) fullShare f))) := by
  rw [rest_bar]; unfold barPayX barPayY; rw [bigSep_fin8, bigSep_fin8]

theorem sx_split8 (c : Dev nD) (f : Buf (Elt F) ((c : Thread nD τ).loc cc0_scratch2)) :
    (((c : Thread nD τ).loc cc0_scratch2) ↦{fullShare} f : sProp 𝕄) ⊢ iprop(ptsM (F := F) (sxM 0) c fullShare f ∗ ptsM (F := F) (sxM 1) c fullShare f ∗ ptsM (F := F) (sxM 2) c fullShare f ∗ ptsM (F := F) (sxM 3) c fullShare f ∗ ptsM (F := F) (sxM 4) c fullShare f ∗ ptsM (F := F) (sxM 5) c fullShare f ∗ ptsM (F := F) (sxM 6) c fullShare f ∗ ptsM (F := F) (sxM 7) c fullShare f) := by
  refine (sx_split (F := F) c fullShare f).trans ?_
  rw [bigSep_fin8]

theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- The slab, spelt through its memref at a share. -/
abbrev slabAtQ (c : Dev nD) (q : PosShare TreeShare) : sProp 𝕄 :=
  (Memref.whole main_arg0).view.loc (c : Thread nD τ) ↦[(Memref.whole main_arg0).view.set]{q} m ((c : Thread nD τ).loc main_arg0)

/-- The slab as ten read shares: one per DMA semaphore number that reads it, and the remainder. -/
theorem slab_toks (c : Dev nD) : slabAtQ m c fullShare
    ⊢ iprop(slabAtQ m c (Transfers.shareDrop fullShare 10) ∗ slabAtQ m c (Transfers.shareTok fullShare 10 0) ∗ slabAtQ m c (Transfers.shareTok fullShare 10 1) ∗ slabAtQ m c (Transfers.shareTok fullShare 10 2) ∗ slabAtQ m c (Transfers.shareTok fullShare 10 3) ∗ slabAtQ m c (Transfers.shareTok fullShare 10 4) ∗ slabAtQ m c (Transfers.shareTok fullShare 10 5) ∗ slabAtQ m c (Transfers.shareTok fullShare 10 6) ∗ slabAtQ m c (Transfers.shareTok fullShare 10 7) ∗ slabAtQ m c (Transfers.shareTok fullShare 10 8) ∗ slabAtQ m c (Transfers.shareTok fullShare 10 9)) :=
  (Transfers.pointsTo_toks_split (Ix := Unit) (Name := ℕ) (U := UU) (Lvl := ℕ) fullShare 10).trans
    (Entails.of_eq (by rw [bigSep_fin10]))
theorem slab_untoks (c : Dev nD) : iprop(slabAtQ m c (Transfers.shareDrop fullShare 10) ∗ slabAtQ m c (Transfers.shareTok fullShare 10 0) ∗ slabAtQ m c (Transfers.shareTok fullShare 10 1) ∗ slabAtQ m c (Transfers.shareTok fullShare 10 2) ∗ slabAtQ m c (Transfers.shareTok fullShare 10 3) ∗ slabAtQ m c (Transfers.shareTok fullShare 10 4) ∗ slabAtQ m c (Transfers.shareTok fullShare 10 5) ∗ slabAtQ m c (Transfers.shareTok fullShare 10 6) ∗ slabAtQ m c (Transfers.shareTok fullShare 10 7) ∗ slabAtQ m c (Transfers.shareTok fullShare 10 8) ∗ slabAtQ m c (Transfers.shareTok fullShare 10 9))
    ⊢ slabAtQ m c fullShare :=
  (Entails.of_eq (by rw [bigSep_fin10])).trans
    (Transfers.pointsTo_toks_join (Ix := Unit) (Name := ℕ) (U := UU) (Lvl := ℕ) fullShare 10)

theorem sx_join8 (c : Dev nD) (f : Buf (Elt F) ((c : Thread nD τ).loc cc0_scratch2)) :
    iprop(ptsM (F := F) (sxM 0) c fullShare f ∗ ptsM (F := F) (sxM 1) c fullShare f ∗ ptsM (F := F) (sxM 2) c fullShare f ∗ ptsM (F := F) (sxM 3) c fullShare f ∗ ptsM (F := F) (sxM 4) c fullShare f ∗ ptsM (F := F) (sxM 5) c fullShare f ∗ ptsM (F := F) (sxM 6) c fullShare f ∗ ptsM (F := F) (sxM 7) c fullShare f) ⊢ (((c : Thread nD τ).loc cc0_scratch2) ↦{fullShare} f : sProp 𝕄) := by
  have h := sx_join (F := F) c fullShare f
  rw [bigSep_fin8] at h
  exact h
theorem rx_join8 (c : Dev nD) (f : Buf (Elt F) ((c : Thread nD τ).loc cc0_scratch3)) :
    iprop(ptsM (F := F) (rxM 0) c fullShare f ∗ ptsM (F := F) (rxM 1) c fullShare f ∗ ptsM (F := F) (rxM 2) c fullShare f ∗ ptsM (F := F) (rxM 3) c fullShare f ∗ ptsM (F := F) (rxM 4) c fullShare f ∗ ptsM (F := F) (rxM 5) c fullShare f ∗ ptsM (F := F) (rxM 6) c fullShare f ∗ ptsM (F := F) (rxM 7) c fullShare f) ⊢ (((c : Thread nD τ).loc cc0_scratch3) ↦{fullShare} f : sProp 𝕄) := by
  have h := rx_join (F := F) c fullShare f
  rw [bigSep_fin8] at h
  exact h
theorem rz_join8 (c : Dev nD) (f : Buf (Elt F) ((c : Thread nD τ).loc cc0_scratch4)) :
    iprop(ptsM (F := F) (rzM 0) c fullShare f ∗ ptsM (F := F) (rzM 1) c fullShare f ∗ ptsM (F := F) (rzM 2) c fullShare f ∗ ptsM (F := F) (rzM 3) c fullShare f ∗ ptsM (F := F) (rzM 4) c fullShare f ∗ ptsM (F := F) (rzM 5) c fullShare f ∗ ptsM (F := F) (rzM 6) c fullShare f ∗ ptsM (F := F) (rzM 7) c fullShare f) ⊢ (((c : Thread nD τ).loc cc0_scratch4) ↦{fullShare} f : sProp 𝕄) := by
  have h := rz_join (F := F) c fullShare f
  rw [bigSep_fin8] at h
  exact h

/-- A cell's whole round, nothing taken yet: its one payload. -/
theorem full_q (c : Dev nD) (f : Fin 4) (k : Fin 8) :
    bigSep ((rsRd (F := F) m).duties (qCell c f k) 0) (fun d => (rsRd (F := F) m).payload (qCell c f k) 0 d) = famPay m c f k := by
  rw [duties_q, bigSep_singleton, payload_q]

/-- A returned value bound to its continuation is the continuation at the value. -/
theorem prog_ret_bind {E : Type → Type} {α β : Type} (a : α) (k : α → Prog E β) : (Prog.ret a).bind k = k a := rfl

end Cert.Kernel.RS

end
-- ==== Proof.KRSVals.lean ====
/-
  The values the kernel's body computes, as pure facts about contents.

  The eight row fetches land rows `512·y + 64·k … + 63` of the device's slab in the eight windows of the fetch buffer; every
  element of that buffer lies in exactly one window (the one its leading coordinate names), so after the eight landings it holds
  the own row half of the slab, whole. A `[1, 64, 512]` load out of it at `(k, 0, col)` reads those rows at columns
  `col … col + 511`: the peer's columns for the chunk sent along x (rounded to bf16 on the way into the x-send buffer), the
  own columns for the sum. The result buffer is written in sixteen blocks of 64 rows: the own row half holds the fetched entry
  plus the x-received one, the other row half the directly fetched entry plus the y-received one; every row lies in exactly
  one block, the received entry is in both cases the other slab's at the same place, and so the buffer ends as the result block.
-/
import proofs.«901020_g7700000000001021_dist_rs_v7x_xyz2x2x2_x_m1024_n512_bf16_1_alg».proof.Proof.KRSProto
import proofs.«901020_g7700000000001021_dist_rs_v7x_xyz2x2x2_x_m1024_n512_bf16_1_alg».proof.Proof.KRSChunks
import Idealize.ShloMosaic.Lib.Pipeline.Value
import Idealize.ShloMosaic.Lib.ValueIdx

noncomputable section

namespace Cert.Kernel.RS

open Cert.Kernel Cert.Kernel.Gen
open Idealize.ShloMosaic Idealize.ShloMosaic.ValueIdx

/-! ## Indices through a 64-row window with its unit leading axis dropped -/

/-- Through a 64-row window of a rank-3 buffer with its unit leading axis dropped, index `(r, q)` is the buffer's element
    `(off 0, off 1 + r, off 2 + q)`. -/
theorem emb_window {κ : Kind} {sp : Space} {e : EltTy} {d : Fin 3 → ℕ} (M : Memref sig κ sp ⟨3, d⟩ e) (off : Fin 3 → ℕ)
    (inb : ∀ a, off a + S1x64x1024.size a ≤ (⟨3, d⟩ : Shape).size a) (y : S64x1024.Idx) :
    ((M.slice (Rect.unit (s := ⟨3, d⟩) off S1x64x1024.size inb) (fun _ => rfl)).squeeze S64x1024 squeezes_S1x64x1024_S64x1024).view.emb y
      = M.view.emb ((Rect.unit (s := ⟨3, d⟩) off S1x64x1024.size inb).emb (ix3 (0 : Fin 1) (y 0) (y 1))) := by
  show M.view.emb ((Rect.unit (s := ⟨3, d⟩) off S1x64x1024.size inb).emb (Shape.reshapeEquiv _ y)) = _
  congr 2
  apply Shape.reshapeEquiv_eq_of_rowMajor
  rw [Shape.rowMajor_val_three, Shape.rowMajor_val_two]
  show (0 * 64 + (y 0).val) * 1024 + (y 1).val = (y 0).val * 1024 + (y 1).val
  omega

/-- Read through such a window, entry `(r, q)` is the memref's entry `(off 0, off 1 + r, off 2 + q)`. -/
theorem read_window {κ : Kind} {sp : Space} {e : EltTy} {d : Fin 3 → ℕ} {Val : EltTy → Type} (M : Memref sig κ sp ⟨3, d⟩ e) (off : Fin 3 → ℕ)
    (inb : ∀ a, off a + S1x64x1024.size a ≤ (⟨3, d⟩ : Shape).size a) (f : M.view.ty.Contents Val) (y : S64x1024.Idx)
    (j : (⟨3, d⟩ : Shape).Idx) (h0 : (j 0).val = off 0) (h1 : (j 1).val = off 1 + (y 0).val) (h2 : (j 2).val = off 2 + (y 1).val) :
    View.read Val ((M.slice (Rect.unit (s := ⟨3, d⟩) off S1x64x1024.size inb) (fun _ => rfl)).squeeze S64x1024 squeezes_S1x64x1024_S64x1024).view f y
      = View.read Val M.view f j := by
  have hj : (Rect.unit (s := ⟨3, d⟩) off S1x64x1024.size inb).emb (ix3 (0 : Fin 1) (y 0) (y 1)) = j := by
    funext a
    refine Fin.ext ?_
    match a with
    | ⟨0, _⟩ =>
      show off 0 + 1 * 0 = (j 0).val
      omega
    | ⟨1, _⟩ =>
      show off 1 + 1 * (y 0).val = (j 1).val
      omega
    | ⟨2, _⟩ =>
      show off 2 + 1 * (y 1).val = (j 2).val
      omega
  rw [View.read_apply, View.read_apply, emb_window, hj]

/-- A buffer read whole is its contents. -/
theorem read_whole_apply {κ : Kind} {Val : EltTy → Type} (b : Ref sig κ) (f : b.ty.Contents Val) (j : b.ty.shape.Idx) :
    View.read Val (Memref.whole b).view f j = f j := by
  rw [View.read_apply]
  exact cast_eq _ _

/-! ## What the eight row fetches land -/

/-- What fetch `k` lands: rows `512·y + 64·k … + 63` of the slab, every column. -/
def landF {F : FTy → Type} [FloatOps F] (c : Dev nD) (A : FVec F S1x1024x1024 .f32) (k : Fin 8) : FVec F S64x1024 .f32 :=
  (ReadAs.same (Val := Elt F)).apply (View.read (Elt F) (((Memref.whole main_arg0).slice (Rect.unit (s := S1x1024x1024) (k0_off1 c (BitVec.ofNat 32 (64 * k.val))) S1x64x1024.size (k0_off1_inb c k)) (fun _ => rfl)).squeeze S64x1024 squeezes_S1x64x1024_S64x1024).view A)

theorem landF_0 {F : FTy → Type} [FloatOps F] (c : Dev nD) (A : FVec F S1x1024x1024 .f32) :
    landF c A 0 = (ReadAs.same (Val := Elt F)).apply (View.read (Elt F) (((Memref.whole main_arg0).slice (Rect.unit (s := S1x1024x1024) (k0_off1 c 0#32) S1x64x1024.size (k0_off1_inb c 0)) (fun _ => rfl)).squeeze S64x1024 squeezes_S1x64x1024_S64x1024).view A) := rfl
theorem landF_1 {F : FTy → Type} [FloatOps F] (c : Dev nD) (A : FVec F S1x1024x1024 .f32) :
    landF c A 1 = (ReadAs.same (Val := Elt F)).apply (View.read (Elt F) (((Memref.whole main_arg0).slice (Rect.unit (s := S1x1024x1024) (k0_off1 c 64#32) S1x64x1024.size (k0_off1_inb c 1)) (fun _ => rfl)).squeeze S64x1024 squeezes_S1x64x1024_S64x1024).view A) := rfl
theorem landF_2 {F : FTy → Type} [FloatOps F] (c : Dev nD) (A : FVec F S1x1024x1024 .f32) :
    landF c A 2 = (ReadAs.same (Val := Elt F)).apply (View.read (Elt F) (((Memref.whole main_arg0).slice (Rect.unit (s := S1x1024x1024) (k0_off1 c 128#32) S1x64x1024.size (k0_off1_inb c 2)) (fun _ => rfl)).squeeze S64x1024 squeezes_S1x64x1024_S64x1024).view A) := rfl
theorem landF_3 {F : FTy → Type} [FloatOps F] (c : Dev nD) (A : FVec F S1x1024x1024 .f32) :
    landF c A 3 = (ReadAs.same (Val := Elt F)).apply (View.read (Elt F) (((Memref.whole main_arg0).slice (Rect.unit (s := S1x1024x1024) (k0_off1 c 192#32) S1x64x1024.size (k0_off1_inb c 3)) (fun _ => rfl)).squeeze S64x1024 squeezes_S1x64x1024_S64x1024).view A) := rfl
theorem landF_4 {F : FTy → Type} [FloatOps F] (c : Dev nD) (A : FVec F S1x1024x1024 .f32) :
    landF c A 4 = (ReadAs.same (Val := Elt F)).apply (View.read (Elt F) (((Memref.whole main_arg0).slice (Rect.unit (s := S1x1024x1024) (k0_off1 c 256#32) S1x64x1024.size (k0_off1_inb c 4)) (fun _ => rfl)).squeeze S64x1024 squeezes_S1x64x1024_S64x1024).view A) := rfl
theorem landF_5 {F : FTy → Type} [FloatOps F] (c : Dev nD) (A : FVec F S1x1024x1024 .f32) :
    landF c A 5 = (ReadAs.same (Val := Elt F)).apply (View.read (Elt F) (((Memref.whole main_arg0).slice (Rect.unit (s := S1x1024x1024) (k0_off1 c 320#32) S1x64x1024.size (k0_off1_inb c 5)) (fun _ => rfl)).squeeze S64x1024 squeezes_S1x64x1024_S64x1024).view A) := rfl
theorem landF_6 {F : FTy → Type} [FloatOps F] (c : Dev nD) (A : FVec F S1x1024x1024 .f32) :
    landF c A 6 = (ReadAs.same (Val := Elt F)).apply (View.read (Elt F) (((Memref.whole main_arg0).slice (Rect.unit (s := S1x1024x1024) (k0_off1 c 384#32) S1x64x1024.size (k0_off1_inb c 6)) (fun _ => rfl)).squeeze S64x1024 squeezes_S1x64x1024_S64x1024).view A) := rfl
theorem landF_7 {F : FTy → Type} [FloatOps F] (c : Dev nD) (A : FVec F S1x1024x1024 .f32) :
    landF c A 7 = (ReadAs.same (Val := Elt F)).apply (View.read (Elt F) (((Memref.whole main_arg0).slice (Rect.unit (s := S1x1024x1024) (k0_off1 c 448#32) S1x64x1024.size (k0_off1_inb c 7)) (fun _ => rfl)).squeeze S64x1024 squeezes_S1x64x1024_S64x1024).view A) := rfl

theorem landF_apply {F : FTy → Type} [FloatOps F] (c : Dev nD) (A : FVec F S1x1024x1024 .f32) (k : Fin 8) (y : S64x1024.Idx) :
    landF c A k y = slabAt A (512 * cy c + 64 * k.val + (y 0).val) (y 1).val := by
  have hy0 : (y 0).val < 64 := (y 0).isLt
  have hy1 : (y 1).val < 1024 := (y 1).isLt
  have hk : k.val < 8 := k.isLt
  have hc : c.val < 8 := c.isLt
  have e := read_window (Val := Elt F) (Memref.whole main_arg0) (k0_off1 c (BitVec.ofNat 32 (64 * k.val))) (k0_off1_inb c k) A y
    (ix3 (0 : Fin 1) (rd 1024 (by decide) (512 * cy c + 64 * k.val + (y 0).val)) (rd 1024 (by decide) (y 1).val))
  refine ((e ?_ ?_ ?_).trans ((read_whole_apply (Val := Elt F) main_arg0 A (ix3 (0 : Fin 1) (rd 1024 (by decide) (512 * cy c + 64 * k.val + (y 0).val)) (rd 1024 (by decide) (y 1).val))).trans rfl))
  · rw [k0_off1_eq c k]
    rfl
  · rw [k0_off1_eq c k]
    show (512 * cy c + 64 * k.val + (y 0).val) % 1024 = 512 * ((c.val / 2) % 2) + 64 * k.val + (y 0).val
    unfold cy
    omega
  · rw [k0_off1_eq c k]
    show (y 1).val % 1024 = 0 + (y 1).val
    omega

/-! ## The fetch buffer after the eight landings -/

theorem inbF : ∀ k : Fin 8, ∀ a, (![k.val, 0, 0] : Fin 3 → Nat) a + S1x64x1024.size a ≤ S8x64x1024.size a := by decide

/-- Window `k` of the fetch buffer: its rows `[k, 0 … 63, 0 … 1023]`. -/
def fwin (k : Fin 8) : View sig .tc .vmem S64x1024 .f32 :=
  (((Memref.whole cc0_scratch0).slice (Rect.unit (s := S8x64x1024) ![k.val, 0, 0] S1x64x1024.size (inbF k)) (fun _ => rfl)).squeeze S64x1024 squeezes_S1x64x1024_S64x1024).view

theorem fwin_emb (k : Fin 8) (y : S64x1024.Idx) :
    (fwin k).emb y = (ix3 (⟨k.val, k.isLt⟩ : Fin 8) (y 0) (y 1) : S8x64x1024.Idx) := by
  unfold fwin
  rw [emb_window]
  funext a
  refine Fin.ext ?_
  match a with
  | ⟨0, _⟩ =>
    show k.val + 1 * 0 = k.val
    omega
  | ⟨1, _⟩ =>
    show 0 + 1 * (y 0).val = (y 0).val
    omega
  | ⟨2, _⟩ =>
    show 0 + 1 * (y 1).val = (y 1).val
    omega

/-- A write through window `k` decides the elements whose leading coordinate is `k` … -/
theorem write_fwin_hit {Val : EltTy → Type} (k : Fin 8) (f : (fwin k).ty.Contents Val) (w : S64x1024.Idx → Val .f32) (i : S8x64x1024.Idx)
    (h : (i 0).val = k.val) : View.write Val (fwin k) f w Finset.univ i = w (ix2 (n0 := 64) (n1 := 1024) (i 1) (i 2)) := by
  have hi : (fwin k).emb (ix2 (n0 := 64) (n1 := 1024) (i 1) (i 2)) = i := by
    rw [fwin_emb]
    funext a
    refine Fin.ext ?_
    match a with
    | ⟨0, _⟩ => exact h.symm
    | ⟨1, _⟩ => rfl
    | ⟨2, _⟩ => rfl
  have e := View.write_emb_of_mem (v := fwin k) f w (Finset.mem_univ (ix2 (n0 := 64) (n1 := 1024) (i 1) (i 2)))
  rw [hi] at e
  exact e.trans (cast_eq _ _)

/-- … and leaves every other element as it was. -/
theorem write_fwin_miss {Val : EltTy → Type} (k : Fin 8) (f : (fwin k).ty.Contents Val) (w : S64x1024.Idx → Val .f32) (i : S8x64x1024.Idx)
    (h : (i 0).val ≠ k.val) : View.write Val (fwin k) f w Finset.univ i = f i := by
  refine View.write_of_not_mem f w Finset.univ fun hm => h ?_
  obtain ⟨y, hy⟩ := View.exists_emb_of_mem_set (fwin k) hm
  rw [fwin_emb] at hy
  rw [← hy]

/-- The fetch buffer after the eight landings, window 0 first. -/
def fbAll {F : FTy → Type} [FloatOps F] (c : Dev nD) (A : FVec F S1x1024x1024 .f32) (b0 : FVec F S8x64x1024 .f32) : FVec F S8x64x1024 .f32 :=
  View.write (Elt F) (((Memref.whole cc0_scratch0).slice (Rect.unit (s := S8x64x1024) ![7, 0, 0] S1x64x1024.size inb_S8x64x1024_S1x64x1024_7_0_0) (fun _ => rfl)).squeeze S64x1024 squeezes_S1x64x1024_S64x1024).view
      (View.write (Elt F) (((Memref.whole cc0_scratch0).slice (Rect.unit (s := S8x64x1024) ![6, 0, 0] S1x64x1024.size inb_S8x64x1024_S1x64x1024_6_0_0) (fun _ => rfl)).squeeze S64x1024 squeezes_S1x64x1024_S64x1024).view
      (View.write (Elt F) (((Memref.whole cc0_scratch0).slice (Rect.unit (s := S8x64x1024) ![5, 0, 0] S1x64x1024.size inb_S8x64x1024_S1x64x1024_5_0_0) (fun _ => rfl)).squeeze S64x1024 squeezes_S1x64x1024_S64x1024).view
      (View.write (Elt F) (((Memref.whole cc0_scratch0).slice (Rect.unit (s := S8x64x1024) ![4, 0, 0] S1x64x1024.size inb_S8x64x1024_S1x64x1024_4_0_0) (fun _ => rfl)).squeeze S64x1024 squeezes_S1x64x1024_S64x1024).view
      (View.write (Elt F) (((Memref.whole cc0_scratch0).slice (Rect.unit (s := S8x64x1024) ![3, 0, 0] S1x64x1024.size inb_S8x64x1024_S1x64x1024_3_0_0) (fun _ => rfl)).squeeze S64x1024 squeezes_S1x64x1024_S64x1024).view
      (View.write (Elt F) (((Memref.whole cc0_scratch0).slice (Rect.unit (s := S8x64x1024) ![2, 0, 0] S1x64x1024.size inb_S8x64x1024_S1x64x1024_2_0_0) (fun _ => rfl)).squeeze S64x1024 squeezes_S1x64x1024_S64x1024).view
      (View.write (Elt F) (((Memref.whole cc0_scratch0).slice (Rect.unit (s := S8x64x1024) ![1, 0, 0] S1x64x1024.size inb_S8x64x1024_S1x64x1024_1_0_0) (fun _ => rfl)).squeeze S64x1024 squeezes_S1x64x1024_S64x1024).view
      (View.write (Elt F) (((Memref.whole cc0_scratch0).slice (Rect.unit (s := S8x64x1024) ![0, 0, 0] S1x64x1024.size inb_S8x64x1024_S1x64x1024_0_0_0) (fun _ => rfl)).squeeze S64x1024 squeezes_S1x64x1024_S64x1024).view
      (b0)
      (landF c A 0) Finset.univ)
      (landF c A 1) Finset.univ)
      (landF c A 2) Finset.univ)
      (landF c A 3) Finset.univ)
      (landF c A 4) Finset.univ)
      (landF c A 5) Finset.univ)
      (landF c A 6) Finset.univ)
      (landF c A 7) Finset.univ

theorem fbAll_unfold {F : FTy → Type} [FloatOps F] (c : Dev nD) (A : FVec F S1x1024x1024 .f32) (b0 : FVec F S8x64x1024 .f32) :
    fbAll c A b0 = View.write (Elt F) (fwin 7) (View.write (Elt F) (fwin 6) (View.write (Elt F) (fwin 5) (View.write (Elt F) (fwin 4) (View.write (Elt F) (fwin 3) (View.write (Elt F) (fwin 2) (View.write (Elt F) (fwin 1) (View.write (Elt F) (fwin 0) (b0) (landF c A 0) Finset.univ) (landF c A 1) Finset.univ) (landF c A 2) Finset.univ) (landF c A 3) Finset.univ) (landF c A 4) Finset.univ) (landF c A 5) Finset.univ) (landF c A 6) Finset.univ) (landF c A 7) Finset.univ := rfl

/-- After the eight landings the fetch buffer holds the own row half of the slab, whole: every element lies in exactly one
    window, the one its leading coordinate names. -/
theorem fbAll_eq {F : FTy → Type} [FloatOps F] (X : Dev nD → FVec F S1x1024x1024 .f32) (c : Dev nD) (b0 : FVec F S8x64x1024 .f32) :
    fbAll c (X c) b0 = fetchC X c := by
  funext i
  rw [fbAll_unfold]
  have hi : (i 0).val < 8 := (i 0).isLt
  have key : ∀ k : Fin 8, (i 0).val = k.val → landF c (X c) k (ix2 (n0 := 64) (n1 := 1024) (i 1) (i 2)) = fetchC X c i := by
    intro k hk
    rw [landF_apply]
    show slabAt (X c) (512 * cy c + 64 * k.val + (i 1).val) (i 2).val = slabAt (X c) (512 * cy c + 64 * (i 0).val + (i 1).val) (i 2).val
    rw [hk]
  obtain h | h | h | h | h | h | h | h : (i 0).val = 0 ∨ (i 0).val = 1 ∨ (i 0).val = 2 ∨ (i 0).val = 3 ∨ (i 0).val = 4 ∨ (i 0).val = 5
      ∨ (i 0).val = 6 ∨ (i 0).val = 7 := by omega
  · exact ((write_fwin_miss 7 _ _ i (by rw [h]; decide)).trans ((write_fwin_miss 6 _ _ i (by rw [h]; decide)).trans ((write_fwin_miss 5 _ _ i (by rw [h]; decide)).trans ((write_fwin_miss 4 _ _ i (by rw [h]; decide)).trans ((write_fwin_miss 3 _ _ i (by rw [h]; decide)).trans ((write_fwin_miss 2 _ _ i (by rw [h]; decide)).trans ((write_fwin_miss 1 _ _ i (by rw [h]; decide)).trans (write_fwin_hit 0 _ _ i h)))))))).trans (key 0 h)
  · exact ((write_fwin_miss 7 _ _ i (by rw [h]; decide)).trans ((write_fwin_miss 6 _ _ i (by rw [h]; decide)).trans ((write_fwin_miss 5 _ _ i (by rw [h]; decide)).trans ((write_fwin_miss 4 _ _ i (by rw [h]; decide)).trans ((write_fwin_miss 3 _ _ i (by rw [h]; decide)).trans ((write_fwin_miss 2 _ _ i (by rw [h]; decide)).trans (write_fwin_hit 1 _ _ i h))))))).trans (key 1 h)
  · exact ((write_fwin_miss 7 _ _ i (by rw [h]; decide)).trans ((write_fwin_miss 6 _ _ i (by rw [h]; decide)).trans ((write_fwin_miss 5 _ _ i (by rw [h]; decide)).trans ((write_fwin_miss 4 _ _ i (by rw [h]; decide)).trans ((write_fwin_miss 3 _ _ i (by rw [h]; decide)).trans (write_fwin_hit 2 _ _ i h)))))).trans (key 2 h)
  · exact ((write_fwin_miss 7 _ _ i (by rw [h]; decide)).trans ((write_fwin_miss 6 _ _ i (by rw [h]; decide)).trans ((write_fwin_miss 5 _ _ i (by rw [h]; decide)).trans ((write_fwin_miss 4 _ _ i (by rw [h]; decide)).trans (write_fwin_hit 3 _ _ i h))))).trans (key 3 h)
  · exact ((write_fwin_miss 7 _ _ i (by rw [h]; decide)).trans ((write_fwin_miss 6 _ _ i (by rw [h]; decide)).trans ((write_fwin_miss 5 _ _ i (by rw [h]; decide)).trans (write_fwin_hit 4 _ _ i h)))).trans (key 4 h)
  · exact ((write_fwin_miss 7 _ _ i (by rw [h]; decide)).trans ((write_fwin_miss 6 _ _ i (by rw [h]; decide)).trans (write_fwin_hit 5 _ _ i h))).trans (key 5 h)
  · exact ((write_fwin_miss 7 _ _ i (by rw [h]; decide)).trans (write_fwin_hit 6 _ _ i h)).trans (key 6 h)
  · exact (write_fwin_hit 7 _ _ i h).trans (key 7 h)

/-! ## Loads out of the fetch buffer -/

/-- A load through a unit-stride rectangle of a buffer held whole reads the contents at the rectangle's offsets. -/
theorem readAt_whole_unit {κ : Kind} {Val : EltTy → Type} (b : Ref sig κ) (off size : Fin b.ty.shape.rank → ℕ)
    (inb : ∀ a, off a + size a ≤ b.ty.shape.size a) (f : b.ty.Contents Val) (y : (Rect.unit off size inb).shape.Idx)
    (j : b.ty.shape.Idx) (hj : ∀ a, (j a).val = off a + (y a).val) :
    View.readAt Val (Memref.whole b).view (Rect.unit off size inb).toLoadRect f y = f j := by
  rw [View.readAt_apply, read_whole_apply]
  congr 1
  funext a
  refine Fin.ext ?_
  rw [hj a]
  show off a + 1 * (y a).val = off a + (y a).val
  omega

/-- A `[1, 64, 512]` load at `(K, 0, col)` out of the fetch buffer: rows of chunk `K`, columns from `col`. -/
theorem ld_fetch {F : FTy → Type} [FloatOps F] (X : Dev nD → FVec F S1x1024x1024 .f32) (c : Dev nD) (off : Fin 3 → ℕ)
    (inb : ∀ a, off a + S1x64x512.size a ≤ S8x64x1024.size a) (K col : ℕ) (hK : K < 8) (hcol : col + 512 ≤ 1024)
    (hoff : off = ![K, 0, col]) (y : S1x64x512.Idx) :
    View.readAt (Elt F) (Memref.whole cc0_scratch0).view (Rect.unit (s := S8x64x1024) off S1x64x512.size inb).toLoadRect (fetchC X c) y
      = slabAt (X c) (512 * cy c + 64 * K + (y 1).val) (col + (y 2).val) := by
  have h0 : (y 0).val < 1 := (y 0).isLt
  have h1 : (y 1).val < 64 := (y 1).isLt
  have h2 : (y 2).val < 512 := (y 2).isLt
  subst hoff
  have hj : ∀ a : Fin 3, ((ix3 (⟨K, hK⟩ : Fin 8) (⟨(y 1).val, h1⟩ : Fin 64) (⟨col + (y 2).val, by omega⟩ : Fin 1024) : S8x64x1024.Idx) a).val
      = (![K, 0, col] : Fin 3 → ℕ) a + (y a).val := by
    intro a
    match a with
    | ⟨0, _⟩ =>
      show K = K + (y 0).val
      omega
    | ⟨1, _⟩ =>
      show (y 1).val = 0 + (y 1).val
      omega
    | ⟨2, _⟩ => rfl
  exact (readAt_whole_unit (Val := Elt F) cc0_scratch0 _ _ _ (fetchC X c) y _ hj).trans rfl

theorem ldP_0 {F : FTy → Type} [FloatOps F] (X : Dev nD → FVec F S1x1024x1024 .f32) (c : Dev nD) (y : S1x64x512.Idx) :
    View.readAt (Elt F) (Memref.whole cc0_scratch0).view (Rect.unit (s := S8x64x1024) (k0_off3 c) S1x64x512.size (k0_off3_inb c)).toLoadRect (fetchC X c) y
      = slabAt (X c) (512 * cy c + 64 * 0 + (y 1).val) (512 * (1 - cx c) + (y 2).val) := by
  have hc : c.val < 8 := c.isLt
  have e : 512 - 512 * (c.val / 4) = 512 * (1 - cx c) := by unfold cx; omega
  have := ld_fetch X c (k0_off3 c) (k0_off3_inb c) 0 (512 - 512 * (c.val / 4)) (by decide) (by omega) (k0_off3_eq c) y
  rw [e] at this
  exact this

theorem ldO_0 {F : FTy → Type} [FloatOps F] (X : Dev nD → FVec F S1x1024x1024 .f32) (c : Dev nD) (y : S1x64x512.Idx) :
    View.readAt (Elt F) (Memref.whole cc0_scratch0).view (Rect.unit (s := S8x64x1024) (k0_off11 c) S1x64x512.size (k0_off11_inb c)).toLoadRect (fetchC X c) y
      = slabAt (X c) (512 * cy c + 64 * 0 + (y 1).val) (512 * cx c + (y 2).val) := by
  have hc : c.val < 8 := c.isLt
  exact ld_fetch X c (k0_off11 c) (k0_off11_inb c) 0 (512 * (c.val / 4)) (by decide) (by omega) (k0_off11_eq c) y

theorem ldP_1 {F : FTy → Type} [FloatOps F] (X : Dev nD → FVec F S1x1024x1024 .f32) (c : Dev nD) (y : S1x64x512.Idx) :
    View.readAt (Elt F) (Memref.whole cc0_scratch0).view (Rect.unit (s := S8x64x1024) (k0_off4 c) S1x64x512.size (k0_off4_inb c)).toLoadRect (fetchC X c) y
      = slabAt (X c) (512 * cy c + 64 * 1 + (y 1).val) (512 * (1 - cx c) + (y 2).val) := by
  have hc : c.val < 8 := c.isLt
  have e : 512 - 512 * (c.val / 4) = 512 * (1 - cx c) := by unfold cx; omega
  have := ld_fetch X c (k0_off4 c) (k0_off4_inb c) 1 (512 - 512 * (c.val / 4)) (by decide) (by omega) (k0_off4_eq c) y
  rw [e] at this
  exact this

theorem ldO_1 {F : FTy → Type} [FloatOps F] (X : Dev nD → FVec F S1x1024x1024 .f32) (c : Dev nD) (y : S1x64x512.Idx) :
    View.readAt (Elt F) (Memref.whole cc0_scratch0).view (Rect.unit (s := S8x64x1024) (k0_off13 c) S1x64x512.size (k0_off13_inb c)).toLoadRect (fetchC X c) y
      = slabAt (X c) (512 * cy c + 64 * 1 + (y 1).val) (512 * cx c + (y 2).val) := by
  have hc : c.val < 8 := c.isLt
  exact ld_fetch X c (k0_off13 c) (k0_off13_inb c) 1 (512 * (c.val / 4)) (by decide) (by omega) (k0_off13_eq c) y

theorem ldP_2 {F : FTy → Type} [FloatOps F] (X : Dev nD → FVec F S1x1024x1024 .f32) (c : Dev nD) (y : S1x64x512.Idx) :
    View.readAt (Elt F) (Memref.whole cc0_scratch0).view (Rect.unit (s := S8x64x1024) (k0_off5 c) S1x64x512.size (k0_off5_inb c)).toLoadRect (fetchC X c) y
      = slabAt (X c) (512 * cy c + 64 * 2 + (y 1).val) (512 * (1 - cx c) + (y 2).val) := by
  have hc : c.val < 8 := c.isLt
  have e : 512 - 512 * (c.val / 4) = 512 * (1 - cx c) := by unfold cx; omega
  have := ld_fetch X c (k0_off5 c) (k0_off5_inb c) 2 (512 - 512 * (c.val / 4)) (by decide) (by omega) (k0_off5_eq c) y
  rw [e] at this
  exact this

theorem ldO_2 {F : FTy → Type} [FloatOps F] (X : Dev nD → FVec F S1x1024x1024 .f32) (c : Dev nD) (y : S1x64x512.Idx) :
    View.readAt (Elt F) (Memref.whole cc0_scratch0).view (Rect.unit (s := S8x64x1024) (k0_off14 c) S1x64x512.size (k0_off14_inb c)).toLoadRect (fetchC X c) y
      = slabAt (X c) (512 * cy c + 64 * 2 + (y 1).val) (512 * cx c + (y 2).val) := by
  have hc : c.val < 8 := c.isLt
  exact ld_fetch X c (k0_off14 c) (k0_off14_inb c) 2 (512 * (c.val / 4)) (by decide) (by omega) (k0_off14_eq c) y

theorem ldP_3 {F : FTy → Type} [FloatOps F] (X : Dev nD → FVec F S1x1024x1024 .f32) (c : Dev nD) (y : S1x64x512.Idx) :
    View.readAt (Elt F) (Memref.whole cc0_scratch0).view (Rect.unit (s := S8x64x1024) (k0_off6 c) S1x64x512.size (k0_off6_inb c)).toLoadRect (fetchC X c) y
      = slabAt (X c) (512 * cy c + 64 * 3 + (y 1).val) (512 * (1 - cx c) + (y 2).val) := by
  have hc : c.val < 8 := c.isLt
  have e : 512 - 512 * (c.val / 4) = 512 * (1 - cx c) := by unfold cx; omega
  have := ld_fetch X c (k0_off6 c) (k0_off6_inb c) 3 (512 - 512 * (c.val / 4)) (by decide) (by omega) (k0_off6_eq c) y
  rw [e] at this
  exact this

theorem ldO_3 {F : FTy → Type} [FloatOps F] (X : Dev nD → FVec F S1x1024x1024 .f32) (c : Dev nD) (y : S1x64x512.Idx) :
    View.readAt (Elt F) (Memref.whole cc0_scratch0).view (Rect.unit (s := S8x64x1024) (k0_off15 c) S1x64x512.size (k0_off15_inb c)).toLoadRect (fetchC X c) y
      = slabAt (X c) (512 * cy c + 64 * 3 + (y 1).val) (512 * cx c + (y 2).val) := by
  have hc : c.val < 8 := c.isLt
  exact ld_fetch X c (k0_off15 c) (k0_off15_inb c) 3 (512 * (c.val / 4)) (by decide) (by omega) (k0_off15_eq c) y

theorem ldP_4 {F : FTy → Type} [FloatOps F] (X : Dev nD → FVec F S1x1024x1024 .f32) (c : Dev nD) (y : S1x64x512.Idx) :
    View.readAt (Elt F) (Memref.whole cc0_scratch0).view (Rect.unit (s := S8x64x1024) (k0_off7 c) S1x64x512.size (k0_off7_inb c)).toLoadRect (fetchC X c) y
      = slabAt (X c) (512 * cy c + 64 * 4 + (y 1).val) (512 * (1 - cx c) + (y 2).val) := by
  have hc : c.val < 8 := c.isLt
  have e : 512 - 512 * (c.val / 4) = 512 * (1 - cx c) := by unfold cx; omega
  have := ld_fetch X c (k0_off7 c) (k0_off7_inb c) 4 (512 - 512 * (c.val / 4)) (by decide) (by omega) (k0_off7_eq c) y
  rw [e] at this
  exact this

theorem ldO_4 {F : FTy → Type} [FloatOps F] (X : Dev nD → FVec F S1x1024x1024 .f32) (c : Dev nD) (y : S1x64x512.Idx) :
    View.readAt (Elt F) (Memref.whole cc0_scratch0).view (Rect.unit (s := S8x64x1024) (k0_off16 c) S1x64x512.size (k0_off16_inb c)).toLoadRect (fetchC X c) y
      = slabAt (X c) (512 * cy c + 64 * 4 + (y 1).val) (512 * cx c + (y 2).val) := by
  have hc : c.val < 8 := c.isLt
  exact ld_fetch X c (k0_off16 c) (k0_off16_inb c) 4 (512 * (c.val / 4)) (by decide) (by omega) (k0_off16_eq c) y

theorem ldP_5 {F : FTy → Type} [FloatOps F] (X : Dev nD → FVec F S1x1024x1024 .f32) (c : Dev nD) (y : S1x64x512.Idx) :
    View.readAt (Elt F) (Memref.whole cc0_scratch0).view (Rect.unit (s := S8x64x1024) (k0_off8 c) S1x64x512.size (k0_off8_inb c)).toLoadRect (fetchC X c) y
      = slabAt (X c) (512 * cy c + 64 * 5 + (y 1).val) (512 * (1 - cx c) + (y 2).val) := by
  have hc : c.val < 8 := c.isLt
  have e : 512 - 512 * (c.val / 4) = 512 * (1 - cx c) := by unfold cx; omega
  have := ld_fetch X c (k0_off8 c) (k0_off8_inb c) 5 (512 - 512 * (c.val / 4)) (by decide) (by omega) (k0_off8_eq c) y
  rw [e] at this
  exact this

theorem ldO_5 {F : FTy → Type} [FloatOps F] (X : Dev nD → FVec F S1x1024x1024 .f32) (c : Dev nD) (y : S1x64x512.Idx) :
    View.readAt (Elt F) (Memref.whole cc0_scratch0).view (Rect.unit (s := S8x64x1024) (k0_off17 c) S1x64x512.size (k0_off17_inb c)).toLoadRect (fetchC X c) y
      = slabAt (X c) (512 * cy c + 64 * 5 + (y 1).val) (512 * cx c + (y 2).val) := by
  have hc : c.val < 8 := c.isLt
  exact ld_fetch X c (k0_off17 c) (k0_off17_inb c) 5 (512 * (c.val / 4)) (by decide) (by omega) (k0_off17_eq c) y

theorem ldP_6 {F : FTy → Type} [FloatOps F] (X : Dev nD → FVec F S1x1024x1024 .f32) (c : Dev nD) (y : S1x64x512.Idx) :
    View.readAt (Elt F) (Memref.whole cc0_scratch0).view (Rect.unit (s := S8x64x1024) (k0_off9 c) S1x64x512.size (k0_off9_inb c)).toLoadRect (fetchC X c) y
      = slabAt (X c) (512 * cy c + 64 * 6 + (y 1).val) (512 * (1 - cx c) + (y 2).val) := by
  have hc : c.val < 8 := c.isLt
  have e : 512 - 512 * (c.val / 4) = 512 * (1 - cx c) := by unfold cx; omega
  have := ld_fetch X c (k0_off9 c) (k0_off9_inb c) 6 (512 - 512 * (c.val / 4)) (by decide) (by omega) (k0_off9_eq c) y
  rw [e] at this
  exact this

theorem ldO_6 {F : FTy → Type} [FloatOps F] (X : Dev nD → FVec F S1x1024x1024 .f32) (c : Dev nD) (y : S1x64x512.Idx) :
    View.readAt (Elt F) (Memref.whole cc0_scratch0).view (Rect.unit (s := S8x64x1024) (k0_off18 c) S1x64x512.size (k0_off18_inb c)).toLoadRect (fetchC X c) y
      = slabAt (X c) (512 * cy c + 64 * 6 + (y 1).val) (512 * cx c + (y 2).val) := by
  have hc : c.val < 8 := c.isLt
  exact ld_fetch X c (k0_off18 c) (k0_off18_inb c) 6 (512 * (c.val / 4)) (by decide) (by omega) (k0_off18_eq c) y

theorem ldP_7 {F : FTy → Type} [FloatOps F] (X : Dev nD → FVec F S1x1024x1024 .f32) (c : Dev nD) (y : S1x64x512.Idx) :
    View.readAt (Elt F) (Memref.whole cc0_scratch0).view (Rect.unit (s := S8x64x1024) (k0_off10 c) S1x64x512.size (k0_off10_inb c)).toLoadRect (fetchC X c) y
      = slabAt (X c) (512 * cy c + 64 * 7 + (y 1).val) (512 * (1 - cx c) + (y 2).val) := by
  have hc : c.val < 8 := c.isLt
  have e : 512 - 512 * (c.val / 4) = 512 * (1 - cx c) := by unfold cx; omega
  have := ld_fetch X c (k0_off10 c) (k0_off10_inb c) 7 (512 - 512 * (c.val / 4)) (by decide) (by omega) (k0_off10_eq c) y
  rw [e] at this
  exact this

theorem ldO_7 {F : FTy → Type} [FloatOps F] (X : Dev nD → FVec F S1x1024x1024 .f32) (c : Dev nD) (y : S1x64x512.Idx) :
    View.readAt (Elt F) (Memref.whole cc0_scratch0).view (Rect.unit (s := S8x64x1024) (k0_off19 c) S1x64x512.size (k0_off19_inb c)).toLoadRect (fetchC X c) y
      = slabAt (X c) (512 * cy c + 64 * 7 + (y 1).val) (512 * cx c + (y 2).val) := by
  have hc : c.val < 8 := c.isLt
  exact ld_fetch X c (k0_off19 c) (k0_off19_inb c) 7 (512 * (c.val / 4)) (by decide) (by omega) (k0_off19_eq c) y

/-! ## The chunks stored into the x-send buffer -/

/-- Dropping the unit axis, rounding to bf16 and putting the axis back is rounding entry by entry. -/
theorem pay_trunc_eq {F : FTy → Type} [FloatOps F] (v : Vec F S1x64x512 .f32) :
    shapeCast S1x64x512 (truncf .bf16 (shapeCast S64x512 v shapeCasts_S1x64x512_S64x512) bitsLt_bf16_f32) shapeCasts_S64x512_S1x64x512
      = truncf .bf16 v bitsLt_bf16_f32 :=
  shapeCast_shapeCast (truncf .bf16 v bitsLt_bf16_f32) shapeCasts_S1x64x512_S64x512 shapeCasts_S64x512_S1x64x512

theorem k0_pay1_eq {F : FTy → Type} [FloatOps F] (v : Vec F S1x64x512 .f32) : k0_pay1 v = truncf .bf16 v bitsLt_bf16_f32 := pay_trunc_eq v
theorem k0_pay2_eq {F : FTy → Type} [FloatOps F] (v : Vec F S1x64x512 .f32) : k0_pay2 v = truncf .bf16 v bitsLt_bf16_f32 := pay_trunc_eq v
theorem k0_pay3_eq {F : FTy → Type} [FloatOps F] (v : Vec F S1x64x512 .f32) : k0_pay3 v = truncf .bf16 v bitsLt_bf16_f32 := pay_trunc_eq v
theorem k0_pay4_eq {F : FTy → Type} [FloatOps F] (v : Vec F S1x64x512 .f32) : k0_pay4 v = truncf .bf16 v bitsLt_bf16_f32 := pay_trunc_eq v
theorem k0_pay56_eq {F : FTy → Type} [FloatOps F] (v : Vec F S1x64x512 .f32) : k0_pay6 (k0_pay5 v) = truncf .bf16 v bitsLt_bf16_f32 := pay_trunc_eq v
theorem k0_pay7_eq {F : FTy → Type} [FloatOps F] (v : Vec F S1x64x512 .f32) : k0_pay7 v = truncf .bf16 v bitsLt_bf16_f32 := pay_trunc_eq v
theorem k0_pay8_eq {F : FTy → Type} [FloatOps F] (v : Vec F S1x64x512 .f32) : k0_pay8 v = truncf .bf16 v bitsLt_bf16_f32 := pay_trunc_eq v
theorem k0_pay9_eq {F : FTy → Type} [FloatOps F] (v : Vec F S1x64x512 .f32) : k0_pay9 v = truncf .bf16 v bitsLt_bf16_f32 := pay_trunc_eq v

/-- A write on every index through a unit-stride rectangle of a buffer held whole puts the payload's entry `y` at the
    element `off + y`. -/
theorem write_access_whole_hit {κ : Kind} {Val : EltTy → Type} (b : Ref sig κ) (off size : Fin b.ty.shape.rank → ℕ)
    (inb : ∀ a, off a + size a ≤ b.ty.shape.size a) (f : b.ty.Contents Val) (w : (Rect.unit off size inb).shape.Idx → Val b.ty.elt)
    (y : (Rect.unit off size inb).shape.Idx) (i : b.ty.shape.Idx) (hi : ∀ a, (i a).val = off a + (y a).val) :
    View.write Val ((Memref.whole b).access (Rect.unit off size inb)) f w Finset.univ i = w y := by
  have hy : ((Memref.whole b).access (Rect.unit off size inb)).emb y = i := by
    funext a
    refine Fin.ext ?_
    rw [hi a]
    show off a + 1 * (y a).val = off a + (y a).val
    omega
  have e := View.write_emb_of_mem (v := (Memref.whole b).access (Rect.unit off size inb)) f w (Finset.mem_univ y)
  rw [hy] at e
  exact e.trans (cast_eq _ _)

/-- Chunk `k` of the x-send buffer after the store of the rounded peer-column half of fetched chunk `k`. -/
theorem sx_store_gen {F : FTy → Type} [FloatOps F] (X : Dev nD → FVec F S1x1024x1024 .f32) (c : Dev nD) (k : Fin 8)
    (inb : ∀ a, (![k.val, 0, 0] : Fin 3 → ℕ) a + S1x64x512.size a ≤ S8x64x512.size a)
    (b2 : FVec F S8x64x512 .bf16) (v : Vec F S1x64x512 .f32)
    (hv : ∀ y : S1x64x512.Idx, v y = slabAt (X c) (512 * cy c + 64 * k.val + (y 1).val) (512 * (1 - cx c) + (y 2).val)) :
    ∀ i ∈ (sxM k).view.set,
      View.write (Elt F) ((Memref.whole cc0_scratch2).access (Rect.unit (s := S8x64x512) ![k.val, 0, 0] S1x64x512.size inb)) b2
        (truncf .bf16 v bitsLt_bf16_f32) Finset.univ i = sendXC X c i := by
  intro i hi
  have hi0 : (i 0).val = k.val := by
    rw [chunk_set] at hi
    obtain ⟨i', hi', rfl⟩ := Finset.mem_map.mp hi
    exact (mem_chunkRect k i').mp hi'
  have h1 : (i 1).val < 64 := (i 1).isLt
  have h2 : (i 2).val < 512 := (i 2).isLt
  have hj : ∀ a : Fin 3, (i a).val
      = (![k.val, 0, 0] : Fin 3 → ℕ) a + ((ix3 (0 : Fin 1) (⟨(i 1).val, h1⟩ : Fin 64) (⟨(i 2).val, h2⟩ : Fin 512) : S1x64x512.Idx) a).val := by
    intro a
    match a with
    | ⟨0, _⟩ =>
      show (i 0).val = k.val + 0
      omega
    | ⟨1, _⟩ =>
      show (i 1).val = 0 + (i 1).val
      omega
    | ⟨2, _⟩ =>
      show (i 2).val = 0 + (i 2).val
      omega
  have e := write_access_whole_hit (Val := Elt F) cc0_scratch2 (![k.val, 0, 0]) S1x64x512.size inb b2 (truncf .bf16 v bitsLt_bf16_f32)
    (ix3 (0 : Fin 1) (⟨(i 1).val, h1⟩ : Fin 64) (⟨(i 2).val, h2⟩ : Fin 512)) i hj
  have hs : sendXC X c i = FloatOps.truncf .bf16 bitsLt_bf16_f32
      (slabAt (X c) (512 * cy c + 64 * k.val + (i 1).val) (512 * (1 - cx c) + (i 2).val)) := by
    show FloatOps.truncf .bf16 bitsLt_bf16_f32
      (slabAt (X c) (512 * cy c + 64 * (i 0).val + (i 1).val) (512 * (1 - cx c) + (i 2).val)) = _
    rw [hi0]
  rw [hs]
  exact e.trans (congrArg (FloatOps.truncf .bf16 bitsLt_bf16_f32) (hv _))

theorem sx_store_0 {F : FTy → Type} [FloatOps F] (X : Dev nD → FVec F S1x1024x1024 .f32) (c : Dev nD)
    (b0 : FVec F S8x64x1024 .f32) (b2 : FVec F S8x64x512 .bf16) :
    ∀ i ∈ (sxM 0).view.set,
      View.write (Elt F) ((Memref.whole cc0_scratch2).access (Rect.unit (s := S8x64x512) ![0, 0, 0] S1x64x512.size inb_S8x64x512_S1x64x512_0_0_0)) b2
        (k0_pay1 (View.readAt (Elt F) (Memref.whole cc0_scratch0).view (Rect.unit (s := S8x64x1024) (k0_off3 c) S1x64x512.size (k0_off3_inb c)).toLoadRect (fbAll c (X c) b0))) Finset.univ i = sendXC X c i := by
  rw [fbAll_eq, k0_pay1_eq]
  exact sx_store_gen X c 0 inb_S8x64x512_S1x64x512_0_0_0 b2 _ (fun y => ldP_0 X c y)

theorem sx_store_1 {F : FTy → Type} [FloatOps F] (X : Dev nD → FVec F S1x1024x1024 .f32) (c : Dev nD)
    (b0 : FVec F S8x64x1024 .f32) (b2 : FVec F S8x64x512 .bf16) :
    ∀ i ∈ (sxM 1).view.set,
      View.write (Elt F) ((Memref.whole cc0_scratch2).access (Rect.unit (s := S8x64x512) ![1, 0, 0] S1x64x512.size inb_S8x64x512_S1x64x512_1_0_0)) b2
        (k0_pay2 (View.readAt (Elt F) (Memref.whole cc0_scratch0).view (Rect.unit (s := S8x64x1024) (k0_off4 c) S1x64x512.size (k0_off4_inb c)).toLoadRect (fbAll c (X c) b0))) Finset.univ i = sendXC X c i := by
  rw [fbAll_eq, k0_pay2_eq]
  exact sx_store_gen X c 1 inb_S8x64x512_S1x64x512_1_0_0 b2 _ (fun y => ldP_1 X c y)

theorem sx_store_2 {F : FTy → Type} [FloatOps F] (X : Dev nD → FVec F S1x1024x1024 .f32) (c : Dev nD)
    (b0 : FVec F S8x64x1024 .f32) (b2 : FVec F S8x64x512 .bf16) :
    ∀ i ∈ (sxM 2).view.set,
      View.write (Elt F) ((Memref.whole cc0_scratch2).access (Rect.unit (s := S8x64x512) ![2, 0, 0] S1x64x512.size inb_S8x64x512_S1x64x512_2_0_0)) b2
        (k0_pay3 (View.readAt (Elt F) (Memref.whole cc0_scratch0).view (Rect.unit (s := S8x64x1024) (k0_off5 c) S1x64x512.size (k0_off5_inb c)).toLoadRect (fbAll c (X c) b0))) Finset.univ i = sendXC X c i := by
  rw [fbAll_eq, k0_pay3_eq]
  exact sx_store_gen X c 2 inb_S8x64x512_S1x64x512_2_0_0 b2 _ (fun y => ldP_2 X c y)

theorem sx_store_3 {F : FTy → Type} [FloatOps F] (X : Dev nD → FVec F S1x1024x1024 .f32) (c : Dev nD)
    (b0 : FVec F S8x64x1024 .f32) (b2 : FVec F S8x64x512 .bf16) :
    ∀ i ∈ (sxM 3).view.set,
      View.write (Elt F) ((Memref.whole cc0_scratch2).access (Rect.unit (s := S8x64x512) ![3, 0, 0] S1x64x512.size inb_S8x64x512_S1x64x512_3_0_0)) b2
        (k0_pay4 (View.readAt (Elt F) (Memref.whole cc0_scratch0).view (Rect.unit (s := S8x64x1024) (k0_off6 c) S1x64x512.size (k0_off6_inb c)).toLoadRect (fbAll c (X c) b0))) Finset.univ i = sendXC X c i := by
  rw [fbAll_eq, k0_pay4_eq]
  exact sx_store_gen X c 3 inb_S8x64x512_S1x64x512_3_0_0 b2 _ (fun y => ldP_3 X c y)

theorem sx_store_4 {F : FTy → Type} [FloatOps F] (X : Dev nD → FVec F S1x1024x1024 .f32) (c : Dev nD)
    (b0 : FVec F S8x64x1024 .f32) (b2 : FVec F S8x64x512 .bf16) :
    ∀ i ∈ (sxM 4).view.set,
      View.write (Elt F) ((Memref.whole cc0_scratch2).access (Rect.unit (s := S8x64x512) ![4, 0, 0] S1x64x512.size inb_S8x64x512_S1x64x512_4_0_0)) b2
        (k0_pay6 (k0_pay5 (View.readAt (Elt F) (Memref.whole cc0_scratch0).view (Rect.unit (s := S8x64x1024) (k0_off7 c) S1x64x512.size (k0_off7_inb c)).toLoadRect (fbAll c (X c) b0)))) Finset.univ i = sendXC X c i := by
  rw [fbAll_eq, k0_pay56_eq]
  exact sx_store_gen X c 4 inb_S8x64x512_S1x64x512_4_0_0 b2 _ (fun y => ldP_4 X c y)

theorem sx_store_5 {F : FTy → Type} [FloatOps F] (X : Dev nD → FVec F S1x1024x1024 .f32) (c : Dev nD)
    (b0 : FVec F S8x64x1024 .f32) (b2 : FVec F S8x64x512 .bf16) :
    ∀ i ∈ (sxM 5).view.set,
      View.write (Elt F) ((Memref.whole cc0_scratch2).access (Rect.unit (s := S8x64x512) ![5, 0, 0] S1x64x512.size inb_S8x64x512_S1x64x512_5_0_0)) b2
        (k0_pay7 (View.readAt (Elt F) (Memref.whole cc0_scratch0).view (Rect.unit (s := S8x64x1024) (k0_off8 c) S1x64x512.size (k0_off8_inb c)).toLoadRect (fbAll c (X c) b0))) Finset.univ i = sendXC X c i := by
  rw [fbAll_eq, k0_pay7_eq]
  exact sx_store_gen X c 5 inb_S8x64x512_S1x64x512_5_0_0 b2 _ (fun y => ldP_5 X c y)

theorem sx_store_6 {F : FTy → Type} [FloatOps F] (X : Dev nD → FVec F S1x1024x1024 .f32) (c : Dev nD)
    (b0 : FVec F S8x64x1024 .f32) (b2 : FVec F S8x64x512 .bf16) :
    ∀ i ∈ (sxM 6).view.set,
      View.write (Elt F) ((Memref.whole cc0_scratch2).access (Rect.unit (s := S8x64x512) ![6, 0, 0] S1x64x512.size inb_S8x64x512_S1x64x512_6_0_0)) b2
        (k0_pay8 (View.readAt (Elt F) (Memref.whole cc0_scratch0).view (Rect.unit (s := S8x64x1024) (k0_off9 c) S1x64x512.size (k0_off9_inb c)).toLoadRect (fbAll c (X c) b0))) Finset.univ i = sendXC X c i := by
  rw [fbAll_eq, k0_pay8_eq]
  exact sx_store_gen X c 6 inb_S8x64x512_S1x64x512_6_0_0 b2 _ (fun y => ldP_6 X c y)

theorem sx_store_7 {F : FTy → Type} [FloatOps F] (X : Dev nD → FVec F S1x1024x1024 .f32) (c : Dev nD)
    (b0 : FVec F S8x64x1024 .f32) (b2 : FVec F S8x64x512 .bf16) :
    ∀ i ∈ (sxM 7).view.set,
      View.write (Elt F) ((Memref.whole cc0_scratch2).access (Rect.unit (s := S8x64x512) ![7, 0, 0] S1x64x512.size inb_S8x64x512_S1x64x512_7_0_0)) b2
        (k0_pay9 (View.readAt (Elt F) (Memref.whole cc0_scratch0).view (Rect.unit (s := S8x64x1024) (k0_off10 c) S1x64x512.size (k0_off10_inb c)).toLoadRect (fbAll c (X c) b0))) Finset.univ i = sendXC X c i := by
  rw [fbAll_eq, k0_pay9_eq]
  exact sx_store_gen X c 7 inb_S8x64x512_S1x64x512_7_0_0 b2 _ (fun y => ldP_7 X c y)

/-! ## The result buffer: sixteen stores of 64 rows -/

/-- A write on every index through a unit-stride rectangle of a buffer held whole leaves an element outside the rectangle
    (on some axis) as it was. -/
theorem write_access_whole_miss {κ : Kind} {Val : EltTy → Type} (b : Ref sig κ) (off size : Fin b.ty.shape.rank → ℕ)
    (inb : ∀ a, off a + size a ≤ b.ty.shape.size a) (f : b.ty.Contents Val) (w : (Rect.unit off size inb).shape.Idx → Val b.ty.elt)
    (i : b.ty.shape.Idx) (a : Fin b.ty.shape.rank) (h : (i a).val < off a ∨ off a + size a ≤ (i a).val) :
    View.write Val ((Memref.whole b).access (Rect.unit off size inb)) f w Finset.univ i = f i := by
  refine View.write_of_not_mem (v := (Memref.whole b).access (Rect.unit off size inb)) f w Finset.univ fun hm => ?_
  have hm2 : i ∈ ((View.whole b).slice (Rect.unit off size inb)).set := hm
  rw [View.set_slice_whole] at hm2
  have := (Rect.mem_set_unit.mp hm2) a
  omega

/-- Dropping the unit leading axis of a `[1, 64, 512]` vector: entry `(r, q)` is entry `(0, r, q)`. -/
theorem shapeCast_drop_apply {α : Type} (v : S1x64x512.Idx → α) (y2 : S64x512.Idx) :
    shapeCast S64x512 v shapeCasts_S1x64x512_S64x512 y2 = v (ix3 (0 : Fin 1) (y2 0) (y2 1)) := by
  refine shapeCast_apply v _ y2 _ ?_
  rw [Shape.rowMajor_val_three, Shape.rowMajor_val_two]
  show (0 * 64 + (y2 0).val) * 512 + (y2 1).val = (y2 0).val * 512 + (y2 1).val
  omega

/-- The value stored in the own row half: the fetched entry plus the x-received one, rounded. -/
def pA {F : FTy → Type} [FloatOps F] (vF : Vec F S1x64x512 .f32) (vR : Vec F S1x64x512 .bf16) : FVec F S64x512 .bf16 :=
  truncf .bf16 (addf (shapeCast S64x512 vF shapeCasts_S1x64x512_S64x512) (extf .f32 (shapeCast S64x512 vR shapeCasts_S1x64x512_S64x512) bitsLt_bf16_f32)) bitsLt_bf16_f32

/-- The value stored in the other row half: the other-half entry plus the y-received one, rounded. -/
def pB {F : FTy → Type} [FloatOps F] (vO : Vec F S64x512 .f32) (vZ : Vec F S1x64x512 .bf16) : FVec F S64x512 .bf16 :=
  truncf .bf16 (addf vO (extf .f32 (shapeCast S64x512 vZ shapeCasts_S1x64x512_S64x512) bitsLt_bf16_f32)) bitsLt_bf16_f32

theorem k0_pay10_eq {F : FTy → Type} [FloatOps F] (vF : Vec F S1x64x512 .f32) (vR : Vec F S1x64x512 .bf16) : k0_pay10 vF vR = pA vF vR := rfl
theorem k0_pay11_eq {F : FTy → Type} [FloatOps F] (vF : Vec F S1x64x512 .f32) (vR : Vec F S1x64x512 .bf16) : k0_pay11 vF vR = pA vF vR := rfl
theorem k0_pay12_eq {F : FTy → Type} [FloatOps F] (vF : Vec F S1x64x512 .f32) (vR : Vec F S1x64x512 .bf16) : k0_pay12 vF vR = pA vF vR := rfl
theorem k0_pay13_eq {F : FTy → Type} [FloatOps F] (vF : Vec F S1x64x512 .f32) (vR : Vec F S1x64x512 .bf16) : k0_pay13 vF vR = pA vF vR := rfl
theorem k0_pay14_eq {F : FTy → Type} [FloatOps F] (vF : Vec F S1x64x512 .f32) (vR : Vec F S1x64x512 .bf16) : k0_pay14 vF vR = pA vF vR := rfl
theorem k0_pay15_eq {F : FTy → Type} [FloatOps F] (vF : Vec F S1x64x512 .f32) (vR : Vec F S1x64x512 .bf16) : k0_pay15 vF vR = pA vF vR := rfl
theorem k0_pay16_eq {F : FTy → Type} [FloatOps F] (vF : Vec F S1x64x512 .f32) (vR : Vec F S1x64x512 .bf16) : k0_pay16 vF vR = pA vF vR := rfl
theorem k0_pay17_eq {F : FTy → Type} [FloatOps F] (vF : Vec F S1x64x512 .f32) (vR : Vec F S1x64x512 .bf16) : k0_pay17 vF vR = pA vF vR := rfl
theorem k0_pay18_eq {F : FTy → Type} [FloatOps F] (vO : Vec F S64x512 .f32) (vZ : Vec F S1x64x512 .bf16) : k0_pay18 vO vZ = pB vO vZ := rfl
theorem k0_pay19_eq {F : FTy → Type} [FloatOps F] (vO : Vec F S64x512 .f32) (vZ : Vec F S1x64x512 .bf16) : k0_pay19 vO vZ = pB vO vZ := rfl
theorem k0_pay20_eq {F : FTy → Type} [FloatOps F] (vO : Vec F S64x512 .f32) (vZ : Vec F S1x64x512 .bf16) : k0_pay20 vO vZ = pB vO vZ := rfl
theorem k0_pay21_eq {F : FTy → Type} [FloatOps F] (vO : Vec F S64x512 .f32) (vZ : Vec F S1x64x512 .bf16) : k0_pay21 vO vZ = pB vO vZ := rfl
theorem k0_pay22_eq {F : FTy → Type} [FloatOps F] (vO : Vec F S64x512 .f32) (vZ : Vec F S1x64x512 .bf16) : k0_pay22 vO vZ = pB vO vZ := rfl
theorem k0_pay23_eq {F : FTy → Type} [FloatOps F] (vO : Vec F S64x512 .f32) (vZ : Vec F S1x64x512 .bf16) : k0_pay23 vO vZ = pB vO vZ := rfl
theorem k0_pay24_eq {F : FTy → Type} [FloatOps F] (vO : Vec F S64x512 .f32) (vZ : Vec F S1x64x512 .bf16) : k0_pay24 vO vZ = pB vO vZ := rfl
theorem k0_pay25_eq {F : FTy → Type} [FloatOps F] (vO : Vec F S64x512 .f32) (vZ : Vec F S1x64x512 .bf16) : k0_pay25 vO vZ = pB vO vZ := rfl

theorem pA_apply {F : FTy → Type} [FloatOps F] (vF : Vec F S1x64x512 .f32) (vR : Vec F S1x64x512 .bf16) (y2 : S64x512.Idx) :
    pA vF vR y2 = FloatOps.truncf .bf16 bitsLt_bf16_f32 (FloatOps.addf (vF (ix3 (0 : Fin 1) (y2 0) (y2 1)))
      (FloatOps.extf .f32 bitsLt_bf16_f32 (vR (ix3 (0 : Fin 1) (y2 0) (y2 1))))) := by
  show FloatOps.truncf .bf16 bitsLt_bf16_f32 (FloatOps.addf (shapeCast S64x512 vF shapeCasts_S1x64x512_S64x512 y2)
      (FloatOps.extf .f32 bitsLt_bf16_f32 (shapeCast S64x512 vR shapeCasts_S1x64x512_S64x512 y2))) = _
  rw [shapeCast_drop_apply, shapeCast_drop_apply]

theorem pB_apply {F : FTy → Type} [FloatOps F] (vO : Vec F S64x512 .f32) (vZ : Vec F S1x64x512 .bf16) (y2 : S64x512.Idx) :
    pB vO vZ y2 = FloatOps.truncf .bf16 bitsLt_bf16_f32 (FloatOps.addf (vO y2)
      (FloatOps.extf .f32 bitsLt_bf16_f32 (vZ (ix3 (0 : Fin 1) (y2 0) (y2 1))))) := by
  show FloatOps.truncf .bf16 bitsLt_bf16_f32 (FloatOps.addf (vO y2)
      (FloatOps.extf .f32 bitsLt_bf16_f32 (shapeCast S64x512 vZ shapeCasts_S1x64x512_S64x512 y2))) = _
  rw [shapeCast_drop_apply]

/-- Store `k` of the own row half: rows `512·y + 64·k … + 63` of the result buffer. -/
def stA {F : FTy → Type} [FloatOps F] (c : Dev nD) (k : Fin 8) (prev : FVec F S1024x512 .bf16) (w : FVec F S64x512 .bf16) : FVec F S1024x512 .bf16 :=
  View.write (Elt F) ((Memref.whole cc0_stg0_0).access (Rect.unit (s := S1024x512) (k0_off12 c (BitVec.ofNat 32 (64 * k.val))) S64x512.size (k0_off12_inb c k))) prev w Finset.univ

/-- Store `k` of the other row half: rows `512·(1 − y) + 64·k … + 63`. -/
def stB {F : FTy → Type} [FloatOps F] (c : Dev nD) (k : Fin 8) (prev : FVec F S1024x512 .bf16) (w : FVec F S64x512 .bf16) : FVec F S1024x512 .bf16 :=
  View.write (Elt F) ((Memref.whole cc0_stg0_0).access (Rect.unit (s := S1024x512) (k0_off20 c (BitVec.ofNat 32 (64 * k.val))) S64x512.size (k0_off20_inb c k))) prev w Finset.univ

theorem stA_hit {F : FTy → Type} [FloatOps F] (c : Dev nD) (kn : ℕ) (hk : kn < 8) (prev : FVec F S1024x512 .bf16) (w : FVec F S64x512 .bf16)
    (i : S1024x512.Idx) (h1 : 512 * cy c + 64 * kn ≤ (i 0).val) (h2 : (i 0).val < 512 * cy c + 64 * kn + 64) :
    stA c ⟨kn, hk⟩ prev w i = w (ix2 (⟨(i 0).val - (512 * cy c + 64 * kn), by omega⟩ : Fin 64) (⟨(i 1).val, (i 1).isLt⟩ : Fin 512)) := by
  have hj : ∀ a : Fin 2, (i a).val = (k0_off12 c (BitVec.ofNat 32 (64 * (⟨kn, hk⟩ : Fin 8).val))) a
      + ((ix2 (⟨(i 0).val - (512 * cy c + 64 * kn), by omega⟩ : Fin 64) (⟨(i 1).val, (i 1).isLt⟩ : Fin 512) : S64x512.Idx) a).val := by
    intro a
    rw [k0_off12_eq c ⟨kn, hk⟩]
    match a with
    | ⟨0, _⟩ =>
      show (i 0).val = 512 * ((c.val / 2) % 2) + 64 * kn + ((i 0).val - (512 * cy c + 64 * kn))
      unfold cy at h1 h2 ⊢
      omega
    | ⟨1, _⟩ =>
      show (i 1).val = 0 + (i 1).val
      omega
  exact write_access_whole_hit (Val := Elt F) cc0_stg0_0 _ S64x512.size (k0_off12_inb c ⟨kn, hk⟩) prev w _ i hj

theorem stA_miss {F : FTy → Type} [FloatOps F] (c : Dev nD) (kn : ℕ) (hk : kn < 8) (prev : FVec F S1024x512 .bf16) (w : FVec F S64x512 .bf16)
    (i : S1024x512.Idx) (h : (i 0).val < 512 * cy c + 64 * kn ∨ 512 * cy c + 64 * kn + 64 ≤ (i 0).val) :
    stA c ⟨kn, hk⟩ prev w i = prev i := by
  refine write_access_whole_miss (Val := Elt F) cc0_stg0_0 _ S64x512.size (k0_off12_inb c ⟨kn, hk⟩) prev w i (⟨0, Nat.zero_lt_two⟩ : Fin 2) ?_
  rw [k0_off12_eq c ⟨kn, hk⟩]
  exact h

theorem stB_hit {F : FTy → Type} [FloatOps F] (c : Dev nD) (kn : ℕ) (hk : kn < 8) (prev : FVec F S1024x512 .bf16) (w : FVec F S64x512 .bf16)
    (i : S1024x512.Idx) (h1 : 512 * (1 - cy c) + 64 * kn ≤ (i 0).val) (h2 : (i 0).val < 512 * (1 - cy c) + 64 * kn + 64) :
    stB c ⟨kn, hk⟩ prev w i = w (ix2 (⟨(i 0).val - (512 * (1 - cy c) + 64 * kn), by omega⟩ : Fin 64) (⟨(i 1).val, (i 1).isLt⟩ : Fin 512)) := by
  have hj : ∀ a : Fin 2, (i a).val = (k0_off20 c (BitVec.ofNat 32 (64 * (⟨kn, hk⟩ : Fin 8).val))) a
      + ((ix2 (⟨(i 0).val - (512 * (1 - cy c) + 64 * kn), by omega⟩ : Fin 64) (⟨(i 1).val, (i 1).isLt⟩ : Fin 512) : S64x512.Idx) a).val := by
    intro a
    rw [k0_off20_eq c ⟨kn, hk⟩]
    match a with
    | ⟨0, _⟩ =>
      show (i 0).val = (64 * kn + 512) - 512 * ((c.val / 2) % 2) + ((i 0).val - (512 * (1 - cy c) + 64 * kn))
      unfold cy at h1 h2 ⊢
      omega
    | ⟨1, _⟩ =>
      show (i 1).val = 0 + (i 1).val
      omega
  exact write_access_whole_hit (Val := Elt F) cc0_stg0_0 _ S64x512.size (k0_off20_inb c ⟨kn, hk⟩) prev w _ i hj

theorem stB_miss {F : FTy → Type} [FloatOps F] (c : Dev nD) (kn : ℕ) (hk : kn < 8) (prev : FVec F S1024x512 .bf16) (w : FVec F S64x512 .bf16)
    (i : S1024x512.Idx) (h : (i 0).val < 512 * (1 - cy c) + 64 * kn ∨ 512 * (1 - cy c) + 64 * kn + 64 ≤ (i 0).val) :
    stB c ⟨kn, hk⟩ prev w i = prev i := by
  refine write_access_whole_miss (Val := Elt F) cc0_stg0_0 _ S64x512.size (k0_off20_inb c ⟨kn, hk⟩) prev w i (⟨0, Nat.zero_lt_two⟩ : Fin 2) ?_
  rw [k0_off20_eq c ⟨kn, hk⟩]
  show (i 0).val < (64 * kn + 512) - 512 * ((c.val / 2) % 2) ∨ (64 * kn + 512) - 512 * ((c.val / 2) % 2) + 64 ≤ (i 0).val
  unfold cy at h
  omega

/-- On the own row half the stored value is the result block's entry: the second summand's slab is the x-peer's. -/
theorem outA_val {F : FTy → Type} [FloatOps F] (X : Dev nD → FVec F S1x1024x1024 .f32) (c : Dev nD)
    (vF : Fin 8 → Vec F S1x64x512 .f32) (vR : Fin 8 → Vec F S1x64x512 .bf16)
    (hF : ∀ (K : Fin 8) (y : S1x64x512.Idx), vF K y = slabAt (X c) (512 * cy c + 64 * K.val + (y 1).val) (512 * cx c + (y 2).val))
    (hR : ∀ (K : Fin 8) (y : S1x64x512.Idx), vR K y = recvXC X c (ix3 K (y 1) (y 2)))
    (kn : ℕ) (hk : kn < 8) (i : S1024x512.Idx) (h1 : 512 * cy c + 64 * kn ≤ (i 0).val) (h2 : (i 0).val < 512 * cy c + 64 * kn + 64) :
    pA (vF ⟨kn, hk⟩) (vR ⟨kn, hk⟩) (ix2 (⟨(i 0).val - (512 * cy c + 64 * kn), by omega⟩ : Fin 64) (⟨(i 1).val, (i 1).isLt⟩ : Fin 512)) = outC X c i := by
  have hcx := cx_lt c
  have hcy := cy_lt c
  have e1 : 512 * cy c + 64 * kn + ((i 0).val - (512 * cy c + 64 * kn)) = (i 0).val := by omega
  have e2 : 1 - (1 - cx c) = cx c := by omega
  have e3 : srcDev c (i 0).val = px c := by
    unfold srcDev
    rw [if_pos (by omega)]
  rw [pA_apply, hF, hR]
  show FloatOps.truncf .bf16 bitsLt_bf16_f32 (FloatOps.addf
      (slabAt (X c) (512 * cy c + 64 * kn + ((i 0).val - (512 * cy c + 64 * kn))) (512 * cx c + (i 1).val))
      (FloatOps.extf .f32 bitsLt_bf16_f32 (FloatOps.truncf .bf16 bitsLt_bf16_f32
        (slabAt (X (px c)) (512 * cy (px c) + 64 * kn + ((i 0).val - (512 * cy c + 64 * kn))) (512 * (1 - cx (px c)) + (i 1).val)))))
    = FloatOps.truncf .bf16 bitsLt_bf16_f32 (FloatOps.addf (slabAt (X c) (i 0).val (512 * cx c + (i 1).val))
      (FloatOps.extf .f32 bitsLt_bf16_f32 (FloatOps.truncf .bf16 bitsLt_bf16_f32
        (slabAt (X (srcDev c (i 0).val)) (i 0).val (512 * cx c + (i 1).val)))))
  rw [cy_px, cx_px, e1, e2, e3]

/-- On the other row half likewise: the second summand's slab is the y-peer's x-peer's, the same slab. -/
theorem outB_val {F : FTy → Type} [FloatOps F] (X : Dev nD → FVec F S1x1024x1024 .f32) (c : Dev nD)
    (vO : Fin 8 → Vec F S64x512 .f32) (vZ : Fin 8 → Vec F S1x64x512 .bf16)
    (hO : ∀ (K : Fin 8) (y : S64x512.Idx), vO K y = slabAt (X c) (512 * (1 - cy c) + 64 * K.val + (y 0).val) (512 * cx c + (y 1).val))
    (hZ : ∀ (K : Fin 8) (y : S1x64x512.Idx), vZ K y = recvZC X c (ix3 K (y 1) (y 2)))
    (kn : ℕ) (hk : kn < 8) (i : S1024x512.Idx) (h1 : 512 * (1 - cy c) + 64 * kn ≤ (i 0).val) (h2 : (i 0).val < 512 * (1 - cy c) + 64 * kn + 64) :
    pB (vO ⟨kn, hk⟩) (vZ ⟨kn, hk⟩) (ix2 (⟨(i 0).val - (512 * (1 - cy c) + 64 * kn), by omega⟩ : Fin 64) (⟨(i 1).val, (i 1).isLt⟩ : Fin 512)) = outC X c i := by
  have hcx := cx_lt c
  have hcy := cy_lt c
  have e1 : 512 * (1 - cy c) + 64 * kn + ((i 0).val - (512 * (1 - cy c) + 64 * kn)) = (i 0).val := by omega
  have e2 : 1 - (1 - cx c) = cx c := by omega
  have e3 : srcDev c (i 0).val = px (py c) := by
    unfold srcDev
    rw [if_neg (by omega)]
  rw [pB_apply, hO, hZ]
  show FloatOps.truncf .bf16 bitsLt_bf16_f32 (FloatOps.addf
      (slabAt (X c) (512 * (1 - cy c) + 64 * kn + ((i 0).val - (512 * (1 - cy c) + 64 * kn))) (512 * cx c + (i 1).val))
      (FloatOps.extf .f32 bitsLt_bf16_f32 (FloatOps.truncf .bf16 bitsLt_bf16_f32
        (slabAt (X (px (py c))) (512 * cy (px (py c)) + 64 * kn + ((i 0).val - (512 * (1 - cy c) + 64 * kn))) (512 * (1 - cx (px (py c))) + (i 1).val)))))
    = FloatOps.truncf .bf16 bitsLt_bf16_f32 (FloatOps.addf (slabAt (X c) (i 0).val (512 * cx c + (i 1).val))
      (FloatOps.extf .f32 bitsLt_bf16_f32 (FloatOps.truncf .bf16 bitsLt_bf16_f32
        (slabAt (X (srcDev c (i 0).val)) (i 0).val (512 * cx c + (i 1).val)))))
  rw [cy_px, cy_py, cx_px, cx_py, e1, e2, e3]

/-- The result buffer after the sixteen stores, in program order: the own row half's eight, then the other half's eight. -/
def outAll {F : FTy → Type} [FloatOps F] (c : Dev nD) (g0 : FVec F S1024x512 .bf16) (vF : Fin 8 → Vec F S1x64x512 .f32)
    (vR : Fin 8 → Vec F S1x64x512 .bf16) (vO : Fin 8 → Vec F S64x512 .f32) (vZ : Fin 8 → Vec F S1x64x512 .bf16) : FVec F S1024x512 .bf16 :=
  View.write (Elt F) ((Memref.whole cc0_stg0_0).access (Rect.unit (s := S1024x512) (k0_off20 c 448#32) S64x512.size (k0_off20_inb c 7)))
      (View.write (Elt F) ((Memref.whole cc0_stg0_0).access (Rect.unit (s := S1024x512) (k0_off20 c 384#32) S64x512.size (k0_off20_inb c 6)))
      (View.write (Elt F) ((Memref.whole cc0_stg0_0).access (Rect.unit (s := S1024x512) (k0_off20 c 320#32) S64x512.size (k0_off20_inb c 5)))
      (View.write (Elt F) ((Memref.whole cc0_stg0_0).access (Rect.unit (s := S1024x512) (k0_off20 c 256#32) S64x512.size (k0_off20_inb c 4)))
      (View.write (Elt F) ((Memref.whole cc0_stg0_0).access (Rect.unit (s := S1024x512) (k0_off20 c 192#32) S64x512.size (k0_off20_inb c 3)))
      (View.write (Elt F) ((Memref.whole cc0_stg0_0).access (Rect.unit (s := S1024x512) (k0_off20 c 128#32) S64x512.size (k0_off20_inb c 2)))
      (View.write (Elt F) ((Memref.whole cc0_stg0_0).access (Rect.unit (s := S1024x512) (k0_off20 c 64#32) S64x512.size (k0_off20_inb c 1)))
      (View.write (Elt F) ((Memref.whole cc0_stg0_0).access (Rect.unit (s := S1024x512) (k0_off20 c 0#32) S64x512.size (k0_off20_inb c 0)))
      (View.write (Elt F) ((Memref.whole cc0_stg0_0).access (Rect.unit (s := S1024x512) (k0_off12 c 448#32) S64x512.size (k0_off12_inb c 7)))
      (View.write (Elt F) ((Memref.whole cc0_stg0_0).access (Rect.unit (s := S1024x512) (k0_off12 c 384#32) S64x512.size (k0_off12_inb c 6)))
      (View.write (Elt F) ((Memref.whole cc0_stg0_0).access (Rect.unit (s := S1024x512) (k0_off12 c 320#32) S64x512.size (k0_off12_inb c 5)))
      (View.write (Elt F) ((Memref.whole cc0_stg0_0).access (Rect.unit (s := S1024x512) (k0_off12 c 256#32) S64x512.size (k0_off12_inb c 4)))
      (View.write (Elt F) ((Memref.whole cc0_stg0_0).access (Rect.unit (s := S1024x512) (k0_off12 c 192#32) S64x512.size (k0_off12_inb c 3)))
      (View.write (Elt F) ((Memref.whole cc0_stg0_0).access (Rect.unit (s := S1024x512) (k0_off12 c 128#32) S64x512.size (k0_off12_inb c 2)))
      (View.write (Elt F) ((Memref.whole cc0_stg0_0).access (Rect.unit (s := S1024x512) (k0_off12 c 64#32) S64x512.size (k0_off12_inb c 1)))
      (View.write (Elt F) ((Memref.whole cc0_stg0_0).access (Rect.unit (s := S1024x512) (k0_off12 c 0#32) S64x512.size (k0_off12_inb c 0)))
      (g0)
      (k0_pay10 (vF 0) (vR 0)) Finset.univ)
      (k0_pay11 (vF 1) (vR 1)) Finset.univ)
      (k0_pay12 (vF 2) (vR 2)) Finset.univ)
      (k0_pay13 (vF 3) (vR 3)) Finset.univ)
      (k0_pay14 (vF 4) (vR 4)) Finset.univ)
      (k0_pay15 (vF 5) (vR 5)) Finset.univ)
      (k0_pay16 (vF 6) (vR 6)) Finset.univ)
      (k0_pay17 (vF 7) (vR 7)) Finset.univ)
      (k0_pay18 (vO 0) (vZ 0)) Finset.univ)
      (k0_pay19 (vO 1) (vZ 1)) Finset.univ)
      (k0_pay20 (vO 2) (vZ 2)) Finset.univ)
      (k0_pay21 (vO 3) (vZ 3)) Finset.univ)
      (k0_pay22 (vO 4) (vZ 4)) Finset.univ)
      (k0_pay23 (vO 5) (vZ 5)) Finset.univ)
      (k0_pay24 (vO 6) (vZ 6)) Finset.univ)
      (k0_pay25 (vO 7) (vZ 7)) Finset.univ

theorem outAll_unfold {F : FTy → Type} [FloatOps F] (c : Dev nD) (g0 : FVec F S1024x512 .bf16) (vF : Fin 8 → Vec F S1x64x512 .f32)
    (vR : Fin 8 → Vec F S1x64x512 .bf16) (vO : Fin 8 → Vec F S64x512 .f32) (vZ : Fin 8 → Vec F S1x64x512 .bf16) :
    outAll c g0 vF vR vO vZ = stB c (⟨7, by decide⟩ : Fin 8) (stB c (⟨6, by decide⟩ : Fin 8) (stB c (⟨5, by decide⟩ : Fin 8) (stB c (⟨4, by decide⟩ : Fin 8) (stB c (⟨3, by decide⟩ : Fin 8) (stB c (⟨2, by decide⟩ : Fin 8) (stB c (⟨1, by decide⟩ : Fin 8) (stB c (⟨0, by decide⟩ : Fin 8) (stA c (⟨7, by decide⟩ : Fin 8) (stA c (⟨6, by decide⟩ : Fin 8) (stA c (⟨5, by decide⟩ : Fin 8) (stA c (⟨4, by decide⟩ : Fin 8) (stA c (⟨3, by decide⟩ : Fin 8) (stA c (⟨2, by decide⟩ : Fin 8) (stA c (⟨1, by decide⟩ : Fin 8) (stA c (⟨0, by decide⟩ : Fin 8) (g0) (pA (vF 0) (vR 0))) (pA (vF 1) (vR 1))) (pA (vF 2) (vR 2))) (pA (vF 3) (vR 3))) (pA (vF 4) (vR 4))) (pA (vF 5) (vR 5))) (pA (vF 6) (vR 6))) (pA (vF 7) (vR 7))) (pB (vO 0) (vZ 0))) (pB (vO 1) (vZ 1))) (pB (vO 2) (vZ 2))) (pB (vO 3) (vZ 3))) (pB (vO 4) (vZ 4))) (pB (vO 5) (vZ 5))) (pB (vO 6) (vZ 6))) (pB (vO 7) (vZ 7)) := rfl

/-- After the sixteen stores the result buffer is the result block: every row lies in exactly one of the sixteen 64-row
    blocks, and on it the last store that covers it decides. -/
theorem outAll_eq {F : FTy → Type} [FloatOps F] (X : Dev nD → FVec F S1x1024x1024 .f32) (c : Dev nD) (g0 : FVec F S1024x512 .bf16)
    (vF : Fin 8 → Vec F S1x64x512 .f32) (vR : Fin 8 → Vec F S1x64x512 .bf16) (vO : Fin 8 → Vec F S64x512 .f32) (vZ : Fin 8 → Vec F S1x64x512 .bf16)
    (hF : ∀ (K : Fin 8) (y : S1x64x512.Idx), vF K y = slabAt (X c) (512 * cy c + 64 * K.val + (y 1).val) (512 * cx c + (y 2).val))
    (hR : ∀ (K : Fin 8) (y : S1x64x512.Idx), vR K y = recvXC X c (ix3 K (y 1) (y 2)))
    (hO : ∀ (K : Fin 8) (y : S64x512.Idx), vO K y = slabAt (X c) (512 * (1 - cy c) + 64 * K.val + (y 0).val) (512 * cx c + (y 1).val))
    (hZ : ∀ (K : Fin 8) (y : S1x64x512.Idx), vZ K y = recvZC X c (ix3 K (y 1) (y 2))) :
    outAll c g0 vF vR vO vZ = outC X c := by
  funext i
  rw [outAll_unfold]
  have hr : (i 0).val < 1024 := (i 0).isLt
  have hcy := cy_lt c
  have hcases : ((512 * cy c + 64 * 0 ≤ (i 0).val ∧ (i 0).val < 512 * cy c + 64 * 0 + 64) ∨ (512 * cy c + 64 * 1 ≤ (i 0).val ∧ (i 0).val < 512 * cy c + 64 * 1 + 64) ∨ (512 * cy c + 64 * 2 ≤ (i 0).val ∧ (i 0).val < 512 * cy c + 64 * 2 + 64) ∨ (512 * cy c + 64 * 3 ≤ (i 0).val ∧ (i 0).val < 512 * cy c + 64 * 3 + 64) ∨ (512 * cy c + 64 * 4 ≤ (i 0).val ∧ (i 0).val < 512 * cy c + 64 * 4 + 64) ∨ (512 * cy c + 64 * 5 ≤ (i 0).val ∧ (i 0).val < 512 * cy c + 64 * 5 + 64) ∨ (512 * cy c + 64 * 6 ≤ (i 0).val ∧ (i 0).val < 512 * cy c + 64 * 6 + 64) ∨ (512 * cy c + 64 * 7 ≤ (i 0).val ∧ (i 0).val < 512 * cy c + 64 * 7 + 64))
      ∨ ((512 * (1 - cy c) + 64 * 0 ≤ (i 0).val ∧ (i 0).val < 512 * (1 - cy c) + 64 * 0 + 64) ∨ (512 * (1 - cy c) + 64 * 1 ≤ (i 0).val ∧ (i 0).val < 512 * (1 - cy c) + 64 * 1 + 64) ∨ (512 * (1 - cy c) + 64 * 2 ≤ (i 0).val ∧ (i 0).val < 512 * (1 - cy c) + 64 * 2 + 64) ∨ (512 * (1 - cy c) + 64 * 3 ≤ (i 0).val ∧ (i 0).val < 512 * (1 - cy c) + 64 * 3 + 64) ∨ (512 * (1 - cy c) + 64 * 4 ≤ (i 0).val ∧ (i 0).val < 512 * (1 - cy c) + 64 * 4 + 64) ∨ (512 * (1 - cy c) + 64 * 5 ≤ (i 0).val ∧ (i 0).val < 512 * (1 - cy c) + 64 * 5 + 64) ∨ (512 * (1 - cy c) + 64 * 6 ≤ (i 0).val ∧ (i 0).val < 512 * (1 - cy c) + 64 * 6 + 64) ∨ (512 * (1 - cy c) + 64 * 7 ≤ (i 0).val ∧ (i 0).val < 512 * (1 - cy c) + 64 * 7 + 64)) := by omega
  rcases hcases with (h | h | h | h | h | h | h | h) | (h | h | h | h | h | h | h | h)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans ((stA_miss c 7 (by decide) _ _ i (by omega)).trans ((stA_miss c 6 (by decide) _ _ i (by omega)).trans ((stA_miss c 5 (by decide) _ _ i (by omega)).trans ((stA_miss c 4 (by decide) _ _ i (by omega)).trans ((stA_miss c 3 (by decide) _ _ i (by omega)).trans ((stA_miss c 2 (by decide) _ _ i (by omega)).trans ((stA_miss c 1 (by decide) _ _ i (by omega)).trans (stA_hit c 0 (by decide) _ _ i h.1 h.2)))))))))))))))).trans (outA_val X c vF vR hF hR 0 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans ((stA_miss c 7 (by decide) _ _ i (by omega)).trans ((stA_miss c 6 (by decide) _ _ i (by omega)).trans ((stA_miss c 5 (by decide) _ _ i (by omega)).trans ((stA_miss c 4 (by decide) _ _ i (by omega)).trans ((stA_miss c 3 (by decide) _ _ i (by omega)).trans ((stA_miss c 2 (by decide) _ _ i (by omega)).trans (stA_hit c 1 (by decide) _ _ i h.1 h.2))))))))))))))).trans (outA_val X c vF vR hF hR 1 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans ((stA_miss c 7 (by decide) _ _ i (by omega)).trans ((stA_miss c 6 (by decide) _ _ i (by omega)).trans ((stA_miss c 5 (by decide) _ _ i (by omega)).trans ((stA_miss c 4 (by decide) _ _ i (by omega)).trans ((stA_miss c 3 (by decide) _ _ i (by omega)).trans (stA_hit c 2 (by decide) _ _ i h.1 h.2)))))))))))))).trans (outA_val X c vF vR hF hR 2 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans ((stA_miss c 7 (by decide) _ _ i (by omega)).trans ((stA_miss c 6 (by decide) _ _ i (by omega)).trans ((stA_miss c 5 (by decide) _ _ i (by omega)).trans ((stA_miss c 4 (by decide) _ _ i (by omega)).trans (stA_hit c 3 (by decide) _ _ i h.1 h.2))))))))))))).trans (outA_val X c vF vR hF hR 3 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans ((stA_miss c 7 (by decide) _ _ i (by omega)).trans ((stA_miss c 6 (by decide) _ _ i (by omega)).trans ((stA_miss c 5 (by decide) _ _ i (by omega)).trans (stA_hit c 4 (by decide) _ _ i h.1 h.2)))))))))))).trans (outA_val X c vF vR hF hR 4 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans ((stA_miss c 7 (by decide) _ _ i (by omega)).trans ((stA_miss c 6 (by decide) _ _ i (by omega)).trans (stA_hit c 5 (by decide) _ _ i h.1 h.2))))))))))).trans (outA_val X c vF vR hF hR 5 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans ((stA_miss c 7 (by decide) _ _ i (by omega)).trans (stA_hit c 6 (by decide) _ _ i h.1 h.2)))))))))).trans (outA_val X c vF vR hF hR 6 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans ((stB_miss c 0 (by decide) _ _ i (by omega)).trans (stA_hit c 7 (by decide) _ _ i h.1 h.2))))))))).trans (outA_val X c vF vR hF hR 7 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans ((stB_miss c 1 (by decide) _ _ i (by omega)).trans (stB_hit c 0 (by decide) _ _ i h.1 h.2)))))))).trans (outB_val X c vO vZ hO hZ 0 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans ((stB_miss c 2 (by decide) _ _ i (by omega)).trans (stB_hit c 1 (by decide) _ _ i h.1 h.2))))))).trans (outB_val X c vO vZ hO hZ 1 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans ((stB_miss c 3 (by decide) _ _ i (by omega)).trans (stB_hit c 2 (by decide) _ _ i h.1 h.2)))))).trans (outB_val X c vO vZ hO hZ 2 (by decide) i h.1 h.2)
  · exact ((stB_miss c 7 (by decide) _ _ i (by omega)).trans ((stB_miss c 6 (by decide) _ _ i (by omega)).trans ((stB_miss c 5 (by decide) _ _ i (by omega)).trans ((stB_miss c 4 (by decide) _ _ i (by omega)).trans (stB_hit c 3 (by decide) _ _ i h.1 h.2))))).trans (outB_val X c vO vZ hO hZ 3 (by decide) i h.1 h.2)
  · exact ((stB_miss c 7 (by decide) _ _ i (by omega)).trans ((stB_miss c 6 (by decide) _ _ i (by omega)).trans ((stB_miss c 5 (by decide) _ _ i (by omega)).trans (stB_hit c 4 (by decide) _ _ i h.1 h.2)))).trans (outB_val X c vO vZ hO hZ 4 (by decide) i h.1 h.2)
  · exact ((stB_miss c 7 (by decide) _ _ i (by omega)).trans ((stB_miss c 6 (by decide) _ _ i (by omega)).trans (stB_hit c 5 (by decide) _ _ i h.1 h.2))).trans (outB_val X c vO vZ hO hZ 5 (by decide) i h.1 h.2)
  · exact ((stB_miss c 7 (by decide) _ _ i (by omega)).trans (stB_hit c 6 (by decide) _ _ i h.1 h.2)).trans (outB_val X c vO vZ hO hZ 6 (by decide) i h.1 h.2)
  · exact (stB_hit c 7 (by decide) _ _ i h.1 h.2).trans (outB_val X c vO vZ hO hZ 7 (by decide) i h.1 h.2)

/-! ## Loads of a received chunk and of the other-half buffer; what the other-half fetch lands -/

/-- A `[1, 64, 512]` load at `(K, 0, 0)` of a buffer of eight chunks reads chunk `K`. -/
theorem rx_ld {F : FTy → Type} [FloatOps F] (kn : ℕ) (hk : kn < 8)
    (inb : ∀ a, (![kn, 0, 0] : Fin 3 → ℕ) a + S1x64x512.size a ≤ S8x64x512.size a) (G : FVec F S8x64x512 .bf16) (y : S1x64x512.Idx) :
    View.readAt (Elt F) rxB.view (Rect.unit (s := S8x64x512) ![kn, 0, 0] S1x64x512.size inb).toLoadRect G y
      = G (ix3 (⟨kn, hk⟩ : Fin 8) (y 1) (y 2)) := by
  have h0 : (y 0).val < 1 := (y 0).isLt
  have hj : ∀ a : Fin 3, ((ix3 (⟨kn, hk⟩ : Fin 8) (y 1) (y 2) : S8x64x512.Idx) a).val = (![kn, 0, 0] : Fin 3 → ℕ) a + (y a).val := by
    intro a
    match a with
    | ⟨0, _⟩ =>
      show kn = kn + (y 0).val
      omega
    | ⟨1, _⟩ =>
      show (y 1).val = 0 + (y 1).val
      omega
    | ⟨2, _⟩ =>
      show (y 2).val = 0 + (y 2).val
      omega
  exact readAt_whole_unit (Val := Elt F) cc0_scratch3 _ _ _ G y _ hj

theorem rx_ld_0 {F : FTy → Type} [FloatOps F] (G : FVec F S8x64x512 .bf16) (y : S1x64x512.Idx) :
    View.readAt (Elt F) rxB.view (Rect.unit (s := S8x64x512) ![0, 0, 0] S1x64x512.size inb_S8x64x512_S1x64x512_0_0_0).toLoadRect G y
      = G (ix3 (0 : Fin 8) (y 1) (y 2)) := rx_ld 0 (by decide) inb_S8x64x512_S1x64x512_0_0_0 G y
theorem rx_ld_1 {F : FTy → Type} [FloatOps F] (G : FVec F S8x64x512 .bf16) (y : S1x64x512.Idx) :
    View.readAt (Elt F) rxB.view (Rect.unit (s := S8x64x512) ![1, 0, 0] S1x64x512.size inb_S8x64x512_S1x64x512_1_0_0).toLoadRect G y
      = G (ix3 (1 : Fin 8) (y 1) (y 2)) := rx_ld 1 (by decide) inb_S8x64x512_S1x64x512_1_0_0 G y
theorem rx_ld_2 {F : FTy → Type} [FloatOps F] (G : FVec F S8x64x512 .bf16) (y : S1x64x512.Idx) :
    View.readAt (Elt F) rxB.view (Rect.unit (s := S8x64x512) ![2, 0, 0] S1x64x512.size inb_S8x64x512_S1x64x512_2_0_0).toLoadRect G y
      = G (ix3 (2 : Fin 8) (y 1) (y 2)) := rx_ld 2 (by decide) inb_S8x64x512_S1x64x512_2_0_0 G y
theorem rx_ld_3 {F : FTy → Type} [FloatOps F] (G : FVec F S8x64x512 .bf16) (y : S1x64x512.Idx) :
    View.readAt (Elt F) rxB.view (Rect.unit (s := S8x64x512) ![3, 0, 0] S1x64x512.size inb_S8x64x512_S1x64x512_3_0_0).toLoadRect G y
      = G (ix3 (3 : Fin 8) (y 1) (y 2)) := rx_ld 3 (by decide) inb_S8x64x512_S1x64x512_3_0_0 G y
theorem rx_ld_4 {F : FTy → Type} [FloatOps F] (G : FVec F S8x64x512 .bf16) (y : S1x64x512.Idx) :
    View.readAt (Elt F) rxB.view (Rect.unit (s := S8x64x512) ![4, 0, 0] S1x64x512.size inb_S8x64x512_S1x64x512_4_0_0).toLoadRect G y
      = G (ix3 (4 : Fin 8) (y 1) (y 2)) := rx_ld 4 (by decide) inb_S8x64x512_S1x64x512_4_0_0 G y
theorem rx_ld_5 {F : FTy → Type} [FloatOps F] (G : FVec F S8x64x512 .bf16) (y : S1x64x512.Idx) :
    View.readAt (Elt F) rxB.view (Rect.unit (s := S8x64x512) ![5, 0, 0] S1x64x512.size inb_S8x64x512_S1x64x512_5_0_0).toLoadRect G y
      = G (ix3 (5 : Fin 8) (y 1) (y 2)) := rx_ld 5 (by decide) inb_S8x64x512_S1x64x512_5_0_0 G y
theorem rx_ld_6 {F : FTy → Type} [FloatOps F] (G : FVec F S8x64x512 .bf16) (y : S1x64x512.Idx) :
    View.readAt (Elt F) rxB.view (Rect.unit (s := S8x64x512) ![6, 0, 0] S1x64x512.size inb_S8x64x512_S1x64x512_6_0_0).toLoadRect G y
      = G (ix3 (6 : Fin 8) (y 1) (y 2)) := rx_ld 6 (by decide) inb_S8x64x512_S1x64x512_6_0_0 G y
theorem rx_ld_7 {F : FTy → Type} [FloatOps F] (G : FVec F S8x64x512 .bf16) (y : S1x64x512.Idx) :
    View.readAt (Elt F) rxB.view (Rect.unit (s := S8x64x512) ![7, 0, 0] S1x64x512.size inb_S8x64x512_S1x64x512_7_0_0).toLoadRect G y
      = G (ix3 (7 : Fin 8) (y 1) (y 2)) := rx_ld 7 (by decide) inb_S8x64x512_S1x64x512_7_0_0 G y

theorem rz_ld {F : FTy → Type} [FloatOps F] (kn : ℕ) (hk : kn < 8)
    (inb : ∀ a, (![kn, 0, 0] : Fin 3 → ℕ) a + S1x64x512.size a ≤ S8x64x512.size a) (G : FVec F S8x64x512 .bf16) (y : S1x64x512.Idx) :
    View.readAt (Elt F) rzB.view (Rect.unit (s := S8x64x512) ![kn, 0, 0] S1x64x512.size inb).toLoadRect G y
      = G (ix3 (⟨kn, hk⟩ : Fin 8) (y 1) (y 2)) := by
  have h0 : (y 0).val < 1 := (y 0).isLt
  have hj : ∀ a : Fin 3, ((ix3 (⟨kn, hk⟩ : Fin 8) (y 1) (y 2) : S8x64x512.Idx) a).val = (![kn, 0, 0] : Fin 3 → ℕ) a + (y a).val := by
    intro a
    match a with
    | ⟨0, _⟩ =>
      show kn = kn + (y 0).val
      omega
    | ⟨1, _⟩ =>
      show (y 1).val = 0 + (y 1).val
      omega
    | ⟨2, _⟩ =>
      show (y 2).val = 0 + (y 2).val
      omega
  exact readAt_whole_unit (Val := Elt F) cc0_scratch4 _ _ _ G y _ hj

theorem rz_ld_0 {F : FTy → Type} [FloatOps F] (G : FVec F S8x64x512 .bf16) (y : S1x64x512.Idx) :
    View.readAt (Elt F) rzB.view (Rect.unit (s := S8x64x512) ![0, 0, 0] S1x64x512.size inb_S8x64x512_S1x64x512_0_0_0).toLoadRect G y
      = G (ix3 (0 : Fin 8) (y 1) (y 2)) := rz_ld 0 (by decide) inb_S8x64x512_S1x64x512_0_0_0 G y
theorem rz_ld_1 {F : FTy → Type} [FloatOps F] (G : FVec F S8x64x512 .bf16) (y : S1x64x512.Idx) :
    View.readAt (Elt F) rzB.view (Rect.unit (s := S8x64x512) ![1, 0, 0] S1x64x512.size inb_S8x64x512_S1x64x512_1_0_0).toLoadRect G y
      = G (ix3 (1 : Fin 8) (y 1) (y 2)) := rz_ld 1 (by decide) inb_S8x64x512_S1x64x512_1_0_0 G y
theorem rz_ld_2 {F : FTy → Type} [FloatOps F] (G : FVec F S8x64x512 .bf16) (y : S1x64x512.Idx) :
    View.readAt (Elt F) rzB.view (Rect.unit (s := S8x64x512) ![2, 0, 0] S1x64x512.size inb_S8x64x512_S1x64x512_2_0_0).toLoadRect G y
      = G (ix3 (2 : Fin 8) (y 1) (y 2)) := rz_ld 2 (by decide) inb_S8x64x512_S1x64x512_2_0_0 G y
theorem rz_ld_3 {F : FTy → Type} [FloatOps F] (G : FVec F S8x64x512 .bf16) (y : S1x64x512.Idx) :
    View.readAt (Elt F) rzB.view (Rect.unit (s := S8x64x512) ![3, 0, 0] S1x64x512.size inb_S8x64x512_S1x64x512_3_0_0).toLoadRect G y
      = G (ix3 (3 : Fin 8) (y 1) (y 2)) := rz_ld 3 (by decide) inb_S8x64x512_S1x64x512_3_0_0 G y
theorem rz_ld_4 {F : FTy → Type} [FloatOps F] (G : FVec F S8x64x512 .bf16) (y : S1x64x512.Idx) :
    View.readAt (Elt F) rzB.view (Rect.unit (s := S8x64x512) ![4, 0, 0] S1x64x512.size inb_S8x64x512_S1x64x512_4_0_0).toLoadRect G y
      = G (ix3 (4 : Fin 8) (y 1) (y 2)) := rz_ld 4 (by decide) inb_S8x64x512_S1x64x512_4_0_0 G y
theorem rz_ld_5 {F : FTy → Type} [FloatOps F] (G : FVec F S8x64x512 .bf16) (y : S1x64x512.Idx) :
    View.readAt (Elt F) rzB.view (Rect.unit (s := S8x64x512) ![5, 0, 0] S1x64x512.size inb_S8x64x512_S1x64x512_5_0_0).toLoadRect G y
      = G (ix3 (5 : Fin 8) (y 1) (y 2)) := rz_ld 5 (by decide) inb_S8x64x512_S1x64x512_5_0_0 G y
theorem rz_ld_6 {F : FTy → Type} [FloatOps F] (G : FVec F S8x64x512 .bf16) (y : S1x64x512.Idx) :
    View.readAt (Elt F) rzB.view (Rect.unit (s := S8x64x512) ![6, 0, 0] S1x64x512.size inb_S8x64x512_S1x64x512_6_0_0).toLoadRect G y
      = G (ix3 (6 : Fin 8) (y 1) (y 2)) := rz_ld 6 (by decide) inb_S8x64x512_S1x64x512_6_0_0 G y
theorem rz_ld_7 {F : FTy → Type} [FloatOps F] (G : FVec F S8x64x512 .bf16) (y : S1x64x512.Idx) :
    View.readAt (Elt F) rzB.view (Rect.unit (s := S8x64x512) ![7, 0, 0] S1x64x512.size inb_S8x64x512_S1x64x512_7_0_0).toLoadRect G y
      = G (ix3 (7 : Fin 8) (y 1) (y 2)) := rz_ld 7 (by decide) inb_S8x64x512_S1x64x512_7_0_0 G y

/-- A `[64, 512]` load at `(r0, 0)` of the other-half buffer reads its rows `r0 … r0 + 63`. -/
theorem oh_ld {F : FTy → Type} [FloatOps F] (r0 : ℕ) (hr : r0 + 64 ≤ 512)
    (inb : ∀ a, (![r0, 0] : Fin 2 → ℕ) a + S64x512.size a ≤ S512x512.size a) (G : FVec F S512x512 .f32) (y : S64x512.Idx) :
    View.readAt (Elt F) (Memref.whole cc0_scratch1).view (Rect.unit (s := S512x512) ![r0, 0] S64x512.size inb).toLoadRect G y
      = G (ix2 (⟨r0 + (y 0).val, by have := (y 0).isLt; have e : S64x512.size 0 = 64 := rfl; omega⟩ : Fin 512) (⟨(y 1).val, (y 1).isLt⟩ : Fin 512)) := by
  have hj : ∀ a : Fin 2, ((ix2 (⟨r0 + (y 0).val, by have := (y 0).isLt; have e : S64x512.size 0 = 64 := rfl; omega⟩ : Fin 512) (⟨(y 1).val, (y 1).isLt⟩ : Fin 512) : S512x512.Idx) a).val
      = (![r0, 0] : Fin 2 → ℕ) a + (y a).val := by
    intro a
    match a with
    | ⟨0, _⟩ => rfl
    | ⟨1, _⟩ =>
      show (y 1).val = 0 + (y 1).val
      omega
  exact readAt_whole_unit (Val := Elt F) cc0_scratch1 _ _ _ G y _ hj

theorem oh_ld_0 {F : FTy → Type} [FloatOps F] (G : FVec F S512x512 .f32) (y : S64x512.Idx) :
    View.readAt (Elt F) (Memref.whole cc0_scratch1).view (Rect.unit (s := S512x512) ![0, 0] S64x512.size inb_S512x512_S64x512_0_0).toLoadRect G y
      = G (ix2 (⟨0 + (y 0).val, by have := (y 0).isLt; have e : S64x512.size 0 = 64 := rfl; omega⟩ : Fin 512) (⟨(y 1).val, (y 1).isLt⟩ : Fin 512)) :=
  oh_ld 0 (by decide) inb_S512x512_S64x512_0_0 G y
theorem oh_ld_1 {F : FTy → Type} [FloatOps F] (G : FVec F S512x512 .f32) (y : S64x512.Idx) :
    View.readAt (Elt F) (Memref.whole cc0_scratch1).view (Rect.unit (s := S512x512) ![64, 0] S64x512.size inb_S512x512_S64x512_64_0).toLoadRect G y
      = G (ix2 (⟨64 + (y 0).val, by have := (y 0).isLt; have e : S64x512.size 0 = 64 := rfl; omega⟩ : Fin 512) (⟨(y 1).val, (y 1).isLt⟩ : Fin 512)) :=
  oh_ld 64 (by decide) inb_S512x512_S64x512_64_0 G y
theorem oh_ld_2 {F : FTy → Type} [FloatOps F] (G : FVec F S512x512 .f32) (y : S64x512.Idx) :
    View.readAt (Elt F) (Memref.whole cc0_scratch1).view (Rect.unit (s := S512x512) ![128, 0] S64x512.size inb_S512x512_S64x512_128_0).toLoadRect G y
      = G (ix2 (⟨128 + (y 0).val, by have := (y 0).isLt; have e : S64x512.size 0 = 64 := rfl; omega⟩ : Fin 512) (⟨(y 1).val, (y 1).isLt⟩ : Fin 512)) :=
  oh_ld 128 (by decide) inb_S512x512_S64x512_128_0 G y
theorem oh_ld_3 {F : FTy → Type} [FloatOps F] (G : FVec F S512x512 .f32) (y : S64x512.Idx) :
    View.readAt (Elt F) (Memref.whole cc0_scratch1).view (Rect.unit (s := S512x512) ![192, 0] S64x512.size inb_S512x512_S64x512_192_0).toLoadRect G y
      = G (ix2 (⟨192 + (y 0).val, by have := (y 0).isLt; have e : S64x512.size 0 = 64 := rfl; omega⟩ : Fin 512) (⟨(y 1).val, (y 1).isLt⟩ : Fin 512)) :=
  oh_ld 192 (by decide) inb_S512x512_S64x512_192_0 G y
theorem oh_ld_4 {F : FTy → Type} [FloatOps F] (G : FVec F S512x512 .f32) (y : S64x512.Idx) :
    View.readAt (Elt F) (Memref.whole cc0_scratch1).view (Rect.unit (s := S512x512) ![256, 0] S64x512.size inb_S512x512_S64x512_256_0).toLoadRect G y
      = G (ix2 (⟨256 + (y 0).val, by have := (y 0).isLt; have e : S64x512.size 0 = 64 := rfl; omega⟩ : Fin 512) (⟨(y 1).val, (y 1).isLt⟩ : Fin 512)) :=
  oh_ld 256 (by decide) inb_S512x512_S64x512_256_0 G y
theorem oh_ld_5 {F : FTy → Type} [FloatOps F] (G : FVec F S512x512 .f32) (y : S64x512.Idx) :
    View.readAt (Elt F) (Memref.whole cc0_scratch1).view (Rect.unit (s := S512x512) ![320, 0] S64x512.size inb_S512x512_S64x512_320_0).toLoadRect G y
      = G (ix2 (⟨320 + (y 0).val, by have := (y 0).isLt; have e : S64x512.size 0 = 64 := rfl; omega⟩ : Fin 512) (⟨(y 1).val, (y 1).isLt⟩ : Fin 512)) :=
  oh_ld 320 (by decide) inb_S512x512_S64x512_320_0 G y
theorem oh_ld_6 {F : FTy → Type} [FloatOps F] (G : FVec F S512x512 .f32) (y : S64x512.Idx) :
    View.readAt (Elt F) (Memref.whole cc0_scratch1).view (Rect.unit (s := S512x512) ![384, 0] S64x512.size inb_S512x512_S64x512_384_0).toLoadRect G y
      = G (ix2 (⟨384 + (y 0).val, by have := (y 0).isLt; have e : S64x512.size 0 = 64 := rfl; omega⟩ : Fin 512) (⟨(y 1).val, (y 1).isLt⟩ : Fin 512)) :=
  oh_ld 384 (by decide) inb_S512x512_S64x512_384_0 G y
theorem oh_ld_7 {F : FTy → Type} [FloatOps F] (G : FVec F S512x512 .f32) (y : S64x512.Idx) :
    View.readAt (Elt F) (Memref.whole cc0_scratch1).view (Rect.unit (s := S512x512) ![448, 0] S64x512.size inb_S512x512_S64x512_448_0).toLoadRect G y
      = G (ix2 (⟨448 + (y 0).val, by have := (y 0).isLt; have e : S64x512.size 0 = 64 := rfl; omega⟩ : Fin 512) (⟨(y 1).val, (y 1).isLt⟩ : Fin 512)) :=
  oh_ld 448 (by decide) inb_S512x512_S64x512_448_0 G y

/-- A write on every index through a buffer held whole leaves the payload. -/
theorem write_whole_univ {κ : Kind} {Val : EltTy → Type} (b : Ref sig κ) (f : b.ty.Contents Val) (w : b.ty.shape.Idx → Val b.ty.elt) :
    View.write Val (Memref.whole b).view f w Finset.univ = w := by
  funext i
  exact (View.write_emb_of_mem (v := (Memref.whole b).view) f w (Finset.mem_univ i)).trans (cast_eq _ _)

theorem emb_windowH {κ : Kind} {sp : Space} {e : EltTy} {d : Fin 3 → ℕ} (M : Memref sig κ sp ⟨3, d⟩ e) (off : Fin 3 → ℕ)
    (inb : ∀ a, off a + S1x512x512.size a ≤ (⟨3, d⟩ : Shape).size a) (y : S512x512.Idx) :
    ((M.slice (Rect.unit (s := ⟨3, d⟩) off S1x512x512.size inb) (fun _ => rfl)).squeeze S512x512 squeezes_S1x512x512_S512x512).view.emb y
      = M.view.emb ((Rect.unit (s := ⟨3, d⟩) off S1x512x512.size inb).emb (ix3 (0 : Fin 1) (y 0) (y 1))) := by
  show M.view.emb ((Rect.unit (s := ⟨3, d⟩) off S1x512x512.size inb).emb (Shape.reshapeEquiv _ y)) = _
  congr 2
  apply Shape.reshapeEquiv_eq_of_rowMajor
  rw [Shape.rowMajor_val_three, Shape.rowMajor_val_two]
  show (0 * 512 + (y 0).val) * 512 + (y 1).val = (y 0).val * 512 + (y 1).val
  omega

theorem read_windowH {κ : Kind} {sp : Space} {e : EltTy} {d : Fin 3 → ℕ} {Val : EltTy → Type} (M : Memref sig κ sp ⟨3, d⟩ e) (off : Fin 3 → ℕ)
    (inb : ∀ a, off a + S1x512x512.size a ≤ (⟨3, d⟩ : Shape).size a) (f : M.view.ty.Contents Val) (y : S512x512.Idx)
    (j : (⟨3, d⟩ : Shape).Idx) (h0 : (j 0).val = off 0) (h1 : (j 1).val = off 1 + (y 0).val) (h2 : (j 2).val = off 2 + (y 1).val) :
    View.read Val ((M.slice (Rect.unit (s := ⟨3, d⟩) off S1x512x512.size inb) (fun _ => rfl)).squeeze S512x512 squeezes_S1x512x512_S512x512).view f y
      = View.read Val M.view f j := by
  have hj : (Rect.unit (s := ⟨3, d⟩) off S1x512x512.size inb).emb (ix3 (0 : Fin 1) (y 0) (y 1)) = j := by
    funext a
    refine Fin.ext ?_
    match a with
    | ⟨0, _⟩ =>
      show off 0 + 1 * 0 = (j 0).val
      omega
    | ⟨1, _⟩ =>
      show off 1 + 1 * (y 0).val = (j 1).val
      omega
    | ⟨2, _⟩ =>
      show off 2 + 1 * (y 1).val = (j 2).val
      omega
  rw [View.read_apply, View.read_apply, emb_windowH, hj]

/-- The other-half fetch lands rows `512·(1 − y) … + 511` of the slab at the device's own columns. -/
theorem other_land {F : FTy → Type} [FloatOps F] (X : Dev nD → FVec F S1x1024x1024 .f32) (c : Dev nD) (b1 : FVec F S512x512 .f32) :
    View.write (Elt F) (Memref.whole cc0_scratch1).view b1
      ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))
      Finset.univ = otherC X c := by
  rw [write_whole_univ]
  funext y
  have hy0 : (y 0).val < 512 := (y 0).isLt
  have hy1 : (y 1).val < 512 := (y 1).isLt
  have hc : c.val < 8 := c.isLt
  have e := read_windowH (Val := Elt F) (Memref.whole main_arg0) (k0_off2 c) (k0_off2_inb c) (X c) y
    (ix3 (0 : Fin 1) (rd 1024 (by decide) (512 * (1 - cy c) + (y 0).val)) (rd 1024 (by decide) (512 * cx c + (y 1).val)))
  refine ((e ?_ ?_ ?_).trans ((read_whole_apply (Val := Elt F) main_arg0 (X c)
    (ix3 (0 : Fin 1) (rd 1024 (by decide) (512 * (1 - cy c) + (y 0).val)) (rd 1024 (by decide) (512 * cx c + (y 1).val)))).trans rfl))
  · rw [k0_off2_eq c]
    rfl
  · rw [k0_off2_eq c]
    show (512 * (1 - cy c) + (y 0).val) % 1024 = 512 - 512 * ((c.val / 2) % 2) + (y 0).val
    unfold cy
    omega
  · rw [k0_off2_eq c]
    show (512 * cx c + (y 1).val) % 1024 = 512 * (c.val / 4) + (y 1).val
    unfold cx
    omega

/-! ## The same contents, spelt as lists of pieces (the last write first) -/

/-- The sixteen stores as a list of pieces are the sixteen nested writes. -/
theorem outAll_writes {F : FTy → Type} [FloatOps F] (c : Dev nD) (g0 : FVec F S1024x512 .bf16) (vF : Fin 8 → Vec F S1x64x512 .f32)
    (vR : Fin 8 → Vec F S1x64x512 .bf16) (vO : Fin 8 → Vec F S64x512 .f32) (vZ : Fin 8 → Vec F S1x64x512 .bf16) :
    (Memref.whole cc0_stg0_0).view.writes (Elt F) g0
      [⟨Rect.unit (s := S1024x512) (k0_off20 c 448#32) S64x512.size (k0_off20_inb c 7), k0_pay25 (vO 7) (vZ 7)⟩,
       ⟨Rect.unit (s := S1024x512) (k0_off20 c 384#32) S64x512.size (k0_off20_inb c 6), k0_pay24 (vO 6) (vZ 6)⟩,
       ⟨Rect.unit (s := S1024x512) (k0_off20 c 320#32) S64x512.size (k0_off20_inb c 5), k0_pay23 (vO 5) (vZ 5)⟩,
       ⟨Rect.unit (s := S1024x512) (k0_off20 c 256#32) S64x512.size (k0_off20_inb c 4), k0_pay22 (vO 4) (vZ 4)⟩,
       ⟨Rect.unit (s := S1024x512) (k0_off20 c 192#32) S64x512.size (k0_off20_inb c 3), k0_pay21 (vO 3) (vZ 3)⟩,
       ⟨Rect.unit (s := S1024x512) (k0_off20 c 128#32) S64x512.size (k0_off20_inb c 2), k0_pay20 (vO 2) (vZ 2)⟩,
       ⟨Rect.unit (s := S1024x512) (k0_off20 c 64#32) S64x512.size (k0_off20_inb c 1), k0_pay19 (vO 1) (vZ 1)⟩,
       ⟨Rect.unit (s := S1024x512) (k0_off20 c 0#32) S64x512.size (k0_off20_inb c 0), k0_pay18 (vO 0) (vZ 0)⟩,
       ⟨Rect.unit (s := S1024x512) (k0_off12 c 448#32) S64x512.size (k0_off12_inb c 7), k0_pay17 (vF 7) (vR 7)⟩,
       ⟨Rect.unit (s := S1024x512) (k0_off12 c 384#32) S64x512.size (k0_off12_inb c 6), k0_pay16 (vF 6) (vR 6)⟩,
       ⟨Rect.unit (s := S1024x512) (k0_off12 c 320#32) S64x512.size (k0_off12_inb c 5), k0_pay15 (vF 5) (vR 5)⟩,
       ⟨Rect.unit (s := S1024x512) (k0_off12 c 256#32) S64x512.size (k0_off12_inb c 4), k0_pay14 (vF 4) (vR 4)⟩,
       ⟨Rect.unit (s := S1024x512) (k0_off12 c 192#32) S64x512.size (k0_off12_inb c 3), k0_pay13 (vF 3) (vR 3)⟩,
       ⟨Rect.unit (s := S1024x512) (k0_off12 c 128#32) S64x512.size (k0_off12_inb c 2), k0_pay12 (vF 2) (vR 2)⟩,
       ⟨Rect.unit (s := S1024x512) (k0_off12 c 64#32) S64x512.size (k0_off12_inb c 1), k0_pay11 (vF 1) (vR 1)⟩,
       ⟨Rect.unit (s := S1024x512) (k0_off12 c 0#32) S64x512.size (k0_off12_inb c 0), k0_pay10 (vF 0) (vR 0)⟩]
      = outAll c g0 vF vR vO vZ := rfl

/-- What the other-half fetch lands is the other row half of the slab at the device's own columns. -/
theorem other_val {F : FTy → Type} [FloatOps F] (X : Dev nD → FVec F S1x1024x1024 .f32) (c : Dev nD) :
    ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c))) = otherC X c := by
  have h := other_land X c (otherC X c)
  rwa [write_whole_univ] at h

theorem inbO : ∀ a : Fin 2, (fun _ => 0 : Fin 2 → ℕ) a + S512x512.size a ≤ S512x512.size a := by decide

/-- The other-half buffer after that one landing, spelt as one piece over the whole shape. -/
theorem other_land_writes {F : FTy → Type} [FloatOps F] (X : Dev nD → FVec F S1x1024x1024 .f32) (c : Dev nD) (b1 : FVec F S512x512 .f32) :
    ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) = otherC X c := by
  funext i
  rw [View.writes_singleton]
  have hi : ∀ a : Fin 2, (i a).val = (fun _ => 0 : Fin 2 → ℕ) a + (i a).val := fun a => (Nat.zero_add _).symm
  refine (write_access_whole_hit (Val := Elt F) cc0_scratch1 (fun _ => 0) S512x512.size inbO b1
    ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c))) i i hi).trans ?_
  rw [other_val]

theorem oh_val_0 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![0, 0] S64x512.size inb_S512x512_S64x512_0_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 0 + (y 0).val) (512 * cx c + (y 1).val) := by
  rw [other_land_writes, oh_ld_0]
  show slabAt (X c) (512 * (1 - cy c) + (0 + (y 0).val)) (512 * cx c + (y 1).val)
    = slabAt (X c) (512 * (1 - cy c) + 64 * 0 + (y 0).val) (512 * cx c + (y 1).val)
  exact congrArg (fun r => slabAt (X c) r (512 * cx c + (y 1).val)) (by omega)

theorem oh_val_1 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![64, 0] S64x512.size inb_S512x512_S64x512_64_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 1 + (y 0).val) (512 * cx c + (y 1).val) := by
  rw [other_land_writes, oh_ld_1]
  show slabAt (X c) (512 * (1 - cy c) + (64 + (y 0).val)) (512 * cx c + (y 1).val)
    = slabAt (X c) (512 * (1 - cy c) + 64 * 1 + (y 0).val) (512 * cx c + (y 1).val)
  exact congrArg (fun r => slabAt (X c) r (512 * cx c + (y 1).val)) (by omega)

theorem oh_val_2 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![128, 0] S64x512.size inb_S512x512_S64x512_128_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 2 + (y 0).val) (512 * cx c + (y 1).val) := by
  rw [other_land_writes, oh_ld_2]
  show slabAt (X c) (512 * (1 - cy c) + (128 + (y 0).val)) (512 * cx c + (y 1).val)
    = slabAt (X c) (512 * (1 - cy c) + 64 * 2 + (y 0).val) (512 * cx c + (y 1).val)
  exact congrArg (fun r => slabAt (X c) r (512 * cx c + (y 1).val)) (by omega)

theorem oh_val_3 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![192, 0] S64x512.size inb_S512x512_S64x512_192_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 3 + (y 0).val) (512 * cx c + (y 1).val) := by
  rw [other_land_writes, oh_ld_3]
  show slabAt (X c) (512 * (1 - cy c) + (192 + (y 0).val)) (512 * cx c + (y 1).val)
    = slabAt (X c) (512 * (1 - cy c) + 64 * 3 + (y 0).val) (512 * cx c + (y 1).val)
  exact congrArg (fun r => slabAt (X c) r (512 * cx c + (y 1).val)) (by omega)

theorem oh_val_4 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![256, 0] S64x512.size inb_S512x512_S64x512_256_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 4 + (y 0).val) (512 * cx c + (y 1).val) := by
  rw [other_land_writes, oh_ld_4]
  show slabAt (X c) (512 * (1 - cy c) + (256 + (y 0).val)) (512 * cx c + (y 1).val)
    = slabAt (X c) (512 * (1 - cy c) + 64 * 4 + (y 0).val) (512 * cx c + (y 1).val)
  exact congrArg (fun r => slabAt (X c) r (512 * cx c + (y 1).val)) (by omega)

theorem oh_val_5 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![320, 0] S64x512.size inb_S512x512_S64x512_320_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 5 + (y 0).val) (512 * cx c + (y 1).val) := by
  rw [other_land_writes, oh_ld_5]
  show slabAt (X c) (512 * (1 - cy c) + (320 + (y 0).val)) (512 * cx c + (y 1).val)
    = slabAt (X c) (512 * (1 - cy c) + 64 * 5 + (y 0).val) (512 * cx c + (y 1).val)
  exact congrArg (fun r => slabAt (X c) r (512 * cx c + (y 1).val)) (by omega)

theorem oh_val_6 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![384, 0] S64x512.size inb_S512x512_S64x512_384_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 6 + (y 0).val) (512 * cx c + (y 1).val) := by
  rw [other_land_writes, oh_ld_6]
  show slabAt (X c) (512 * (1 - cy c) + (384 + (y 0).val)) (512 * cx c + (y 1).val)
    = slabAt (X c) (512 * (1 - cy c) + 64 * 6 + (y 0).val) (512 * cx c + (y 1).val)
  exact congrArg (fun r => slabAt (X c) r (512 * cx c + (y 1).val)) (by omega)

theorem oh_val_7 {F : FTy → Type} [FloatOps F] (X : Dev nD → FVec F S1x1024x1024 .f32) (c : Dev nD) (b1 : FVec F S512x512 .f32) (y : S64x512.Idx) :
    View.readAt (Elt F) (Memref.whole cc0_scratch1).view (Rect.unit (s := S512x512) ![448, 0] S64x512.size inb_S512x512_S64x512_448_0).toLoadRect
      ((Memref.whole cc0_scratch1).view.writes (Elt F) b1 [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]) y
      = slabAt (X c) (512 * (1 - cy c) + 64 * 7 + (y 0).val) (512 * cx c + (y 1).val) := by
  rw [other_land_writes, oh_ld_7]
  show slabAt (X c) (512 * (1 - cy c) + (448 + (y 0).val)) (512 * cx c + (y 1).val)
    = slabAt (X c) (512 * (1 - cy c) + 64 * 7 + (y 0).val) (512 * cx c + (y 1).val)
  exact congrArg (fun r => slabAt (X c) r (512 * cx c + (y 1).val)) (by omega)

/-! ## The other-half buffer read back by a covered load -/

theorem oh_cov_0 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![0, 0] S64x512.size inb_S512x512_S64x512_0_0).toLoadRect y
      = slabAt (X c) (512 * (1 - cy c) + 64 * 0 + (y 0).val) (512 * cx c + (y 1).val) :=
  oh_val_0 X c _ y

theorem oh_cov_1 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![64, 0] S64x512.size inb_S512x512_S64x512_64_0).toLoadRect y
      = slabAt (X c) (512 * (1 - cy c) + 64 * 1 + (y 0).val) (512 * cx c + (y 1).val) :=
  oh_val_1 X c _ y

theorem oh_cov_2 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![128, 0] S64x512.size inb_S512x512_S64x512_128_0).toLoadRect y
      = slabAt (X c) (512 * (1 - cy c) + 64 * 2 + (y 0).val) (512 * cx c + (y 1).val) :=
  oh_val_2 X c _ y

theorem oh_cov_3 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![192, 0] S64x512.size inb_S512x512_S64x512_192_0).toLoadRect y
      = slabAt (X c) (512 * (1 - cy c) + 64 * 3 + (y 0).val) (512 * cx c + (y 1).val) :=
  oh_val_3 X c _ y

theorem oh_cov_4 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![256, 0] S64x512.size inb_S512x512_S64x512_256_0).toLoadRect y
      = slabAt (X c) (512 * (1 - cy c) + 64 * 4 + (y 0).val) (512 * cx c + (y 1).val) :=
  oh_val_4 X c _ y

theorem oh_cov_5 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![320, 0] S64x512.size inb_S512x512_S64x512_320_0).toLoadRect y
      = slabAt (X c) (512 * (1 - cy c) + 64 * 5 + (y 0).val) (512 * cx c + (y 1).val) :=
  oh_val_5 X c _ y

theorem oh_cov_6 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![384, 0] S64x512.size inb_S512x512_S64x512_384_0).toLoadRect y
      = slabAt (X c) (512 * (1 - cy c) + 64 * 6 + (y 0).val) (512 * cx c + (y 1).val) :=
  oh_val_6 X c _ y

theorem oh_cov_7 {F : FTy → Type} [FloatOps F] (X : Dev nD → FVec F S1x1024x1024 .f32) (c : Dev nD) (y : S64x512.Idx) :
    (Memref.whole cc0_scratch1).view.readCov (Val := Elt F) [⟨Rect.whole cc0_scratch1.ty.shape, ((ReadAs.same (Val := Elt F)).apply (View.read (Elt F) (((Memref.whole main_arg0).slice (Rect.unit (s := S1x1024x1024) (k0_off2 c) S1x512x512.size (k0_off2_inb c)) (fun _ => rfl)).squeeze S512x512 squeezes_S1x512x512_S512x512).view (X c)))⟩]
      (Rect.unit (s := S512x512) ![448, 0] S64x512.size inb_S512x512_S64x512_448_0).toLoadRect y
      = slabAt (X c) (512 * (1 - cy c) + 64 * 7 + (y 0).val) (512 * cx c + (y 1).val) :=
  oh_val_7 X c _ y

/-! ## The end result over thirty-two separately named values -/

/-- The sixteen pieces, their thirty-two operands each named and each known entry by entry, leave the result block. -/
theorem out_final32 {F : FTy → Type} [FloatOps F] (X : Dev nD → FVec F S1x1024x1024 .f32) (c : Dev nD) (g0 : FVec F S1024x512 .bf16)
    (f0 f1 f2 f3 f4 f5 f6 f7 : Vec F S1x64x512 .f32) (r0 r1 r2 r3 r4 r5 r6 r7 : Vec F S1x64x512 .bf16)
    (o0 o1 o2 o3 o4 o5 o6 o7 : Vec F S64x512 .f32) (z0 z1 z2 z3 z4 z5 z6 z7 : Vec F S1x64x512 .bf16)
    (hf0 : ∀ y : S1x64x512.Idx, f0 y = slabAt (X c) (512 * cy c + 64 * 0 + (y 1).val) (512 * cx c + (y 2).val))
    (hf1 : ∀ y : S1x64x512.Idx, f1 y = slabAt (X c) (512 * cy c + 64 * 1 + (y 1).val) (512 * cx c + (y 2).val))
    (hf2 : ∀ y : S1x64x512.Idx, f2 y = slabAt (X c) (512 * cy c + 64 * 2 + (y 1).val) (512 * cx c + (y 2).val))
    (hf3 : ∀ y : S1x64x512.Idx, f3 y = slabAt (X c) (512 * cy c + 64 * 3 + (y 1).val) (512 * cx c + (y 2).val))
    (hf4 : ∀ y : S1x64x512.Idx, f4 y = slabAt (X c) (512 * cy c + 64 * 4 + (y 1).val) (512 * cx c + (y 2).val))
    (hf5 : ∀ y : S1x64x512.Idx, f5 y = slabAt (X c) (512 * cy c + 64 * 5 + (y 1).val) (512 * cx c + (y 2).val))
    (hf6 : ∀ y : S1x64x512.Idx, f6 y = slabAt (X c) (512 * cy c + 64 * 6 + (y 1).val) (512 * cx c + (y 2).val))
    (hf7 : ∀ y : S1x64x512.Idx, f7 y = slabAt (X c) (512 * cy c + 64 * 7 + (y 1).val) (512 * cx c + (y 2).val))
    (hr0 : ∀ y : S1x64x512.Idx, r0 y = recvXC X c (ix3 (0 : Fin 8) (y 1) (y 2)))
    (hr1 : ∀ y : S1x64x512.Idx, r1 y = recvXC X c (ix3 (1 : Fin 8) (y 1) (y 2)))
    (hr2 : ∀ y : S1x64x512.Idx, r2 y = recvXC X c (ix3 (2 : Fin 8) (y 1) (y 2)))
    (hr3 : ∀ y : S1x64x512.Idx, r3 y = recvXC X c (ix3 (3 : Fin 8) (y 1) (y 2)))
    (hr4 : ∀ y : S1x64x512.Idx, r4 y = recvXC X c (ix3 (4 : Fin 8) (y 1) (y 2)))
    (hr5 : ∀ y : S1x64x512.Idx, r5 y = recvXC X c (ix3 (5 : Fin 8) (y 1) (y 2)))
    (hr6 : ∀ y : S1x64x512.Idx, r6 y = recvXC X c (ix3 (6 : Fin 8) (y 1) (y 2)))
    (hr7 : ∀ y : S1x64x512.Idx, r7 y = recvXC X c (ix3 (7 : Fin 8) (y 1) (y 2)))
    (ho0 : ∀ y : S64x512.Idx, o0 y = slabAt (X c) (512 * (1 - cy c) + 64 * 0 + (y 0).val) (512 * cx c + (y 1).val))
    (ho1 : ∀ y : S64x512.Idx, o1 y = slabAt (X c) (512 * (1 - cy c) + 64 * 1 + (y 0).val) (512 * cx c + (y 1).val))
    (ho2 : ∀ y : S64x512.Idx, o2 y = slabAt (X c) (512 * (1 - cy c) + 64 * 2 + (y 0).val) (512 * cx c + (y 1).val))
    (ho3 : ∀ y : S64x512.Idx, o3 y = slabAt (X c) (512 * (1 - cy c) + 64 * 3 + (y 0).val) (512 * cx c + (y 1).val))
    (ho4 : ∀ y : S64x512.Idx, o4 y = slabAt (X c) (512 * (1 - cy c) + 64 * 4 + (y 0).val) (512 * cx c + (y 1).val))
    (ho5 : ∀ y : S64x512.Idx, o5 y = slabAt (X c) (512 * (1 - cy c) + 64 * 5 + (y 0).val) (512 * cx c + (y 1).val))
    (ho6 : ∀ y : S64x512.Idx, o6 y = slabAt (X c) (512 * (1 - cy c) + 64 * 6 + (y 0).val) (512 * cx c + (y 1).val))
    (ho7 : ∀ y : S64x512.Idx, o7 y = slabAt (X c) (512 * (1 - cy c) + 64 * 7 + (y 0).val) (512 * cx c + (y 1).val))
    (hz0 : ∀ y : S1x64x512.Idx, z0 y = recvZC X c (ix3 (0 : Fin 8) (y 1) (y 2)))
    (hz1 : ∀ y : S1x64x512.Idx, z1 y = recvZC X c (ix3 (1 : Fin 8) (y 1) (y 2)))
    (hz2 : ∀ y : S1x64x512.Idx, z2 y = recvZC X c (ix3 (2 : Fin 8) (y 1) (y 2)))
    (hz3 : ∀ y : S1x64x512.Idx, z3 y = recvZC X c (ix3 (3 : Fin 8) (y 1) (y 2)))
    (hz4 : ∀ y : S1x64x512.Idx, z4 y = recvZC X c (ix3 (4 : Fin 8) (y 1) (y 2)))
    (hz5 : ∀ y : S1x64x512.Idx, z5 y = recvZC X c (ix3 (5 : Fin 8) (y 1) (y 2)))
    (hz6 : ∀ y : S1x64x512.Idx, z6 y = recvZC X c (ix3 (6 : Fin 8) (y 1) (y 2)))
    (hz7 : ∀ y : S1x64x512.Idx, z7 y = recvZC X c (ix3 (7 : Fin 8) (y 1) (y 2))) :
    (Memref.whole cc0_stg0_0).view.writes (Elt F) g0
      [⟨Rect.unit (s := S1024x512) (k0_off20 c 448#32) S64x512.size (k0_off20_inb c 7), k0_pay25 o7 z7⟩,
       ⟨Rect.unit (s := S1024x512) (k0_off20 c 384#32) S64x512.size (k0_off20_inb c 6), k0_pay24 o6 z6⟩,
       ⟨Rect.unit (s := S1024x512) (k0_off20 c 320#32) S64x512.size (k0_off20_inb c 5), k0_pay23 o5 z5⟩,
       ⟨Rect.unit (s := S1024x512) (k0_off20 c 256#32) S64x512.size (k0_off20_inb c 4), k0_pay22 o4 z4⟩,
       ⟨Rect.unit (s := S1024x512) (k0_off20 c 192#32) S64x512.size (k0_off20_inb c 3), k0_pay21 o3 z3⟩,
       ⟨Rect.unit (s := S1024x512) (k0_off20 c 128#32) S64x512.size (k0_off20_inb c 2), k0_pay20 o2 z2⟩,
       ⟨Rect.unit (s := S1024x512) (k0_off20 c 64#32) S64x512.size (k0_off20_inb c 1), k0_pay19 o1 z1⟩,
       ⟨Rect.unit (s := S1024x512) (k0_off20 c 0#32) S64x512.size (k0_off20_inb c 0), k0_pay18 o0 z0⟩,
       ⟨Rect.unit (s := S1024x512) (k0_off12 c 448#32) S64x512.size (k0_off12_inb c 7), k0_pay17 f7 r7⟩,
       ⟨Rect.unit (s := S1024x512) (k0_off12 c 384#32) S64x512.size (k0_off12_inb c 6), k0_pay16 f6 r6⟩,
       ⟨Rect.unit (s := S1024x512) (k0_off12 c 320#32) S64x512.size (k0_off12_inb c 5), k0_pay15 f5 r5⟩,
       ⟨Rect.unit (s := S1024x512) (k0_off12 c 256#32) S64x512.size (k0_off12_inb c 4), k0_pay14 f4 r4⟩,
       ⟨Rect.unit (s := S1024x512) (k0_off12 c 192#32) S64x512.size (k0_off12_inb c 3), k0_pay13 f3 r3⟩,
       ⟨Rect.unit (s := S1024x512) (k0_off12 c 128#32) S64x512.size (k0_off12_inb c 2), k0_pay12 f2 r2⟩,
       ⟨Rect.unit (s := S1024x512) (k0_off12 c 64#32) S64x512.size (k0_off12_inb c 1), k0_pay11 f1 r1⟩,
       ⟨Rect.unit (s := S1024x512) (k0_off12 c 0#32) S64x512.size (k0_off12_inb c 0), k0_pay10 f0 r0⟩]
      = outC X c := by
  have hF : ∀ (K : Fin 8) (y : S1x64x512.Idx), (![f0, f1, f2, f3, f4, f5, f6, f7] : Fin 8 → Vec F S1x64x512 .f32) K y
      = slabAt (X c) (512 * cy c + 64 * K.val + (y 1).val) (512 * cx c + (y 2).val) := by
    intro K y
    match K with
    | ⟨0, _⟩ => exact hf0 y
    | ⟨1, _⟩ => exact hf1 y
    | ⟨2, _⟩ => exact hf2 y
    | ⟨3, _⟩ => exact hf3 y
    | ⟨4, _⟩ => exact hf4 y
    | ⟨5, _⟩ => exact hf5 y
    | ⟨6, _⟩ => exact hf6 y
    | ⟨7, _⟩ => exact hf7 y
  have hR : ∀ (K : Fin 8) (y : S1x64x512.Idx), (![r0, r1, r2, r3, r4, r5, r6, r7] : Fin 8 → Vec F S1x64x512 .bf16) K y = recvXC X c (ix3 K (y 1) (y 2)) := by
    intro K y
    match K with
    | ⟨0, _⟩ => exact hr0 y
    | ⟨1, _⟩ => exact hr1 y
    | ⟨2, _⟩ => exact hr2 y
    | ⟨3, _⟩ => exact hr3 y
    | ⟨4, _⟩ => exact hr4 y
    | ⟨5, _⟩ => exact hr5 y
    | ⟨6, _⟩ => exact hr6 y
    | ⟨7, _⟩ => exact hr7 y
  have hO : ∀ (K : Fin 8) (y : S64x512.Idx), (![o0, o1, o2, o3, o4, o5, o6, o7] : Fin 8 → Vec F S64x512 .f32) K y
      = slabAt (X c) (512 * (1 - cy c) + 64 * K.val + (y 0).val) (512 * cx c + (y 1).val) := by
    intro K y
    match K with
    | ⟨0, _⟩ => exact ho0 y
    | ⟨1, _⟩ => exact ho1 y
    | ⟨2, _⟩ => exact ho2 y
    | ⟨3, _⟩ => exact ho3 y
    | ⟨4, _⟩ => exact ho4 y
    | ⟨5, _⟩ => exact ho5 y
    | ⟨6, _⟩ => exact ho6 y
    | ⟨7, _⟩ => exact ho7 y
  have hZ : ∀ (K : Fin 8) (y : S1x64x512.Idx), (![z0, z1, z2, z3, z4, z5, z6, z7] : Fin 8 → Vec F S1x64x512 .bf16) K y = recvZC X c (ix3 K (y 1) (y 2)) := by
    intro K y
    match K with
    | ⟨0, _⟩ => exact hz0 y
    | ⟨1, _⟩ => exact hz1 y
    | ⟨2, _⟩ => exact hz2 y
    | ⟨3, _⟩ => exact hz3 y
    | ⟨4, _⟩ => exact hz4 y
    | ⟨5, _⟩ => exact hz5 y
    | ⟨6, _⟩ => exact hz6 y
    | ⟨7, _⟩ => exact hz7 y
  exact (outAll_writes c g0 ![f0, f1, f2, f3, f4, f5, f6, f7] ![r0, r1, r2, r3, r4, r5, r6, r7] ![o0, o1, o2, o3, o4, o5, o6, o7] ![z0, z1, z2, z3, z4, z5, z6, z7]).trans
    (outAll_eq X c g0 _ _ _ _ hF hR hO hZ)

/-- info: 'Cert.Kernel.RS.landF_apply' depends on axioms: [propext, Classical.choice, Quot.sound] -/
#guard_msgs in #print axioms landF_apply
/-- info: 'Cert.Kernel.RS.fbAll_eq' depends on axioms: [propext, Classical.choice, Quot.sound] -/
#guard_msgs in #print axioms fbAll_eq
/-- info: 'Cert.Kernel.RS.ldP_0' depends on axioms: [propext, Classical.choice, Quot.sound] -/
#guard_msgs in #print axioms ldP_0
/-- info: 'Cert.Kernel.RS.ldO_0' depends on axioms: [propext, Classical.choice, Quot.sound] -/
#guard_msgs in #print axioms ldO_0
/-- info: 'Cert.Kernel.RS.sx_store_0' depends on axioms: [propext, Classical.choice, Quot.sound] -/
#guard_msgs in #print axioms sx_store_0
/-- info: 'Cert.Kernel.RS.rx_ld_0' depends on axioms: [propext, Classical.choice, Quot.sound] -/
#guard_msgs in #print axioms rx_ld_0
/-- info: 'Cert.Kernel.RS.rz_ld_0' depends on axioms: [propext, Classical.choice, Quot.sound] -/
#guard_msgs in #print axioms rz_ld_0
/-- info: 'Cert.Kernel.RS.oh_ld_0' depends on axioms: [propext, Classical.choice, Quot.sound] -/
#guard_msgs in #print axioms oh_ld_0
/-- info: 'Cert.Kernel.RS.ldP_1' depends on axioms: [propext, Classical.choice, Quot.sound] -/
#guard_msgs in #print axioms ldP_1
/-- info: 'Cert.Kernel.RS.ldO_1' depends on axioms: [propext, Classical.choice, Quot.sound] -/
#guard_msgs in #print axioms ldO_1
/-- info: 'Cert.Kernel.RS.sx_store_1' depends on axioms: [propext, Classical.choice, Quot.sound] -/
#guard_msgs in #print axioms sx_store_1
/-- info: 'Cert.Kernel.RS.rx_ld_1' depends on axioms: [propext, Classical.choice, Quot.sound] -/
#guard_msgs in #print axioms rx_ld_1
/-- info: 'Cert.Kernel.RS.rz_ld_1' depends on axioms: [propext, Classical.choice, Quot.sound] -/
#guard_msgs in #print axioms rz_ld_1
/-- info: 'Cert.Kernel.RS.oh_ld_1' depends on axioms: [propext, Classical.choice, Quot.sound] -/
#guard_msgs in #print axioms oh_ld_1
/-- info: 'Cert.Kernel.RS.ldP_2' depends on axioms: [propext, Classical.choice, Quot.sound] -/
#guard_msgs in #print axioms ldP_2
/-- info: 'Cert.Kernel.RS.ldO_2' depends on axioms: [propext, Classical.choice, Quot.sound] -/
#guard_msgs in #print axioms ldO_2
/-- info: 'Cert.Kernel.RS.sx_store_2' depends on axioms: [propext, Classical.choice, Quot.sound] -/
#guard_msgs in #print axioms sx_store_2
/-- info: 'Cert.Kernel.RS.rx_ld_2' depends on axioms: [propext, Classical.choice, Quot.sound] -/
#guard_msgs in #print axioms rx_ld_2
/-- info: 'Cert.Kernel.RS.rz_ld_2' depends on axioms: [propext, Classical.choice, Quot.sound] -/
#guard_msgs in #print axioms rz_ld_2
/-- info: 'Cert.Kernel.RS.oh_ld_2' depends on axioms: [propext, Classical.choice, Quot.sound] -/
#guard_msgs in #print axioms oh_ld_2
/-- info: 'Cert.Kernel.RS.ldP_3' depends on axioms: [propext, Classical.choice, Quot.sound] -/
#guard_msgs in #print axioms ldP_3
/-- info: 'Cert.Kernel.RS.ldO_3' depends on axioms: [propext, Classical.choice, Quot.sound] -/
#guard_msgs in #print axioms ldO_3
/-- info: 'Cert.Kernel.RS.sx_store_3' depends on axioms: [propext, Classical.choice, Quot.sound] -/
#guard_msgs in #print axioms sx_store_3
/-- info: 'Cert.Kernel.RS.rx_ld_3' depends on axioms: [propext, Classical.choice, Quot.sound] -/
#guard_msgs in #print axioms rx_ld_3
/-- info: 'Cert.Kernel.RS.rz_ld_3' depends on axioms: [propext, Classical.choice, Quot.sound] -/
#guard_msgs in #print axioms rz_ld_3
/-- info: 'Cert.Kernel.RS.oh_ld_3' depends on axioms: [propext, Classical.choice, Quot.sound] -/
#guard_msgs in #print axioms oh_ld_3
/-- info: 'Cert.Kernel.RS.ldP_4' depends on axioms: [propext, Classical.choice, Quot.sound] -/
#guard_msgs in #print axioms ldP_4
/-- info: 'Cert.Kernel.RS.ldO_4' depends on axioms: [propext, Classical.choice, Quot.sound] -/
#guard_msgs in #print axioms ldO_4
/-- info: 'Cert.Kernel.RS.sx_store_4' depends on axioms: [propext, Classical.choice, Quot.sound] -/
#guard_msgs in #print axioms sx_store_4
/-- info: 'Cert.Kernel.RS.rx_ld_4' depends on axioms: [propext, Classical.choice, Quot.sound] -/
#guard_msgs in #print axioms rx_ld_4
/-- info: 'Cert.Kernel.RS.rz_ld_4' depends on axioms: [propext, Classical.choice, Quot.sound] -/
#guard_msgs in #print axioms rz_ld_4
/-- info: 'Cert.Kernel.RS.oh_ld_4' depends on axioms: [propext, Classical.choice, Quot.sound] -/
#guard_msgs in #print axioms oh_ld_4
/-- info: 'Cert.Kernel.RS.ldP_5' depends on axioms: [propext, Classical.choice, Quot.sound] -/
#guard_msgs in #print axioms ldP_5
/-- info: 'Cert.Kernel.RS.ldO_5' depends on axioms: [propext, Classical.choice, Quot.sound] -/
#guard_msgs in #print axioms ldO_5
/-- info: 'Cert.Kernel.RS.sx_store_5' depends on axioms: [propext, Classical.choice, Quot.sound] -/
#guard_msgs in #print axioms sx_store_5
/-- info: 'Cert.Kernel.RS.rx_ld_5' depends on axioms: [propext, Classical.choice, Quot.sound] -/
#guard_msgs in #print axioms rx_ld_5
/-- info: 'Cert.Kernel.RS.rz_ld_5' depends on axioms: [propext, Classical.choice, Quot.sound] -/
#guard_msgs in #print axioms rz_ld_5
/-- info: 'Cert.Kernel.RS.oh_ld_5' depends on axioms: [propext, Classical.choice, Quot.sound] -/
#guard_msgs in #print axioms oh_ld_5
/-- info: 'Cert.Kernel.RS.ldP_6' depends on axioms: [propext, Classical.choice, Quot.sound] -/
#guard_msgs in #print axioms ldP_6
/-- info: 'Cert.Kernel.RS.ldO_6' depends on axioms: [propext, Classical.choice, Quot.sound] -/
#guard_msgs in #print axioms ldO_6
/-- info: 'Cert.Kernel.RS.sx_store_6' depends on axioms: [propext, Classical.choice, Quot.sound] -/
#guard_msgs in #print axioms sx_store_6
/-- info: 'Cert.Kernel.RS.rx_ld_6' depends on axioms: [propext, Classical.choice, Quot.sound] -/
#guard_msgs in #print axioms rx_ld_6
/-- info: 'Cert.Kernel.RS.rz_ld_6' depends on axioms: [propext, Classical.choice, Quot.sound] -/
#guard_msgs in #print axioms rz_ld_6
/-- info: 'Cert.Kernel.RS.oh_ld_6' depends on axioms: [propext, Classical.choice, Quot.sound] -/
#guard_msgs in #print axioms oh_ld_6
/-- info: 'Cert.Kernel.RS.ldP_7' depends on axioms: [propext, Classical.choice, Quot.sound] -/
#guard_msgs in #print axioms ldP_7
/-- info: 'Cert.Kernel.RS.ldO_7' depends on axioms: [propext, Classical.choice, Quot.sound] -/
#guard_msgs in #print axioms ldO_7
/-- info: 'Cert.Kernel.RS.sx_store_7' depends on axioms: [propext, Classical.choice, Quot.sound] -/
#guard_msgs in #print axioms sx_store_7
/-- info: 'Cert.Kernel.RS.rx_ld_7' depends on axioms: [propext, Classical.choice, Quot.sound] -/
#guard_msgs in #print axioms rx_ld_7
/-- info: 'Cert.Kernel.RS.rz_ld_7' depends on axioms: [propext, Classical.choice, Quot.sound] -/
#guard_msgs in #print axioms rz_ld_7
/-- info: 'Cert.Kernel.RS.oh_ld_7' depends on axioms: [propext, Classical.choice, Quot.sound] -/
#guard_msgs in #print axioms oh_ld_7
/-- info: 'Cert.Kernel.RS.outAll_eq' depends on axioms: [propext, Classical.choice, Quot.sound] -/
#guard_msgs in #print axioms outAll_eq
/-- info: 'Cert.Kernel.RS.other_land' depends on axioms: [propext, Classical.choice, Quot.sound] -/
#guard_msgs in #print axioms other_land
/-- info: 'Cert.Kernel.RS.outAll_writes' depends on axioms: [propext, Classical.choice, Quot.sound] -/
#guard_msgs in #print axioms outAll_writes
/-- info: 'Cert.Kernel.RS.other_val' depends on axioms: [propext, Classical.choice, Quot.sound] -/
#guard_msgs in #print axioms other_val
/-- info: 'Cert.Kernel.RS.other_land_writes' depends on axioms: [propext, Classical.choice, Quot.sound] -/
#guard_msgs in #print axioms other_land_writes
/-- info: 'Cert.Kernel.RS.oh_val_0' depends on axioms: [propext, Classical.choice, Quot.sound] -/
#guard_msgs in #print axioms oh_val_0
/-- info: 'Cert.Kernel.RS.oh_val_1' depends on axioms: [propext, Classical.choice, Quot.sound] -/
#guard_msgs in #print axioms oh_val_1
/-- info: 'Cert.Kernel.RS.oh_val_2' depends on axioms: [propext, Classical.choice, Quot.sound] -/
#guard_msgs in #print axioms oh_val_2
/-- info: 'Cert.Kernel.RS.oh_val_3' depends on axioms: [propext, Classical.choice, Quot.sound] -/
#guard_msgs in #print axioms oh_val_3
/-- info: 'Cert.Kernel.RS.oh_val_4' depends on axioms: [propext, Classical.choice, Quot.sound] -/
#guard_msgs in #print axioms oh_val_4
/-- info: 'Cert.Kernel.RS.oh_val_5' depends on axioms: [propext, Classical.choice, Quot.sound] -/
#guard_msgs in #print axioms oh_val_5
/-- info: 'Cert.Kernel.RS.oh_val_6' depends on axioms: [propext, Classical.choice, Quot.sound] -/
#guard_msgs in #print axioms oh_val_6
/-- info: 'Cert.Kernel.RS.oh_val_7' depends on axioms: [propext, Classical.choice, Quot.sound] -/
#guard_msgs in #print axioms oh_val_7
/-- info: 'Cert.Kernel.RS.oh_cov_0' depends on axioms: [propext, Classical.choice, Quot.sound] -/
#guard_msgs in #print axioms oh_cov_0
/-- info: 'Cert.Kernel.RS.oh_cov_1' depends on axioms: [propext, Classical.choice, Quot.sound] -/
#guard_msgs in #print axioms oh_cov_1
/-- info: 'Cert.Kernel.RS.oh_cov_2' depends on axioms: [propext, Classical.choice, Quot.sound] -/
#guard_msgs in #print axioms oh_cov_2
/-- info: 'Cert.Kernel.RS.oh_cov_3' depends on axioms: [propext, Classical.choice, Quot.sound] -/
#guard_msgs in #print axioms oh_cov_3
/-- info: 'Cert.Kernel.RS.oh_cov_4' depends on axioms: [propext, Classical.choice, Quot.sound] -/
#guard_msgs in #print axioms oh_cov_4
/-- info: 'Cert.Kernel.RS.oh_cov_5' depends on axioms: [propext, Classical.choice, Quot.sound] -/
#guard_msgs in #print axioms oh_cov_5
/-- info: 'Cert.Kernel.RS.oh_cov_6' depends on axioms: [propext, Classical.choice, Quot.sound] -/
#guard_msgs in #print axioms oh_cov_6
/-- info: 'Cert.Kernel.RS.oh_cov_7' depends on axioms: [propext, Classical.choice, Quot.sound] -/
#guard_msgs in #print axioms oh_cov_7
/-- info: 'Cert.Kernel.RS.out_final32' depends on axioms: [propext, Classical.choice, Quot.sound] -/
#guard_msgs in #print axioms out_final32

end Cert.Kernel.RS

end
-- ==== Proof.KRSBody.lean ====
/-
  One device's thread through the whole kernel body.

  The thread signals both peers' barrier cells (handing each the receive chunks it may now write), starts its nine
  local fetches, and waits its own barrier for both peers. Then, chunk by chunk: it waits the row fetch, rounds the
  peer's column half to bf16 into the x-send buffer and sends it to the x-peer; chunk by chunk again: it waits the
  x-peer's chunk, lends half of it to the forward to the y-peer, and stores the own row half of the result as the
  fetched own-column half plus the received chunk; then it waits the other-half fetch and, chunk by chunk, the
  y-peer's forwards, storing the other row half; last it waits all sixteen sends. Local steps are run by the symbolic
  executor; a signal, a remote copy and a wait other devices pay are the rounds library's rules, applied at the cell
  the step names. At the end every cell of the device's own is closed and every buffer is whole again.
-/
import proofs.«901020_g7700000000001021_dist_rs_v7x_xyz2x2x2_x_m1024_n512_bf16_1_alg».proof.Proof.KRSInv
import proofs.«901020_g7700000000001021_dist_rs_v7x_xyz2x2x2_x_m1024_n512_bf16_1_alg».proof.Proof.KRSChunks
import proofs.«901020_g7700000000001021_dist_rs_v7x_xyz2x2x2_x_m1024_n512_bf16_1_alg».proof.Proof.KRSWaits
import proofs.«901020_g7700000000001021_dist_rs_v7x_xyz2x2x2_x_m1024_n512_bf16_1_alg».proof.Proof.KRSGeom
import proofs.«901020_g7700000000001021_dist_rs_v7x_xyz2x2x2_x_m1024_n512_bf16_1_alg».proof.Proof.KRSSteps
import proofs.«901020_g7700000000001021_dist_rs_v7x_xyz2x2x2_x_m1024_n512_bf16_1_alg».proof.Proof.KRSBodyLemmas
import proofs.«901020_g7700000000001021_dist_rs_v7x_xyz2x2x2_x_m1024_n512_bf16_1_alg».proof.Proof.KRSVals

noncomputable section

namespace Cert.Kernel.RS

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq dev15_eq dev16_eq dev17_eq dev18_eq

set_option maxRecDepth 65536 in
set_option maxHeartbeats 0 in
/-- One device's thread through the whole kernel body, from `bodyPre` to `bodyPost`. -/
theorem sound_body (K : Dev nD × CK → ℕ) (c : Dev nD) (Kt : PUnit → sProp 𝕄) :
    iprop(bodyPre m K c ∗ (bodyPost m c -∗ Kt ⟨⟩))
      ⊢ wp frame (wpE (defs₀ (F := F)) 𝒱₀ c none) Set.univ (bodyAt0 (F := F) t₀) Kt := by
  unfold bodyAt0
  simp only [cc0_body_eq_skeleton]; unfold cc0_body_skel
  unfold bodyPre ghost linear payToks creds locals0 scratch slabPts
  simp only [bigSep_fin8]
  iintro ⟨⟨⟨⟨#Hrec, HatB, Hat, HtBX, HtBY, ⟨HtRX0, HtRX1, HtRX2, HtRX3, HtRX4, HtRX5, HtRX6, HtRX7⟩, ⟨HtRZ0, HtRZ1, HtRZ2, HtRZ3, HtRZ4, HtRZ5, HtRZ6, HtRZ7⟩, ⟨HtSX0, HtSX1, HtSX2, HtSX3, HtSX4, HtSX5, HtSX6, HtSX7⟩, ⟨HtSZ0, HtSZ1, HtSZ2, HtSZ3, HtSZ4, HtSZ5, HtSZ6, HtSZ7⟩⟩, ⟨HcB, ⟨HcRX0, HcRX1, HcRX2, HcRX3, HcRX4, HcRX5, HcRX6, HcRX7⟩, ⟨HcRZ0, HcRZ1, HcRZ2, HcRZ3, HcRZ4, HcRZ5, HcRZ6, HcRZ7⟩⟩, #Hlev, Hslab, ⟨⟨Hf0, Hf1, Hf2, Hf3, Hf4, Hf5, Hf6, Hf7⟩, Hos⟩, ⟨%b0, Hb0⟩, ⟨%b1, Hb1⟩, ⟨%b2, Hb2⟩, ⟨%b3, Hb3⟩, ⟨%b4, Hb4⟩⟩, Ho, ⟨%d0, %g0, %hg0, Hout⟩⟩, Hk⟩
  ihave Hat := (Entails.of_eq (bigSep_fin4x8 _)) $$ Hat
  icases Hat with ⟨⟨Hat00, Hat01, Hat02, Hat03, Hat04, Hat05, Hat06, Hat07⟩, ⟨Hat10, Hat11, Hat12, Hat13, Hat14, Hat15, Hat16, Hat17⟩, ⟨Hat20, Hat21, Hat22, Hat23, Hat24, Hat25, Hat26, Hat27⟩, ⟨Hat30, Hat31, Hat32, Hat33, Hat34, Hat35, Hat36, Hat37⟩⟩
  ihave #HIbx := (inv_bar m K (px c)) $$ Hrec
  ihave #HRbx := (reached_bar m K (px c)) $$ Hrec
  ihave #HIby := (inv_bar m K (py c)) $$ Hrec
  ihave #HRby := (reached_bar m K (py c)) $$ Hrec
  ihave #HIb := (inv_bar m K c) $$ Hrec
  ihave Hrx := (rx_split (F := F) c fullShare b3) $$ Hb3
  ihave Hrz := (rz_split (F := F) c fullShare b4) $$ Hb4
  simp only [bigSep_fin8]
  icases Hrx with ⟨Hrx0, Hrx1, Hrx2, Hrx3, Hrx4, Hrx5, Hrx6, Hrx7⟩
  icases Hrz with ⟨Hrz0, Hrz1, Hrz2, Hrz3, Hrz4, Hrz5, Hrz6, Hrz7⟩
  ihave Hslab := (Entails.of_eq (whole_pts c main_arg0 fullShare _)) $$ Hslab
  ihave Hslab := (slab_toks m c) $$ Hslab
  icases Hslab with ⟨Hslr, Hsl0, Hsl1, Hsl2, Hsl3, Hsl4, Hsl5, Hsl6, Hsl7, Hsl8, Hsl9⟩
  ihave Hb0 := (Entails.of_eq (whole_pts c cc0_scratch0 fullShare b0)) $$ Hb0
  ihave Hb1 := (Entails.of_eq (whole_pts c cc0_scratch1 fullShare b1)) $$ Hb1
  ihave Hsx := (sx_split8 (F := F) c b2) $$ Hb2
  icases Hsx with ⟨Hsx0, Hsx1, Hsx2, Hsx3, Hsx4, Hsx5, Hsx6, Hsx7⟩
  ihave Hout := (Entails.of_eq (whole_pts c cc0_stg0_0 fullShare g0)) $$ Hout
  unfold Dat.owesAt Pipeline.owesWithin
  icases Ho with ⟨%W, %hW, HO⟩
  rw [show (dats m 0 c).owed t₀.castSucc = O₀ c from rfl]
  unfold O₀
  sl_exec
  -- the entry signal to the x-peer: its payload is this device's eight x-receive chunks
  iapply (Rounds.wp_signal 𝒱₀ ER (rsRd m) (c : Thread nD τ) none (dst := (px c : Thread nD τ)) (κ := K (px c, none))
      (d := false) (by rw [duties_bar]; exact Finset.mem_univ _) ((amount_bar m (px c) false).trans (by decide)) () _ rfl)
    $$ [HO HtBX Hrx0 Hrx1 Hrx2 Hrx3 Hrx4 Hrx5 Hrx6 Hrx7]
  · isplitr; · iexact HIbx
    isplitl [HO]; · iexact HO
    isplitl [HtBX]; · iexact HtBX
    isplitl [Hrx0 Hrx1 Hrx2 Hrx3 Hrx4 Hrx5 Hrx6 Hrx7]
    · rw [payload_bar_px]
      isplitl [Hrx0]; · iexists b3; iexact Hrx0
      isplitl [Hrx1]; · iexists b3; iexact Hrx1
      isplitl [Hrx2]; · iexists b3; iexact Hrx2
      isplitl [Hrx3]; · iexists b3; iexact Hrx3
      isplitl [Hrx4]; · iexists b3; iexact Hrx4
      isplitl [Hrx5]; · iexists b3; iexact Hrx5
      isplitl [Hrx6]; · iexists b3; iexact Hrx6
      iexists b3; iexact Hrx7
    · iexact HRbx
  iintro HO
  sl_exec
  -- the entry signal to the y-peer: its payload is this device's eight y-receive chunks
  iapply (Rounds.wp_signal 𝒱₀ ER (rsRd m) (c : Thread nD τ) none (dst := (py c : Thread nD τ)) (κ := K (py c, none))
      (d := true) (by rw [duties_bar]; exact Finset.mem_univ _) ((amount_bar m (py c) true).trans (by decide)) () _ rfl)
    $$ [HO HtBY Hrz0 Hrz1 Hrz2 Hrz3 Hrz4 Hrz5 Hrz6 Hrz7]
  · isplitr; · iexact HIby
    isplitl [HO]; · iexact HO
    isplitl [HtBY]; · iexact HtBY
    isplitl [Hrz0 Hrz1 Hrz2 Hrz3 Hrz4 Hrz5 Hrz6 Hrz7]
    · rw [payload_bar_py]
      isplitl [Hrz0]; · iexists b4; iexact Hrz0
      isplitl [Hrz1]; · iexists b4; iexact Hrz1
      isplitl [Hrz2]; · iexists b4; iexact Hrz2
      isplitl [Hrz3]; · iexists b4; iexact Hrz3
      isplitl [Hrz4]; · iexists b4; iexact Hrz4
      isplitl [Hrz5]; · iexists b4; iexact Hrz5
      isplitl [Hrz6]; · iexists b4; iexact Hrz6
      iexists b4; iexact Hrz7
    · iexact HRby
  iintro HO
  have hd0 := other_disj_0 c
  have hd1 := other_disj_1 c
  have hd2 := other_disj_2 c
  have hd3 := other_disj_3 c
  have hd4 := other_disj_4 c
  have hd5 := other_disj_5 c
  have hd6 := other_disj_6 c
  have hd7 := other_disj_7 c
  set_option sl_exec.dmaWindow true in set_option sl_exec.dmaWindowSet true in sl_exec
  clear hd0 hd1 hd2 hd3 hd4 hd5 hd6 hd7
  -- the wait for both peers' entry signals, all sixteen transfers still owed
  iapply (Rounds.wp_wait_rest_token 𝒱₀ ER (rsRd m) (c : Thread nD τ) none (κ := K (c, none))
      (wpE_semWait_eq 𝒱₀ (c : Thread nD τ) none Set.univ) (Set.mem_univ _) () (O := _) (W := _) (R := 0) (m := 0) (T := ∅)
      (by rw [expect_bar]; decide)) $$ [HcB HO HatB]
  · isplitr; · iexact HIb
    isplitl [HcB]; · iexact HcB
    isplitl [HO]; · iexact HO
    isplitr; · iapply (mayWait_bar (F := F) c); iexact Hlev
    iexact HatB
  iintro ⟨HO, HatB, -, Hpay⟩
  ihave Hp := (Entails.of_eq (rest_bar8 m c)) $$ Hpay
  icases Hp with ⟨⟨⟨%fx0, Hpx0⟩, ⟨%fx1, Hpx1⟩, ⟨%fx2, Hpx2⟩, ⟨%fx3, Hpx3⟩, ⟨%fx4, Hpx4⟩, ⟨%fx5, Hpx5⟩, ⟨%fx6, Hpx6⟩, ⟨%fx7, Hpx7⟩⟩, ⟨⟨%fz0, Hpz0⟩, ⟨%fz1, Hpz1⟩, ⟨%fz2, Hpz2⟩, ⟨%fz3, Hpz3⟩, ⟨%fz4, Hpz4⟩, ⟨%fz5, Hpz5⟩, ⟨%fz6, Hpz6⟩, ⟨%fz7, Hpz7⟩⟩⟩
  have hmwf0 : (levAts L lv : sProp 𝕄) ⊢ MayWait (c : Thread nD τ) (SemLoc.dma ((cc0_scratch5.slice (Rect.unit (s := S8) ![0] S1.size inb_S8_S1_0)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N + tallyAt (qCell (px c) 1 2) () N + tallyAt (qCell (px c) 1 1) () N + tallyAt (qCell (px c) 1 0) () N) :=
    mayWait_low (F := F) c _ (lv_local c _ (by decide)) 0
  have hmwf1 : (levAts L lv : sProp 𝕄) ⊢ MayWait (c : Thread nD τ) (SemLoc.dma ((cc0_scratch5.slice (Rect.unit (s := S8) ![1] S1.size inb_S8_S1_1)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N + tallyAt (qCell (px c) 1 2) () N + tallyAt (qCell (px c) 1 1) () N) :=
    mayWait_low (F := F) c _ (lv_local c _ (by decide)) 1
  have hmwf2 : (levAts L lv : sProp 𝕄) ⊢ MayWait (c : Thread nD τ) (SemLoc.dma ((cc0_scratch5.slice (Rect.unit (s := S8) ![2] S1.size inb_S8_S1_2)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N + tallyAt (qCell (px c) 1 2) () N) :=
    mayWait_low (F := F) c _ (lv_local c _ (by decide)) 2
  have hmwf3 : (levAts L lv : sProp 𝕄) ⊢ MayWait (c : Thread nD τ) (SemLoc.dma ((cc0_scratch5.slice (Rect.unit (s := S8) ![3] S1.size inb_S8_S1_3)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N + tallyAt (qCell (px c) 1 3) () N) :=
    mayWait_low (F := F) c _ (lv_local c _ (by decide)) 3
  have hmwf4 : (levAts L lv : sProp 𝕄) ⊢ MayWait (c : Thread nD τ) (SemLoc.dma ((cc0_scratch5.slice (Rect.unit (s := S8) ![4] S1.size inb_S8_S1_4)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N + tallyAt (qCell (px c) 1 4) () N) :=
    mayWait_low (F := F) c _ (lv_local c _ (by decide)) 4
  have hmwf5 : (levAts L lv : sProp 𝕄) ⊢ MayWait (c : Thread nD τ) (SemLoc.dma ((cc0_scratch5.slice (Rect.unit (s := S8) ![5] S1.size inb_S8_S1_5)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N + tallyAt (qCell (px c) 1 5) () N) :=
    mayWait_low (F := F) c _ (lv_local c _ (by decide)) 5
  have hmwf6 : (levAts L lv : sProp 𝕄) ⊢ MayWait (c : Thread nD τ) (SemLoc.dma ((cc0_scratch5.slice (Rect.unit (s := S8) ![6] S1.size inb_S8_S1_6)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N + tallyAt (qCell (px c) 1 6) () N) :=
    mayWait_low (F := F) c _ (lv_local c _ (by decide)) 6
  have hmwf7 : (levAts L lv : sProp 𝕄) ⊢ MayWait (c : Thread nD τ) (SemLoc.dma ((cc0_scratch5.slice (Rect.unit (s := S8) ![7] S1.size inb_S8_S1_7)).squeeze S_ squeezes_S1_S_).sem : SemLoc sig) () (tallyAt (qCell (py c) 3 7) () N + tallyAt (qCell (py c) 3 6) () N + tallyAt (qCell (py c) 3 5) () N + tallyAt (qCell (py c) 3 4) () N + tallyAt (qCell (py c) 3 3) () N + tallyAt (qCell (py c) 3 2) () N + tallyAt (qCell (py c) 3 1) () N + tallyAt (qCell (py c) 3 0) () N + tallyAt (qCell (px c) 1 7) () N) :=
    mayWait_low (F := F) c _ (lv_local c _ (by decide)) 7
  set_option sl_exec.dmaWindow true in set_option sl_exec.dmaWindowSet true in sl_exec
  ihave #HIsx0 := (inv_q m K c 0 0) $$ Hrec
  ihave #HIrxp0 := (inv_q m K (px c) 1 0) $$ Hrec
  ihave #HRsx0 := (reached_q m K c 0 0) $$ Hrec
  ihave #HRrxp0 := (reached_q m K (px c) 1 0) $$ Hrec
  -- the x-send of chunk 0: the chunk goes to the x-peer's receive buffer, its credit to the peer's cell
  iapply (wp_send_x m K c _ (dev3_eq c) 0 _ (sx_store_0 (F := F) (slabs m) c b0 b2) fx0 _ rfl _) $$ [Hsx0 Hpx0 HO HtSX0 HtRX0]
  · isplitr; · iexact HIsx0
    isplitr; · iexact HIrxp0
    isplitl [Hsx0]; · iexact Hsx0
    isplitl [Hpx0]; · iexact Hpx0
    isplitl [HO]; · iexact HO
    isplitl [HtSX0]; · iexact HtSX0
    isplitr; · iexact HRsx0
    isplitl [HtRX0]; · iexact HtRX0
    iexact HRrxp0
  iintro ⟨HcSX0, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HIsx1 := (inv_q m K c 0 1) $$ Hrec
  ihave #HIrxp1 := (inv_q m K (px c) 1 1) $$ Hrec
  ihave #HRsx1 := (reached_q m K c 0 1) $$ Hrec
  ihave #HRrxp1 := (reached_q m K (px c) 1 1) $$ Hrec
  -- the x-send of chunk 1: the chunk goes to the x-peer's receive buffer, its credit to the peer's cell
  iapply (wp_send_x m K c _ (dev4_eq c) 1 _ (sx_store_1 (F := F) (slabs m) c b0 b2) fx1 _ rfl _) $$ [Hsx1 Hpx1 HO HtSX1 HtRX1]
  · isplitr; · iexact HIsx1
    isplitr; · iexact HIrxp1
    isplitl [Hsx1]; · iexact Hsx1
    isplitl [Hpx1]; · iexact Hpx1
    isplitl [HO]; · iexact HO
    isplitl [HtSX1]; · iexact HtSX1
    isplitr; · iexact HRsx1
    isplitl [HtRX1]; · iexact HtRX1
    iexact HRrxp1
  iintro ⟨HcSX1, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HIsx2 := (inv_q m K c 0 2) $$ Hrec
  ihave #HIrxp2 := (inv_q m K (px c) 1 2) $$ Hrec
  ihave #HRsx2 := (reached_q m K c 0 2) $$ Hrec
  ihave #HRrxp2 := (reached_q m K (px c) 1 2) $$ Hrec
  -- the x-send of chunk 2: the chunk goes to the x-peer's receive buffer, its credit to the peer's cell
  iapply (wp_send_x m K c _ (dev5_eq c) 2 _ (sx_store_2 (F := F) (slabs m) c b0 b2) fx2 _ rfl _) $$ [Hsx2 Hpx2 HO HtSX2 HtRX2]
  · isplitr; · iexact HIsx2
    isplitr; · iexact HIrxp2
    isplitl [Hsx2]; · iexact Hsx2
    isplitl [Hpx2]; · iexact Hpx2
    isplitl [HO]; · iexact HO
    isplitl [HtSX2]; · iexact HtSX2
    isplitr; · iexact HRsx2
    isplitl [HtRX2]; · iexact HtRX2
    iexact HRrxp2
  iintro ⟨HcSX2, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HIsx3 := (inv_q m K c 0 3) $$ Hrec
  ihave #HIrxp3 := (inv_q m K (px c) 1 3) $$ Hrec
  ihave #HRsx3 := (reached_q m K c 0 3) $$ Hrec
  ihave #HRrxp3 := (reached_q m K (px c) 1 3) $$ Hrec
  -- the x-send of chunk 3: the chunk goes to the x-peer's receive buffer, its credit to the peer's cell
  iapply (wp_send_x m K c _ (dev6_eq c) 3 _ (sx_store_3 (F := F) (slabs m) c b0 b2) fx3 _ rfl _) $$ [Hsx3 Hpx3 HO HtSX3 HtRX3]
  · isplitr; · iexact HIsx3
    isplitr; · iexact HIrxp3
    isplitl [Hsx3]; · iexact Hsx3
    isplitl [Hpx3]; · iexact Hpx3
    isplitl [HO]; · iexact HO
    isplitl [HtSX3]; · iexact HtSX3
    isplitr; · iexact HRsx3
    isplitl [HtRX3]; · iexact HtRX3
    iexact HRrxp3
  iintro ⟨HcSX3, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HIsx4 := (inv_q m K c 0 4) $$ Hrec
  ihave #HIrxp4 := (inv_q m K (px c) 1 4) $$ Hrec
  ihave #HRsx4 := (reached_q m K c 0 4) $$ Hrec
  ihave #HRrxp4 := (reached_q m K (px c) 1 4) $$ Hrec
  -- the x-send of chunk 4: the chunk goes to the x-peer's receive buffer, its credit to the peer's cell
  iapply (wp_send_x m K c _ (dev7_eq c) 4 _ (sx_store_4 (F := F) (slabs m) c b0 b2) fx4 _ rfl _) $$ [Hsx4 Hpx4 HO HtSX4 HtRX4]
  · isplitr; · iexact HIsx4
    isplitr; · iexact HIrxp4
    isplitl [Hsx4]; · iexact Hsx4
    isplitl [Hpx4]; · iexact Hpx4
    isplitl [HO]; · iexact HO
    isplitl [HtSX4]; · iexact HtSX4
    isplitr; · iexact HRsx4
    isplitl [HtRX4]; · iexact HtRX4
    iexact HRrxp4
  iintro ⟨HcSX4, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HIsx5 := (inv_q m K c 0 5) $$ Hrec
  ihave #HIrxp5 := (inv_q m K (px c) 1 5) $$ Hrec
  ihave #HRsx5 := (reached_q m K c 0 5) $$ Hrec
  ihave #HRrxp5 := (reached_q m K (px c) 1 5) $$ Hrec
  -- the x-send of chunk 5: the chunk goes to the x-peer's receive buffer, its credit to the peer's cell
  iapply (wp_send_x m K c _ (dev8_eq c) 5 _ (sx_store_5 (F := F) (slabs m) c b0 b2) fx5 _ rfl _) $$ [Hsx5 Hpx5 HO HtSX5 HtRX5]
  · isplitr; · iexact HIsx5
    isplitr; · iexact HIrxp5
    isplitl [Hsx5]; · iexact Hsx5
    isplitl [Hpx5]; · iexact Hpx5
    isplitl [HO]; · iexact HO
    isplitl [HtSX5]; · iexact HtSX5
    isplitr; · iexact HRsx5
    isplitl [HtRX5]; · iexact HtRX5
    iexact HRrxp5
  iintro ⟨HcSX5, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HIsx6 := (inv_q m K c 0 6) $$ Hrec
  ihave #HIrxp6 := (inv_q m K (px c) 1 6) $$ Hrec
  ihave #HRsx6 := (reached_q m K c 0 6) $$ Hrec
  ihave #HRrxp6 := (reached_q m K (px c) 1 6) $$ Hrec
  -- the x-send of chunk 6: the chunk goes to the x-peer's receive buffer, its credit to the peer's cell
  iapply (wp_send_x m K c _ (dev9_eq c) 6 _ (sx_store_6 (F := F) (slabs m) c b0 b2) fx6 _ rfl _) $$ [Hsx6 Hpx6 HO HtSX6 HtRX6]
  · isplitr; · iexact HIsx6
    isplitr; · iexact HIrxp6
    isplitl [Hsx6]; · iexact Hsx6
    isplitl [Hpx6]; · iexact Hpx6
    isplitl [HO]; · iexact HO
    isplitl [HtSX6]; · iexact HtSX6
    isplitr; · iexact HRsx6
    isplitl [HtRX6]; · iexact HtRX6
    iexact HRrxp6
  iintro ⟨HcSX6, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HIsx7 := (inv_q m K c 0 7) $$ Hrec
  ihave #HIrxp7 := (inv_q m K (px c) 1 7) $$ Hrec
  ihave #HRsx7 := (reached_q m K c 0 7) $$ Hrec
  ihave #HRrxp7 := (reached_q m K (px c) 1 7) $$ Hrec
  -- the x-send of chunk 7: the chunk goes to the x-peer's receive buffer, its credit to the peer's cell
  iapply (wp_send_x m K c _ (dev10_eq c) 7 _ (sx_store_7 (F := F) (slabs m) c b0 b2) fx7 _ rfl _) $$ [Hsx7 Hpx7 HO HtSX7 HtRX7]
  · isplitr; · iexact HIsx7
    isplitr; · iexact HIrxp7
    isplitl [Hsx7]; · iexact Hsx7
    isplitl [Hpx7]; · iexact Hpx7
    isplitl [HO]; · iexact HO
    isplitl [HtSX7]; · iexact HtSX7
    isplitr; · iexact HRsx7
    isplitl [HtRX7]; · iexact HtRX7
    iexact HRrxp7
  iintro ⟨HcSX7, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 0 arrives from the x-peer; half of it is lent to the forward, the other half stays to be read
  ihave #HI1_0 := (inv_q m K c 1 0) $$ Hrec
  iapply (Rounds.wp_wait_rest_token 𝒱₀ ER (rsRd m) (c : Thread nD τ) none (sm := SemLoc.dma (qS 1 0).sem) (k' := (rxM 0 : Memref sig .tc .vmem S64x512 .bf16).view.dmaCredit) (κ := K (c, some (1, 0)))
      (wpE_waitDma2_eq 𝒱₀ (c : Thread nD τ) none Set.univ) (Set.mem_univ _) () (O := _) (W := _) (R := 0) (m := 0) (T := ∅)
      (by rw [Nat.zero_add, expect_q])) $$ [HcRX0 HO Hat10]
  · isplitr; · iexact HI1_0
    isplitl [HcRX0]; · iexact HcRX0
    isplitl [HO]; · iexact HO
    isplitr; · iapply (mayWait_rx (F := F) c 0); iexact Hlev
    iexact Hat10
  iintro ⟨HO, Hat10, -, Hpay⟩
  ihave Hrx0 := (Entails.of_eq (show _ = ptsM (F := F) (rxM 0) c fullShare (recvXC (slabs m) c) from rest_q m c 1 0)) $$ Hpay
  ihave Hh := (pts_halve (F := F) (rxM 0) c (recvXC (slabs m) c)) $$ Hrx0
  icases Hh with ⟨HrxL0, HrxR0⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_0 := (inv_q m K c 2 0) $$ Hrec
  ihave #HIrzp0 := (inv_q m K (py c) 3 0) $$ Hrec
  ihave #HRsz0 := (reached_q m K c 2 0) $$ Hrec
  ihave #HRrzp0 := (reached_q m K (py c) 3 0) $$ Hrec
  iapply (wp_send_z m K c _ (dev11_eq c) 0 fz0 _ rfl _) $$ [HrxL0 Hpz0 HO HtSZ0 HtRZ0]
  · isplitr; · iexact HI2_0
    isplitr; · iexact HIrzp0
    isplitl [HrxL0]; · iexact HrxL0
    isplitl [Hpz0]; · iexact Hpz0
    isplitl [HO]; · iexact HO
    isplitl [HtSZ0]; · iexact HtSZ0
    isplitr; · iexact HRsz0
    isplitl [HtRZ0]; · iexact HtRZ0
    iexact HRrzp0
  iintro ⟨HcSZ0, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 1 arrives from the x-peer; half of it is lent to the forward, the other half stays to be read
  ihave #HI1_1 := (inv_q m K c 1 1) $$ Hrec
  iapply (Rounds.wp_wait_rest_token 𝒱₀ ER (rsRd m) (c : Thread nD τ) none (sm := SemLoc.dma (qS 1 1).sem) (k' := (rxM 1 : Memref sig .tc .vmem S64x512 .bf16).view.dmaCredit) (κ := K (c, some (1, 1)))
      (wpE_waitDma2_eq 𝒱₀ (c : Thread nD τ) none Set.univ) (Set.mem_univ _) () (O := _) (W := _) (R := 0) (m := 0) (T := ∅)
      (by rw [Nat.zero_add, expect_q])) $$ [HcRX1 HO Hat11]
  · isplitr; · iexact HI1_1
    isplitl [HcRX1]; · iexact HcRX1
    isplitl [HO]; · iexact HO
    isplitr; · iapply (mayWait_rx (F := F) c 1); iexact Hlev
    iexact Hat11
  iintro ⟨HO, Hat11, -, Hpay⟩
  ihave Hrx1 := (Entails.of_eq (show _ = ptsM (F := F) (rxM 1) c fullShare (recvXC (slabs m) c) from rest_q m c 1 1)) $$ Hpay
  ihave Hh := (pts_halve (F := F) (rxM 1) c (recvXC (slabs m) c)) $$ Hrx1
  icases Hh with ⟨HrxL1, HrxR1⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_1 := (inv_q m K c 2 1) $$ Hrec
  ihave #HIrzp1 := (inv_q m K (py c) 3 1) $$ Hrec
  ihave #HRsz1 := (reached_q m K c 2 1) $$ Hrec
  ihave #HRrzp1 := (reached_q m K (py c) 3 1) $$ Hrec
  iapply (wp_send_z m K c _ (dev12_eq c) 1 fz1 _ rfl _) $$ [HrxL1 Hpz1 HO HtSZ1 HtRZ1]
  · isplitr; · iexact HI2_1
    isplitr; · iexact HIrzp1
    isplitl [HrxL1]; · iexact HrxL1
    isplitl [Hpz1]; · iexact Hpz1
    isplitl [HO]; · iexact HO
    isplitl [HtSZ1]; · iexact HtSZ1
    isplitr; · iexact HRsz1
    isplitl [HtRZ1]; · iexact HtRZ1
    iexact HRrzp1
  iintro ⟨HcSZ1, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 2 arrives from the x-peer; half of it is lent to the forward, the other half stays to be read
  ihave #HI1_2 := (inv_q m K c 1 2) $$ Hrec
  iapply (Rounds.wp_wait_rest_token 𝒱₀ ER (rsRd m) (c : Thread nD τ) none (sm := SemLoc.dma (qS 1 2).sem) (k' := (rxM 2 : Memref sig .tc .vmem S64x512 .bf16).view.dmaCredit) (κ := K (c, some (1, 2)))
      (wpE_waitDma2_eq 𝒱₀ (c : Thread nD τ) none Set.univ) (Set.mem_univ _) () (O := _) (W := _) (R := 0) (m := 0) (T := ∅)
      (by rw [Nat.zero_add, expect_q])) $$ [HcRX2 HO Hat12]
  · isplitr; · iexact HI1_2
    isplitl [HcRX2]; · iexact HcRX2
    isplitl [HO]; · iexact HO
    isplitr; · iapply (mayWait_rx (F := F) c 2); iexact Hlev
    iexact Hat12
  iintro ⟨HO, Hat12, -, Hpay⟩
  ihave Hrx2 := (Entails.of_eq (show _ = ptsM (F := F) (rxM 2) c fullShare (recvXC (slabs m) c) from rest_q m c 1 2)) $$ Hpay
  ihave Hh := (pts_halve (F := F) (rxM 2) c (recvXC (slabs m) c)) $$ Hrx2
  icases Hh with ⟨HrxL2, HrxR2⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_2 := (inv_q m K c 2 2) $$ Hrec
  ihave #HIrzp2 := (inv_q m K (py c) 3 2) $$ Hrec
  ihave #HRsz2 := (reached_q m K c 2 2) $$ Hrec
  ihave #HRrzp2 := (reached_q m K (py c) 3 2) $$ Hrec
  iapply (wp_send_z m K c _ (dev13_eq c) 2 fz2 _ rfl _) $$ [HrxL2 Hpz2 HO HtSZ2 HtRZ2]
  · isplitr; · iexact HI2_2
    isplitr; · iexact HIrzp2
    isplitl [HrxL2]; · iexact HrxL2
    isplitl [Hpz2]; · iexact Hpz2
    isplitl [HO]; · iexact HO
    isplitl [HtSZ2]; · iexact HtSZ2
    isplitr; · iexact HRsz2
    isplitl [HtRZ2]; · iexact HtRZ2
    iexact HRrzp2
  iintro ⟨HcSZ2, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 3 arrives from the x-peer; half of it is lent to the forward, the other half stays to be read
  ihave #HI1_3 := (inv_q m K c 1 3) $$ Hrec
  iapply (Rounds.wp_wait_rest_token 𝒱₀ ER (rsRd m) (c : Thread nD τ) none (sm := SemLoc.dma (qS 1 3).sem) (k' := (rxM 3 : Memref sig .tc .vmem S64x512 .bf16).view.dmaCredit) (κ := K (c, some (1, 3)))
      (wpE_waitDma2_eq 𝒱₀ (c : Thread nD τ) none Set.univ) (Set.mem_univ _) () (O := _) (W := _) (R := 0) (m := 0) (T := ∅)
      (by rw [Nat.zero_add, expect_q])) $$ [HcRX3 HO Hat13]
  · isplitr; · iexact HI1_3
    isplitl [HcRX3]; · iexact HcRX3
    isplitl [HO]; · iexact HO
    isplitr; · iapply (mayWait_rx (F := F) c 3); iexact Hlev
    iexact Hat13
  iintro ⟨HO, Hat13, -, Hpay⟩
  ihave Hrx3 := (Entails.of_eq (show _ = ptsM (F := F) (rxM 3) c fullShare (recvXC (slabs m) c) from rest_q m c 1 3)) $$ Hpay
  ihave Hh := (pts_halve (F := F) (rxM 3) c (recvXC (slabs m) c)) $$ Hrx3
  icases Hh with ⟨HrxL3, HrxR3⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_3 := (inv_q m K c 2 3) $$ Hrec
  ihave #HIrzp3 := (inv_q m K (py c) 3 3) $$ Hrec
  ihave #HRsz3 := (reached_q m K c 2 3) $$ Hrec
  ihave #HRrzp3 := (reached_q m K (py c) 3 3) $$ Hrec
  iapply (wp_send_z m K c _ (dev14_eq c) 3 fz3 _ rfl _) $$ [HrxL3 Hpz3 HO HtSZ3 HtRZ3]
  · isplitr; · iexact HI2_3
    isplitr; · iexact HIrzp3
    isplitl [HrxL3]; · iexact HrxL3
    isplitl [Hpz3]; · iexact Hpz3
    isplitl [HO]; · iexact HO
    isplitl [HtSZ3]; · iexact HtSZ3
    isplitr; · iexact HRsz3
    isplitl [HtRZ3]; · iexact HtRZ3
    iexact HRrzp3
  iintro ⟨HcSZ3, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 4 arrives from the x-peer; half of it is lent to the forward, the other half stays to be read
  ihave #HI1_4 := (inv_q m K c 1 4) $$ Hrec
  iapply (Rounds.wp_wait_rest_token 𝒱₀ ER (rsRd m) (c : Thread nD τ) none (sm := SemLoc.dma (qS 1 4).sem) (k' := (rxM 4 : Memref sig .tc .vmem S64x512 .bf16).view.dmaCredit) (κ := K (c, some (1, 4)))
      (wpE_waitDma2_eq 𝒱₀ (c : Thread nD τ) none Set.univ) (Set.mem_univ _) () (O := _) (W := _) (R := 0) (m := 0) (T := ∅)
      (by rw [Nat.zero_add, expect_q])) $$ [HcRX4 HO Hat14]
  · isplitr; · iexact HI1_4
    isplitl [HcRX4]; · iexact HcRX4
    isplitl [HO]; · iexact HO
    isplitr; · iapply (mayWait_rx (F := F) c 4); iexact Hlev
    iexact Hat14
  iintro ⟨HO, Hat14, -, Hpay⟩
  ihave Hrx4 := (Entails.of_eq (show _ = ptsM (F := F) (rxM 4) c fullShare (recvXC (slabs m) c) from rest_q m c 1 4)) $$ Hpay
  ihave Hh := (pts_halve (F := F) (rxM 4) c (recvXC (slabs m) c)) $$ Hrx4
  icases Hh with ⟨HrxL4, HrxR4⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_4 := (inv_q m K c 2 4) $$ Hrec
  ihave #HIrzp4 := (inv_q m K (py c) 3 4) $$ Hrec
  ihave #HRsz4 := (reached_q m K c 2 4) $$ Hrec
  ihave #HRrzp4 := (reached_q m K (py c) 3 4) $$ Hrec
  iapply (wp_send_z m K c _ (dev15_eq c) 4 fz4 _ rfl _) $$ [HrxL4 Hpz4 HO HtSZ4 HtRZ4]
  · isplitr; · iexact HI2_4
    isplitr; · iexact HIrzp4
    isplitl [HrxL4]; · iexact HrxL4
    isplitl [Hpz4]; · iexact Hpz4
    isplitl [HO]; · iexact HO
    isplitl [HtSZ4]; · iexact HtSZ4
    isplitr; · iexact HRsz4
    isplitl [HtRZ4]; · iexact HtRZ4
    iexact HRrzp4
  iintro ⟨HcSZ4, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 5 arrives from the x-peer; half of it is lent to the forward, the other half stays to be read
  ihave #HI1_5 := (inv_q m K c 1 5) $$ Hrec
  iapply (Rounds.wp_wait_rest_token 𝒱₀ ER (rsRd m) (c : Thread nD τ) none (sm := SemLoc.dma (qS 1 5).sem) (k' := (rxM 5 : Memref sig .tc .vmem S64x512 .bf16).view.dmaCredit) (κ := K (c, some (1, 5)))
      (wpE_waitDma2_eq 𝒱₀ (c : Thread nD τ) none Set.univ) (Set.mem_univ _) () (O := _) (W := _) (R := 0) (m := 0) (T := ∅)
      (by rw [Nat.zero_add, expect_q])) $$ [HcRX5 HO Hat15]
  · isplitr; · iexact HI1_5
    isplitl [HcRX5]; · iexact HcRX5
    isplitl [HO]; · iexact HO
    isplitr; · iapply (mayWait_rx (F := F) c 5); iexact Hlev
    iexact Hat15
  iintro ⟨HO, Hat15, -, Hpay⟩
  ihave Hrx5 := (Entails.of_eq (show _ = ptsM (F := F) (rxM 5) c fullShare (recvXC (slabs m) c) from rest_q m c 1 5)) $$ Hpay
  ihave Hh := (pts_halve (F := F) (rxM 5) c (recvXC (slabs m) c)) $$ Hrx5
  icases Hh with ⟨HrxL5, HrxR5⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_5 := (inv_q m K c 2 5) $$ Hrec
  ihave #HIrzp5 := (inv_q m K (py c) 3 5) $$ Hrec
  ihave #HRsz5 := (reached_q m K c 2 5) $$ Hrec
  ihave #HRrzp5 := (reached_q m K (py c) 3 5) $$ Hrec
  iapply (wp_send_z m K c _ (dev16_eq c) 5 fz5 _ rfl _) $$ [HrxL5 Hpz5 HO HtSZ5 HtRZ5]
  · isplitr; · iexact HI2_5
    isplitr; · iexact HIrzp5
    isplitl [HrxL5]; · iexact HrxL5
    isplitl [Hpz5]; · iexact Hpz5
    isplitl [HO]; · iexact HO
    isplitl [HtSZ5]; · iexact HtSZ5
    isplitr; · iexact HRsz5
    isplitl [HtRZ5]; · iexact HtRZ5
    iexact HRrzp5
  iintro ⟨HcSZ5, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 6 arrives from the x-peer; half of it is lent to the forward, the other half stays to be read
  ihave #HI1_6 := (inv_q m K c 1 6) $$ Hrec
  iapply (Rounds.wp_wait_rest_token 𝒱₀ ER (rsRd m) (c : Thread nD τ) none (sm := SemLoc.dma (qS 1 6).sem) (k' := (rxM 6 : Memref sig .tc .vmem S64x512 .bf16).view.dmaCredit) (κ := K (c, some (1, 6)))
      (wpE_waitDma2_eq 𝒱₀ (c : Thread nD τ) none Set.univ) (Set.mem_univ _) () (O := _) (W := _) (R := 0) (m := 0) (T := ∅)
      (by rw [Nat.zero_add, expect_q])) $$ [HcRX6 HO Hat16]
  · isplitr; · iexact HI1_6
    isplitl [HcRX6]; · iexact HcRX6
    isplitl [HO]; · iexact HO
    isplitr; · iapply (mayWait_rx (F := F) c 6); iexact Hlev
    iexact Hat16
  iintro ⟨HO, Hat16, -, Hpay⟩
  ihave Hrx6 := (Entails.of_eq (show _ = ptsM (F := F) (rxM 6) c fullShare (recvXC (slabs m) c) from rest_q m c 1 6)) $$ Hpay
  ihave Hh := (pts_halve (F := F) (rxM 6) c (recvXC (slabs m) c)) $$ Hrx6
  icases Hh with ⟨HrxL6, HrxR6⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_6 := (inv_q m K c 2 6) $$ Hrec
  ihave #HIrzp6 := (inv_q m K (py c) 3 6) $$ Hrec
  ihave #HRsz6 := (reached_q m K c 2 6) $$ Hrec
  ihave #HRrzp6 := (reached_q m K (py c) 3 6) $$ Hrec
  iapply (wp_send_z m K c _ (dev17_eq c) 6 fz6 _ rfl _) $$ [HrxL6 Hpz6 HO HtSZ6 HtRZ6]
  · isplitr; · iexact HI2_6
    isplitr; · iexact HIrzp6
    isplitl [HrxL6]; · iexact HrxL6
    isplitl [Hpz6]; · iexact Hpz6
    isplitl [HO]; · iexact HO
    isplitl [HtSZ6]; · iexact HtSZ6
    isplitr; · iexact HRsz6
    isplitl [HtRZ6]; · iexact HtRZ6
    iexact HRrzp6
  iintro ⟨HcSZ6, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 7 arrives from the x-peer; half of it is lent to the forward, the other half stays to be read
  ihave #HI1_7 := (inv_q m K c 1 7) $$ Hrec
  iapply (Rounds.wp_wait_rest_token 𝒱₀ ER (rsRd m) (c : Thread nD τ) none (sm := SemLoc.dma (qS 1 7).sem) (k' := (rxM 7 : Memref sig .tc .vmem S64x512 .bf16).view.dmaCredit) (κ := K (c, some (1, 7)))
      (wpE_waitDma2_eq 𝒱₀ (c : Thread nD τ) none Set.univ) (Set.mem_univ _) () (O := _) (W := _) (R := 0) (m := 0) (T := ∅)
      (by rw [Nat.zero_add, expect_q])) $$ [HcRX7 HO Hat17]
  · isplitr; · iexact HI1_7
    isplitl [HcRX7]; · iexact HcRX7
    isplitl [HO]; · iexact HO
    isplitr; · iapply (mayWait_rx (F := F) c 7); iexact Hlev
    iexact Hat17
  iintro ⟨HO, Hat17, -, Hpay⟩
  ihave Hrx7 := (Entails.of_eq (show _ = ptsM (F := F) (rxM 7) c fullShare (recvXC (slabs m) c) from rest_q m c 1 7)) $$ Hpay
  ihave Hh := (pts_halve (F := F) (rxM 7) c (recvXC (slabs m) c)) $$ Hrx7
  icases Hh with ⟨HrxL7, HrxR7⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave #HI2_7 := (inv_q m K c 2 7) $$ Hrec
  ihave #HIrzp7 := (inv_q m K (py c) 3 7) $$ Hrec
  ihave #HRsz7 := (reached_q m K c 2 7) $$ Hrec
  ihave #HRrzp7 := (reached_q m K (py c) 3 7) $$ Hrec
  iapply (wp_send_z m K c _ (dev18_eq c) 7 fz7 _ (zero_add _).symm _) $$ [HrxL7 Hpz7 HO HtSZ7 HtRZ7]
  · isplitr; · iexact HI2_7
    isplitr; · iexact HIrzp7
    isplitl [HrxL7]; · iexact HrxL7
    isplitl [Hpz7]; · iexact Hpz7
    isplitl [HO]; · iexact HO
    isplitl [HtSZ7]; · iexact HtSZ7
    isplitr; · iexact HRsz7
    isplitl [HtRZ7]; · iexact HtRZ7
    iexact HRrzp7
  iintro ⟨HcSZ7, HO⟩
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 0 of the other row half arrives from the y-peer
  ihave #HI3_0 := (inv_q m K c 3 0) $$ Hrec
  iapply (Rounds.wp_wait_rest_token 𝒱₀ ER (rsRd m) (c : Thread nD τ) none (sm := SemLoc.dma (qS 3 0).sem) (k' := (rzM 0 : Memref sig .tc .vmem S64x512 .bf16).view.dmaCredit) (κ := K (c, some (3, 0)))
      (wpE_waitDma2_eq 𝒱₀ (c : Thread nD τ) none Set.univ) (Set.mem_univ _) () (O := _) (W := _) (R := 0) (m := 0) (T := ∅)
      (by rw [Nat.zero_add, expect_q])) $$ [HcRZ0 HO Hat30]
  · isplitr; · iexact HI3_0
    isplitl [HcRZ0]; · iexact HcRZ0
    isplitl [HO]; · iexact HO
    isplitr; · rw [MayWait_zero]; iempintro
    iexact Hat30
  iintro ⟨HO, Hat30, -, Hpay⟩
  ihave Hrz0 := (Entails.of_eq (show _ = ptsM (F := F) (rzM 0) c fullShare (recvZC (slabs m) c) from rest_q m c 3 0)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 1 of the other row half arrives from the y-peer
  ihave #HI3_1 := (inv_q m K c 3 1) $$ Hrec
  iapply (Rounds.wp_wait_rest_token 𝒱₀ ER (rsRd m) (c : Thread nD τ) none (sm := SemLoc.dma (qS 3 1).sem) (k' := (rzM 1 : Memref sig .tc .vmem S64x512 .bf16).view.dmaCredit) (κ := K (c, some (3, 1)))
      (wpE_waitDma2_eq 𝒱₀ (c : Thread nD τ) none Set.univ) (Set.mem_univ _) () (O := _) (W := _) (R := 0) (m := 0) (T := ∅)
      (by rw [Nat.zero_add, expect_q])) $$ [HcRZ1 HO Hat31]
  · isplitr; · iexact HI3_1
    isplitl [HcRZ1]; · iexact HcRZ1
    isplitl [HO]; · iexact HO
    isplitr; · rw [MayWait_zero]; iempintro
    iexact Hat31
  iintro ⟨HO, Hat31, -, Hpay⟩
  ihave Hrz1 := (Entails.of_eq (show _ = ptsM (F := F) (rzM 1) c fullShare (recvZC (slabs m) c) from rest_q m c 3 1)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 2 of the other row half arrives from the y-peer
  ihave #HI3_2 := (inv_q m K c 3 2) $$ Hrec
  iapply (Rounds.wp_wait_rest_token 𝒱₀ ER (rsRd m) (c : Thread nD τ) none (sm := SemLoc.dma (qS 3 2).sem) (k' := (rzM 2 : Memref sig .tc .vmem S64x512 .bf16).view.dmaCredit) (κ := K (c, some (3, 2)))
      (wpE_waitDma2_eq 𝒱₀ (c : Thread nD τ) none Set.univ) (Set.mem_univ _) () (O := _) (W := _) (R := 0) (m := 0) (T := ∅)
      (by rw [Nat.zero_add, expect_q])) $$ [HcRZ2 HO Hat32]
  · isplitr; · iexact HI3_2
    isplitl [HcRZ2]; · iexact HcRZ2
    isplitl [HO]; · iexact HO
    isplitr; · rw [MayWait_zero]; iempintro
    iexact Hat32
  iintro ⟨HO, Hat32, -, Hpay⟩
  ihave Hrz2 := (Entails.of_eq (show _ = ptsM (F := F) (rzM 2) c fullShare (recvZC (slabs m) c) from rest_q m c 3 2)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 3 of the other row half arrives from the y-peer
  ihave #HI3_3 := (inv_q m K c 3 3) $$ Hrec
  iapply (Rounds.wp_wait_rest_token 𝒱₀ ER (rsRd m) (c : Thread nD τ) none (sm := SemLoc.dma (qS 3 3).sem) (k' := (rzM 3 : Memref sig .tc .vmem S64x512 .bf16).view.dmaCredit) (κ := K (c, some (3, 3)))
      (wpE_waitDma2_eq 𝒱₀ (c : Thread nD τ) none Set.univ) (Set.mem_univ _) () (O := _) (W := _) (R := 0) (m := 0) (T := ∅)
      (by rw [Nat.zero_add, expect_q])) $$ [HcRZ3 HO Hat33]
  · isplitr; · iexact HI3_3
    isplitl [HcRZ3]; · iexact HcRZ3
    isplitl [HO]; · iexact HO
    isplitr; · rw [MayWait_zero]; iempintro
    iexact Hat33
  iintro ⟨HO, Hat33, -, Hpay⟩
  ihave Hrz3 := (Entails.of_eq (show _ = ptsM (F := F) (rzM 3) c fullShare (recvZC (slabs m) c) from rest_q m c 3 3)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 4 of the other row half arrives from the y-peer
  ihave #HI3_4 := (inv_q m K c 3 4) $$ Hrec
  iapply (Rounds.wp_wait_rest_token 𝒱₀ ER (rsRd m) (c : Thread nD τ) none (sm := SemLoc.dma (qS 3 4).sem) (k' := (rzM 4 : Memref sig .tc .vmem S64x512 .bf16).view.dmaCredit) (κ := K (c, some (3, 4)))
      (wpE_waitDma2_eq 𝒱₀ (c : Thread nD τ) none Set.univ) (Set.mem_univ _) () (O := _) (W := _) (R := 0) (m := 0) (T := ∅)
      (by rw [Nat.zero_add, expect_q])) $$ [HcRZ4 HO Hat34]
  · isplitr; · iexact HI3_4
    isplitl [HcRZ4]; · iexact HcRZ4
    isplitl [HO]; · iexact HO
    isplitr; · rw [MayWait_zero]; iempintro
    iexact Hat34
  iintro ⟨HO, Hat34, -, Hpay⟩
  ihave Hrz4 := (Entails.of_eq (show _ = ptsM (F := F) (rzM 4) c fullShare (recvZC (slabs m) c) from rest_q m c 3 4)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 5 of the other row half arrives from the y-peer
  ihave #HI3_5 := (inv_q m K c 3 5) $$ Hrec
  iapply (Rounds.wp_wait_rest_token 𝒱₀ ER (rsRd m) (c : Thread nD τ) none (sm := SemLoc.dma (qS 3 5).sem) (k' := (rzM 5 : Memref sig .tc .vmem S64x512 .bf16).view.dmaCredit) (κ := K (c, some (3, 5)))
      (wpE_waitDma2_eq 𝒱₀ (c : Thread nD τ) none Set.univ) (Set.mem_univ _) () (O := _) (W := _) (R := 0) (m := 0) (T := ∅)
      (by rw [Nat.zero_add, expect_q])) $$ [HcRZ5 HO Hat35]
  · isplitr; · iexact HI3_5
    isplitl [HcRZ5]; · iexact HcRZ5
    isplitl [HO]; · iexact HO
    isplitr; · rw [MayWait_zero]; iempintro
    iexact Hat35
  iintro ⟨HO, Hat35, -, Hpay⟩
  ihave Hrz5 := (Entails.of_eq (show _ = ptsM (F := F) (rzM 5) c fullShare (recvZC (slabs m) c) from rest_q m c 3 5)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 6 of the other row half arrives from the y-peer
  ihave #HI3_6 := (inv_q m K c 3 6) $$ Hrec
  iapply (Rounds.wp_wait_rest_token 𝒱₀ ER (rsRd m) (c : Thread nD τ) none (sm := SemLoc.dma (qS 3 6).sem) (k' := (rzM 6 : Memref sig .tc .vmem S64x512 .bf16).view.dmaCredit) (κ := K (c, some (3, 6)))
      (wpE_waitDma2_eq 𝒱₀ (c : Thread nD τ) none Set.univ) (Set.mem_univ _) () (O := _) (W := _) (R := 0) (m := 0) (T := ∅)
      (by rw [Nat.zero_add, expect_q])) $$ [HcRZ6 HO Hat36]
  · isplitr; · iexact HI3_6
    isplitl [HcRZ6]; · iexact HcRZ6
    isplitl [HO]; · iexact HO
    isplitr; · rw [MayWait_zero]; iempintro
    iexact Hat36
  iintro ⟨HO, Hat36, -, Hpay⟩
  ihave Hrz6 := (Entails.of_eq (show _ = ptsM (F := F) (rzM 6) c fullShare (recvZC (slabs m) c) from rest_q m c 3 6)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  -- chunk 7 of the other row half arrives from the y-peer
  ihave #HI3_7 := (inv_q m K c 3 7) $$ Hrec
  iapply (Rounds.wp_wait_rest_token 𝒱₀ ER (rsRd m) (c : Thread nD τ) none (sm := SemLoc.dma (qS 3 7).sem) (k' := (rzM 7 : Memref sig .tc .vmem S64x512 .bf16).view.dmaCredit) (κ := K (c, some (3, 7)))
      (wpE_waitDma2_eq 𝒱₀ (c : Thread nD τ) none Set.univ) (Set.mem_univ _) () (O := _) (W := _) (R := 0) (m := 0) (T := ∅)
      (by rw [Nat.zero_add, expect_q])) $$ [HcRZ7 HO Hat37]
  · isplitr; · iexact HI3_7
    isplitl [HcRZ7]; · iexact HcRZ7
    isplitl [HO]; · iexact HO
    isplitr; · rw [MayWait_zero]; iempintro
    iexact Hat37
  iintro ⟨HO, Hat37, -, Hpay⟩
  ihave Hrz7 := (Entails.of_eq (show _ = ptsM (F := F) (rzM 7) c fullShare (recvZC (slabs m) c) from rest_q m c 3 7)) $$ Hpay
  try (first | (set_option sl_exec.dmaWindow true in set_option sl_exec.dmaWindowSet true in sl_exec) | (rw [prog_ret_bind, Prog.pure_eq_ret]; sl_step; set_option sl_exec.dmaWindow true in set_option sl_exec.dmaWindowSet true in sl_exec) | (rw [Prog.pure_eq_ret]; sl_step; set_option sl_exec.dmaWindow true in set_option sl_exec.dmaWindowSet true in sl_exec) | (rw [prog_ret_bind]; sl_step; set_option sl_exec.dmaWindow true in set_option sl_exec.dmaWindowSet true in sl_exec) | (sl_step; set_option sl_exec.dmaWindow true in set_option sl_exec.dmaWindowSet true in sl_exec))
  ihave HsxD0 := (Entails.of_eq (show _ = ptsM (F := F) (sxM 0) c fullShare (sendXC (slabs m) c) from full_q m c 0 0)) $$ Hat00_pay1
  ihave HrxL0 := (Entails.of_eq (show _ = ptsM (F := F) (rxM 0) c fullShare.left (recvXC (slabs m) c) from full_q m c 2 0)) $$ Hat20_pay1
  ihave Hrx0 := (pts_unhalve (F := F) (rxM 0) c (recvXC (slabs m) c)) $$ [HrxL0 HrxR0]
  · isplitl [HrxL0]; · iexact HrxL0
    iexact HrxR0
  ihave HsxD1 := (Entails.of_eq (show _ = ptsM (F := F) (sxM 1) c fullShare (sendXC (slabs m) c) from full_q m c 0 1)) $$ Hat01_pay1
  ihave HrxL1 := (Entails.of_eq (show _ = ptsM (F := F) (rxM 1) c fullShare.left (recvXC (slabs m) c) from full_q m c 2 1)) $$ Hat21_pay1
  ihave Hrx1 := (pts_unhalve (F := F) (rxM 1) c (recvXC (slabs m) c)) $$ [HrxL1 HrxR1]
  · isplitl [HrxL1]; · iexact HrxL1
    iexact HrxR1
  ihave HsxD2 := (Entails.of_eq (show _ = ptsM (F := F) (sxM 2) c fullShare (sendXC (slabs m) c) from full_q m c 0 2)) $$ Hat02_pay1
  ihave HrxL2 := (Entails.of_eq (show _ = ptsM (F := F) (rxM 2) c fullShare.left (recvXC (slabs m) c) from full_q m c 2 2)) $$ Hat22_pay1
  ihave Hrx2 := (pts_unhalve (F := F) (rxM 2) c (recvXC (slabs m) c)) $$ [HrxL2 HrxR2]
  · isplitl [HrxL2]; · iexact HrxL2
    iexact HrxR2
  ihave HsxD3 := (Entails.of_eq (show _ = ptsM (F := F) (sxM 3) c fullShare (sendXC (slabs m) c) from full_q m c 0 3)) $$ Hat03_pay1
  ihave HrxL3 := (Entails.of_eq (show _ = ptsM (F := F) (rxM 3) c fullShare.left (recvXC (slabs m) c) from full_q m c 2 3)) $$ Hat23_pay1
  ihave Hrx3 := (pts_unhalve (F := F) (rxM 3) c (recvXC (slabs m) c)) $$ [HrxL3 HrxR3]
  · isplitl [HrxL3]; · iexact HrxL3
    iexact HrxR3
  ihave HsxD4 := (Entails.of_eq (show _ = ptsM (F := F) (sxM 4) c fullShare (sendXC (slabs m) c) from full_q m c 0 4)) $$ Hat04_pay1
  ihave HrxL4 := (Entails.of_eq (show _ = ptsM (F := F) (rxM 4) c fullShare.left (recvXC (slabs m) c) from full_q m c 2 4)) $$ Hat24_pay1
  ihave Hrx4 := (pts_unhalve (F := F) (rxM 4) c (recvXC (slabs m) c)) $$ [HrxL4 HrxR4]
  · isplitl [HrxL4]; · iexact HrxL4
    iexact HrxR4
  ihave HsxD5 := (Entails.of_eq (show _ = ptsM (F := F) (sxM 5) c fullShare (sendXC (slabs m) c) from full_q m c 0 5)) $$ Hat05_pay1
  ihave HrxL5 := (Entails.of_eq (show _ = ptsM (F := F) (rxM 5) c fullShare.left (recvXC (slabs m) c) from full_q m c 2 5)) $$ Hat25_pay1
  ihave Hrx5 := (pts_unhalve (F := F) (rxM 5) c (recvXC (slabs m) c)) $$ [HrxL5 HrxR5]
  · isplitl [HrxL5]; · iexact HrxL5
    iexact HrxR5
  ihave HsxD6 := (Entails.of_eq (show _ = ptsM (F := F) (sxM 6) c fullShare (sendXC (slabs m) c) from full_q m c 0 6)) $$ Hat06_pay1
  ihave HrxL6 := (Entails.of_eq (show _ = ptsM (F := F) (rxM 6) c fullShare.left (recvXC (slabs m) c) from full_q m c 2 6)) $$ Hat26_pay1
  ihave Hrx6 := (pts_unhalve (F := F) (rxM 6) c (recvXC (slabs m) c)) $$ [HrxL6 HrxR6]
  · isplitl [HrxL6]; · iexact HrxL6
    iexact HrxR6
  ihave HsxD7 := (Entails.of_eq (show _ = ptsM (F := F) (sxM 7) c fullShare (sendXC (slabs m) c) from full_q m c 0 7)) $$ Hat07_pay1
  ihave HrxL7 := (Entails.of_eq (show _ = ptsM (F := F) (rxM 7) c fullShare.left (recvXC (slabs m) c) from full_q m c 2 7)) $$ Hat27_pay1
  ihave Hrx7 := (pts_unhalve (F := F) (rxM 7) c (recvXC (slabs m) c)) $$ [HrxL7 HrxR7]
  · isplitl [HrxL7]; · iexact HrxL7
    iexact HrxR7
  imod (Rounds.cell_close ER (rsRd m) (Set.mem_univ (K (c, some (0, 0)))) (fun h => h) (R := 0 + 1) (duties_later m (qCell c 0 0))) $$ [Hat00] with Hz00
  · isplitr; · iexact HIsx0
    iexact Hat00
  imod (Rounds.cell_close ER (rsRd m) (Set.mem_univ (K (c, some (0, 1)))) (fun h => h) (R := 0 + 1) (duties_later m (qCell c 0 1))) $$ [Hat01] with Hz01
  · isplitr; · iexact HIsx1
    iexact Hat01
  imod (Rounds.cell_close ER (rsRd m) (Set.mem_univ (K (c, some (0, 2)))) (fun h => h) (R := 0 + 1) (duties_later m (qCell c 0 2))) $$ [Hat02] with Hz02
  · isplitr; · iexact HIsx2
    iexact Hat02
  imod (Rounds.cell_close ER (rsRd m) (Set.mem_univ (K (c, some (0, 3)))) (fun h => h) (R := 0 + 1) (duties_later m (qCell c 0 3))) $$ [Hat03] with Hz03
  · isplitr; · iexact HIsx3
    iexact Hat03
  imod (Rounds.cell_close ER (rsRd m) (Set.mem_univ (K (c, some (0, 4)))) (fun h => h) (R := 0 + 1) (duties_later m (qCell c 0 4))) $$ [Hat04] with Hz04
  · isplitr; · iexact HIsx4
    iexact Hat04
  imod (Rounds.cell_close ER (rsRd m) (Set.mem_univ (K (c, some (0, 5)))) (fun h => h) (R := 0 + 1) (duties_later m (qCell c 0 5))) $$ [Hat05] with Hz05
  · isplitr; · iexact HIsx5
    iexact Hat05
  imod (Rounds.cell_close ER (rsRd m) (Set.mem_univ (K (c, some (0, 6)))) (fun h => h) (R := 0 + 1) (duties_later m (qCell c 0 6))) $$ [Hat06] with Hz06
  · isplitr; · iexact HIsx6
    iexact Hat06
  imod (Rounds.cell_close ER (rsRd m) (Set.mem_univ (K (c, some (0, 7)))) (fun h => h) (R := 0 + 1) (duties_later m (qCell c 0 7))) $$ [Hat07] with Hz07
  · isplitr; · iexact HIsx7
    iexact Hat07
  imod (Rounds.cell_close ER (rsRd m) (Set.mem_univ (K (c, some (1, 0)))) (fun h => h) (R := 0 + 1) (duties_later m (qCell c 1 0))) $$ [Hat10] with Hz10
  · isplitr; · iexact HI1_0
    iexact Hat10
  imod (Rounds.cell_close ER (rsRd m) (Set.mem_univ (K (c, some (1, 1)))) (fun h => h) (R := 0 + 1) (duties_later m (qCell c 1 1))) $$ [Hat11] with Hz11
  · isplitr; · iexact HI1_1
    iexact Hat11
  imod (Rounds.cell_close ER (rsRd m) (Set.mem_univ (K (c, some (1, 2)))) (fun h => h) (R := 0 + 1) (duties_later m (qCell c 1 2))) $$ [Hat12] with Hz12
  · isplitr; · iexact HI1_2
    iexact Hat12
  imod (Rounds.cell_close ER (rsRd m) (Set.mem_univ (K (c, some (1, 3)))) (fun h => h) (R := 0 + 1) (duties_later m (qCell c 1 3))) $$ [Hat13] with Hz13
  · isplitr; · iexact HI1_3
    iexact Hat13
  imod (Rounds.cell_close ER (rsRd m) (Set.mem_univ (K (c, some (1, 4)))) (fun h => h) (R := 0 + 1) (duties_later m (qCell c 1 4))) $$ [Hat14] with Hz14
  · isplitr; · iexact HI1_4
    iexact Hat14
  imod (Rounds.cell_close ER (rsRd m) (Set.mem_univ (K (c, some (1, 5)))) (fun h => h) (R := 0 + 1) (duties_later m (qCell c 1 5))) $$ [Hat15] with Hz15
  · isplitr; · iexact HI1_5
    iexact Hat15
  imod (Rounds.cell_close ER (rsRd m) (Set.mem_univ (K (c, some (1, 6)))) (fun h => h) (R := 0 + 1) (duties_later m (qCell c 1 6))) $$ [Hat16] with Hz16
  · isplitr; · iexact HI1_6
    iexact Hat16
  imod (Rounds.cell_close ER (rsRd m) (Set.mem_univ (K (c, some (1, 7)))) (fun h => h) (R := 0 + 1) (duties_later m (qCell c 1 7))) $$ [Hat17] with Hz17
  · isplitr; · iexact HI1_7
    iexact Hat17
  imod (Rounds.cell_close ER (rsRd m) (Set.mem_univ (K (c, some (2, 0)))) (fun h => h) (R := 0 + 1) (duties_later m (qCell c 2 0))) $$ [Hat20] with Hz20
  · isplitr; · iexact HI2_0
    iexact Hat20
  imod (Rounds.cell_close ER (rsRd m) (Set.mem_univ (K (c, some (2, 1)))) (fun h => h) (R := 0 + 1) (duties_later m (qCell c 2 1))) $$ [Hat21] with Hz21
  · isplitr; · iexact HI2_1
    iexact Hat21
  imod (Rounds.cell_close ER (rsRd m) (Set.mem_univ (K (c, some (2, 2)))) (fun h => h) (R := 0 + 1) (duties_later m (qCell c 2 2))) $$ [Hat22] with Hz22
  · isplitr; · iexact HI2_2
    iexact Hat22
  imod (Rounds.cell_close ER (rsRd m) (Set.mem_univ (K (c, some (2, 3)))) (fun h => h) (R := 0 + 1) (duties_later m (qCell c 2 3))) $$ [Hat23] with Hz23
  · isplitr; · iexact HI2_3
    iexact Hat23
  imod (Rounds.cell_close ER (rsRd m) (Set.mem_univ (K (c, some (2, 4)))) (fun h => h) (R := 0 + 1) (duties_later m (qCell c 2 4))) $$ [Hat24] with Hz24
  · isplitr; · iexact HI2_4
    iexact Hat24
  imod (Rounds.cell_close ER (rsRd m) (Set.mem_univ (K (c, some (2, 5)))) (fun h => h) (R := 0 + 1) (duties_later m (qCell c 2 5))) $$ [Hat25] with Hz25
  · isplitr; · iexact HI2_5
    iexact Hat25
  imod (Rounds.cell_close ER (rsRd m) (Set.mem_univ (K (c, some (2, 6)))) (fun h => h) (R := 0 + 1) (duties_later m (qCell c 2 6))) $$ [Hat26] with Hz26
  · isplitr; · iexact HI2_6
    iexact Hat26
  imod (Rounds.cell_close ER (rsRd m) (Set.mem_univ (K (c, some (2, 7)))) (fun h => h) (R := 0 + 1) (duties_later m (qCell c 2 7))) $$ [Hat27] with Hz27
  · isplitr; · iexact HI2_7
    iexact Hat27
  imod (Rounds.cell_close ER (rsRd m) (Set.mem_univ (K (c, some (3, 0)))) (fun h => h) (R := 0 + 1) (duties_later m (qCell c 3 0))) $$ [Hat30] with Hz30
  · isplitr; · iexact HI3_0
    iexact Hat30
  imod (Rounds.cell_close ER (rsRd m) (Set.mem_univ (K (c, some (3, 1)))) (fun h => h) (R := 0 + 1) (duties_later m (qCell c 3 1))) $$ [Hat31] with Hz31
  · isplitr; · iexact HI3_1
    iexact Hat31
  imod (Rounds.cell_close ER (rsRd m) (Set.mem_univ (K (c, some (3, 2)))) (fun h => h) (R := 0 + 1) (duties_later m (qCell c 3 2))) $$ [Hat32] with Hz32
  · isplitr; · iexact HI3_2
    iexact Hat32
  imod (Rounds.cell_close ER (rsRd m) (Set.mem_univ (K (c, some (3, 3)))) (fun h => h) (R := 0 + 1) (duties_later m (qCell c 3 3))) $$ [Hat33] with Hz33
  · isplitr; · iexact HI3_3
    iexact Hat33
  imod (Rounds.cell_close ER (rsRd m) (Set.mem_univ (K (c, some (3, 4)))) (fun h => h) (R := 0 + 1) (duties_later m (qCell c 3 4))) $$ [Hat34] with Hz34
  · isplitr; · iexact HI3_4
    iexact Hat34
  imod (Rounds.cell_close ER (rsRd m) (Set.mem_univ (K (c, some (3, 5)))) (fun h => h) (R := 0 + 1) (duties_later m (qCell c 3 5))) $$ [Hat35] with Hz35
  · isplitr; · iexact HI3_5
    iexact Hat35
  imod (Rounds.cell_close ER (rsRd m) (Set.mem_univ (K (c, some (3, 6)))) (fun h => h) (R := 0 + 1) (duties_later m (qCell c 3 6))) $$ [Hat36] with Hz36
  · isplitr; · iexact HI3_6
    iexact Hat36
  imod (Rounds.cell_close ER (rsRd m) (Set.mem_univ (K (c, some (3, 7)))) (fun h => h) (R := 0 + 1) (duties_later m (qCell c 3 7))) $$ [Hat37] with Hz37
  · isplitr; · iexact HI3_7
    iexact Hat37
  rw [wp_ret]; imodintro
  iapply Hk
  unfold bodyPost Φ₁ slabPts scratch locals0 Dat.owesAt Pipeline.owesWithin
  rw [show (dats m 0 c).owed t₀.succ = 0 from rfl]
  isplitl [Hslr Hsl0 Hsl1 Hsl2 Hsl3 Hsl4 Hsl5 Hsl6 Hsl7 Hsl8 Hsl9 Hb0 Hb1 HsxD0 HsxD1 HsxD2 HsxD3 HsxD4 HsxD5 HsxD6 HsxD7 Hrx0 Hrx1 Hrx2 Hrx3 Hrx4 Hrx5 Hrx6 Hrx7 Hrz0 Hrz1 Hrz2 Hrz3 Hrz4 Hrz5 Hrz6 Hrz7 Hf0 Hf1 Hf2 Hf3 Hf4 Hf5 Hf6 Hf7 Hos Hz00 Hz01 Hz02 Hz03 Hz04 Hz05 Hz06 Hz07 Hz10 Hz11 Hz12 Hz13 Hz14 Hz15 Hz16 Hz17 Hz20 Hz21 Hz22 Hz23 Hz24 Hz25 Hz26 Hz27 Hz30 Hz31 Hz32 Hz33 Hz34 Hz35 Hz36 Hz37]
  · -- the slab whole again, out of its read shares
    isplitl [Hslr Hsl0 Hsl1 Hsl2 Hsl3 Hsl4 Hsl5 Hsl6 Hsl7 Hsl8 Hsl9]
    · iapply (Entails.of_eq (whole_pts (F := F) c main_arg0 fullShare (m ((c : Thread nD τ).loc main_arg0))).symm)
      iapply (slab_untoks m c)
      isplitl [Hslr]; · iexact Hslr
      isplitl [Hsl0]; · iexact Hsl0
      isplitl [Hsl1]; · iexact Hsl1
      isplitl [Hsl2]; · iexact Hsl2
      isplitl [Hsl3]; · iexact Hsl3
      isplitl [Hsl4]; · iexact Hsl4
      isplitl [Hsl5]; · iexact Hsl5
      isplitl [Hsl6]; · iexact Hsl6
      isplitl [Hsl7]; · iexact Hsl7
      isplitl [Hsl8]; · iexact Hsl8
      iexact Hsl9
    -- the five scratch buffers, each whole at some contents
    isplitl [Hb0 Hb1 HsxD0 HsxD1 HsxD2 HsxD3 HsxD4 HsxD5 HsxD6 HsxD7 Hrx0 Hrx1 Hrx2 Hrx3 Hrx4 Hrx5 Hrx6 Hrx7 Hrz0 Hrz1 Hrz2 Hrz3 Hrz4 Hrz5 Hrz6 Hrz7]
    · isplitl [Hb0]
      · iexists _; iapply (Entails.of_eq (whole_pts (F := F) c cc0_scratch0 fullShare _).symm); iexact Hb0
      isplitl [Hb1]
      · iexists _; iapply (Entails.of_eq (whole_pts (F := F) c cc0_scratch1 fullShare _).symm); iexact Hb1
      isplitl [HsxD0 HsxD1 HsxD2 HsxD3 HsxD4 HsxD5 HsxD6 HsxD7]
      · iexists (sendXC (slabs m) c); iapply (sx_join8 (F := F) c _)
        isplitl [HsxD0]; · iexact HsxD0
        isplitl [HsxD1]; · iexact HsxD1
        isplitl [HsxD2]; · iexact HsxD2
        isplitl [HsxD3]; · iexact HsxD3
        isplitl [HsxD4]; · iexact HsxD4
        isplitl [HsxD5]; · iexact HsxD5
        isplitl [HsxD6]; · iexact HsxD6
        iexact HsxD7
      isplitl [Hrx0 Hrx1 Hrx2 Hrx3 Hrx4 Hrx5 Hrx6 Hrx7]
      · iexists (recvXC (slabs m) c); iapply (rx_join8 (F := F) c _)
        isplitl [Hrx0]; · iexact Hrx0
        isplitl [Hrx1]; · iexact Hrx1
        isplitl [Hrx2]; · iexact Hrx2
        isplitl [Hrx3]; · iexact Hrx3
        isplitl [Hrx4]; · iexact Hrx4
        isplitl [Hrx5]; · iexact Hrx5
        isplitl [Hrx6]; · iexact Hrx6
        iexact Hrx7
      iexists (recvZC (slabs m) c); iapply (rz_join8 (F := F) c _)
      isplitl [Hrz0]; · iexact Hrz0
      isplitl [Hrz1]; · iexact Hrz1
      isplitl [Hrz2]; · iexact Hrz2
      isplitl [Hrz3]; · iexact Hrz3
      isplitl [Hrz4]; · iexact Hrz4
      isplitl [Hrz5]; · iexact Hrz5
      isplitl [Hrz6]; · iexact Hrz6
      iexact Hrz7
    -- the nine local counters at zero
    isplitl [Hf0 Hf1 Hf2 Hf3 Hf4 Hf5 Hf6 Hf7 Hos]
    · isplitl [Hf0 Hf1 Hf2 Hf3 Hf4 Hf5 Hf6 Hf7]
      · iapply (Entails.of_eq (bigSep_fin8 (fun k : Fin 8 => (semVal (fCell c k) 0 : sProp 𝕄))).symm)
        isplitl [Hf0]; · iexact Hf0
        isplitl [Hf1]; · iexact Hf1
        isplitl [Hf2]; · iexact Hf2
        isplitl [Hf3]; · iexact Hf3
        isplitl [Hf4]; · iexact Hf4
        isplitl [Hf5]; · iexact Hf5
        isplitl [Hf6]; · iexact Hf6
        iexact Hf7
      iexact Hos
    -- and the thirty-two cells', closed
    iapply (Entails.of_eq (bigSep_fin4x8 (fun fk : Fin 4 × Fin 8 => (semVal (qCell c fk.1 fk.2) 0 : sProp 𝕄))).symm)
    isplitl [Hz00 Hz01 Hz02 Hz03 Hz04 Hz05 Hz06 Hz07]
    · isplitl [Hz00]; · iexact Hz00
      isplitl [Hz01]; · iexact Hz01
      isplitl [Hz02]; · iexact Hz02
      isplitl [Hz03]; · iexact Hz03
      isplitl [Hz04]; · iexact Hz04
      isplitl [Hz05]; · iexact Hz05
      isplitl [Hz06]; · iexact Hz06
      iexact Hz07
    isplitl [Hz10 Hz11 Hz12 Hz13 Hz14 Hz15 Hz16 Hz17]
    · isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      iexact Hz17
    isplitl [Hz20 Hz21 Hz22 Hz23 Hz24 Hz25 Hz26 Hz27]
    · isplitl [Hz20]; · iexact Hz20
      isplitl [Hz21]; · iexact Hz21
      isplitl [Hz22]; · iexact Hz22
      isplitl [Hz23]; · iexact Hz23
      isplitl [Hz24]; · iexact Hz24
      isplitl [Hz25]; · iexact Hz25
      isplitl [Hz26]; · iexact Hz26
      iexact Hz27
    isplitl [Hz30]; · iexact Hz30
    isplitl [Hz31]; · iexact Hz31
    isplitl [Hz32]; · iexact Hz32
    isplitl [Hz33]; · iexact Hz33
    isplitl [Hz34]; · iexact Hz34
    isplitl [Hz35]; · iexact Hz35
    isplitl [Hz36]; · iexact Hz36
    iexact Hz37
  isplitl [HO]
  · iexists _; isplitr
    swap; · iexact HO
    ipureintro; exact fun _ _ => Or.inl trivial
  iexists _; isplitr
  swap; · iapply (Entails.of_eq (whole_pts (F := F) c cc0_stg0_0 fullShare _).symm); iexact Hout
  ipureintro
  -- the sixteen row blocks written: the own half from the fetched chunks and the x-peer's, the other half from the direct fetch and the y-peer's
  have er1 : sound_body.sl.r_1 m c b0 = k0_pay14 (sound_body.sl.v480 m c b0) (View.readAt (Elt F) (Memref.whole cc0_scratch3).view (Rect.unit (s := S8x64x512) ![4, 0, 0] S1x64x512.size inb_S8x64x512_S1x64x512_4_0_0).toLoadRect (recvXC (slabs m) c)) := rfl
  have er2 : sound_body.sl.r_2 m c = k0_pay19 (sound_body.sl.v636 m c) (View.readAt (Elt F) (Memref.whole cc0_scratch4).view (Rect.unit (s := S8x64x512) ![1, 0, 0] S1x64x512.size inb_S8x64x512_S1x64x512_1_0_0).toLoadRect (recvZC (slabs m) c)) := rfl
  rw [er1, er2]
  have hf0 : ∀ y, sound_body.sl.v332 m c b0 y = slabAt (slabs m c) (512 * cy c + 64 * 0 + (y 1).val) (512 * cx c + (y 2).val) :=
    fun y => (congrFun (congrArg (View.readAt (Elt F) (Memref.whole cc0_scratch0).view _) (fbAll_eq (F := F) (slabs m) c b0)) y).trans (ldO_0 (F := F) (slabs m) c y)
  have hf1 : ∀ y, sound_body.sl.v369 m c b0 y = slabAt (slabs m c) (512 * cy c + 64 * 1 + (y 1).val) (512 * cx c + (y 2).val) :=
    fun y => (congrFun (congrArg (View.readAt (Elt F) (Memref.whole cc0_scratch0).view _) (fbAll_eq (F := F) (slabs m) c b0)) y).trans (ldO_1 (F := F) (slabs m) c y)
  have hf2 : ∀ y, sound_body.sl.v406 m c b0 y = slabAt (slabs m c) (512 * cy c + 64 * 2 + (y 1).val) (512 * cx c + (y 2).val) :=
    fun y => (congrFun (congrArg (View.readAt (Elt F) (Memref.whole cc0_scratch0).view _) (fbAll_eq (F := F) (slabs m) c b0)) y).trans (ldO_2 (F := F) (slabs m) c y)
  have hf3 : ∀ y, sound_body.sl.v443 m c b0 y = slabAt (slabs m c) (512 * cy c + 64 * 3 + (y 1).val) (512 * cx c + (y 2).val) :=
    fun y => (congrFun (congrArg (View.readAt (Elt F) (Memref.whole cc0_scratch0).view _) (fbAll_eq (F := F) (slabs m) c b0)) y).trans (ldO_3 (F := F) (slabs m) c y)
  have hf4 : ∀ y, sound_body.sl.v480 m c b0 y = slabAt (slabs m c) (512 * cy c + 64 * 4 + (y 1).val) (512 * cx c + (y 2).val) :=
    fun y => (congrFun (congrArg (View.readAt (Elt F) (Memref.whole cc0_scratch0).view _) (fbAll_eq (F := F) (slabs m) c b0)) y).trans (ldO_4 (F := F) (slabs m) c y)
  have hf5 : ∀ y, sound_body.sl.v517 m c b0 y = slabAt (slabs m c) (512 * cy c + 64 * 5 + (y 1).val) (512 * cx c + (y 2).val) :=
    fun y => (congrFun (congrArg (View.readAt (Elt F) (Memref.whole cc0_scratch0).view _) (fbAll_eq (F := F) (slabs m) c b0)) y).trans (ldO_5 (F := F) (slabs m) c y)
  have hf6 : ∀ y, sound_body.sl.v554 m c b0 y = slabAt (slabs m c) (512 * cy c + 64 * 6 + (y 1).val) (512 * cx c + (y 2).val) :=
    fun y => (congrFun (congrArg (View.readAt (Elt F) (Memref.whole cc0_scratch0).view _) (fbAll_eq (F := F) (slabs m) c b0)) y).trans (ldO_6 (F := F) (slabs m) c y)
  have hf7 : ∀ y, sound_body.sl.v591 m c b0 y = slabAt (slabs m c) (512 * cy c + 64 * 7 + (y 1).val) (512 * cx c + (y 2).val) :=
    fun y => (congrFun (congrArg (View.readAt (Elt F) (Memref.whole cc0_scratch0).view _) (fbAll_eq (F := F) (slabs m) c b0)) y).trans (ldO_7 (F := F) (slabs m) c y)
  have ho0 : ∀ y, sound_body.sl.v615 m c y = slabAt (slabs m c) (512 * (1 - cy c) + 64 * 0 + (y 0).val) (512 * cx c + (y 1).val) :=
    fun y => oh_cov_0 (F := F) (slabs m) c y
  have ho1 : ∀ y, sound_body.sl.v636 m c y = slabAt (slabs m c) (512 * (1 - cy c) + 64 * 1 + (y 0).val) (512 * cx c + (y 1).val) :=
    fun y => oh_cov_1 (F := F) (slabs m) c y
  have ho2 : ∀ y, sound_body.sl.v657 m c y = slabAt (slabs m c) (512 * (1 - cy c) + 64 * 2 + (y 0).val) (512 * cx c + (y 1).val) :=
    fun y => oh_cov_2 (F := F) (slabs m) c y
  have ho3 : ∀ y, sound_body.sl.v678 m c y = slabAt (slabs m c) (512 * (1 - cy c) + 64 * 3 + (y 0).val) (512 * cx c + (y 1).val) :=
    fun y => oh_cov_3 (F := F) (slabs m) c y
  have ho4 : ∀ y, sound_body.sl.v699 m c y = slabAt (slabs m c) (512 * (1 - cy c) + 64 * 4 + (y 0).val) (512 * cx c + (y 1).val) :=
    fun y => oh_cov_4 (F := F) (slabs m) c y
  have ho5 : ∀ y, sound_body.sl.v720 m c y = slabAt (slabs m c) (512 * (1 - cy c) + 64 * 5 + (y 0).val) (512 * cx c + (y 1).val) :=
    fun y => oh_cov_5 (F := F) (slabs m) c y
  have ho6 : ∀ y, sound_body.sl.v741 m c y = slabAt (slabs m c) (512 * (1 - cy c) + 64 * 6 + (y 0).val) (512 * cx c + (y 1).val) :=
    fun y => oh_cov_6 (F := F) (slabs m) c y
  have ho7 : ∀ y, sound_body.sl.v762 m c y = slabAt (slabs m c) (512 * (1 - cy c) + 64 * 7 + (y 0).val) (512 * cx c + (y 1).val) :=
    fun y => oh_cov_7 (F := F) (slabs m) c y
  rw [out_final32 (F := F) (slabs m) c g0
    (sound_body.sl.v332 m c b0)
    (sound_body.sl.v369 m c b0)
    (sound_body.sl.v406 m c b0)
    (sound_body.sl.v443 m c b0)
    (sound_body.sl.v480 m c b0)
    (sound_body.sl.v517 m c b0)
    (sound_body.sl.v554 m c b0)
    (sound_body.sl.v591 m c b0)
    (View.readAt (Elt F) (Memref.whole cc0_scratch3).view (Rect.unit (s := S8x64x512) ![0, 0, 0] S1x64x512.size inb_S8x64x512_S1x64x512_0_0_0).toLoadRect (recvXC (slabs m) c))
    (View.readAt (Elt F) (Memref.whole cc0_scratch3).view (Rect.unit (s := S8x64x512) ![1, 0, 0] S1x64x512.size inb_S8x64x512_S1x64x512_1_0_0).toLoadRect (recvXC (slabs m) c))
    (View.readAt (Elt F) (Memref.whole cc0_scratch3).view (Rect.unit (s := S8x64x512) ![2, 0, 0] S1x64x512.size inb_S8x64x512_S1x64x512_2_0_0).toLoadRect (recvXC (slabs m) c))
    (View.readAt (Elt F) (Memref.whole cc0_scratch3).view (Rect.unit (s := S8x64x512) ![3, 0, 0] S1x64x512.size inb_S8x64x512_S1x64x512_3_0_0).toLoadRect (recvXC (slabs m) c))
    (View.readAt (Elt F) (Memref.whole cc0_scratch3).view (Rect.unit (s := S8x64x512) ![4, 0, 0] S1x64x512.size inb_S8x64x512_S1x64x512_4_0_0).toLoadRect (recvXC (slabs m) c))
    (View.readAt (Elt F) (Memref.whole cc0_scratch3).view (Rect.unit (s := S8x64x512) ![5, 0, 0] S1x64x512.size inb_S8x64x512_S1x64x512_5_0_0).toLoadRect (recvXC (slabs m) c))
    (View.readAt (Elt F) (Memref.whole cc0_scratch3).view (Rect.unit (s := S8x64x512) ![6, 0, 0] S1x64x512.size inb_S8x64x512_S1x64x512_6_0_0).toLoadRect (recvXC (slabs m) c))
    (View.readAt (Elt F) (Memref.whole cc0_scratch3).view (Rect.unit (s := S8x64x512) ![7, 0, 0] S1x64x512.size inb_S8x64x512_S1x64x512_7_0_0).toLoadRect (recvXC (slabs m) c))
    (sound_body.sl.v615 m c)
    (sound_body.sl.v636 m c)
    (sound_body.sl.v657 m c)
    (sound_body.sl.v678 m c)
    (sound_body.sl.v699 m c)
    (sound_body.sl.v720 m c)
    (sound_body.sl.v741 m c)
    (sound_body.sl.v762 m c)
    (View.readAt (Elt F) (Memref.whole cc0_scratch4).view (Rect.unit (s := S8x64x512) ![0, 0, 0] S1x64x512.size inb_S8x64x512_S1x64x512_0_0_0).toLoadRect (recvZC (slabs m) c))
    (View.readAt (Elt F) (Memref.whole cc0_scratch4).view (Rect.unit (s := S8x64x512) ![1, 0, 0] S1x64x512.size inb_S8x64x512_S1x64x512_1_0_0).toLoadRect (recvZC (slabs m) c))
    (View.readAt (Elt F) (Memref.whole cc0_scratch4).view (Rect.unit (s := S8x64x512) ![2, 0, 0] S1x64x512.size inb_S8x64x512_S1x64x512_2_0_0).toLoadRect (recvZC (slabs m) c))
    (View.readAt (Elt F) (Memref.whole cc0_scratch4).view (Rect.unit (s := S8x64x512) ![3, 0, 0] S1x64x512.size inb_S8x64x512_S1x64x512_3_0_0).toLoadRect (recvZC (slabs m) c))
    (View.readAt (Elt F) (Memref.whole cc0_scratch4).view (Rect.unit (s := S8x64x512) ![4, 0, 0] S1x64x512.size inb_S8x64x512_S1x64x512_4_0_0).toLoadRect (recvZC (slabs m) c))
    (View.readAt (Elt F) (Memref.whole cc0_scratch4).view (Rect.unit (s := S8x64x512) ![5, 0, 0] S1x64x512.size inb_S8x64x512_S1x64x512_5_0_0).toLoadRect (recvZC (slabs m) c))
    (View.readAt (Elt F) (Memref.whole cc0_scratch4).view (Rect.unit (s := S8x64x512) ![6, 0, 0] S1x64x512.size inb_S8x64x512_S1x64x512_6_0_0).toLoadRect (recvZC (slabs m) c))
    (View.readAt (Elt F) (Memref.whole cc0_scratch4).view (Rect.unit (s := S8x64x512) ![7, 0, 0] S1x64x512.size inb_S8x64x512_S1x64x512_7_0_0).toLoadRect (recvZC (slabs m) c))
    hf0 hf1 hf2 hf3 hf4 hf5 hf6 hf7
    (fun y => rx_ld_0 (F := F) (recvXC (slabs m) c) y)
    (fun y => rx_ld_1 (F := F) (recvXC (slabs m) c) y)
    (fun y => rx_ld_2 (F := F) (recvXC (slabs m) c) y)
    (fun y => rx_ld_3 (F := F) (recvXC (slabs m) c) y)
    (fun y => rx_ld_4 (F := F) (recvXC (slabs m) c) y)
    (fun y => rx_ld_5 (F := F) (recvXC (slabs m) c) y)
    (fun y => rx_ld_6 (F := F) (recvXC (slabs m) c) y)
    (fun y => rx_ld_7 (F := F) (recvXC (slabs m) c) y)
    ho0 ho1 ho2 ho3 ho4 ho5 ho6 ho7
    (fun y => rz_ld_0 (F := F) (recvZC (slabs m) c) y)
    (fun y => rz_ld_1 (F := F) (recvZC (slabs m) c) y)
    (fun y => rz_ld_2 (F := F) (recvZC (slabs m) c) y)
    (fun y => rz_ld_3 (F := F) (recvZC (slabs m) c) y)
    (fun y => rz_ld_4 (F := F) (recvZC (slabs m) c) y)
    (fun y => rz_ld_5 (F := F) (recvZC (slabs m) c) y)
    (fun y => rz_ld_6 (F := F) (recvZC (slabs m) c) y)
    (fun y => rz_ld_7 (F := F) (recvZC (slabs m) c) y)]

def bodyPre' (c : Dev nD) : sProp 𝕄 :=
  iprop(Φ₀ m c ∗ (dats m 0 c).owesAt () t₀.castSucc
    ∗ (∃ d, stg c cc0_stg0_0 ((dats m 0 c).before (0 : Fin 1) t₀ d)))

set_option maxRecDepth 65536 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ (bodyAt0 (F := F) t₀) (fun _ => bodyPost m c)
  unfold bodyPre' Φ₀ start
  iintro ⟨⟨⟨⟨%K, Hg⟩, Hcr, Hlev, Hsl, Hloc⟩, Hscr⟩, Ho, Hout⟩
  iapply (sound_body m K c fun _ => bodyPost m c)
  unfold bodyPre
  isplitr []
  · isplitl [Hg Hcr Hlev Hsl Hloc Hscr]
    · isplitl [Hg]; · iexact Hg
      isplitl [Hcr]; · iexact Hcr
      isplitl [Hlev]; · iexact Hlev
      isplitl [Hsl]; · iexact Hsl
      isplitl [Hloc]; · iexact Hloc
      iexact Hscr
    isplitl [Ho]; · iexact Ho
    iexact Hout
  · iintro H; iexact H

/-- info: 'Cert.Kernel.RS.body_obligation' depends on axioms: [propext, Classical.choice, Quot.sound] -/
#guard_msgs in #print axioms body_obligation

end Cert.Kernel.RS

end
-- ==== Proof.KRSRun.lean ====
/-
  The kernel's run on the whole mesh: every fair interleaving of the eight devices' threads ends, nothing faults,
  each device's result buffer holds its column half of the sum of the two slabs, and the inputs are untouched.
-/
import proofs.«901020_g7700000000001021_dist_rs_v7x_xyz2x2x2_x_m1024_n512_bf16_1_alg».proof.Proof.KRSFund
import proofs.«901020_g7700000000001021_dist_rs_v7x_xyz2x2x2_x_m1024_n512_bf16_1_alg».proof.Proof.KRSBody

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch credit -/

/-- Eight conjuncts, one by one. -/
theorem bigSep_fin8R (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The last summand of what the devices owe, every device owing it to the same semaphore of its peer under an
    involution of the mesh, is dealt to the peer's peer: the device itself. -/
theorem launchCred_snoc (A : Dev nD → CellTallies nD τ sig Unit) (sm : SemLoc sig) (f : Dev nD → Dev nD)
    (hf : ∀ d, f (f d) = d) (n : ℕ) (c : Dev nD) :
    (Pipeline.launchCred (fun d => A d + tallyAt (((f d : Dev nD) : Thread nD τ), sm) () n) c : sProp 𝕄)
      ⊢ iprop(Pipeline.launchCred A c ∗ cred (tallyAt ((c : Thread nD τ), sm) () n)) := by
  rw [Pipeline.launchCred_add]
  exact sep_mono_right (Pipeline.launchCred_tallyAt sm f f hf hf () n c)

/-- What the launch deals device `c` against what all devices owe: two units on its barrier cell (one from each
    peer), a chunk's credit on each of its x-receive cells (from the x-peer) and y-receive cells (from the y-peer). -/
theorem creds_intro (c : Dev nD) : (Pipeline.launchCred O₀ c : sProp 𝕄) ⊢ creds c := by
  unfold creds O₀
  rw [bigSep_fin8R, bigSep_fin8R, ← tallyAt_add (barCell c) () 1 1]
  iintro H
  ihave H := (launchCred_snoc _ (.reg barS) px px_px 1 c) $$ H
  icases H with ⟨H, Hbx⟩
  ihave H := (launchCred_snoc _ (.reg barS) py py_py 1 c) $$ H
  icases H with ⟨H, Hby⟩
  ihave H := (launchCred_snoc _ (.dma (qS 1 0).sem) px px_px N c) $$ H
  icases H with ⟨H, Hx0⟩
  ihave H := (launchCred_snoc _ (.dma (qS 1 1).sem) px px_px N c) $$ H
  icases H with ⟨H, Hx1⟩
  ihave H := (launchCred_snoc _ (.dma (qS 1 2).sem) px px_px N c) $$ H
  icases H with ⟨H, Hx2⟩
  ihave H := (launchCred_snoc _ (.dma (qS 1 3).sem) px px_px N c) $$ H
  icases H with ⟨H, Hx3⟩
  ihave H := (launchCred_snoc _ (.dma (qS 1 4).sem) px px_px N c) $$ H
  icases H with ⟨H, Hx4⟩
  ihave H := (launchCred_snoc _ (.dma (qS 1 5).sem) px px_px N c) $$ H
  icases H with ⟨H, Hx5⟩
  ihave H := (launchCred_snoc _ (.dma (qS 1 6).sem) px px_px N c) $$ H
  icases H with ⟨H, Hx6⟩
  ihave H := (launchCred_snoc _ (.dma (qS 1 7).sem) px px_px N c) $$ H
  icases H with ⟨H, Hx7⟩
  ihave H := (launchCred_snoc _ (.dma (qS 3 0).sem) py py_py N c) $$ H
  icases H with ⟨H, Hy0⟩
  ihave H := (launchCred_snoc _ (.dma (qS 3 1).sem) py py_py N c) $$ H
  icases H with ⟨H, Hy1⟩
  ihave H := (launchCred_snoc _ (.dma (qS 3 2).sem) py py_py N c) $$ H
  icases H with ⟨H, Hy2⟩
  ihave H := (launchCred_snoc _ (.dma (qS 3 3).sem) py py_py N c) $$ H
  icases H with ⟨H, Hy3⟩
  ihave H := (launchCred_snoc _ (.dma (qS 3 4).sem) py py_py N c) $$ H
  icases H with ⟨H, Hy4⟩
  ihave H := (launchCred_snoc _ (.dma (qS 3 5).sem) py py_py N c) $$ H
  icases H with ⟨H, Hy5⟩
  ihave H := (launchCred_snoc _ (.dma (qS 3 6).sem) py py_py N c) $$ H
  icases H with ⟨H, Hy6⟩
  ihave Hy7 := (Pipeline.launchCred_tallyAt (.dma (qS 3 7).sem) py py py_py py_py () N c) $$ H
  isplitl [Hbx Hby]
  · iapply (cred_add _ _).2
    isplitl [Hbx] <;> iassumption
  isplitl [Hx0 Hx1 Hx2 Hx3 Hx4 Hx5 Hx6 Hx7]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  · isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    iexact Hy7

/-! ## The theorem's side conditions -/

theorem share_eq (m : (ℓ : Loc nD τ sig) → Buf (Elt F) ℓ) (c : Dev nD) (w : Fin cfg0.W) : (dats m 0 c).share w = fullShare := by
  unfold Dat.share; split <;> rfl

/-- Tallies all of which sit on TensorCore cells at level one or above. -/
def Above (O : CellTallies nD τ sig Unit) : Prop :=
  ∀ (g : GSem nD τ sig) (u : Unit), 0 < O g u → g.1.2 = .tc ∧ 0 < lv g u

theorem Above.add {A B : CellTallies nD τ sig Unit} (hA : Above A) (hB : Above B) : Above (A + B) := fun g u h =>
  (Pipeline.add_pos_cases h).elim (hA g u) (hB g u)

theorem Above.single (g₀ : GSem nD τ sig) (n : ℕ) (h1 : g₀.1.2 = .tc) (h2 : 0 < lv g₀ ()) : Above (tallyAt g₀ () n) := fun g u h => by
  rw [tallyAt_apply] at h
  by_cases hg : g = g₀ ∧ u = ()
  · rw [hg.1]; exact ⟨h1, h2⟩
  · rw [if_neg hg] at h; exact absurd h (Nat.lt_irrefl 0)

/-- What a device owes at launch: barrier cells (level 1), x-receive cells (level 2), y-receive cells (level 3). -/
theorem above_O₀ (c : Dev nD) : Above (O₀ c) := by
  have hb (d : Dev nD) : Above (tallyAt (barCell d) () 1) := Above.single _ _ rfl (by rw [lv_bar]; decide)
  have hx (d : Dev nD) (k : Fin 8) : Above (tallyAt (qCell d 1 k) () N) := Above.single _ _ rfl (by rw [lv_q]; decide)
  have hy (d : Dev nD) (k : Fin 8) : Above (tallyAt (qCell d 3 k) () N) := Above.single _ _ rfl (by rw [lv_q]; decide)
  unfold O₀
  exact (((((((((((((((((hy _ _).add (hy _ _)).add (hy _ _)).add (hy _ _)).add (hy _ _)).add (hy _ _)).add (hy _ _)).add (hy _ _)).add
    (hx _ _)).add (hx _ _)).add (hx _ _)).add (hx _ _)).add (hx _ _)).add (hx _ _)).add (hx _ _)).add (hx _ _)).add (hb _)).add (hb _)

/-- The pipeline's one staging semaphore is none of the rounds' cells: it sits at level 0. -/
theorem lv_stage (c : Dev nD) (w : Fin cfg0.W) (s : Fin (cfg0.win w).nbuf) :
    lv ((c : Thread nD τ), .dma ((cfg0.win w).sem s)) () ≤ 0 := by
  fin_cases w; fin_cases s; revert c; decide

theorem waits (m : (ℓ : Loc nD τ sig) → Buf (Elt F) ℓ) (c : Dev nD) :
    (levAts L lv : sProp 𝕄) ⊢ Pipeline.cellsWaits cfgs (dats m) () 0 c :=
  Pipeline.cellsWaits_intro cfgs (dats m) () 0 c fun w s t => by
    rcases t with ⟨_ | _, ht⟩
    · exact mayWait_above c _ (O₀ c) 0 (lv_stage c w s) (above_O₀ c)
    · show _ ⊢ MayWait _ _ () 0
      rw [MayWait_zero]; iintro -; iempintro

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hsl, Hlev, Hcr, -, HG⟩
  ihave Hc := (creds_intro (F := F) c) $$ Hcr
  imodintro
  unfold start G' slabPts
  icases HG with ⟨Hg, Hloc⟩
  isplitl
  · isplitl [Hg]; · iexact Hg
    isplitl [Hc]; · iexact Hc
    isplitl [Hlev]; · iexact Hlev
    isplitl [Hsl]; · iexact Hsl
    iexact Hloc
  · iempintro

theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (m : (ℓ : Loc nD τ sig) → Buf (Elt F) ℓ) (c : Dev nD) :
    (dats m 0 c).Φ (Fin.last cfg0.N) ⊢ iprop(slabPts m c ∗ Pipeline.ownSems0 osem c ∗ Pipeline.scopedRest cfg0.spec c) := by
  rw [show (dats m 0 c).Φ (Fin.last cfg0.N) = Φ₁ m c from rfl, scopedRest0_eq]
  unfold Φ₁ scratch
  iintro ⟨Hsl, Hscr, Hloc, Hq⟩
  isplitl [Hsl]; · iexact Hsl
  isplitl [Hloc Hq]
  · iapply (ownSems0_join (F := F) c)
    isplitl [Hloc] <;> iassumption
  iexact Hscr

/-! ## The run -/

/-- The device's slab holds, at the end, what it held at launch. -/
def QY (m : (ℓ : Loc nD τ sig) → Buf (Elt F) ℓ) (c : Dev nD) (s : MemSt nD τ sig (Elt F)) : Prop :=
  s.mem ((c : Thread nD τ).loc main_arg0) = m ((c : Thread nD τ).loc main_arg0)

set_option maxRecDepth 8000 in
/-- At the compiled mesh of eight devices, for any float values, from any memory with zero counters: every weakly fair
    execution of @main terminates, and every final state has each device's result array at the contents the pipeline's
    data names after the one write-back, and its slab as launched. -/
theorem run_main (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (∀ w : Fin cfg0.W, r.2.mem ((cfg0.win w).arr.view.loc (c : Thread nD τ)) = (dats m 0 c).arrAt w cfg0.N)
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_u₀ m)
    (hglob := glob m)
    (hA := fun _ _ => rfl) (hpf := fun _ k => k.elim0)
    (X := start m) (Y := slabPts m) (Z := fun _ => iprop(emp))
    (hX := start_intro m ρ) (hin := phi0_intro m) (hout := phi1_exit m)
    (QY := QY m)
    (hY := fun c s' => by
      unfold slabPts QY
      iintro ⟨Hx, -, HSI⟩
      icombine HSI Hx gives %hx
      imodintro
      isplitr; · ipureintro; exact Buf.eq_of_forall_mem_univ hx
      iexact HSI)
    (hQ := fun s h c => ⟨(h c).1, (h c).2.2⟩)

/-! ## The result array after the run -/

/-- The one window's block is the whole result array, written back after the one point: the array holds what the
    body left in the staging buffer. -/
theorem final_out (m : (ℓ : Loc nD τ sig) → Buf (Elt F) ℓ) (c : Dev nD) :
    (dats m 0 c).arrAt (0 : Fin 1) cfg0.N = outC (slabs m) c := by
  rw [show cfg0.N = (t₀ : Fin cfg0.N).val + 1 from rfl, (dats m 0 c).arrAt_succ (0 : Fin 1) t₀, if_pos (flush0_0 t₀)]
  have hz : (fun a => (win0_0.index t₀) a * main_v1.ty.shape.size a) = fun _ => 0 := funext fun a => by fin_cases a <;> decide
  rw [Memref.write_access_unit_zero_univ (Elt F) main_v1 hz]
  rfl

theorem kernel_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = outC (slabs m) c
      ∧ r.2.mem ((c.tc : Thread nD τ).loc main_arg0) = m ((c.tc : Thread nD τ).loc main_arg0)) := by
  exact (θ_run defs _ _).mono (fun _ h c => ⟨((h c).1 (0 : Fin 1)).trans (final_out m c), (h c).2⟩) (run_main m ρ)

/-- info: 'Cert.Kernel.RS.kernel_run' depends on axioms: [propext, Classical.choice, Quot.sound] -/
#guard_msgs in #print axioms kernel_run

end Cert.Kernel.RS

end
-- ==== Proof.RSRef.lean ====
/-
  The reference side: one device sums the two slabs of the whole input, entry by entry.
-/
import proofs.«901020_g7700000000001021_dist_rs_v7x_xyz2x2x2_x_m1024_n512_bf16_1_alg».proof.Defs
import proofs.«901020_g7700000000001021_dist_rs_v7x_xyz2x2x2_x_m1024_n512_bf16_1_alg».proof.Proof.Gen.ReferenceIdeal
import proofs.«901020_g7700000000001021_dist_rs_v7x_xyz2x2x2_x_m1024_n512_bf16_1_alg».proof.Proof.Gen.ReferenceIdeal.Run
import proofs.«901020_g7700000000001021_dist_rs_v7x_xyz2x2x2_x_m1024_n512_bf16_1_alg».proof.Proof.Gen.ReferenceIdeal.Read
import proofs.«901020_g7700000000001021_dist_rs_v7x_xyz2x2x2_x_m1024_n512_bf16_1_alg».proof.Proof.RSContents
import Idealize.ShloMosaic.Lib.Layout
import Idealize.ShloMosaic.Lib.ValueIdx
import Idealize.ShloMosaic.PureOps.Ideal.Laws

noncomputable section

namespace Cert.KernelIdeal.RS

open Cert.KernelIdeal Cert.KernelIdeal.Gen
open Idealize.ShloMosaic Idealize.ShloMosaic.ValueIdx

/-! ## Where the devices' blocks lie in the whole arrays -/

/-- Along the cut dimension of the input (dimension 0, cut by the mesh's `x` axis) device `d` holds block `x`. -/
theorem meshBlock_in_val (d : Dev nD) :
    ((Layout.meshBlock [2, 2, 2] ![[0], [], []] d) 0).val = cx d := by revert d; decide

/-- Along the cut dimension of the result (dimension 1, cut by the mesh's `x` axis) device `d` holds block `x`. -/
theorem meshBlock_out_val (d : Dev nD) :
    ((Layout.meshBlock [2, 2, 2] ![[], [0]] d) 1).val = cx d := by revert d; decide

/-- Entry `(r, q)` of device `d`'s slab is entry `(x, r, q)` of the whole input. -/
theorem slabAt_block (A : (⟨⟨3, ![2, 1024, 1024]⟩, .f32⟩ : BufTy).Contents (Elt Ideal)) (d : Dev nD) (r q : ℕ)
    (hr : r < 1024) (hq : q < 1024) :
    slabAt (F := Ideal) (Layout.blockN ⟨3, ![1, 1024, 1024]⟩ ⟨3, ![2, 1024, 1024]⟩ (Layout.meshBlock [2, 2, 2] ![[0], [], []] d) A) r q
      = A (ix3 (⟨cx d, cx_lt d⟩ : Fin 2) (⟨r, hr⟩ : Fin 1024) (⟨q, hq⟩ : Fin 1024)) := by
  unfold slabAt
  rw [Layout.blockN_apply]
  congr 1
  funext a
  refine Fin.ext ?_
  rw [Layout.TilesN.idx_val]
  match a with
  | ⟨0, _⟩ =>
    show ((Layout.meshBlock [2, 2, 2] ![[0], [], []] d) 0).val * 1 + 0 = cx d
    rw [meshBlock_in_val]; omega
  | ⟨1, _⟩ =>
    show 0 * 1024 + r % 1024 = r
    omega
  | ⟨2, _⟩ =>
    show 0 * 1024 + q % 1024 = q
    omega

/-- The second summand's slab is the one with the other `x`. -/
theorem cx_srcDev (c : Dev nD) (r : ℕ) : cx (srcDev c r) = 1 - cx c := by
  unfold srcDev
  split
  · exact cx_px c
  · rw [cx_px, cx_py]

/-- Entry `(r, q)` of device `c`'s block of the result is entry `(r, 512·x + q)` of the whole result, to which the
    reference's sum brings entries `(k, r, 512·x + q)`, `k = 0, 1`, of the whole input. -/
theorem ref_idx (h : Layout.TilesN ⟨2, ![1024, 512]⟩ ⟨2, ![1024, 1024]⟩ (fun b => Layout.cutSize [2, 2, 2] ((![[], [0]] : Fin 2 → List ℕ) b)))
    (hm : ∀ b : Fin 2, ∀ a ∈ (![[], [0]] : Fin 2 → List ℕ) b, 0 < ([2, 2, 2] : List ℕ).getD a 0)
    (c : Dev nD) (i : (⟨2, ![1024, 512]⟩ : Shape).Idx) (k : Fin 2) (h0 : (i 0).val < 1024) (h1 : 512 * cx c + (i 1).val < 1024) :
    Cert.ReferenceIdeal.Read.idx_main_v0 (h.idx (Layout.meshBlock [2, 2, 2] ![[], [0]] c hm) i) k
      = ix3 k (⟨(i 0).val, h0⟩ : Fin 1024) (⟨512 * cx c + (i 1).val, h1⟩ : Fin 1024) := by
  funext a
  refine Fin.ext ?_
  match a with
  | ⟨0, _⟩ => rfl
  | ⟨1, _⟩ =>
    show 0 * 1024 + (i 0).val = (i 0).val
    omega
  | ⟨2, _⟩ =>
    show ((Layout.meshBlock [2, 2, 2] ![[], [0]] c hm) 1).val * 512 + (i 1).val = 512 * cx c + (i 1).val
    rw [meshBlock_out_val]; omega

/-- Zero plus the two slabs' entries, in the order of the slabs, is the own entry plus the other's. -/
theorem zero_add_pair (f : Fin 2 → EReal) (x : ℕ) (hx : x < 2) (hx' : 1 - x < 2) :
    (0 : EReal) + (f 0 + f 1) = f ⟨x, hx⟩ + f ⟨1 - x, hx'⟩ := by
  rw [zero_add]
  obtain rfl | rfl : x = 0 ∨ x = 1 := by omega
  · rfl
  · exact add_comm (G := EReal) _ _

/-- Device `c`'s block of the reference's result (columns `512·x … 512·x + 511` of `0 + slab 0 + slab 1`) is the
    kernel's result block stated over the devices' slabs: at the ideal instance the format changes are the identity, so
    entry `(r, q)` of either is the sum of the two slabs' entries at `(r, 512·x + q)`, the own slab's first on the
    kernel's side; `0 + (a + b) = a + b` and the sum of two extended reals commutes. -/
theorem ref_block (A : (⟨⟨3, ![2, 1024, 1024]⟩, .f32⟩ : BufTy).Contents (Elt Ideal)) (c : Dev nD) :
    Layout.blockN ⟨2, ![1024, 512]⟩ ⟨2, ![1024, 1024]⟩ (Layout.meshBlock [2, 2, 2] ![[], [0]] c) (Cert.ReferenceIdeal.Read.val_main_v1 (F := Ideal) A)
      = outC (F := Ideal) (fun d => Layout.blockN ⟨3, ![1, 1024, 1024]⟩ ⟨3, ![2, 1024, 1024]⟩ (Layout.meshBlock [2, 2, 2] ![[0], [], []] d) A) c := by
  funext i
  have hr : (i 0).val < 1024 := idx2_lt0 i
  have hq : (i 1).val < 512 := idx2_lt1 i
  have hx : cx c < 2 := cx_lt c
  have hq' : 512 * cx c + (i 1).val < 1024 := by omega
  rw [Layout.blockN_apply, Cert.ReferenceIdeal.Read.val_main_v1_apply, Cert.ReferenceIdeal.Read.val_main_v0_apply, Fin.sum_univ_two]
  unfold outC
  rw [slabAt_block A c _ _ hr hq', slabAt_block A (srcDev c _) _ _ hr hq']
  rw [ref_idx _ _ c i 0 hr hq', ref_idx _ _ c i 1 hr hq']
  have hs : (⟨cx (srcDev c (i 0).val), cx_lt _⟩ : Fin 2) = ⟨1 - cx c, by omega⟩ := Fin.ext (cx_srcDev c _)
  have hz : (FloatOps.ofBits (F := Ideal) .f32 0x00000000#32) = (0 : EReal) := Ideal.ofBits_zero_f32
  rw [hs, Cert.ReferenceIdeal.Read.val_main_cst_apply, hz]
  exact zero_add_pair (fun k => A (ix3 k (⟨(i 0).val, hr⟩ : Fin 1024) (⟨512 * cx c + (i 1).val, hq'⟩ : Fin 1024))) (cx c) hx _

/-- info: 'Cert.KernelIdeal.RS.ref_block' depends on axioms: [propext, Classical.choice, Quot.sound] -/
#guard_msgs in #print axioms ref_block

end Cert.KernelIdeal.RS

end
-- ==== Proof.lean ====
/-
  The certificate's claim. The kernel (eight devices, each holding one of the two slabs of the input) and the reference
  (one device, the whole input) both run and leave their inputs as they were; over the extended reals, where the format
  changes are the identity, each device ends with columns `512·x … 512·x + 511` of `0 + slab 0 + slab 1`: its own slab's
  entries plus the other slab's, and the sum of two extended reals commutes.
-/
import proofs.«901020_g7700000000001021_dist_rs_v7x_xyz2x2x2_x_m1024_n512_bf16_1_alg».proof.Defs
import proofs.«901020_g7700000000001021_dist_rs_v7x_xyz2x2x2_x_m1024_n512_bf16_1_alg».proof.Proof.Gen.Kernel
import proofs.«901020_g7700000000001021_dist_rs_v7x_xyz2x2x2_x_m1024_n512_bf16_1_alg».proof.Proof.Gen.KernelIdeal
import proofs.«901020_g7700000000001021_dist_rs_v7x_xyz2x2x2_x_m1024_n512_bf16_1_alg».proof.Proof.Gen.ReferenceIdeal
import proofs.«901020_g7700000000001021_dist_rs_v7x_xyz2x2x2_x_m1024_n512_bf16_1_alg».proof.Proof.Gen.Pre_finite_inputs_Kernel
import proofs.«901020_g7700000000001021_dist_rs_v7x_xyz2x2x2_x_m1024_n512_bf16_1_alg».proof.Proof.Gen.Pre_finite_inputs_ReferenceIdeal
import proofs.«901020_g7700000000001021_dist_rs_v7x_xyz2x2x2_x_m1024_n512_bf16_1_alg».proof.Proof.RSRun
import proofs.«901020_g7700000000001021_dist_rs_v7x_xyz2x2x2_x_m1024_n512_bf16_1_alg».proof.Proof.KRSRun
import proofs.«901020_g7700000000001021_dist_rs_v7x_xyz2x2x2_x_m1024_n512_bf16_1_alg».proof.Proof.RSRef
import Idealize.ShloMosaic.Adequacy
import Idealize.ShloMosaic.Init

noncomputable section

namespace Cert.Proof

open Idealize.ShloMosaic Idealize.SL.Sem

/-- The word-level kernel runs and leaves every device's slab as it was: its run with the result's value dropped. -/
theorem frame_k : Cert.frame_Kernel := fun m ρ _ =>
  (θ_run (Cert.Kernel.defs (F := Bits)) _ _).mono (fun _ h c => (h c).2) (Cert.Kernel.RS.kernel_run (F := Bits) m ρ)

/-- The same of the kernel read over the extended reals. -/
theorem frame_ki : Cert.frame_KernelIdeal := fun m ρ _ =>
  (θ_run (Cert.KernelIdeal.defs (F := Ideal)) _ _).mono (fun _ h c => (h c).2) (Cert.KernelIdeal.RS.kernel_run (F := Ideal) m ρ)

/-- The reference runs and leaves the whole input as it was: its run with the result's value dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- No operation was rewritten between the kernel and its reading over the extended reals. -/
theorem preserves : Cert.preserves_Kernel_KernelIdeal := trivial

/-- Over the extended reals, from devices that each hold their slab of the reference's input: the reference ends with
    `0 + slab 0 + slab 1`, and each device ends with its own slab plus the other, at its columns, which is its block of
    that sum (`ref_block`). -/
theorem algebraic : Cert.algebraic_KernelIdeal_ReferenceIdeal := by
  intro m g m' g' _ hblk
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨(h c).1.trans ?_, (h c).2⟩)
      (Cert.KernelIdeal.RS.kernel_run (F := Ideal) m g)
    have hs : Cert.KernelIdeal.RS.slabs m = fun d : Dev Cert.KernelIdeal.nD =>
        Layout.blockN ⟨3, ![1, 1024, 1024]⟩ ⟨3, ![2, 1024, 1024]⟩ (Layout.meshBlock [2, 2, 2] ![[0], [], []] d)
          (m' (((0 : Dev Cert.ReferenceIdeal.nD).tc : Thread Cert.ReferenceIdeal.nD Cert.ReferenceIdeal.τ).loc Cert.ReferenceIdeal.main_arg0)) :=
      funext hblk
    rw [hs]
    exact (Cert.KernelIdeal.RS.ref_block _ c).symm
  · exact (θ_run (Cert.ReferenceIdeal.defs (F := Ideal)) _ _).mono
      (fun _ h => ⟨(h 0).1.trans (Cert.ReferenceIdeal.Read.val_main_v1_eq _), (h 0).2⟩)
      (Cert.ReferenceIdeal.Value.run (F := Ideal) m' g')

/-- The five claims, under witnesses of the side conditions the programs and the precondition state. -/
theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

/-- info: 'Cert.Proof.claim' depends on axioms: [propext, Classical.choice, Quot.sound] -/
#guard_msgs in #print axioms claim

end Cert.Proof

end
